-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![48, 48, 48]⟩ ⟨3, ![96, 96, 96]⟩ (Layout.meshBlock [2, 2, 2] ![[0], [1], [2]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![48, 48, 48]⟩ ⟨3, ![96, 96, 96]⟩ (Layout.meshBlock [2, 2, 2] ![[0], [1], [2]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v20) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S48x48x48 : Shape := ⟨3, ![48, 48, 48]⟩
abbrev S_ : Shape := ⟨0, ![]⟩

class Facts : Prop where
  bcast_S_S48x48x48 : S_.BroadcastsInDim S48x48x48 (![] : Fin 0 → Fin S48x48x48.rank)
  reducesTo_S48x48x48_S_d0_1_2 : S48x48x48.ReducesTo [0, 1, 2] S_
  h_S_ : 0 < S_.numel

variable [Facts]

def fn {F : FTy → Type} [FloatOps F] (main_arg0 : FVec F S48x48x48 .f32) : IVec S_ 1 :=
  let main_v0 : FVec F S48x48x48 .f32 := Host.absf main_arg0
  let main_cst : FVec F S_ .f32 := constant S_ .f32 0x7F800000#32
  let main_v1 : FVec F S48x48x48 .f32 := broadcastInDim S48x48x48 ![] bcast_S_S48x48x48 main_cst
  let main_v2 : IVec S48x48x48 1 := cmpf .olt main_v0 main_v1
  let main_c : IVec S_ 1 := constantI S_ 1 1#1
  let main_v3 : IVec S_ 1 := (fun x v => Host.reduce IntOp.andi x v reducesTo_S48x48x48_S_d0_1_2 h_S_) main_v2 main_c
  main_v3
-- ==== Pre_finite_inputs_ReferenceIdeal.lean ====
abbrev S96x96x96 : Shape := ⟨3, ![96, 96, 96]⟩
abbrev S_ : Shape := ⟨0, ![]⟩

class Facts : Prop where
  bcast_S_S96x96x96 : S_.BroadcastsInDim S96x96x96 (![] : Fin 0 → Fin S96x96x96.rank)
  reducesTo_S96x96x96_S_d0_1_2 : S96x96x96.ReducesTo [0, 1, 2] S_
  h_S_ : 0 < S_.numel

variable [Facts]

def fn {F : FTy → Type} [FloatOps F] (main_arg0 : FVec F S96x96x96 .f32) : IVec S_ 1 :=
  let main_v0 : FVec F S96x96x96 .f32 := Host.absf main_arg0
  let main_cst : FVec F S_ .f32 := constant S_ .f32 0x7F800000#32
  let main_v1 : FVec F S96x96x96 .f32 := broadcastInDim S96x96x96 ![] bcast_S_S96x96x96 main_cst
  let main_v2 : IVec S96x96x96 1 := cmpf .olt main_v0 main_v1
  let main_c : IVec S_ 1 := constantI S_ 1 1#1
  let main_v3 : IVec S_ 1 := (fun x v => Host.reduce IntOp.andi x v reducesTo_S96x96x96_S_d0_1_2 h_S_) main_v2 main_c
  main_v3
-- ==== Kernel.lean ====
abbrev S48x48x48 : Shape := ⟨3, ![48, 48, 48]⟩
abbrev S48x48 : Shape := ⟨2, ![48, 48]⟩
abbrev S1x48x48 : Shape := ⟨3, ![1, 48, 48]⟩
abbrev S3 : Shape := ⟨1, ![3]⟩
abbrev S_ : Shape := ⟨0, ![]⟩
abbrev S48x1x48 : Shape := ⟨3, ![48, 1, 48]⟩
abbrev S48x48x1 : Shape := ⟨3, ![48, 48, 1]⟩
abbrev S1 : Shape := ⟨1, ![1]⟩
abbrev S47x48x48 : Shape := ⟨3, ![47, 48, 48]⟩
abbrev S48x47x48 : Shape := ⟨3, ![48, 47, 48]⟩
abbrev S48x48x47 : Shape := ⟨3, ![48, 48, 47]⟩

abbrev nBuf : Space → Nat
  | .hbm => 2
  | .vmem => 7
  | .smem => 0
  | _ => 0

abbrev bufTy : (tb : Table) → Fin (tcTables nBuf tb) → BufTy
  | .hbm, ⟨0, _⟩ => ⟨S48x48x48, .f32⟩
  | .hbm, ⟨1, _⟩ => ⟨S48x48x48, .f32⟩
  | .local _ .vmem, ⟨0, _⟩ => ⟨S48x48x48, .f32⟩
  | .local _ .vmem, ⟨1, _⟩ => ⟨S48x48x48, .f32⟩
  | .local _ .vmem, ⟨2, _⟩ => ⟨S48x48, .f32⟩
  | .local _ .vmem, ⟨3, _⟩ => ⟨S48x48, .f32⟩
  | .local _ .vmem, ⟨4, _⟩ => ⟨S1x48x48, .f32⟩
  | .local _ .vmem, ⟨5, _⟩ => ⟨S48x48, .f32⟩
  | .local _ .vmem, ⟨6, _⟩ => ⟨S48x48, .f32⟩
  | _, _ => ⟨S48x48x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_7 : BitVec 32 := 4#32
  let v13 : BitVec 32 := Scalar.muli v9 c4_i32_7
  let v14 : BitVec 32 := Scalar.addi c0_i32 v13
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_8 : BitVec 32 := 2#32
  let v15 : BitVec 32 := Scalar.muli v5 c2_i32_8
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_9 : BitVec 32 := 1#32
  let v17 : BitVec 32 := Scalar.muli v8 c1_i32_9
  let v18 : BitVec 32 := Scalar.addi v16 v17
  v18.toNat
def k0_dev2 (d0 : Dev nD) : Nat :=
  let c0_i32_12 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_11 : BitVec 32 := 4#32
  let v19 : BitVec 32 := Scalar.muli v2 c4_i32_11
  let v20 : BitVec 32 := Scalar.addi c0_i32_12 v19
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_13 : BitVec 32 := 2#32
  let v21 : BitVec 32 := Scalar.muli v10 c2_i32_13
  let v22 : BitVec 32 := Scalar.addi v20 v21
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_14 : BitVec 32 := 1#32
  let v23 : BitVec 32 := Scalar.muli v8 c1_i32_14
  let v24 : BitVec 32 := Scalar.addi v22 v23
  v24.toNat
def k0_dev3 (d0 : Dev nD) : Nat :=
  let c0_i32_17 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_16 : BitVec 32 := 4#32
  let v25 : BitVec 32 := Scalar.muli v2 c4_i32_16
  let v26 : BitVec 32 := Scalar.addi c0_i32_17 v25
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_18 : BitVec 32 := 2#32
  let v27 : BitVec 32 := Scalar.muli v5 c2_i32_18
  let v28 : BitVec 32 := Scalar.addi v26 v27
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_19 : BitVec 32 := 1#32
  let v29 : BitVec 32 := Scalar.muli v11 c1_i32_19
  let v30 : BitVec 32 := Scalar.addi v28 v29
  v30.toNat
def k0_off1 (d0 : Dev nD) : Fin 3 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_22 : BitVec 32 := 0#32
  let v33 : BitVec 1 := Scalar.cmpi .eq v2 c0_i32_22
  let c47_i32 : BitVec 32 := 47#32
  let c0_i32_23 : BitVec 32 := 0#32
  let v34 : BitVec 32 := Scalar.select v33 c47_i32 c0_i32_23
  let c0_i32_38 : BitVec 32 := 0#32
  let c0_i32_39 : BitVec 32 := 0#32
  ![v34.toNat, 0, 0]
def k0_dev4 (d0 : Dev nD) : Nat :=
  let c0_i32_35 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_34 : BitVec 32 := 4#32
  let v47 : BitVec 32 := Scalar.muli v9 c4_i32_34
  let v48 : BitVec 32 := Scalar.addi c0_i32_35 v47
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_36 : BitVec 32 := 2#32
  let v49 : BitVec 32 := Scalar.muli v5 c2_i32_36
  let v50 : BitVec 32 := Scalar.addi v48 v49
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_37 : BitVec 32 := 1#32
  let v51 : BitVec 32 := Scalar.muli v8 c1_i32_37
  let v52 : BitVec 32 := Scalar.addi v50 v51
  v52.toNat
def k0_dev5 (d0 : Dev nD) : Nat :=
  let c0_i32_43 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_42 : BitVec 32 := 4#32
  let v58 : BitVec 32 := Scalar.muli v2 c4_i32_42
  let v59 : BitVec 32 := Scalar.addi c0_i32_43 v58
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_44 : BitVec 32 := 2#32
  let v60 : BitVec 32 := Scalar.muli v10 c2_i32_44
  let v61 : BitVec 32 := Scalar.addi v59 v60
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_45 : BitVec 32 := 1#32
  let v62 : BitVec 32 := Scalar.muli v8 c1_i32_45
  let v63 : BitVec 32 := Scalar.addi v61 v62
  v63.toNat
def k0_dev6 (d0 : Dev nD) : Nat :=
  let c0_i32_49 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_48 : BitVec 32 := 4#32
  let v68 : BitVec 32 := Scalar.muli v2 c4_i32_48
  let v69 : BitVec 32 := Scalar.addi c0_i32_49 v68
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_50 : BitVec 32 := 2#32
  let v70 : BitVec 32 := Scalar.muli v5 c2_i32_50
  let v71 : BitVec 32 := Scalar.addi v69 v70
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_51 : BitVec 32 := 1#32
  let v72 : BitVec 32 := Scalar.muli v11 c1_i32_51
  let v73 : BitVec 32 := Scalar.addi v71 v72
  v73.toNat
abbrev stage0_0 : Fin 1 → Memref sig .tc .vmem S48x48x48 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S48x48x48 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S48x48x48_S48x48x48_0_0_0 : ∀ a, (![0, 0, 0] : Fin 3 → Nat) a + S48x48x48.size a ≤ S48x48x48.size a
  h_S48x48x48 : 0 < S48x48x48.numel
  shapeCasts_S48x48x48_S48x48x48 : S48x48x48.ShapeCasts S48x48x48
  slices_S48x48x48_o0_47_0_S48x1x48 : S48x48x48.Slices ![0, 47, 0] S48x1x48
  shapeCasts_S48x1x48_S48x48 : S48x1x48.ShapeCasts S48x48
  inb_S48x48_S48x48_0_0 : ∀ a, (![0, 0] : Fin 2 → Nat) a + S48x48.size a ≤ S48x48.size a
  h_S48x48 : 0 < S48x48.numel
  shapeCasts_S48x48_S48x48 : S48x48.ShapeCasts S48x48
  slices_S48x48x48_o0_0_0_S48x1x48 : S48x48x48.Slices ![0, 0, 0] S48x1x48
  slices_S48x48x48_o0_0_47_S48x48x1 : S48x48x48.Slices ![0, 0, 47] S48x48x1
  shapeCasts_S48x48x1_S48x48 : S48x48x1.ShapeCasts S48x48
  slices_S48x48x48_o0_0_0_S48x48x1 : S48x48x48.Slices ![0, 0, 0] S48x48x1
  hamt_3 : (3#32 : BitVec 32).msb = false
  inb_S3_S1_0 : ∀ a, (![0] : Fin 1 → Nat) a + S1.size a ≤ S3.size a
  squeezes_S1_S_ : S1.Squeezes S_
  inb_S3_S1_1 : ∀ a, (![1] : Fin 1 → Nat) a + S1.size a ≤ S3.size a
  inb_S3_S1_2 : ∀ a, (![2] : Fin 1 → Nat) a + S1.size a ≤ S3.size a
  slices_S48x48x48_o0_0_0_S47x48x48 : S48x48x48.Slices ![0, 0, 0] S47x48x48
  concatenates_S1x48x48_S47x48x48_S48x48x48_d0 : Shape.Concatenates [S1x48x48, S47x48x48] S48x48x48 0
  slices_S48x48x48_o1_0_0_S47x48x48 : S48x48x48.Slices ![1, 0, 0] S47x48x48
  concatenates_S47x48x48_S1x48x48_S48x48x48_d0 : Shape.Concatenates [S47x48x48, S1x48x48] S48x48x48 0
  slices_S48x48x48_o0_0_0_S48x47x48 : S48x48x48.Slices ![0, 0, 0] S48x47x48
  concatenates_S48x1x48_S48x47x48_S48x48x48_d1 : Shape.Concatenates [S48x1x48, S48x47x48] S48x48x48 1
  slices_S48x48x48_o0_1_0_S48x47x48 : S48x48x48.Slices ![0, 1, 0] S48x47x48
  concatenates_S48x47x48_S48x1x48_S48x48x48_d1 : Shape.Concatenates [S48x47x48, S48x1x48] S48x48x48 1
  slices_S48x48x48_o0_0_0_S48x48x47 : S48x48x48.Slices ![0, 0, 0] S48x48x47
  concatenates_S48x48x1_S48x48x47_S48x48x48_d2 : Shape.Concatenates [S48x48x1, S48x48x47] S48x48x48 2
  slices_S48x48x48_o0_0_1_S48x48x47 : S48x48x48.Slices ![0, 0, 1] S48x48x47
  concatenates_S48x48x47_S48x48x1_S48x48x48_d2 : Shape.Concatenates [S48x48x47, S48x48x1] S48x48x48 2
  inb_S48x48x48_S1x48x48_47_0_0 : ∀ a, (![47, 0, 0] : Fin 3 → Nat) a + S1x48x48.size a ≤ S48x48x48.size a
  h_S1x48x48 : 0 < S1x48x48.numel
  shapeCasts_S1x48x48_S1x48x48 : S1x48x48.ShapeCasts S1x48x48
  inb_S1x48x48_S1x48x48_0_0_0 : ∀ a, (![0, 0, 0] : Fin 3 → Nat) a + S1x48x48.size a ≤ S1x48x48.size a
  inb_S48x48x48_S1x48x48_0_0_0 : ∀ a, (![0, 0, 0] : Fin 3 → Nat) a + S1x48x48.size a ≤ S48x48x48.size a
  inb_S48x48x48_S48x1x48_0_47_0 : ∀ a, (![0, 47, 0] : Fin 3 → Nat) a + S48x1x48.size a ≤ S48x48x48.size a
  h_S48x1x48 : 0 < S48x1x48.numel
  shapeCasts_S48x1x48_S48x1x48 : S48x1x48.ShapeCasts S48x1x48
  shapeCasts_S48x48_S48x1x48 : S48x48.ShapeCasts S48x1x48
  inb_S48x48x48_S48x1x48_0_0_0 : ∀ a, (![0, 0, 0] : Fin 3 → Nat) a + S48x1x48.size a ≤ S48x48x48.size a
  inb_S48x48x48_S48x48x1_0_0_47 : ∀ a, (![0, 0, 47] : Fin 3 → Nat) a + S48x48x1.size a ≤ S48x48x48.size a
  h_S48x48x1 : 0 < S48x48x1.numel
  shapeCasts_S48x48x1_S48x48x1 : S48x48x1.ShapeCasts S48x48x1
  shapeCasts_S48x48_S48x48x1 : S48x48.ShapeCasts S48x48x1
  inb_S48x48x48_S48x48x1_0_0_0 : ∀ a, (![0, 0, 0] : Fin 3 → Nat) a + S48x48x1.size a ≤ S48x48x48.size a
  hcc0_scratch5 : 2 + S3.numel ≤ 8
  hcc0_scratch6 : 5 + S3.numel ≤ 8
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_off1_inb : ∀ d0 : Dev nD, ∀ a, (k0_off1 d0) a + S1x48x48.size a ≤ S48x48x48.size a
  k0_dev4_lt : ∀ d0 : Dev nD, (k0_dev4 d0) < nD
  k0_dev5_lt : ∀ d0 : Dev nD, (k0_dev5 d0) < nD
  k0_dev6_lt : ∀ d0 : Dev nD, (k0_dev6 d0) < nD
  hstage0_0 : ∀ j, (stage0_0 j).IsWhole
  hstage0_1 : ∀ j, (stage0_1 j).IsWhole

variable [Facts₀]

abbrev cc0_scratch5 : DmaSems sig S3 := SemArray.consecutive 2 S3 hcc0_scratch5
abbrev cc0_scratch6 : DmaSems sig S3 := SemArray.consecutive 5 S3 hcc0_scratch6

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S96x96x96 : Shape := ⟨3, ![96, 96, 96]⟩
abbrev S_ : Shape := ⟨0, ![]⟩
abbrev S94x94x94 : Shape := ⟨3, ![94, 94, 94]⟩
abbrev S1 : Shape := ⟨1, ![1]⟩
abbrev S3 : Shape := ⟨1, ![3]⟩

abbrev nBuf : Space → Nat
  | .hbm => 27
  | .vmem => 0
  | .smem => 0
  | _ => 0

abbrev bufTy : (tb : Table) → Fin (tcTables nBuf tb) → BufTy
  | .hbm, ⟨0, _⟩ => ⟨S96x96x96, .f32⟩
  | .hbm, ⟨1, _⟩ => ⟨S_, .f32⟩
  | .hbm, ⟨2, _⟩ => ⟨S96x96x96, .f32⟩
  | .hbm, ⟨3, _⟩ => ⟨S94x94x94, .f32⟩
  | .hbm, ⟨4, _⟩ => ⟨S94x94x94, .f32⟩
  | .hbm, ⟨5, _⟩ => ⟨S94x94x94, .f32⟩
  | .hbm, ⟨6, _⟩ => ⟨S94x94x94, .f32⟩
  | .hbm, ⟨7, _⟩ => ⟨S94x94x94, .f32⟩
  | .hbm, ⟨8, _⟩ => ⟨S94x94x94, .f32⟩
  | .hbm, ⟨9, _⟩ => ⟨S94x94x94, .f32⟩
  | .hbm, ⟨10, _⟩ => ⟨S94x94x94, .f32⟩
  | .hbm, ⟨11, _⟩ => ⟨S94x94x94, .f32⟩
  | .hbm, ⟨12, _⟩ => ⟨S94x94x94, .f32⟩
  | .hbm, ⟨13, _⟩ => ⟨S94x94x94, .f32⟩
  | .hbm, ⟨14, _⟩ => ⟨S94x94x94, .f32⟩
  | .hbm, ⟨15, _⟩ => ⟨S_, .f32⟩
  | .hbm, ⟨16, _⟩ => ⟨S94x94x94, .f32⟩
  | .hbm, ⟨17, _⟩ => ⟨S94x94x94, .f32⟩
  | .hbm, ⟨18, _⟩ => ⟨S94x94x94, .f32⟩
  | .hbm, ⟨19, _⟩ => ⟨S_, .i32⟩
  | .hbm, ⟨20, _⟩ => ⟨S1, .i32⟩
  | .hbm, ⟨21, _⟩ => ⟨S_, .i32⟩
  | .hbm, ⟨22, _⟩ => ⟨S1, .i32⟩
  | .hbm, ⟨23, _⟩ => ⟨S_, .i32⟩
  | .hbm, ⟨24, _⟩ => ⟨S1, .i32⟩
  | .hbm, ⟨25, _⟩ => ⟨S3, .i32⟩
  | .hbm, ⟨26, _⟩ => ⟨S96x96x96, .f32⟩
  | _, _ => ⟨S96x96x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst_0 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_c : Ref sig .tc := ⟨.hbm, 19, rfl⟩
abbrev main_v16 : Ref sig .tc := ⟨.hbm, 20, rfl⟩
abbrev main_c_1 : Ref sig .tc := ⟨.hbm, 21, rfl⟩
abbrev main_v17 : Ref sig .tc := ⟨.hbm, 22, rfl⟩
abbrev main_c_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]

class Facts₀ : Prop where
  bcast_S_S96x96x96 : S_.BroadcastsInDim S96x96x96 (![] : Fin 0 → Fin S96x96x96.rank)
  slices_S96x96x96_S94x94x94_0_1_1 : S96x96x96.Slices ![0, 1, 1] S94x94x94
  slices_S96x96x96_S94x94x94_2_1_1 : S96x96x96.Slices ![2, 1, 1] S94x94x94
  slices_S96x96x96_S94x94x94_1_0_1 : S96x96x96.Slices ![1, 0, 1] S94x94x94
  slices_S96x96x96_S94x94x94_1_2_1 : S96x96x96.Slices ![1, 2, 1] S94x94x94
  slices_S96x96x96_S94x94x94_1_1_0 : S96x96x96.Slices ![1, 1, 0] S94x94x94
  slices_S96x96x96_S94x94x94_1_1_2 : S96x96x96.Slices ![1, 1, 2] S94x94x94
  slices_S96x96x96_S94x94x94_1_1_1 : S96x96x96.Slices ![1, 1, 1] S94x94x94
  bcast_S_S94x94x94 : S_.BroadcastsInDim S94x94x94 (![] : Fin 0 → Fin S94x94x94.rank)
  bcast_S_S1 : S_.BroadcastsInDim S1 (![] : Fin 0 → Fin S1.rank)
  concatenates_S1_S1_S1_S3_d0 : Shape.Concatenates [S1, S1, S1] S3 0
  scatter_S96x96x96_S3_S94x94x94_012_n_012_0_wf : ScatterDims.WF S96x96x96 S3 S94x94x94 [0, 1, 2] [] [0, 1, 2] 0

variable [Facts₀]

def scatter_S96x96x96_S3_S94x94x94_012_n_012_0 : ScatterDims S96x96x96 S3 S94x94x94 where
  updateWindowDims := [0, 1, 2]
  insertedWindowDims := []
  scatterDimsToOperandDims := [0, 1, 2]
  indexVectorDim := 0
  wf := scatter_S96x96x96_S3_S94x94x94_012_n_012_0_wf

class Facts : Prop extends Facts₀ where

variable [Facts]
-- ==== Proof.Topo.lean ====
/-
  The 2 × 2 × 2 mesh.  Device `c` (logical id 0 … 7, row-major) sits at `(c / 4, c / 2 % 2, c % 2)`; its neighbour
  along an axis is the device whose coordinate on that axis is flipped, the other two kept: an involution without
  fixed points.  The kernel's six device-id chains (three signals, three transfers) name these neighbours, and the
  offset of the x face it sends is row 47 on the lower half of the mesh and row 0 on the upper.
-/
import proofs.«900806_g7700000000000807_dist_halo3d_v7x_xyz2x2x2_s48_f32_1_alg».proof.Proof.Gen.KernelIdeal

noncomputable section

namespace Cert.KernelIdeal.Halo

open Cert.KernelIdeal Cert.KernelIdeal.Gen
open Idealize.ShloMosaic Idealize.SL.Sem

/-- The mesh coordinates of a device. -/
def bx (c : Dev nD) : ℕ := c.val / 4
def by' (c : Dev nD) : ℕ := c.val / 2 % 2
def bz (c : Dev nD) : ℕ := c.val % 2

theorem bx_lt (c : Dev nD) : bx c < 2 := by revert c; decide
theorem by_lt (c : Dev nD) : by' c < 2 := by revert c; decide
theorem bz_lt (c : Dev nD) : bz c < 2 := by revert c; decide

/-- The neighbour along axis `a` (0 = x, 1 = y, 2 = z): that coordinate flipped. -/
def nbr (a : Fin 3) (c : Dev nD) : Dev nD :=
  match a with
  | 0 => ⟨(c.val + 4) % 8, Nat.mod_lt _ (by decide)⟩
  | 1 => ⟨c.val / 4 * 4 + (c.val % 4 + 2) % 4, by have := c.isLt; revert this; generalize c.val = v; decide +revert⟩
  | 2 => ⟨c.val / 2 * 2 + (c.val + 1) % 2, by have := c.isLt; revert this; generalize c.val = v; decide +revert⟩

theorem nbr_nbr (a : Fin 3) (c : Dev nD) : nbr a (nbr a c) = c := by revert a c; decide
theorem nbr_ne (a : Fin 3) (c : Dev nD) : nbr a c ≠ c := by revert a c; decide
theorem nbr_inj (a : Fin 3) {c c' : Dev nD} (h : nbr a c = nbr a c') : c = c' := by
  rw [← nbr_nbr a c, h, nbr_nbr]
/-- Neighbours along different axes are different devices. -/
theorem nbr_ne_nbr {a b : Fin 3} (h : a ≠ b) (c : Dev nD) : nbr a c ≠ nbr b c := by revert a b c; decide

/-- Flipping as a permutation of the devices. -/
def flip (a : Fin 3) : Dev nD ≃ Dev nD := ⟨nbr a, nbr a, nbr_nbr a, nbr_nbr a⟩

theorem bx_nbr0 (c : Dev nD) : bx (nbr 0 c) = 1 - bx c := by revert c; decide
theorem by_nbr0 (c : Dev nD) : by' (nbr 0 c) = by' c := by revert c; decide
theorem bz_nbr0 (c : Dev nD) : bz (nbr 0 c) = bz c := by revert c; decide
theorem bx_nbr1 (c : Dev nD) : bx (nbr 1 c) = bx c := by revert c; decide
theorem by_nbr1 (c : Dev nD) : by' (nbr 1 c) = 1 - by' c := by revert c; decide
theorem bz_nbr1 (c : Dev nD) : bz (nbr 1 c) = bz c := by revert c; decide
theorem bx_nbr2 (c : Dev nD) : bx (nbr 2 c) = bx c := by revert c; decide
theorem by_nbr2 (c : Dev nD) : by' (nbr 2 c) = by' c := by revert c; decide
theorem bz_nbr2 (c : Dev nD) : bz (nbr 2 c) = 1 - bz c := by revert c; decide

/-- The kernel's device-id chains: signals 1–3 and transfers 4–6 name the x, y, z neighbours. -/
theorem dev1_eq (c : Dev nD) : (⟨k0_dev1 c, k0_dev1_lt c⟩ : Dev nD) = nbr 0 c := Fin.ext ((k0_dev1_eq c).trans (by revert c; decide))
theorem dev2_eq (c : Dev nD) : (⟨k0_dev2 c, k0_dev2_lt c⟩ : Dev nD) = nbr 1 c := Fin.ext ((k0_dev2_eq c).trans (by revert c; decide))
theorem dev3_eq (c : Dev nD) : (⟨k0_dev3 c, k0_dev3_lt c⟩ : Dev nD) = nbr 2 c := Fin.ext ((k0_dev3_eq c).trans (by revert c; decide))
theorem dev4_eq (c : Dev nD) : (⟨k0_dev4 c, k0_dev4_lt c⟩ : Dev nD) = nbr 0 c := Fin.ext ((k0_dev4_eq c).trans (by revert c; decide))
theorem dev5_eq (c : Dev nD) : (⟨k0_dev5 c, k0_dev5_lt c⟩ : Dev nD) = nbr 1 c := Fin.ext ((k0_dev5_eq c).trans (by revert c; decide))
theorem dev6_eq (c : Dev nD) : (⟨k0_dev6 c, k0_dev6_lt c⟩ : Dev nD) = nbr 2 c := Fin.ext ((k0_dev6_eq c).trans (by revert c; decide))

/-- The x face a device sends starts at row 47 on the lower half (`bx = 0`), at row 0 on the upper. -/
theorem off1_eq (c : Dev nD) : k0_off1 c = ![(if bx c = 0 then 47 else 0), 0, 0] := k0_off1_eq c

end Cert.KernelIdeal.Halo

end
-- ==== Proof.Cells.lean ====
/-
  The protocol's vocabulary.  A device has seven semaphores that other devices credit or that it waits on: the barrier
  (three units, one from each axis neighbour, saying that neighbour is inside the kernel and its receive buffers may be
  written), and per axis a send semaphore (credited by the device's own transfer once its source is read) and a receive
  semaphore (credited by the neighbour's transfer once the face has landed).  What lands in a device's receive buffer of
  an axis is the face of the neighbour's block that touches it: the x face a slab of the neighbour's staged block, the
  y and z faces what the neighbour stored into its send buffers.
-/
import proofs.«900806_g7700000000000807_dist_halo3d_v7x_xyz2x2x2_s48_f32_1_alg».proof.Proof.Topo
import proofs.«900806_g7700000000000807_dist_halo3d_v7x_xyz2x2x2_s48_f32_1_alg».proof.Proof.Gen.KernelIdeal.Skeleton
import proofs.«900806_g7700000000000807_dist_halo3d_v7x_xyz2x2x2_s48_f32_1_alg».proof.Proof.Gen.KernelIdeal.Launch
import proofs.«900806_g7700000000000807_dist_halo3d_v7x_xyz2x2x2_s48_f32_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's (duty names `Fin 3`: the axis) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Memrefs -/

abbrev uM : Memref sig .tc .vmem S48x48x48 .f32 := Memref.whole cc0_stg0_0
abbrev oM : Memref sig .tc .vmem S48x48x48 .f32 := Memref.whole cc0_stg1_0
abbrev syM : Memref sig .tc .vmem S48x48 .f32 := Memref.whole cc0_scratch0
abbrev szM : Memref sig .tc .vmem S48x48 .f32 := Memref.whole cc0_scratch1
abbrev rxM : Memref sig .tc .vmem S1x48x48 .f32 := Memref.whole cc0_scratch2
abbrev ryM : Memref sig .tc .vmem S48x48 .f32 := Memref.whole cc0_scratch3
abbrev rzM : Memref sig .tc .vmem S48x48 .f32 := Memref.whole cc0_scratch4
/-- The slab of the staged block a device sends along x. -/
abbrev sxM (c : Dev nD) : Memref sig .tc .vmem S1x48x48 .f32 :=
  (Memref.whole cc0_stg0_0 : Memref sig .tc .vmem S48x48x48 .f32).slice (Rect.unit (s := S48x48x48) (k0_off1 c) S1x48x48.size (k0_off1_inb c)) (fun _ => rfl)

/-! ## Semaphores and cells -/

abbrev barS : Sem sig := (SemArray.scalar (sig.barrier 0 rfl) : Sems sig S_).sem
abbrev sendS (a : Fin 3) : DmaSem sig := match a with | 0 => 2 | 1 => 3 | 2 => 4
abbrev recvS (a : Fin 3) : DmaSem sig := match a with | 0 => 5 | 1 => 6 | 2 => 7

abbrev barCell (c : Dev nD) : GSem nD τ sig := ((c : Thread nD τ), .reg barS)
abbrev sendCell (a : Fin 3) (c : Dev nD) : GSem nD τ sig := ((c : Thread nD τ), .dma (sendS a))
abbrev recvCell (a : Fin 3) (c : Dev nD) : GSem nD τ sig := ((c : Thread nD τ), .dma (recvS a))

/-- The kernel's own (scoped) semaphores, as the launch indexes them: the three send, then the three receive. -/
abbrev osem : Fin 6 → SemLoc sig := fun | 0 => .dma 2 | 1 => .dma 3 | 2 => .dma 4 | 3 => .dma 5 | 4 => .dma 6 | 5 => .dma 7
/-- All seven of the protocol's: the barrier first. -/
abbrev csem : Fin 7 → SemLoc sig := fun | 0 => .reg barS | 1 => .dma 2 | 2 => .dma 3 | 3 => .dma 4 | 4 => .dma 5 | 5 => .dma 6 | 6 => .dma 7
abbrev kcell (ck : Dev nD × Fin 7) : GSem nD τ sig := ((ck.1 : Thread nD τ), csem ck.2)

/-- The credit of a face's transfer. -/
abbrev Nx : ℕ := (rxM : Memref sig .tc .vmem S1x48x48 .f32).view.dmaCredit
abbrev Nf : ℕ := (ryM : Memref sig .tc .vmem S48x48 .f32).view.dmaCredit
abbrev NA (a : Fin 3) : ℕ := match a with | 0 => Nx | 1 => Nf | 2 => Nf

/-! ## Contents -/

/-- A device's block of the argument array, as staged. -/
def xstg (c : Dev nD) : (cc0_stg0_0 : Ref sig .tc).ty.Contents (Elt F) :=
  (win0_0.blk (0 : Fin 1)).view.read (Elt F) ((s₀ m ρ).mem ((c : Thread nD τ).loc main_arg0))

/-- The faces a device sends: along x the slab at row 47 or 0 of its block, along y and z what it stores in its send buffers. -/
def faceX (c : Dev nD) : (cc0_scratch2 : Ref sig .tc).ty.Contents (Elt F) := (sxM c).view.read (Elt F) (xstg m ρ c)
def faceY (c : Dev nD) : (cc0_scratch0 : Ref sig .tc).ty.Contents (Elt F) := if by' c = 0 then k0_pay2 (xstg m ρ c) else k0_pay3 (xstg m ρ c)
def faceZ (c : Dev nD) : (cc0_scratch1 : Ref sig .tc).ty.Contents (Elt F) := if bz c = 0 then k0_pay4 (xstg m ρ c) else k0_pay5 (xstg m ρ c)

/-- What lands in a device's receive buffers: its neighbours' faces. -/
def landX (c : Dev nD) : (cc0_scratch2 : Ref sig .tc).ty.Contents (Elt F) := faceX m ρ (nbr 0 c)
def landY (c : Dev nD) : (cc0_scratch3 : Ref sig .tc).ty.Contents (Elt F) := faceY m ρ (nbr 1 c)
def landZ (c : Dev nD) : (cc0_scratch4 : Ref sig .tc).ty.Contents (Elt F) := faceZ m ρ (nbr 2 c)

/-! ## Points-to facts of the buffers the protocol hands round -/

def rxPts (c : Dev nD) (f : Buf (Elt F) ((rxM : Memref sig .tc .vmem S1x48x48 .f32).view.loc (c : Thread nD τ))) : sProp 𝕄 :=
  (rxM : Memref sig .tc .vmem S1x48x48 .f32).view.loc (c : Thread nD τ) ↦[(rxM : Memref sig .tc .vmem S1x48x48 .f32).view.set]{fullShare} f
def ryPts (c : Dev nD) (f : Buf (Elt F) ((ryM : Memref sig .tc .vmem S48x48 .f32).view.loc (c : Thread nD τ))) : sProp 𝕄 :=
  (ryM : Memref sig .tc .vmem S48x48 .f32).view.loc (c : Thread nD τ) ↦[(ryM : Memref sig .tc .vmem S48x48 .f32).view.set]{fullShare} f
def rzPts (c : Dev nD) (f : Buf (Elt F) ((rzM : Memref sig .tc .vmem S48x48 .f32).view.loc (c : Thread nD τ))) : sProp 𝕄 :=
  (rzM : Memref sig .tc .vmem S48x48 .f32).view.loc (c : Thread nD τ) ↦[(rzM : Memref sig .tc .vmem S48x48 .f32).view.set]{fullShare} f
/-- The sources: the x slab of the staged block, the two send buffers. -/
def sxPts (c : Dev nD) : sProp 𝕄 :=
  (sxM c).view.loc (c : Thread nD τ) ↦[(sxM c).view.set]{fullShare} xstg m ρ c
def syPts (c : Dev nD) : sProp 𝕄 :=
  (syM : Memref sig .tc .vmem S48x48 .f32).view.loc (c : Thread nD τ) ↦[(syM : Memref sig .tc .vmem S48x48 .f32).view.set]{fullShare} faceY m ρ c
def szPts (c : Dev nD) : sProp 𝕄 :=
  (szM : Memref sig .tc .vmem S48x48 .f32).view.loc (c : Thread nD τ) ↦[(szM : Memref sig .tc .vmem S48x48 .f32).view.set]{fullShare} faceZ m ρ c

/-! ## The schedule -/

/-- What the axis-`a` neighbour's barrier signal hands `c`: that neighbour's axis-`a` receive buffer (at some contents)
    and that it has reached round 0 of that receive cell. -/
def barPay (a : Fin 3) (c : Dev nD) : sProp 𝕄 :=
  match a with
  | 0 => iprop((∃ f, rxPts (nbr 0 c) f) ∗ reached ER (recvCell 0 (nbr 0 c)) 0)
  | 1 => iprop((∃ f, ryPts (nbr 1 c) f) ∗ reached ER (recvCell 1 (nbr 1 c)) 0)
  | 2 => iprop((∃ f, rzPts (nbr 2 c) f) ∗ reached ER (recvCell 2 (nbr 2 c)) 0)
/-- A receive cell's payload: the receive buffer holding the neighbour's face. -/
def recvPay (a : Fin 3) (c : Dev nD) : sProp 𝕄 :=
  match a with
  | 0 => rxPts c (landX m ρ c)
  | 1 => ryPts c (landY m ρ c)
  | 2 => rzPts c (landZ m ρ c)
/-- A send cell's payload: the source back. -/
def sendPay (a : Fin 3) (c : Dev nD) : sProp 𝕄 :=
  match a with
  | 0 => sxPts m ρ c
  | 1 => syPts m ρ c
  | 2 => szPts m ρ c

abbrev IsBar (g : GSem nD τ sig) : Prop := g.1.2 = .tc ∧ g.2 = .reg barS
abbrev IsSend (g : GSem nD τ sig) : Prop := g.1.2 = .tc ∧ (g.2 = .dma 2 ∨ g.2 = .dma 3 ∨ g.2 = .dma 4)
abbrev IsRecv (g : GSem nD τ sig) : Prop := g.1.2 = .tc ∧ (g.2 = .dma 5 ∨ g.2 = .dma 6 ∨ g.2 = .dma 7)

/-- One round, round 0: a barrier cell has the three duties 0, 1, 2 (from the x, y, z neighbour) of one unit each; a send
    or receive cell the duty 0 of its face's credit. -/
def haloRd : Rounds.Schedule (GSem nD τ sig) (Fin 3) 𝕄 where
  duties g r := if r = 0 ∧ IsBar g then Finset.univ else if r = 0 ∧ (IsSend g ∨ IsRecv g) then {0} else ∅
  unitless _ := False
  amount g _ _ := if g.2 = .reg barS then 1 else if g.2 = .dma 2 ∨ g.2 = .dma 5 then Nx else Nf
  payload g _ d :=
    if g.2 = .reg barS then barPay d g.1.1
    else if g.2 = .dma 5 then recvPay m ρ 0 g.1.1
    else if g.2 = .dma 6 then recvPay m ρ 1 g.1.1
    else if g.2 = .dma 7 then recvPay m ρ 2 g.1.1
    else if g.2 = .dma 2 then sendPay m ρ 0 g.1.1
    else if g.2 = .dma 3 then sendPay m ρ 1 g.1.1
    else if g.2 = .dma 4 then sendPay m ρ 2 g.1.1
    else iprop(emp)
  amount_pos g _ _ _ := by
    by_cases h : g.2 = .reg barS
    · rw [if_pos h]; exact Nat.one_pos
    · rw [if_neg h]; split
      · exact View.dmaCredit_pos _ (by decide)
      · exact View.dmaCredit_pos _ (by decide)

end Cert.KernelIdeal.Halo

end
-- ==== Proof.Sched.lean ====
/-
  The schedule's tables, cell by cell: which duties a cell has in round 0 and none later, what each is worth, what a round
  expects in all, what each duty hands over; what a device owes when it is launched (one unit to each neighbour's barrier
  and a face's credit to each neighbour's receive cell) and the order in which it pays; and the levels that make every wait
  safe: a barrier is waited at level 1 while only receive credits (level 2) are owed, a receive or send cell while nothing is.
-/
import proofs.«900806_g7700000000000807_dist_halo3d_v7x_xyz2x2x2_s48_f32_1_alg».proof.Proof.Cells

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

instance haloRd_payload_storable (g : GSem nD τ sig) (r : ℕ) (d : Fin 3) :
    BI.Storable (upEmb : UEmb _ 𝕄) ((haloRd (F := F) m ρ).payload g r d) := by
  have hb : ∀ (a : Fin 3) (c : Dev nD), BI.Storable (upEmb : UEmb _ 𝕄) (barPay (F := F) a c) := by
    intro a c; fin_cases a <;> (dsimp only [barPay, rxPts, ryPts, rzPts]; infer_instance)
  have hr : ∀ (a : Fin 3) (c : Dev nD), BI.Storable (upEmb : UEmb _ 𝕄) (recvPay (F := F) m ρ a c) := by
    intro a c; fin_cases a <;> (dsimp only [recvPay, rxPts, ryPts, rzPts]; infer_instance)
  have hs : ∀ (a : Fin 3) (c : Dev nD), BI.Storable (upEmb : UEmb _ 𝕄) (sendPay (F := F) m ρ a c) := by
    intro a c; fin_cases a <;> (dsimp only [sendPay, sxPts, syPts, szPts]; infer_instance)
  show BI.Storable upEmb (if g.2 = .reg barS then barPay d g.1.1
    else if g.2 = .dma 5 then recvPay m ρ 0 g.1.1
    else if g.2 = .dma 6 then recvPay m ρ 1 g.1.1
    else if g.2 = .dma 7 then recvPay m ρ 2 g.1.1
    else if g.2 = .dma 2 then sendPay m ρ 0 g.1.1
    else if g.2 = .dma 3 then sendPay m ρ 1 g.1.1
    else if g.2 = .dma 4 then sendPay m ρ 2 g.1.1
    else iprop(emp))
  (repeat' split) <;> first | exact hb _ _ | exact hr _ _ | exact hs _ _ | infer_instance

section Sched
variable (c : Dev nD) (a : Fin 3)

theorem send_ne_bar : (SemLoc.dma (sendS a) : SemLoc sig) ≠ .reg barS := fun h => by cases h
theorem recv_ne_bar : (SemLoc.dma (recvS a) : SemLoc sig) ≠ .reg barS := fun h => by cases h

omit [FloatOps F] in
theorem duties_bar : (haloRd (F := F) m ρ).duties (barCell c) 0 = Finset.univ := by
  dsimp only [haloRd]; exact if_pos ⟨rfl, rfl, rfl⟩
omit [FloatOps F] in
theorem duties_send : (haloRd (F := F) m ρ).duties (sendCell a c) 0 = {0} := by
  dsimp only [haloRd]; rw [if_neg (fun h => send_ne_bar a h.2.2)]
  fin_cases a
  · exact if_pos ⟨rfl, .inl ⟨rfl, .inl rfl⟩⟩
  · exact if_pos ⟨rfl, .inl ⟨rfl, .inr (.inl rfl)⟩⟩
  · exact if_pos ⟨rfl, .inl ⟨rfl, .inr (.inr rfl)⟩⟩
omit [FloatOps F] in
theorem duties_recv : (haloRd (F := F) m ρ).duties (recvCell a c) 0 = {0} := by
  dsimp only [haloRd]; rw [if_neg (fun h => recv_ne_bar a h.2.2)]
  fin_cases a
  · exact if_pos ⟨rfl, .inr ⟨rfl, .inl rfl⟩⟩
  · exact if_pos ⟨rfl, .inr ⟨rfl, .inr (.inl rfl)⟩⟩
  · exact if_pos ⟨rfl, .inr ⟨rfl, .inr (.inr rfl)⟩⟩
omit [FloatOps F] in
theorem duties_later (g : GSem nD τ sig) : ∀ r, 1 ≤ r → (haloRd (F := F) m ρ).duties g r = ∅ :=
  fun r hr => by dsimp only [haloRd]; rw [if_neg fun h => by omega, if_neg fun h => by omega]

omit [FloatOps F] in
theorem amount_bar (d : Fin 3) : (haloRd (F := F) m ρ).amount (barCell c) 0 d = 1 := by
  dsimp only [haloRd]; exact if_pos rfl
omit [FloatOps F] in
theorem amount_send (d : Fin 3) : (haloRd (F := F) m ρ).amount (sendCell a c) 0 d = NA a := by
  dsimp only [haloRd]; rw [if_neg (send_ne_bar a)]
  fin_cases a
  · exact if_pos (.inl rfl)
  · exact if_neg (by decide)
  · exact if_neg (by decide)
omit [FloatOps F] in
theorem amount_recv (d : Fin 3) : (haloRd (F := F) m ρ).amount (recvCell a c) 0 d = NA a := by
  dsimp only [haloRd]; rw [if_neg (recv_ne_bar a)]
  fin_cases a
  · exact if_pos (.inr rfl)
  · exact if_neg (by decide)
  · exact if_neg (by decide)

omit [FloatOps F] in
theorem expect_bar : (haloRd (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
omit [FloatOps F] in
theorem expect_send : (haloRd (F := F) m ρ).expect (sendCell a c) 0 = NA a := by
  unfold Schedule.expect Schedule.amountOf; rw [duties_send, Finset.sum_singleton, amount_send]
omit [FloatOps F] in
theorem expect_recv : (haloRd (F := F) m ρ).expect (recvCell a c) 0 = NA a := by
  unfold Schedule.expect Schedule.amountOf; rw [duties_recv, Finset.sum_singleton, amount_recv]

omit [FloatOps F] in
theorem payload_bar (d : Fin 3) : (haloRd (F := F) m ρ).payload (barCell c) 0 d = barPay d c := by
  dsimp only [haloRd]; rw [if_pos rfl]
omit [FloatOps F] in
theorem payload_send (d : Fin 3) : (haloRd (F := F) m ρ).payload (sendCell a c) 0 d = sendPay m ρ a c := by
  dsimp only [haloRd]; rw [if_neg (send_ne_bar a)]
  fin_cases a
  · rw [if_neg (by decide), if_neg (by decide), if_neg (by decide), if_pos rfl]; rfl
  · rw [if_neg (by decide), if_neg (by decide), if_neg (by decide), if_neg (by decide), if_pos rfl]; rfl
  · rw [if_neg (by decide), if_neg (by decide), if_neg (by decide), if_neg (by decide), if_neg (by decide), if_pos rfl]; rfl
omit [FloatOps F] in
theorem payload_recv (d : Fin 3) : (haloRd (F := F) m ρ).payload (recvCell a c) 0 d = recvPay m ρ a c := by
  dsimp only [haloRd]; rw [if_neg (recv_ne_bar a)]
  fin_cases a
  · rw [if_pos rfl]; rfl
  · rw [if_neg (by decide), if_pos rfl]; rfl
  · rw [if_neg (by decide), if_neg (by decide), if_pos rfl]; rfl

omit [FloatOps F] in
/-- The whole of the barrier cell's round: the three neighbours' payloads. -/
theorem rest_bar : bigSep ((haloRd (F := F) m ρ).duties (barCell c) 0 \ ∅) (fun d => (haloRd (F := F) m ρ).payload (barCell c) 0 d)
    = iprop(barPay 0 c ∗ barPay 1 c ∗ barPay 2 c) := by
  rw [Finset.sdiff_empty, duties_bar, bigSep_univ_eq_bigSepL ([0, 1, 2] : List (Fin 3)) (by decide) (by decide), bigSepL_cons_cons,
    bigSepL_cons_cons, bigSepL_singleton, payload_bar, payload_bar, payload_bar]
  rfl
omit [FloatOps F] in
theorem rest_send : bigSep ((haloRd (F := F) m ρ).duties (sendCell a c) 0 \ ∅) (fun d => (haloRd (F := F) m ρ).payload (sendCell a c) 0 d) = sendPay m ρ a c := by
  rw [Finset.sdiff_empty, duties_send, bigSep_singleton, payload_send]
omit [FloatOps F] in
theorem rest_recv : bigSep ((haloRd (F := F) m ρ).duties (recvCell a c) 0 \ ∅) (fun d => (haloRd (F := F) m ρ).payload (recvCell a c) 0 d) = recvPay m ρ a c := by
  rw [Finset.sdiff_empty, duties_recv, bigSep_singleton, payload_recv]

end Sched

/-! ## What each device owes at launch; the levels -/

/-- After its three signals a device owes each neighbour's receive cell that face's credit; it pays x first, so x is the last summand. -/
def O₃ (c : Dev nD) : CellTallies nD τ sig Unit :=
  tallyAt (recvCell 2 (nbr 2 c)) () Nf + tallyAt (recvCell 1 (nbr 1 c)) () Nf + tallyAt (recvCell 0 (nbr 0 c)) () Nx
/-- After the x and the y transfer; after the x transfer. -/
def O₅ (c : Dev nD) : CellTallies nD τ sig Unit := tallyAt (recvCell 2 (nbr 2 c)) () Nf
def O₄ (c : Dev nD) : CellTallies nD τ sig Unit := tallyAt (recvCell 2 (nbr 2 c)) () Nf + tallyAt (recvCell 1 (nbr 1 c)) () Nf
/-- Before the z, the y, the x signal (the x signal is the first: the last summand). -/
def O₂ (c : Dev nD) : CellTallies nD τ sig Unit := O₃ c + tallyAt (barCell (nbr 2 c)) () 1
def O₁ (c : Dev nD) : CellTallies nD τ sig Unit := O₂ c + tallyAt (barCell (nbr 1 c)) () 1
def O₀ (c : Dev nD) : CellTallies nD τ sig Unit := O₁ c + tallyAt (barCell (nbr 0 c)) () 1

def L (g : GSem nD τ sig) : Finset Unit := if g.1.2 = .tc then {()} else ∅
/-- barrier cells at 1, receive cells at 2, everything else (staging, send) at 0. -/
def lv (g : GSem nD τ sig) (_ : Unit) : ℕ := if g.2 = .reg barS then 1 else if g.2 = .dma 5 ∨ g.2 = .dma 6 ∨ g.2 = .dma 7 then 2 else 0

theorem L_of_ne (g : GSem nD τ sig) (h : g.1.2 ≠ .tc) : L g = ∅ := if_neg h
theorem L_tc (c : Dev nD) (sm : SemLoc sig) : L ((c : Thread nD τ), sm) = {()} := if_pos rfl

/-- The receive credits alone are owed to the neighbours' receive cells. -/
private theorem O₃_pos {c : Dev nD} {g : GSem nD τ sig} {u : Unit} (h : 0 < O₃ c g u) :
    ∃ a, g = recvCell a (nbr a c) := by
  unfold O₃ at h
  rw [Pi.add_apply, Finsupp.add_apply, Pi.add_apply, Finsupp.add_apply, tallyAt_apply, tallyAt_apply, tallyAt_apply] at h
  by_contra hn
  rw [not_exists] at hn
  rw [if_neg (fun h' => hn 2 h'.1), if_neg (fun h' => hn 1 h'.1), if_neg (fun h' => hn 0 h'.1)] at h
  exact Nat.lt_irrefl 0 h

theorem O₀_pos {c : Dev nD} {g : GSem nD τ sig} {u : Unit} (h : 0 < O₀ c g u) :
    (∃ a, g = recvCell a (nbr a c)) ∨ (∃ a, g = barCell (nbr a c)) := by
  by_contra hn
  rw [not_or, not_exists, not_exists] at hn
  have h3 : O₃ c g u = 0 := by
    rcases Nat.eq_zero_or_pos (O₃ c g u) with e | e
    · exact e
    · obtain ⟨a, ha⟩ := O₃_pos e; exact absurd ha (hn.1 a)
  unfold O₀ O₁ O₂ at h
  rw [Pi.add_apply, Finsupp.add_apply, Pi.add_apply, Finsupp.add_apply, Pi.add_apply, Finsupp.add_apply, h3,
    tallyAt_apply, tallyAt_apply, tallyAt_apply,
    if_neg (fun h' => hn.2 2 h'.1), if_neg (fun h' => hn.2 1 h'.1), if_neg (fun h' => hn.2 0 h'.1)] at h
  exact Nat.lt_irrefl 0 h

/-- The levels of the protocol's cells. -/
private theorem lv_recvCell (a : Fin 3) (c : Dev nD) (u : Unit) : lv (recvCell a c) u = 2 := by
  dsimp only [lv]; rw [if_neg (recv_ne_bar a)]
  fin_cases a
  · exact if_pos (.inl rfl)
  · exact if_pos (.inr (.inl rfl))
  · exact if_pos (.inr (.inr rfl))
private theorem lv_barCell (c : Dev nD) (u : Unit) : lv (barCell c) u = 1 := if_pos rfl

omit [FloatOps F] in
/-- A staging semaphore (neither barrier nor receive) may be waited whatever of the launch debt is left. -/
theorem mayWait_stage (c : Dev nD) (q : DmaSem sig) (hq : SemLoc.dma q ≠ .dma 5 ∧ SemLoc.dma q ≠ .dma 6 ∧ SemLoc.dma q ≠ .dma 7)
    (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨a, rfl⟩ | ⟨a, rfl⟩ <;> (rw [L_tc]; exact Finset.mem_singleton_self _))
      (fun p hp => by
        rw [Finset.mem_singleton.mp hp]; dsimp only [lv]
        rw [if_neg (fun h => by cases h), if_neg (fun h => h.elim hq.1 (fun h => h.elim hq.2.1 hq.2.2))])
      (fun g u hg => by
        rcases O₀_pos hg with ⟨a, rfl⟩ | ⟨a, rfl⟩
        · rw [lv_recvCell]; decide
        · rw [lv_barCell]; decide)
  · rw [MayWait_zero]; iintro -; iempintro

omit [FloatOps F] in
/-- At its barrier wait a device owes its neighbours' receive credits only: receive cells, above its barrier cell. -/
theorem mayWait_bar (c : Dev nD) :
    (levAts L lv : sProp 𝕄) ⊢ MayWait (c : Thread nD τ) (.reg barS) () (O₃ c) :=
  MayOwe.of_cut (L := L) (lev := lv) 1 (fun p hp => by rw [Finset.mem_singleton.mp hp, L_tc]; exact Finset.mem_singleton_self _)
    (fun g u hg => by obtain ⟨a, rfl⟩ := O₃_pos hg; rw [L_tc]; exact Finset.mem_singleton_self _)
    (fun p hp => by rw [Finset.mem_singleton.mp hp]; dsimp only [lv]; rw [if_pos rfl])
    (fun g u hg => by obtain ⟨a, rfl⟩ := O₃_pos hg; rw [lv_recvCell]; decide)

end Cert.KernelIdeal.Halo

end
-- ==== Proof.Out.lean ====
/-
  What a device's result block holds after the body, as ONE pure function of its own block and the three faces it received,
  entry by entry.  At local index (i, j, k) on the device at mesh coordinates (px, py, pz): the local seven-point sum over the
  block with zeros across its faces (the body's first, whole store); plus, on the one x face that touches the x neighbour,
  the entry of the face received from it, then likewise y, then z (a cell on an edge or corner gets two or three, in that
  order); and finally zero on the faces that lie on the whole array's boundary.
-/
import proofs.«900806_g7700000000000807_dist_halo3d_v7x_xyz2x2x2_s48_f32_1_alg».proof.Proof.Cells
import Idealize.ShloMosaic.Lib.ValueIdx

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The zero the body splats. -/
abbrev zf : F .f32 := Scalar.ofBits .f32 0x00000000#32

/-- The result block, entry by entry. -/
def outOf (px py pz : ℕ) (x : (cc0_stg0_0 : Ref sig .tc).ty.Contents (Elt F)) (rx : (cc0_scratch2 : Ref sig .tc).ty.Contents (Elt F))
    (ry : (cc0_scratch3 : Ref sig .tc).ty.Contents (Elt F)) (rz : (cc0_scratch4 : Ref sig .tc).ty.Contents (Elt F)) :
    (cc0_stg1_0 : Ref sig .tc).ty.Contents (Elt F) := fun idx =>
  let i : Fin 48 := idx 0
  let j : Fin 48 := idx 1
  let k : Fin 48 := idx 2
  let b0 : F .f32 := k0_pay9 (k0_pay1 x) idx
  let b1 : F .f32 := if (px = 0 ∧ i.val = 47) ∨ (px = 1 ∧ i.val = 0) then FloatOps.addf b0 (rx (ValueIdx.ix3 (0 : Fin 1) j k)) else b0
  let b2 : F .f32 := if (py = 0 ∧ j.val = 47) ∨ (py = 1 ∧ j.val = 0) then FloatOps.addf b1 (ry (ValueIdx.ix2 i k)) else b1
  let b3 : F .f32 := if (pz = 0 ∧ k.val = 47) ∨ (pz = 1 ∧ k.val = 0) then FloatOps.addf b2 (rz (ValueIdx.ix2 i j)) else b2
  if (px = 0 ∧ i.val = 0) ∨ (px = 1 ∧ i.val = 47) ∨ (py = 0 ∧ j.val = 0) ∨ (py = 1 ∧ j.val = 47) ∨ (pz = 0 ∧ k.val = 0) ∨ (pz = 1 ∧ k.val = 47)
  then zf else b3

/-- A device's result block. -/
def outAt (c : Dev nD) : (cc0_stg1_0 : Ref sig .tc).ty.Contents (Elt F) :=
  outOf (bx c) (by' c) (bz c) (xstg m ρ c) (landX m ρ c) (landY m ρ c) (landZ m ρ c)

end Cert.KernelIdeal.Halo

end
-- ==== Proof.Data.lean ====
/-
  The proof data of the one region.  A device starts its body holding: the invariants of its own seven cells and of the six
  neighbour cells it pays into; its position at round 0 of its own cells; the tokens of the nine duties it pays (a unit to each
  neighbour's barrier, a face's credit to each neighbour's receive cell and to its own send cell); the credit to wait for three
  units on its barrier and a face on each receive cell; and its five scratch buffers at arbitrary contents.  It ends holding the
  scratch buffers again, its six own semaphores at zero, and its result block at `outAt`.
-/
import proofs.«900806_g7700000000000807_dist_halo3d_v7x_xyz2x2x2_s48_f32_1_alg».proof.Proof.Sched
import proofs.«900806_g7700000000000807_dist_halo3d_v7x_xyz2x2x2_s48_f32_1_alg».proof.Proof.Out

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The cells' invariants device `c`'s body opens, under the names `K` the launch allocated them at: its own seven, each
    neighbour's barrier cell (its signals) and each neighbour's receive cell of that axis (its transfers). -/
def invs (K : Dev nD × Fin 7 → ℕ) (c : Dev nD) : sProp 𝕄 :=
  iprop(cellInv ER (haloRd m ρ) (K (c, 0)) (barCell c)
    ∗ cellInv ER (haloRd m ρ) (K (c, 1)) (sendCell 0 c) ∗ cellInv ER (haloRd m ρ) (K (c, 2)) (sendCell 1 c) ∗ cellInv ER (haloRd m ρ) (K (c, 3)) (sendCell 2 c)
    ∗ cellInv ER (haloRd m ρ) (K (c, 4)) (recvCell 0 c) ∗ cellInv ER (haloRd m ρ) (K (c, 5)) (recvCell 1 c) ∗ cellInv ER (haloRd m ρ) (K (c, 6)) (recvCell 2 c)
    ∗ cellInv ER (haloRd m ρ) (K (nbr 0 c, 0)) (barCell (nbr 0 c)) ∗ cellInv ER (haloRd m ρ) (K (nbr 1 c, 0)) (barCell (nbr 1 c)) ∗ cellInv ER (haloRd m ρ) (K (nbr 2 c, 0)) (barCell (nbr 2 c))
    ∗ cellInv ER (haloRd m ρ) (K (nbr 0 c, 4)) (recvCell 0 (nbr 0 c)) ∗ cellInv ER (haloRd m ρ) (K (nbr 1 c, 5)) (recvCell 1 (nbr 1 c)) ∗ cellInv ER (haloRd m ρ) (K (nbr 2 c, 6)) (recvCell 2 (nbr 2 c)))

instance invs_persistent (K : Dev nD × Fin 7 → ℕ) (c : Dev nD) : BI.Persistent (invs m ρ K c) := by unfold invs; infer_instance

/-- The tokens of the duties device `c` pays: duty `a` of its axis-`a` neighbour's barrier, that neighbour's receive duty, its own send duty. -/
def payToks (c : Dev nD) : sProp 𝕄 :=
  iprop(dutyTok ER (barCell (nbr 0 c)) 0 0 ∗ dutyTok ER (barCell (nbr 1 c)) 0 1 ∗ dutyTok ER (barCell (nbr 2 c)) 0 2
    ∗ dutyTok ER (recvCell 0 (nbr 0 c)) 0 0 ∗ dutyTok ER (recvCell 1 (nbr 1 c)) 0 0 ∗ dutyTok ER (recvCell 2 (nbr 2 c)) 0 0
    ∗ dutyTok ER (sendCell 0 c) 0 0 ∗ dutyTok ER (sendCell 1 c) 0 0 ∗ dutyTok ER (sendCell 2 c) 0 0)

/-- Its positions at round 0 of its own seven cells. -/
def positions (c : Dev nD) : sProp 𝕄 :=
  iprop(atPos ER (barCell c) 0 ∅ 0
    ∗ atPos ER (sendCell 0 c) 0 ∅ 0 ∗ atPos ER (sendCell 1 c) 0 ∅ 0 ∗ atPos ER (sendCell 2 c) 0 ∅ 0
    ∗ atPos ER (recvCell 0 c) 0 ∅ 0 ∗ atPos ER (recvCell 1 c) 0 ∅ 0 ∗ atPos ER (recvCell 2 c) 0 ∅ 0)

/-- That round 0 is reached: of the cells it pays into, and of its own send and receive cells. -/
def reachedAll (c : Dev nD) : sProp 𝕄 :=
  iprop(reached ER (barCell (nbr 0 c)) 0 ∗ reached ER (barCell (nbr 1 c)) 0 ∗ reached ER (barCell (nbr 2 c)) 0
    ∗ reached ER (recvCell 0 (nbr 0 c)) 0 ∗ reached ER (recvCell 1 (nbr 1 c)) 0 ∗ reached ER (recvCell 2 (nbr 2 c)) 0
    ∗ reached ER (sendCell 0 c) 0 ∗ reached ER (sendCell 1 c) 0 ∗ reached ER (sendCell 2 c) 0
    ∗ reached ER (recvCell 0 c) 0 ∗ reached ER (recvCell 1 c) 0 ∗ reached ER (recvCell 2 c) 0)

instance reachedAll_persistent (c : Dev nD) : BI.Persistent (reachedAll (F := F) c) := by unfold reachedAll; infer_instance

/-- The protocol's ghost state device `c` starts from. -/
def ghost (K : Dev nD × Fin 7 → ℕ) (c : Dev nD) : sProp 𝕄 :=
  iprop(invs m ρ K c ∗ positions c ∗ reachedAll c ∗ payToks c)

/-- The credit to wait on its own cells: three units on the barrier, a face on each receive cell. -/
def waitCreds (c : Dev nD) : sProp 𝕄 :=
  iprop(cred (tallyAt (barCell c) () 3) ∗ cred (tallyAt (recvCell 0 c) () Nx) ∗ cred (tallyAt (recvCell 1 c) () Nf) ∗ cred (tallyAt (recvCell 2 c) () Nf))

/-- What device `c`'s body starts from, the buffers apart. -/
def start (c : Dev nD) : sProp 𝕄 :=
  iprop((∃ K, ghost m ρ K c) ∗ waitCreds c ∗ levAts L lv)

/-- The five scratch buffers, each whole at some contents: the two send buffers, the three receive buffers. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f))

/-- Its six own semaphores at zero. -/
def ownZero (c : Dev nD) : sProp 𝕄 :=
  iprop(semVal (sendCell 0 c) 0 ∗ semVal (sendCell 1 c) 0 ∗ semVal (sendCell 2 c) 0
    ∗ semVal (recvCell 0 c) 0 ∗ semVal (recvCell 1 c) 0 ∗ semVal (recvCell 2 c) 0)

def Φ₀ (c : Dev nD) : sProp 𝕄 := iprop(start m ρ c ∗ scratch c)
def Φ₁ (c : Dev nD) : sProp 𝕄 := iprop(scratch (F := F) c ∗ ownZero c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staged window's buffer, whole at named contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body is entered with, the ghost names opened. -/
def bodyPre (K : Dev nD × Fin 7 → ℕ) (c : Dev nD) : sProp 𝕄 :=
  iprop((ghost m ρ K c ∗ waitCreds c ∗ levAts L lv ∗ scratch c)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

/-- What it leaves. -/
def bodyPost (c : Dev nD) : sProp 𝕄 :=
  iprop(Φ₁ c ∗ (dats m ρ 0 c).owesAt () t₀.succ ∗ stg c cc0_stg0_0 (xstg m ρ c) ∗ stg c cc0_stg1_0 (outAt m ρ c))

end Cert.KernelIdeal.Halo

end
-- ==== Proof.Tables.lean ====
/-
  The schedule's tables once more, each entry spelt as the plain points-to facts it stands for, in the two directions a device
  meets them: what it RECEIVES on its own cells, and what it PAYS into a neighbour's (where the neighbour's neighbour is the
  device itself, and what lands is the device's own face).
-/
import proofs.«900806_g7700000000000807_dist_halo3d_v7x_xyz2x2x2_s48_f32_1_alg».proof.Proof.Sched

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## A whole buffer's view covers every index: the buffers' points-to facts in plain form -/
omit [FloatOps F] in
private theorem rx_set : (rxM : Memref sig .tc .vmem S1x48x48 .f32).view.set = Finset.univ := View.set_whole _
omit [FloatOps F] in
private theorem ry_set : (ryM : Memref sig .tc .vmem S48x48 .f32).view.set = Finset.univ := View.set_whole _
omit [FloatOps F] in
private theorem rz_set : (rzM : Memref sig .tc .vmem S48x48 .f32).view.set = Finset.univ := View.set_whole _
omit [FloatOps F] in
private theorem sy_set : (syM : Memref sig .tc .vmem S48x48 .f32).view.set = Finset.univ := View.set_whole _
omit [FloatOps F] in
private theorem sz_set : (szM : Memref sig .tc .vmem S48x48 .f32).view.set = Finset.univ := View.set_whole _
omit [FloatOps F] in
private theorem rxPts_eq (c : Dev nD) (f : Buf (Elt F) ((c : Thread nD τ).loc cc0_scratch2)) :
    rxPts c f = (((c : Thread nD τ).loc cc0_scratch2) ↦{fullShare} f : sProp 𝕄) := by unfold rxPts; rw [rx_set]
omit [FloatOps F] in
private theorem ryPts_eq (c : Dev nD) (f : Buf (Elt F) ((c : Thread nD τ).loc cc0_scratch3)) :
    ryPts c f = (((c : Thread nD τ).loc cc0_scratch3) ↦{fullShare} f : sProp 𝕄) := by unfold ryPts; rw [ry_set]
omit [FloatOps F] in
private theorem rzPts_eq (c : Dev nD) (f : Buf (Elt F) ((c : Thread nD τ).loc cc0_scratch4)) :
    rzPts c f = (((c : Thread nD τ).loc cc0_scratch4) ↦{fullShare} f : sProp 𝕄) := by unfold rzPts; rw [rz_set]
omit [FloatOps F] in
private theorem syPts_eq (c : Dev nD) :
    syPts m ρ c = (((c : Thread nD τ).loc cc0_scratch0) ↦{fullShare} faceY m ρ c : sProp 𝕄) := by unfold syPts; rw [sy_set]
omit [FloatOps F] in
private theorem szPts_eq (c : Dev nD) :
    szPts m ρ c = (((c : Thread nD τ).loc cc0_scratch1) ↦{fullShare} faceZ m ρ c : sProp 𝕄) := by unfold szPts; rw [sz_set]

/-- What lands at a device's neighbour is the device's own face: the neighbour's neighbour is the device. -/
private theorem landX_nbr (c : Dev nD) : landX m ρ (nbr 0 c) = faceX m ρ c := by unfold landX; rw [nbr_nbr]
private theorem landY_nbr (c : Dev nD) : landY m ρ (nbr 1 c) = faceY m ρ c := by unfold landY; rw [nbr_nbr]
private theorem landZ_nbr (c : Dev nD) : landZ m ρ (nbr 2 c) = faceZ m ρ c := by unfold landZ; rw [nbr_nbr]

section Tables
variable (c : Dev nD)

/-! ## Duties, amounts and expected units at the literal cells -/
theorem duties_send0 : (haloRd (F := F) m ρ).duties (sendCell 0 c) 0 = {0} := duties_send m ρ c 0
theorem duties_send1 : (haloRd (F := F) m ρ).duties (sendCell 1 c) 0 = {0} := duties_send m ρ c 1
theorem duties_send2 : (haloRd (F := F) m ρ).duties (sendCell 2 c) 0 = {0} := duties_send m ρ c 2
theorem duties_recv0 : (haloRd (F := F) m ρ).duties (recvCell 0 c) 0 = {0} := duties_recv m ρ c 0
theorem duties_recv1 : (haloRd (F := F) m ρ).duties (recvCell 1 c) 0 = {0} := duties_recv m ρ c 1
theorem duties_recv2 : (haloRd (F := F) m ρ).duties (recvCell 2 c) 0 = {0} := duties_recv m ρ c 2
theorem amount_send0 (d : Fin 3) : (haloRd (F := F) m ρ).amount (sendCell 0 c) 0 d = Nx := amount_send m ρ c 0 d
theorem amount_send1 (d : Fin 3) : (haloRd (F := F) m ρ).amount (sendCell 1 c) 0 d = Nf := amount_send m ρ c 1 d
theorem amount_send2 (d : Fin 3) : (haloRd (F := F) m ρ).amount (sendCell 2 c) 0 d = Nf := amount_send m ρ c 2 d
theorem amount_recv0 (d : Fin 3) : (haloRd (F := F) m ρ).amount (recvCell 0 c) 0 d = Nx := amount_recv m ρ c 0 d
theorem amount_recv1 (d : Fin 3) : (haloRd (F := F) m ρ).amount (recvCell 1 c) 0 d = Nf := amount_recv m ρ c 1 d
theorem amount_recv2 (d : Fin 3) : (haloRd (F := F) m ρ).amount (recvCell 2 c) 0 d = Nf := amount_recv m ρ c 2 d
theorem expect_send0 : (haloRd (F := F) m ρ).expect (sendCell 0 c) 0 = Nx := expect_send m ρ c 0
theorem expect_send1 : (haloRd (F := F) m ρ).expect (sendCell 1 c) 0 = Nf := expect_send m ρ c 1
theorem expect_send2 : (haloRd (F := F) m ρ).expect (sendCell 2 c) 0 = Nf := expect_send m ρ c 2
theorem expect_recv0 : (haloRd (F := F) m ρ).expect (recvCell 0 c) 0 = Nx := expect_recv m ρ c 0
theorem expect_recv1 : (haloRd (F := F) m ρ).expect (recvCell 1 c) 0 = Nf := expect_recv m ρ c 1
theorem expect_recv2 : (haloRd (F := F) m ρ).expect (recvCell 2 c) 0 = Nf := expect_recv m ρ c 2

/-! ## What a device receives on its own barrier: each neighbour's receive buffer of that axis, and that its receive cell is at round 0 -/
theorem tbl_bar_own0 : (haloRd (F := F) m ρ).payload (barCell c) 0 0
    = iprop((∃ f, ((nbr 0 c : Dev nD) : Thread nD τ).loc cc0_scratch2 ↦{fullShare} f) ∗ reached ER (recvCell 0 (nbr 0 c)) 0) := by
  rw [payload_bar]; dsimp only [barPay]; simp only [rxPts_eq]
theorem tbl_bar_own1 : (haloRd (F := F) m ρ).payload (barCell c) 0 1
    = iprop((∃ f, ((nbr 1 c : Dev nD) : Thread nD τ).loc cc0_scratch3 ↦{fullShare} f) ∗ reached ER (recvCell 1 (nbr 1 c)) 0) := by
  rw [payload_bar]; dsimp only [barPay]; simp only [ryPts_eq]
theorem tbl_bar_own2 : (haloRd (F := F) m ρ).payload (barCell c) 0 2
    = iprop((∃ f, ((nbr 2 c : Dev nD) : Thread nD τ).loc cc0_scratch4 ↦{fullShare} f) ∗ reached ER (recvCell 2 (nbr 2 c)) 0) := by
  rw [payload_bar]; dsimp only [barPay]; simp only [rzPts_eq]

/-! ## What it pays into a neighbour's barrier: its own receive buffer of that axis -/
theorem tbl_bar_pay0 : (haloRd (F := F) m ρ).payload (barCell (nbr 0 c)) 0 0
    = iprop((∃ f, (c : Thread nD τ).loc cc0_scratch2 ↦{fullShare} f) ∗ reached ER (recvCell 0 c) 0) := by
  have h := tbl_bar_own0 m ρ (nbr 0 c); rw [nbr_nbr] at h; exact h
theorem tbl_bar_pay1 : (haloRd (F := F) m ρ).payload (barCell (nbr 1 c)) 0 1
    = iprop((∃ f, (c : Thread nD τ).loc cc0_scratch3 ↦{fullShare} f) ∗ reached ER (recvCell 1 c) 0) := by
  have h := tbl_bar_own1 m ρ (nbr 1 c); rw [nbr_nbr] at h; exact h
theorem tbl_bar_pay2 : (haloRd (F := F) m ρ).payload (barCell (nbr 2 c)) 0 2
    = iprop((∃ f, (c : Thread nD τ).loc cc0_scratch4 ↦{fullShare} f) ∗ reached ER (recvCell 2 c) 0) := by
  have h := tbl_bar_own2 m ρ (nbr 2 c); rw [nbr_nbr] at h; exact h

/-! ## Its receive cells: the neighbour's face landed -/
theorem tbl_recv_own0 : (haloRd (F := F) m ρ).payload (recvCell 0 c) 0 0 = ((c : Thread nD τ).loc cc0_scratch2 ↦{fullShare} landX m ρ c) :=
  (payload_recv m ρ c 0 0).trans (rxPts_eq c _)
theorem tbl_recv_own1 : (haloRd (F := F) m ρ).payload (recvCell 1 c) 0 0 = ((c : Thread nD τ).loc cc0_scratch3 ↦{fullShare} landY m ρ c) :=
  (payload_recv m ρ c 1 0).trans (ryPts_eq c _)
theorem tbl_recv_own2 : (haloRd (F := F) m ρ).payload (recvCell 2 c) 0 0 = ((c : Thread nD τ).loc cc0_scratch4 ↦{fullShare} landZ m ρ c) :=
  (payload_recv m ρ c 2 0).trans (rzPts_eq c _)

/-! ## What it pays into a neighbour's receive cell: its own face, landed there -/
theorem tbl_recv_pay0 : (haloRd (F := F) m ρ).payload (recvCell 0 (nbr 0 c)) 0 0 = (((nbr 0 c : Dev nD) : Thread nD τ).loc cc0_scratch2 ↦{fullShare} faceX m ρ c) := by
  rw [tbl_recv_own0, landX_nbr]
theorem tbl_recv_pay1 : (haloRd (F := F) m ρ).payload (recvCell 1 (nbr 1 c)) 0 0 = (((nbr 1 c : Dev nD) : Thread nD τ).loc cc0_scratch3 ↦{fullShare} faceY m ρ c) := by
  rw [tbl_recv_own1, landY_nbr]
theorem tbl_recv_pay2 : (haloRd (F := F) m ρ).payload (recvCell 2 (nbr 2 c)) 0 0 = (((nbr 2 c : Dev nD) : Thread nD τ).loc cc0_scratch4 ↦{fullShare} faceZ m ρ c) := by
  rw [tbl_recv_own2, landZ_nbr]

/-! ## Its send cells: the source back -/
theorem tbl_send0 : (haloRd (F := F) m ρ).payload (sendCell 0 c) 0 0 = ((sxM c).view.loc (c : Thread nD τ) ↦[(sxM c).view.set]{fullShare} xstg m ρ c) :=
  payload_send m ρ c 0 0
theorem tbl_send1 : (haloRd (F := F) m ρ).payload (sendCell 1 c) 0 0 = ((c : Thread nD τ).loc cc0_scratch0 ↦{fullShare} faceY m ρ c) :=
  (payload_send m ρ c 1 0).trans (syPts_eq m ρ c)
theorem tbl_send2 : (haloRd (F := F) m ρ).payload (sendCell 2 c) 0 0 = ((c : Thread nD τ).loc cc0_scratch1 ↦{fullShare} faceZ m ρ c) :=
  (payload_send m ρ c 2 0).trans (szPts_eq m ρ c)

end Tables

end Cert.KernelIdeal.Halo

end
-- ==== Proof.Lit.lean ====
/-
  The schedule's tables with each cell written out as the pair of its thread and its semaphore.
-/
import proofs.«900806_g7700000000000807_dist_halo3d_v7x_xyz2x2x2_s48_f32_1_alg».proof.Proof.Tables

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! The tables, each cell as the pair (thread, semaphore). -/
section Lit
variable (c : Dev nD)
theorem lS0_duties : (haloRd (F := F) m ρ).duties ((c : Thread nD τ), SemLoc.dma 2) 0 = {0} := duties_send0 m ρ c
theorem lR0_duties : (haloRd (F := F) m ρ).duties ((c : Thread nD τ), SemLoc.dma 5) 0 = {0} := duties_recv0 m ρ c
theorem lS0_amount (d : Fin 3) : (haloRd (F := F) m ρ).amount ((c : Thread nD τ), SemLoc.dma 2) 0 d = Nx := amount_send0 m ρ c d
theorem lR0_amount (d : Fin 3) : (haloRd (F := F) m ρ).amount ((c : Thread nD τ), SemLoc.dma 5) 0 d = Nx := amount_recv0 m ρ c d
theorem lS0_expect : (haloRd (F := F) m ρ).expect ((c : Thread nD τ), SemLoc.dma 2) 0 = Nx := expect_send0 m ρ c
theorem lR0_expect : (haloRd (F := F) m ρ).expect ((c : Thread nD τ), SemLoc.dma 5) 0 = Nx := expect_recv0 m ρ c
theorem lS1_duties : (haloRd (F := F) m ρ).duties ((c : Thread nD τ), SemLoc.dma 3) 0 = {0} := duties_send1 m ρ c
theorem lR1_duties : (haloRd (F := F) m ρ).duties ((c : Thread nD τ), SemLoc.dma 6) 0 = {0} := duties_recv1 m ρ c
theorem lS1_amount (d : Fin 3) : (haloRd (F := F) m ρ).amount ((c : Thread nD τ), SemLoc.dma 3) 0 d = Nf := amount_send1 m ρ c d
theorem lR1_amount (d : Fin 3) : (haloRd (F := F) m ρ).amount ((c : Thread nD τ), SemLoc.dma 6) 0 d = Nf := amount_recv1 m ρ c d
theorem lS1_expect : (haloRd (F := F) m ρ).expect ((c : Thread nD τ), SemLoc.dma 3) 0 = Nf := expect_send1 m ρ c
theorem lR1_expect : (haloRd (F := F) m ρ).expect ((c : Thread nD τ), SemLoc.dma 6) 0 = Nf := expect_recv1 m ρ c
theorem lS2_duties : (haloRd (F := F) m ρ).duties ((c : Thread nD τ), SemLoc.dma 4) 0 = {0} := duties_send2 m ρ c
theorem lR2_duties : (haloRd (F := F) m ρ).duties ((c : Thread nD τ), SemLoc.dma 7) 0 = {0} := duties_recv2 m ρ c
theorem lS2_amount (d : Fin 3) : (haloRd (F := F) m ρ).amount ((c : Thread nD τ), SemLoc.dma 4) 0 d = Nf := amount_send2 m ρ c d
theorem lR2_amount (d : Fin 3) : (haloRd (F := F) m ρ).amount ((c : Thread nD τ), SemLoc.dma 7) 0 d = Nf := amount_recv2 m ρ c d
theorem lS2_expect : (haloRd (F := F) m ρ).expect ((c : Thread nD τ), SemLoc.dma 4) 0 = Nf := expect_send2 m ρ c
theorem lR2_expect : (haloRd (F := F) m ρ).expect ((c : Thread nD τ), SemLoc.dma 7) 0 = Nf := expect_recv2 m ρ c
theorem lR0_own : (haloRd (F := F) m ρ).payload ((c : Thread nD τ), SemLoc.dma 5) 0 0 = ((rxM : Memref sig .tc .vmem S1x48x48 .f32).view.loc (c : Thread nD τ) ↦{fullShare} landX m ρ c) := tbl_recv_own0 m ρ c
theorem lR0_pay : (haloRd (F := F) m ρ).payload (((nbr 0 c : Dev nD) : Thread nD τ), SemLoc.dma 5) 0 0 = (((nbr 0 c : Dev nD) : Thread nD τ).loc cc0_scratch2 ↦{fullShare} faceX m ρ c) := tbl_recv_pay0 m ρ c
theorem lR1_own : (haloRd (F := F) m ρ).payload ((c : Thread nD τ), SemLoc.dma 6) 0 0 = ((ryM : Memref sig .tc .vmem S48x48 .f32).view.loc (c : Thread nD τ) ↦{fullShare} landY m ρ c) := tbl_recv_own1 m ρ c
theorem lR1_pay : (haloRd (F := F) m ρ).payload (((nbr 1 c : Dev nD) : Thread nD τ), SemLoc.dma 6) 0 0 = (((nbr 1 c : Dev nD) : Thread nD τ).loc cc0_scratch3 ↦{fullShare} faceY m ρ c) := tbl_recv_pay1 m ρ c
theorem lR2_own : (haloRd (F := F) m ρ).payload ((c : Thread nD τ), SemLoc.dma 7) 0 0 = ((rzM : Memref sig .tc .vmem S48x48 .f32).view.loc (c : Thread nD τ) ↦{fullShare} landZ m ρ c) := tbl_recv_own2 m ρ c
theorem lR2_pay : (haloRd (F := F) m ρ).payload (((nbr 2 c : Dev nD) : Thread nD τ), SemLoc.dma 7) 0 0 = (((nbr 2 c : Dev nD) : Thread nD τ).loc cc0_scratch4 ↦{fullShare} faceZ m ρ c) := tbl_recv_pay2 m ρ c
theorem lS0_pay : (haloRd (F := F) m ρ).payload ((c : Thread nD τ), SemLoc.dma 2) 0 0 = ((sxM c).view.loc (c : Thread nD τ) ↦[(sxM c).view.set]{fullShare} xstg m ρ c) := tbl_send0 m ρ c
theorem lS1_pay : (haloRd (F := F) m ρ).payload ((c : Thread nD τ), SemLoc.dma 3) 0 0 = ((c : Thread nD τ).loc cc0_scratch0 ↦{fullShare} faceY m ρ c) := tbl_send1 m ρ c
theorem lS2_pay : (haloRd (F := F) m ρ).payload ((c : Thread nD τ), SemLoc.dma 4) 0 0 = ((c : Thread nD τ).loc cc0_scratch1 ↦{fullShare} faceZ m ρ c) := tbl_send2 m ρ c
theorem lB_own0 : (haloRd (F := F) m ρ).payload (barCell c) 0 0 = iprop((∃ f, ((nbr 0 c : Dev nD) : Thread nD τ).loc cc0_scratch2 ↦{fullShare} f) ∗ reached ER (((nbr 0 c : Dev nD) : Thread nD τ), SemLoc.dma 5) 0) := tbl_bar_own0 m ρ c
theorem lB_pay0 : (haloRd (F := F) m ρ).payload (barCell (nbr 0 c)) 0 0 = iprop((∃ f, (c : Thread nD τ).loc cc0_scratch2 ↦{fullShare} f) ∗ reached ER ((c : Thread nD τ), SemLoc.dma 5) 0) := tbl_bar_pay0 m ρ c
theorem lB_own1 : (haloRd (F := F) m ρ).payload (barCell c) 0 1 = iprop((∃ f, ((nbr 1 c : Dev nD) : Thread nD τ).loc cc0_scratch3 ↦{fullShare} f) ∗ reached ER (((nbr 1 c : Dev nD) : Thread nD τ), SemLoc.dma 6) 0) := tbl_bar_own1 m ρ c
theorem lB_pay1 : (haloRd (F := F) m ρ).payload (barCell (nbr 1 c)) 0 1 = iprop((∃ f, (c : Thread nD τ).loc cc0_scratch3 ↦{fullShare} f) ∗ reached ER ((c : Thread nD τ), SemLoc.dma 6) 0) := tbl_bar_pay1 m ρ c
theorem lB_own2 : (haloRd (F := F) m ρ).payload (barCell c) 0 2 = iprop((∃ f, ((nbr 2 c : Dev nD) : Thread nD τ).loc cc0_scratch4 ↦{fullShare} f) ∗ reached ER (((nbr 2 c : Dev nD) : Thread nD τ), SemLoc.dma 7) 0) := tbl_bar_own2 m ρ c
theorem lB_pay2 : (haloRd (F := F) m ρ).payload (barCell (nbr 2 c)) 0 2 = iprop((∃ f, (c : Thread nD τ).loc cc0_scratch4 ↦{fullShare} f) ∗ reached ER ((c : Thread nD τ), SemLoc.dma 7) 0) := tbl_bar_pay2 m ρ c
end Lit

end Cert.KernelIdeal.Halo

end
-- ==== Proof.Sends.lean ====
/-
  The three face transfers, each as one step of a device's body.  A device sends its x slab, its y and its z send buffer to
  the neighbour along that axis, into that neighbour's receive buffer, which the neighbour's barrier signal has handed it.
  The transfer pays two duties at once: the credit of the device's own send cell, whose payload is the source back, and the
  credit of the neighbour's receive cell, whose payload is the receive buffer holding the device's face (a whole buffer
  written unmasked holds exactly what was read from the source).  Afterwards the device no longer owes that receive credit
  and holds the credit to wait on its own send cell.
-/
import proofs.«900806_g7700000000000807_dist_halo3d_v7x_xyz2x2x2_s48_f32_1_alg».proof.Proof.Lit
import proofs.«900806_g7700000000000807_dist_halo3d_v7x_xyz2x2x2_s48_f32_1_alg».proof.Proof.Data

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 7 → ℕ)

/-! ## A whole buffer's view covers every index -/
omit [FloatOps F] in
private theorem rx_set' : (rxM : Memref sig .tc .vmem S1x48x48 .f32).view.set = Finset.univ := View.set_whole _
omit [FloatOps F] in
private theorem ry_set' : (ryM : Memref sig .tc .vmem S48x48 .f32).view.set = Finset.univ := View.set_whole _
omit [FloatOps F] in
private theorem rz_set' : (rzM : Memref sig .tc .vmem S48x48 .f32).view.set = Finset.univ := View.set_whole _
omit [FloatOps F] in
private theorem sy_set' : (syM : Memref sig .tc .vmem S48x48 .f32).view.set = Finset.univ := View.set_whole _
omit [FloatOps F] in
private theorem sz_set' : (szM : Memref sig .tc .vmem S48x48 .f32).view.set = Finset.univ := View.set_whole _

/-- The x transfer. -/
theorem wp_send_x (c n : Dev nD) (hn : n = nbr 0 c)
    {hsc : (rxM : Memref sig (Dev.tc n : Thread nD τ).2.kind .vmem S1x48x48 .f32).view.ref.isScScratch = false}
    {hsrc : (sxM c).view.WordExact} {hdst : (rxM : Memref sig .tc .vmem S1x48x48 .f32).view.WordExact}
    {hsem : DmaTarget.Typed .vmem (.dma 5) (.remote (Dev.tc n : Thread nD τ) (rxM : Memref sig .tc .vmem S1x48x48 .f32) (.dma 2) hsc)}
    {α : Type} {Q : α → sProp 𝕄} {k : PUnit → Prog (TpuEff nD τ sig (Elt F) Λ₀ .tc) α}
    (fn : Buf (Elt F) ((rxM : Memref sig .tc .vmem S1x48x48 .f32).view.loc ((nbr 0 c : Dev nD) : Thread nD τ))) (O : CellTallies nD τ sig Unit) (W : Waits sig Unit) :
    iprop(cellInv ER (haloRd m ρ) (K (c, 1)) ((c : Thread nD τ), SemLoc.dma 2) ∗ cellInv ER (haloRd m ρ) (K (nbr 0 c, 4)) (((nbr 0 c : Dev nD) : Thread nD τ), SemLoc.dma 5)
        ∗ ((sxM c).view.loc (c : Thread nD τ) ↦[(sxM c).view.set]{fullShare} xstg m ρ c)
        ∗ ((rxM : Memref sig .tc .vmem S1x48x48 .f32).view.loc ((nbr 0 c : Dev nD) : Thread nD τ) ↦{fullShare} fn)
        ∗ owes (c : Thread nD τ) (O + tallyAt (((nbr 0 c : Dev nD) : Thread nD τ), SemLoc.dma 5) () Nx) W
        ∗ dutyTok ER ((c : Thread nD τ), SemLoc.dma 2) 0 0 ∗ reached ER ((c : Thread nD τ), SemLoc.dma 2) 0
        ∗ dutyTok ER (((nbr 0 c : Dev nD) : Thread nD τ), SemLoc.dma 5) 0 0 ∗ reached ER (((nbr 0 c : Dev nD) : Thread nD τ), SemLoc.dma 5) 0)
      ⊢ iprop(((cred (tallyAt ((c : Thread nD τ), SemLoc.dma 2) () Nx) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sxM c) (.remote (Dev.tc n : Thread nD τ) rxM (.dma 2) hsc) (.dma 5) hsrc hdst hsem) k) Q) := by
  subst hn
  -- a whole buffer's view covers every index: the same facts over the views' own element sets
  have ed : ((rxM : Memref sig .tc .vmem S1x48x48 .f32).view.loc ((nbr 0 c : Dev nD) : Thread nD τ) ↦{fullShare} fn : sProp 𝕄)
      = ((rxM : Memref sig .tc .vmem S1x48x48 .f32).view.loc ((nbr 0 c : Dev nD) : Thread nD τ) ↦[(rxM : Memref sig .tc .vmem S1x48x48 .f32).view.set]{fullShare} fn) := by
    rw [rx_set']

  rw [ed]
  refine wp_send_pointsTo 𝒱₀ ER (haloRd m ρ) (c : Thread nD τ) none
    (c' := ((nbr 0 c : Dev nD) : Thread nD τ)) (src := sxM c) (dst := (rxM : Memref sig .tc .vmem S1x48x48 .f32))
    (q := fullShare) (fs := xstg m ρ c) (fd := fn) (sS := SemLoc.dma 2) (sem := SemLoc.dma 5)
    (r₁ := 0) (r₂ := 0) (d₁ := 0) (d₂ := 0) (κ₁ := K (c, 1)) (κ₂ := K (nbr 0 c, 4))
    (by rw [lS0_duties]; exact Finset.mem_singleton_self _) (by rw [lR0_duties]; exact Finset.mem_singleton_self _)
    () () Nx rfl (lS0_amount m ρ c 0) (lR0_amount m ρ (nbr 0 c) 0) O rfl ?_ ?_
  · -- the source comes back with the send cell's credit
    rw [lS0_pay]
  · -- the neighbour's receive buffer, written whole, holds what was read from the source: the device's face
    rw [lR0_pay, rx_set', View.write_whole_univ]; exact Entails.refl _

/-- The y transfer. -/
theorem wp_send_y (c n : Dev nD) (hn : n = nbr 1 c)
    {hsc : (ryM : Memref sig (Dev.tc n : Thread nD τ).2.kind .vmem S48x48 .f32).view.ref.isScScratch = false}
    {hsrc : ((syM : Memref sig .tc .vmem S48x48 .f32)).view.WordExact} {hdst : (ryM : Memref sig .tc .vmem S48x48 .f32).view.WordExact}
    {hsem : DmaTarget.Typed .vmem (.dma 6) (.remote (Dev.tc n : Thread nD τ) (ryM : Memref sig .tc .vmem S48x48 .f32) (.dma 3) hsc)}
    {α : Type} {Q : α → sProp 𝕄} {k : PUnit → Prog (TpuEff nD τ sig (Elt F) Λ₀ .tc) α}
    (fn : Buf (Elt F) ((ryM : Memref sig .tc .vmem S48x48 .f32).view.loc ((nbr 1 c : Dev nD) : Thread nD τ))) (O : CellTallies nD τ sig Unit) (W : Waits sig Unit) :
    iprop(cellInv ER (haloRd m ρ) (K (c, 2)) ((c : Thread nD τ), SemLoc.dma 3) ∗ cellInv ER (haloRd m ρ) (K (nbr 1 c, 5)) (((nbr 1 c : Dev nD) : Thread nD τ), SemLoc.dma 6)
        ∗ ((syM : Memref sig .tc .vmem S48x48 .f32).view.loc (c : Thread nD τ) ↦{fullShare} faceY m ρ c)
        ∗ ((ryM : Memref sig .tc .vmem S48x48 .f32).view.loc ((nbr 1 c : Dev nD) : Thread nD τ) ↦{fullShare} fn)
        ∗ owes (c : Thread nD τ) (O + tallyAt (((nbr 1 c : Dev nD) : Thread nD τ), SemLoc.dma 6) () Nf) W
        ∗ dutyTok ER ((c : Thread nD τ), SemLoc.dma 3) 0 0 ∗ reached ER ((c : Thread nD τ), SemLoc.dma 3) 0
        ∗ dutyTok ER (((nbr 1 c : Dev nD) : Thread nD τ), SemLoc.dma 6) 0 0 ∗ reached ER (((nbr 1 c : Dev nD) : Thread nD τ), SemLoc.dma 6) 0)
      ⊢ iprop(((cred (tallyAt ((c : Thread nD τ), SemLoc.dma 3) () Nf) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((syM : Memref sig .tc .vmem S48x48 .f32)) (.remote (Dev.tc n : Thread nD τ) ryM (.dma 3) hsc) (.dma 6) hsrc hdst hsem) k) Q) := by
  subst hn
  -- a whole buffer's view covers every index: the same facts over the views' own element sets
  have ed : ((ryM : Memref sig .tc .vmem S48x48 .f32).view.loc ((nbr 1 c : Dev nD) : Thread nD τ) ↦{fullShare} fn : sProp 𝕄)
      = ((ryM : Memref sig .tc .vmem S48x48 .f32).view.loc ((nbr 1 c : Dev nD) : Thread nD τ) ↦[(ryM : Memref sig .tc .vmem S48x48 .f32).view.set]{fullShare} fn) := by
    rw [ry_set']
  have es : ((syM : Memref sig .tc .vmem S48x48 .f32).view.loc (c : Thread nD τ) ↦{fullShare} faceY m ρ c : sProp 𝕄)
      = ((syM : Memref sig .tc .vmem S48x48 .f32).view.loc (c : Thread nD τ) ↦[(syM : Memref sig .tc .vmem S48x48 .f32).view.set]{fullShare} faceY m ρ c) := by
    rw [sy_set']
  rw [es, ed]
  refine wp_send_pointsTo 𝒱₀ ER (haloRd m ρ) (c : Thread nD τ) none
    (c' := ((nbr 1 c : Dev nD) : Thread nD τ)) (src := (syM : Memref sig .tc .vmem S48x48 .f32)) (dst := (ryM : Memref sig .tc .vmem S48x48 .f32))
    (q := fullShare) (fs := faceY m ρ c) (fd := fn) (sS := SemLoc.dma 3) (sem := SemLoc.dma 6)
    (r₁ := 0) (r₂ := 0) (d₁ := 0) (d₂ := 0) (κ₁ := K (c, 2)) (κ₂ := K (nbr 1 c, 5))
    (by rw [lS1_duties]; exact Finset.mem_singleton_self _) (by rw [lR1_duties]; exact Finset.mem_singleton_self _)
    () () Nf rfl (lS1_amount m ρ c 0) (lR1_amount m ρ (nbr 1 c) 0) O rfl ?_ ?_
  · -- the source comes back with the send cell's credit
    rw [lS1_pay, sy_set']
  · -- the neighbour's receive buffer, written whole, holds what was read from the source: the device's face
    rw [lR1_pay, ry_set', View.write_whole_univ, View.read_whole]

/-- The z transfer. -/
theorem wp_send_z (c n : Dev nD) (hn : n = nbr 2 c)
    {hsc : (rzM : Memref sig (Dev.tc n : Thread nD τ).2.kind .vmem S48x48 .f32).view.ref.isScScratch = false}
    {hsrc : ((szM : Memref sig .tc .vmem S48x48 .f32)).view.WordExact} {hdst : (rzM : Memref sig .tc .vmem S48x48 .f32).view.WordExact}
    {hsem : DmaTarget.Typed .vmem (.dma 7) (.remote (Dev.tc n : Thread nD τ) (rzM : Memref sig .tc .vmem S48x48 .f32) (.dma 4) hsc)}
    {α : Type} {Q : α → sProp 𝕄} {k : PUnit → Prog (TpuEff nD τ sig (Elt F) Λ₀ .tc) α}
    (fn : Buf (Elt F) ((rzM : Memref sig .tc .vmem S48x48 .f32).view.loc ((nbr 2 c : Dev nD) : Thread nD τ))) (O : CellTallies nD τ sig Unit) (W : Waits sig Unit) :
    iprop(cellInv ER (haloRd m ρ) (K (c, 3)) ((c : Thread nD τ), SemLoc.dma 4) ∗ cellInv ER (haloRd m ρ) (K (nbr 2 c, 6)) (((nbr 2 c : Dev nD) : Thread nD τ), SemLoc.dma 7)
        ∗ ((szM : Memref sig .tc .vmem S48x48 .f32).view.loc (c : Thread nD τ) ↦{fullShare} faceZ m ρ c)
        ∗ ((rzM : Memref sig .tc .vmem S48x48 .f32).view.loc ((nbr 2 c : Dev nD) : Thread nD τ) ↦{fullShare} fn)
        ∗ owes (c : Thread nD τ) (O + tallyAt (((nbr 2 c : Dev nD) : Thread nD τ), SemLoc.dma 7) () Nf) W
        ∗ dutyTok ER ((c : Thread nD τ), SemLoc.dma 4) 0 0 ∗ reached ER ((c : Thread nD τ), SemLoc.dma 4) 0
        ∗ dutyTok ER (((nbr 2 c : Dev nD) : Thread nD τ), SemLoc.dma 7) 0 0 ∗ reached ER (((nbr 2 c : Dev nD) : Thread nD τ), SemLoc.dma 7) 0)
      ⊢ iprop(((cred (tallyAt ((c : Thread nD τ), SemLoc.dma 4) () Nf) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((szM : Memref sig .tc .vmem S48x48 .f32)) (.remote (Dev.tc n : Thread nD τ) rzM (.dma 4) hsc) (.dma 7) hsrc hdst hsem) k) Q) := by
  subst hn
  -- a whole buffer's view covers every index: the same facts over the views' own element sets
  have ed : ((rzM : Memref sig .tc .vmem S48x48 .f32).view.loc ((nbr 2 c : Dev nD) : Thread nD τ) ↦{fullShare} fn : sProp 𝕄)
      = ((rzM : Memref sig .tc .vmem S48x48 .f32).view.loc ((nbr 2 c : Dev nD) : Thread nD τ) ↦[(rzM : Memref sig .tc .vmem S48x48 .f32).view.set]{fullShare} fn) := by
    rw [rz_set']
  have es : ((szM : Memref sig .tc .vmem S48x48 .f32).view.loc (c : Thread nD τ) ↦{fullShare} faceZ m ρ c : sProp 𝕄)
      = ((szM : Memref sig .tc .vmem S48x48 .f32).view.loc (c : Thread nD τ) ↦[(szM : Memref sig .tc .vmem S48x48 .f32).view.set]{fullShare} faceZ m ρ c) := by
    rw [sz_set']
  rw [es, ed]
  refine wp_send_pointsTo 𝒱₀ ER (haloRd m ρ) (c : Thread nD τ) none
    (c' := ((nbr 2 c : Dev nD) : Thread nD τ)) (src := (szM : Memref sig .tc .vmem S48x48 .f32)) (dst := (rzM : Memref sig .tc .vmem S48x48 .f32))
    (q := fullShare) (fs := faceZ m ρ c) (fd := fn) (sS := SemLoc.dma 4) (sem := SemLoc.dma 7)
    (r₁ := 0) (r₂ := 0) (d₁ := 0) (d₂ := 0) (κ₁ := K (c, 3)) (κ₂ := K (nbr 2 c, 6))
    (by rw [lS2_duties]; exact Finset.mem_singleton_self _) (by rw [lR2_duties]; exact Finset.mem_singleton_self _)
    () () Nf rfl (lS2_amount m ρ c 0) (lR2_amount m ρ (nbr 2 c) 0) O rfl ?_ ?_
  · -- the source comes back with the send cell's credit
    rw [lS2_pay, sz_set']
  · -- the neighbour's receive buffer, written whole, holds what was read from the source: the device's face
    rw [lR2_pay, rz_set', View.write_whole_univ, View.read_whole]

end Cert.KernelIdeal.Halo

end
-- ==== Proof.Glue.lean ====
/-
  What a send buffer holds after the body's two guarded stores.  On each of the axes y and z the body stores one of two
  faces of the staged block into the send buffer, the first when the device's mesh coordinate on that axis is 0, the
  second when it is 1.  Each store goes through the whole-size rectangle at zero offsets of the whole buffer, so it
  replaces the contents; exactly one of the two guards holds; so the buffer ends holding the face of that coordinate,
  whatever it held before.
-/
import proofs.«900806_g7700000000000807_dist_halo3d_v7x_xyz2x2x2_s48_f32_1_alg».proof.Proof.Cells
import Idealize.ShloMosaic.Lib.Writes

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The zero offsets, as a constant function. -/
private theorem zero_off : (![0, 0] : Fin 2 → Nat) = fun _ => 0 := funext fun a => by fin_cases a <;> rfl

omit [FloatOps F] in
/-- One unmasked store through the whole-size rectangle at zero offsets of the y send buffer replaces its contents. -/
private theorem writeY (inb : ∀ a, (![0, 0] : Fin 2 → Nat) a + S48x48.size a ≤ S48x48.size a)
    (f : (cc0_scratch0 : Ref sig .tc).ty.Contents (Elt F)) (w : FVec F S48x48 .f32) :
    (syM : Memref sig .tc .vmem S48x48 .f32).view.writes (Elt F) f [⟨Rect.unit ![0, 0] S48x48.size inb, w⟩] = w :=
  Memref.write_access_unit_zero_univ (Elt F) cc0_scratch0 zero_off inb f w

omit [FloatOps F] in
/-- The same for the z send buffer. -/
private theorem writeZ (inb : ∀ a, (![0, 0] : Fin 2 → Nat) a + S48x48.size a ≤ S48x48.size a)
    (f : (cc0_scratch1 : Ref sig .tc).ty.Contents (Elt F)) (w : FVec F S48x48 .f32) :
    (szM : Memref sig .tc .vmem S48x48 .f32).view.writes (Elt F) f [⟨Rect.unit ![0, 0] S48x48.size inb, w⟩] = w :=
  Memref.write_access_unit_zero_univ (Elt F) cc0_scratch1 zero_off inb f w

/-- The y send buffer after the two guarded stores: the device's y face. -/
theorem sendY_eq (c : Dev nD) (w0 w1 : BitVec 1) (h0 : w0 = 1#1 ↔ by' c = 0) (h1 : w1 = 1#1 ↔ by' c = 1)
    (f0 : (cc0_scratch0 : Ref sig .tc).ty.Contents (Elt F)) (v0 v1 : FVec F S48x48 .f32)
    (hv0 : v0 = k0_pay2 (xstg m ρ c)) (hv1 : v1 = k0_pay3 (xstg m ρ c))
    (inb : ∀ a, (![0, 0] : Fin 2 → Nat) a + S48x48.size a ≤ S48x48.size a) :
    (if hc : w1 = 1#1 then
      (syM : Memref sig .tc .vmem S48x48 .f32).view.writes (Elt F)
        (if hc : w0 = 1#1 then (syM : Memref sig .tc .vmem S48x48 .f32).view.writes (Elt F) f0 [⟨Rect.unit ![0, 0] S48x48.size inb, v0⟩] else f0)
        [⟨Rect.unit ![0, 0] S48x48.size inb, v1⟩]
    else
      if hc : w0 = 1#1 then (syM : Memref sig .tc .vmem S48x48 .f32).view.writes (Elt F) f0 [⟨Rect.unit ![0, 0] S48x48.size inb, v0⟩] else f0)
      = faceY m ρ c := by
  have hb := by_lt c
  unfold faceY
  rcases (by omega : by' c = 0 ∨ by' c = 1) with e | e
  · -- coordinate 0: only the first store happens
    have c0 : w0 = 1#1 := h0.mpr e
    have c1 : ¬ w1 = 1#1 := fun h => by have := h1.mp h; omega
    rw [dif_neg c1, dif_pos c0, writeY, if_pos e, hv0]
  · -- coordinate 1: the second store happens, over whatever the first left
    have c1 : w1 = 1#1 := h1.mpr e
    rw [dif_pos c1, writeY, if_neg (by omega), hv1]

/-- The z send buffer after the two guarded stores: the device's z face. -/
theorem sendZ_eq (c : Dev nD) (w0 w1 : BitVec 1) (h0 : w0 = 1#1 ↔ bz c = 0) (h1 : w1 = 1#1 ↔ bz c = 1)
    (f1 : (cc0_scratch1 : Ref sig .tc).ty.Contents (Elt F)) (v0 v1 : FVec F S48x48 .f32)
    (hv0 : v0 = k0_pay4 (xstg m ρ c)) (hv1 : v1 = k0_pay5 (xstg m ρ c))
    (inb : ∀ a, (![0, 0] : Fin 2 → Nat) a + S48x48.size a ≤ S48x48.size a) :
    (if hc : w1 = 1#1 then
      (szM : Memref sig .tc .vmem S48x48 .f32).view.writes (Elt F)
        (if hc : w0 = 1#1 then (szM : Memref sig .tc .vmem S48x48 .f32).view.writes (Elt F) f1 [⟨Rect.unit ![0, 0] S48x48.size inb, v0⟩] else f1)
        [⟨Rect.unit ![0, 0] S48x48.size inb, v1⟩]
    else
      if hc : w0 = 1#1 then (szM : Memref sig .tc .vmem S48x48 .f32).view.writes (Elt F) f1 [⟨Rect.unit ![0, 0] S48x48.size inb, v0⟩] else f1)
      = faceZ m ρ c := by
  have hb := bz_lt c
  unfold faceZ
  rcases (by omega : bz c = 0 ∨ bz c = 1) with e | e
  · have c0 : w0 = 1#1 := h0.mpr e
    have c1 : ¬ w1 = 1#1 := fun h => by have := h1.mp h; omega
    rw [dif_neg c1, dif_pos c0, writeZ, if_pos e, hv0]
  · have c1 : w1 = 1#1 := h1.mpr e
    rw [dif_pos c1, writeZ, if_neg (by omega), hv1]

end Cert.KernelIdeal.Halo

end
-- ==== Proof.Mirror.lean ====
/-
  What the body leaves in a device's result buffer, and that it is the result block `outAt`.

  The body stores the local stencil over the whole buffer, then, under six conditions on the device's mesh coordinates
  (one per face: lower / upper half of the mesh along x, y, z), adds the received face to the touching face of the buffer,
  and last, under the same six conditions, stores zeros on the faces that lie on the whole array's boundary.  With the
  device left open, the contents after these twelve guarded stores are a tree of case distinctions on the six condition
  words (`fin`): at each word, taken, the zeros stored through that word's boundary face over the subtree; at the leaves
  the additions taken on the path, in program order.  What each addition loads was read from the buffer as the additions
  before it left it (`S1` … `S5`, one case distinction per addition).  The tree is the straight sequence of the twelve
  guarded stores (`fin_eq_lin`); read entry by entry, each guarded store is an `if` on the entry's coordinates; and with
  each word read as its condition on the device's coordinates, the entry is `outOf`'s.
-/
import proofs.«900806_g7700000000000807_dist_halo3d_v7x_xyz2x2x2_s48_f32_1_alg».proof.Proof.Out
import Idealize.ShloMosaic.Lib.Writes
import Idealize.ShloMosaic.Lib.WritesUnit
import Idealize.ShloMosaic.Lib.ValueIdx
import Idealize.ShloMosaic.Lib.Pipeline.Value
import Idealize.ShloMosaic.Lib.Exec.Geometry

noncomputable section

namespace Cert.KernelIdeal.Halo

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The contents the body leaves, as a term -/

section Terms

variable (c : Dev nD) (g1 : Buf (Elt F) ((c : Thread nD τ).loc cc0_stg1_0)) (r : FVec F S48x48x48 .f32)
  (w129 w132 w135 w138 w141 w144 : BitVec 1)

/-- The body's first store: the local stencil, through the whole buffer. -/
def L0 : List (View.Piece (Elt F) S48x48x48 .f32) :=
  [⟨Rect.unit ![0, 0, 0] S48x48x48.size inb_S48x48x48_S48x48x48_0_0_0, r⟩]

/-- The buffer after it. -/
def S0 : Buf (Elt F) ((c : Thread nD τ).loc cc0_stg1_0) :=
  (oM : Memref sig .tc .vmem S48x48x48 .f32).view.writes (Elt F) g1 (L0 r)

/-- The x face received, added to row 47 (lower half of the mesh along x). -/
def a10 : FVec F S1x48x48 .f32 :=
  k0_pay10 ((oM : Memref sig .tc .vmem S48x48x48 .f32).view.readCov (L0 r) (Rect.unit (s := S48x48x48) ![47, 0, 0] S1x48x48.size inb_S48x48x48_S1x48x48_47_0_0).toLoadRect)
    (View.readAt (Elt F) (rxM : Memref sig .tc .vmem S1x48x48 .f32).view (Rect.unit ![0, 0, 0] S1x48x48.size inb_S1x48x48_S1x48x48_0_0_0).toLoadRect (landX m ρ c))

def S1 : Buf (Elt F) ((c : Thread nD τ).loc cc0_stg1_0) :=
  if hc : w129 = 1#1 then
    (oM : Memref sig .tc .vmem S48x48x48 .f32).view.writes (Elt F) g1
      (⟨Rect.unit ![47, 0, 0] S1x48x48.size inb_S48x48x48_S1x48x48_47_0_0, a10 m ρ c r⟩ :: L0 r)
  else (oM : Memref sig .tc .vmem S48x48x48 .f32).view.writes (Elt F) g1 (L0 r)

/-- The x face received, added to row 0 (upper half). -/
def a11 : FVec F S1x48x48 .f32 :=
  k0_pay11 (View.readAt (Elt F) (oM : Memref sig .tc .vmem S48x48x48 .f32).view (Rect.unit (s := S48x48x48) ![0, 0, 0] S1x48x48.size inb_S48x48x48_S1x48x48_0_0_0).toLoadRect (S1 m ρ c g1 r w129))
    (View.readAt (Elt F) (rxM : Memref sig .tc .vmem S1x48x48 .f32).view (Rect.unit ![0, 0, 0] S1x48x48.size inb_S1x48x48_S1x48x48_0_0_0).toLoadRect (landX m ρ c))

def S2 : Buf (Elt F) ((c : Thread nD τ).loc cc0_stg1_0) :=
  if hc : w132 = 1#1 then
    (oM : Memref sig .tc .vmem S48x48x48 .f32).view.writes (Elt F) (S1 m ρ c g1 r w129)
      [⟨Rect.unit ![0, 0, 0] S1x48x48.size inb_S48x48x48_S1x48x48_0_0_0, a11 m ρ c g1 r w129⟩]
  else S1 m ρ c g1 r w129

/-- The y face received, added to row 47 of axis 1. -/
def a12 : FVec F S48x1x48 .f32 :=
  k0_pay12 (View.readAt (Elt F) (oM : Memref sig .tc .vmem S48x48x48 .f32).view (Rect.unit (s := S48x48x48) ![0, 47, 0] S48x1x48.size inb_S48x48x48_S48x1x48_0_47_0).toLoadRect (S2 m ρ c g1 r w129 w132))
    (View.readAt (Elt F) (ryM : Memref sig .tc .vmem S48x48 .f32).view (Rect.unit ![0, 0] S48x48.size inb_S48x48_S48x48_0_0).toLoadRect (landY m ρ c))

def S3 : Buf (Elt F) ((c : Thread nD τ).loc cc0_stg1_0) :=
  if hc : w135 = 1#1 then
    (oM : Memref sig .tc .vmem S48x48x48 .f32).view.writes (Elt F) (S2 m ρ c g1 r w129 w132)
      [⟨Rect.unit ![0, 47, 0] S48x1x48.size inb_S48x48x48_S48x1x48_0_47_0, a12 m ρ c g1 r w129 w132⟩]
  else S2 m ρ c g1 r w129 w132

/-- The y face received, added to row 0 of axis 1. -/
def a13 : FVec F S48x1x48 .f32 :=
  k0_pay13 (View.readAt (Elt F) (oM : Memref sig .tc .vmem S48x48x48 .f32).view (Rect.unit (s := S48x48x48) ![0, 0, 0] S48x1x48.size inb_S48x48x48_S48x1x48_0_0_0).toLoadRect (S3 m ρ c g1 r w129 w132 w135))
    (View.readAt (Elt F) (ryM : Memref sig .tc .vmem S48x48 .f32).view (Rect.unit ![0, 0] S48x48.size inb_S48x48_S48x48_0_0).toLoadRect (landY m ρ c))

def S4 : Buf (Elt F) ((c : Thread nD τ).loc cc0_stg1_0) :=
  if hc : w138 = 1#1 then
    (oM : Memref sig .tc .vmem S48x48x48 .f32).view.writes (Elt F) (S3 m ρ c g1 r w129 w132 w135)
      [⟨Rect.unit ![0, 0, 0] S48x1x48.size inb_S48x48x48_S48x1x48_0_0_0, a13 m ρ c g1 r w129 w132 w135⟩]
  else S3 m ρ c g1 r w129 w132 w135

/-- The z face received, added to row 47 of axis 2. -/
def a14 : FVec F S48x48x1 .f32 :=
  k0_pay14 (View.readAt (Elt F) (oM : Memref sig .tc .vmem S48x48x48 .f32).view (Rect.unit (s := S48x48x48) ![0, 0, 47] S48x48x1.size inb_S48x48x48_S48x48x1_0_0_47).toLoadRect (S4 m ρ c g1 r w129 w132 w135 w138))
    (View.readAt (Elt F) (rzM : Memref sig .tc .vmem S48x48 .f32).view (Rect.unit ![0, 0] S48x48.size inb_S48x48_S48x48_0_0).toLoadRect (landZ m ρ c))

def S5 : Buf (Elt F) ((c : Thread nD τ).loc cc0_stg1_0) :=
  if hc : w141 = 1#1 then
    (oM : Memref sig .tc .vmem S48x48x48 .f32).view.writes (Elt F) (S4 m ρ c g1 r w129 w132 w135 w138)
      [⟨Rect.unit ![0, 0, 47] S48x48x1.size inb_S48x48x48_S48x48x1_0_0_47, a14 m ρ c g1 r w129 w132 w135 w138⟩]
  else S4 m ρ c g1 r w129 w132 w135 w138

/-- The z face received, added to row 0 of axis 2. -/
def a15 : FVec F S48x48x1 .f32 :=
  k0_pay15 (View.readAt (Elt F) (oM : Memref sig .tc .vmem S48x48x48 .f32).view (Rect.unit (s := S48x48x48) ![0, 0, 0] S48x48x1.size inb_S48x48x48_S48x48x1_0_0_0).toLoadRect (S5 m ρ c g1 r w129 w132 w135 w138 w141))
    (View.readAt (Elt F) (rzM : Memref sig .tc .vmem S48x48 .f32).view (Rect.unit ![0, 0] S48x48.size inb_S48x48_S48x48_0_0).toLoadRect (landZ m ρ c))

def S6 : Buf (Elt F) ((c : Thread nD τ).loc cc0_stg1_0) :=
  if hc : w144 = 1#1 then
    (oM : Memref sig .tc .vmem S48x48x48 .f32).view.writes (Elt F) (S5 m ρ c g1 r w129 w132 w135 w138 w141)
      [⟨Rect.unit ![0, 0, 0] S48x48x1.size inb_S48x48x48_S48x48x1_0_0_0, a15 m ρ c g1 r w129 w132 w135 w138 w141⟩]
  else S5 m ρ c g1 r w129 w132 w135 w138 w141

/-- A leaf of the tree: the additions taken on the path (`bN`: the N-th was), in program order. -/
def leaf1 (b1 : Bool) : Buf (Elt F) ((c : Thread nD τ).loc cc0_stg1_0) :=
  bif b1 then
    (oM : Memref sig .tc .vmem S48x48x48 .f32).view.writes (Elt F) g1
      (⟨Rect.unit ![47, 0, 0] S1x48x48.size inb_S48x48x48_S1x48x48_47_0_0, a10 m ρ c r⟩ :: L0 r)
  else (oM : Memref sig .tc .vmem S48x48x48 .f32).view.writes (Elt F) g1 (L0 r)
def leaf2 (b1 b2 : Bool) : Buf (Elt F) ((c : Thread nD τ).loc cc0_stg1_0) :=
  bif b2 then
    (oM : Memref sig .tc .vmem S48x48x48 .f32).view.writes (Elt F) (leaf1 m ρ c g1 r b1)
      [⟨Rect.unit ![0, 0, 0] S1x48x48.size inb_S48x48x48_S1x48x48_0_0_0, a11 m ρ c g1 r w129⟩]
  else leaf1 m ρ c g1 r b1
def leaf3 (b1 b2 b3 : Bool) : Buf (Elt F) ((c : Thread nD τ).loc cc0_stg1_0) :=
  bif b3 then
    (oM : Memref sig .tc .vmem S48x48x48 .f32).view.writes (Elt F) (leaf2 m ρ c g1 r w129 b1 b2)
      [⟨Rect.unit ![0, 47, 0] S48x1x48.size inb_S48x48x48_S48x1x48_0_47_0, a12 m ρ c g1 r w129 w132⟩]
  else leaf2 m ρ c g1 r w129 b1 b2
def leaf4 (b1 b2 b3 b4 : Bool) : Buf (Elt F) ((c : Thread nD τ).loc cc0_stg1_0) :=
  bif b4 then
    (oM : Memref sig .tc .vmem S48x48x48 .f32).view.writes (Elt F) (leaf3 m ρ c g1 r w129 w132 b1 b2 b3)
      [⟨Rect.unit ![0, 0, 0] S48x1x48.size inb_S48x48x48_S48x1x48_0_0_0, a13 m ρ c g1 r w129 w132 w135⟩]
  else leaf3 m ρ c g1 r w129 w132 b1 b2 b3
def leaf5 (b1 b2 b3 b4 b5 : Bool) : Buf (Elt F) ((c : Thread nD τ).loc cc0_stg1_0) :=
  bif b5 then
    (oM : Memref sig .tc .vmem S48x48x48 .f32).view.writes (Elt F) (leaf4 m ρ c g1 r w129 w132 w135 b1 b2 b3 b4)
      [⟨Rect.unit ![0, 0, 47] S48x48x1.size inb_S48x48x48_S48x48x1_0_0_47, a14 m ρ c g1 r w129 w132 w135 w138⟩]
  else leaf4 m ρ c g1 r w129 w132 w135 b1 b2 b3 b4
def leaf6 (b1 b2 b3 b4 b5 b6 : Bool) : Buf (Elt F) ((c : Thread nD τ).loc cc0_stg1_0) :=
  bif b6 then
    (oM : Memref sig .tc .vmem S48x48x48 .f32).view.writes (Elt F) (leaf5 m ρ c g1 r w129 w132 w135 w138 b1 b2 b3 b4 b5)
      [⟨Rect.unit ![0, 0, 0] S48x48x1.size inb_S48x48x48_S48x48x1_0_0_0, a15 m ρ c g1 r w129 w132 w135 w138 w141⟩]
  else leaf5 m ρ c g1 r w129 w132 w135 w138 b1 b2 b3 b4 b5

/-- The tree, from the innermost word out: at each word, taken, the zeros stored through its boundary face. -/
def fin1 (b2 b3 b4 b5 b6 : Bool) : Buf (Elt F) ((c : Thread nD τ).loc cc0_stg1_0) :=
  if hc : w129 = 1#1 then
    (oM : Memref sig .tc .vmem S48x48x48 .f32).view.writes (Elt F) (leaf6 m ρ c g1 r w129 w132 w135 w138 w141 true b2 b3 b4 b5 b6)
      [⟨Rect.unit ![0, 0, 0] S1x48x48.size inb_S48x48x48_S1x48x48_0_0_0, k0_pay6⟩]
  else leaf6 m ρ c g1 r w129 w132 w135 w138 w141 false b2 b3 b4 b5 b6
def fin2 (b3 b4 b5 b6 : Bool) : Buf (Elt F) ((c : Thread nD τ).loc cc0_stg1_0) :=
  if hc : w132 = 1#1 then
    (oM : Memref sig .tc .vmem S48x48x48 .f32).view.writes (Elt F) (fin1 m ρ c g1 r w129 w132 w135 w138 w141 true b3 b4 b5 b6)
      [⟨Rect.unit ![47, 0, 0] S1x48x48.size inb_S48x48x48_S1x48x48_47_0_0, k0_pay6⟩]
  else fin1 m ρ c g1 r w129 w132 w135 w138 w141 false b3 b4 b5 b6
def fin3 (b4 b5 b6 : Bool) : Buf (Elt F) ((c : Thread nD τ).loc cc0_stg1_0) :=
  if hc : w135 = 1#1 then
    (oM : Memref sig .tc .vmem S48x48x48 .f32).view.writes (Elt F) (fin2 m ρ c g1 r w129 w132 w135 w138 w141 true b4 b5 b6)
      [⟨Rect.unit ![0, 0, 0] S48x1x48.size inb_S48x48x48_S48x1x48_0_0_0, k0_pay7⟩]
  else fin2 m ρ c g1 r w129 w132 w135 w138 w141 false b4 b5 b6
def fin4 (b5 b6 : Bool) : Buf (Elt F) ((c : Thread nD τ).loc cc0_stg1_0) :=
  if hc : w138 = 1#1 then
    (oM : Memref sig .tc .vmem S48x48x48 .f32).view.writes (Elt F) (fin3 m ρ c g1 r w129 w132 w135 w138 w141 true b5 b6)
      [⟨Rect.unit ![0, 47, 0] S48x1x48.size inb_S48x48x48_S48x1x48_0_47_0, k0_pay7⟩]
  else fin3 m ρ c g1 r w129 w132 w135 w138 w141 false b5 b6
def fin5 (b6 : Bool) : Buf (Elt F) ((c : Thread nD τ).loc cc0_stg1_0) :=
  if hc : w141 = 1#1 then
    (oM : Memref sig .tc .vmem S48x48x48 .f32).view.writes (Elt F) (fin4 m ρ c g1 r w129 w132 w135 w138 w141 true b6)
      [⟨Rect.unit ![0, 0, 0] S48x48x1.size inb_S48x48x48_S48x48x1_0_0_0, k0_pay8⟩]
  else fin4 m ρ c g1 r w129 w132 w135 w138 w141 false b6
/-- The contents the body leaves. -/
def fin : Buf (Elt F) ((c : Thread nD τ).loc cc0_stg1_0) :=
  if hc : w144 = 1#1 then
    (oM : Memref sig .tc .vmem S48x48x48 .f32).view.writes (Elt F) (fin5 m ρ c g1 r w129 w132 w135 w138 w141 true)
      [⟨Rect.unit ![0, 0, 47] S48x48x1.size inb_S48x48x48_S48x48x1_0_0_47, k0_pay8⟩]
  else fin5 m ρ c g1 r w129 w132 w135 w138 w141 false

end Terms

/-! ## Reading the buffer, entry by entry -/

section Read

variable (c : Dev nD)

/-- After a store through the whole buffer, an entry is the stored value's. -/
theorem wr_whole (T : Buf (Elt F) ((c : Thread nD τ).loc cc0_stg1_0)) (h : ∀ b, (![0, 0, 0] : Fin 3 → ℕ) b + S48x48x48.size b ≤ S48x48x48.size b)
    (w : (Rect.unit (s := S48x48x48) ![0, 0, 0] S48x48x48.size h).shape.Idx → Elt F .f32) (L : List (View.Piece (Elt F) S48x48x48 .f32))
    (i j k : Fin 48) :
    (oM : Memref sig .tc .vmem S48x48x48 .f32).view.writes (Elt F) T (⟨Rect.unit ![0, 0, 0] S48x48x48.size h, w⟩ :: L) (ix3 i j k) = w (ix3 i j k) :=
  View.read_writes_cons_unit_of_mem (oM : Memref sig .tc .vmem S48x48x48 .f32).view T h w L (ix3 i j k) (ix3 i j k) rfl fun b => by
    match b with
    | ⟨0, _⟩ => exact (Nat.zero_add _).symm
    | ⟨1, _⟩ => exact (Nat.zero_add _).symm
    | ⟨2, _⟩ => exact (Nat.zero_add _).symm

set_option maxHeartbeats 1000000 in
/-- After a store through the slab at row `a` of axis 0: on that row the stored value, elsewhere what was there. -/
theorem wr_x (T : Buf (Elt F) ((c : Thread nD τ).loc cc0_stg1_0)) (a : ℕ) (h : ∀ b, (![a, 0, 0] : Fin 3 → ℕ) b + S1x48x48.size b ≤ S48x48x48.size b)
    (w : (Rect.unit (s := S48x48x48) ![a, 0, 0] S1x48x48.size h).shape.Idx → Elt F .f32) (L : List (View.Piece (Elt F) S48x48x48 .f32))
    (i j k : Fin 48) :
    (oM : Memref sig .tc .vmem S48x48x48 .f32).view.writes (Elt F) T (⟨Rect.unit ![a, 0, 0] S1x48x48.size h, w⟩ :: L) (ix3 i j k)
      = if i.val = a then w (ix3 (0 : Fin 1) j k) else (oM : Memref sig .tc .vmem S48x48x48 .f32).view.writes (Elt F) T L (ix3 i j k) := by
  by_cases hi : i.val = a
  · rw [if_pos hi]
    exact View.read_writes_cons_unit_of_mem (oM : Memref sig .tc .vmem S48x48x48 .f32).view T h w L (ix3 i j k) (ix3 (0 : Fin 1) j k) rfl fun b => by
      match b with
      | ⟨0, _⟩ => exact hi
      | ⟨1, _⟩ => exact (Nat.zero_add _).symm
      | ⟨2, _⟩ => exact (Nat.zero_add _).symm
  · rw [if_neg hi]
    have hoff : (![a, 0, 0] : Fin 3 → ℕ) (0 : Fin 3) = a := rfl
    have hsz : S1x48x48.size (0 : Fin 3) = 1 := by decide
    show (oM : Memref sig .tc .vmem S48x48x48 .f32).view.read (Elt F)
        ((oM : Memref sig .tc .vmem S48x48x48 .f32).view.writes (Elt F) T (⟨Rect.unit ![a, 0, 0] S1x48x48.size h, w⟩ :: L)) (ix3 i j k)
      = (oM : Memref sig .tc .vmem S48x48x48 .f32).view.read (Elt F) ((oM : Memref sig .tc .vmem S48x48x48 .f32).view.writes (Elt F) T L) (ix3 i j k)
    refine View.read_writes_cons_unit_of_not_mem (off' := ![a, 0, 0]) (oM : Memref sig .tc .vmem S48x48x48 .f32).view T h w L (ix3 i j k) rfl
      (0 : Fin 3) ?_
    by_cases hlt : i.val < a
    · left; rw [hoff]; exact hlt
    · right; rw [hoff, hsz]
      show a + 1 ≤ i.val
      omega

/-- The same along axis 1. -/
theorem wr_y (T : Buf (Elt F) ((c : Thread nD τ).loc cc0_stg1_0)) (a : ℕ) (h : ∀ b, (![0, a, 0] : Fin 3 → ℕ) b + S48x1x48.size b ≤ S48x48x48.size b)
    (w : (Rect.unit (s := S48x48x48) ![0, a, 0] S48x1x48.size h).shape.Idx → Elt F .f32) (L : List (View.Piece (Elt F) S48x48x48 .f32))
    (i j k : Fin 48) :
    (oM : Memref sig .tc .vmem S48x48x48 .f32).view.writes (Elt F) T (⟨Rect.unit ![0, a, 0] S48x1x48.size h, w⟩ :: L) (ix3 i j k)
      = if j.val = a then w (ix3 i (0 : Fin 1) k) else (oM : Memref sig .tc .vmem S48x48x48 .f32).view.writes (Elt F) T L (ix3 i j k) := by
  by_cases hj : j.val = a
  · rw [if_pos hj]
    exact View.read_writes_cons_unit_of_mem (oM : Memref sig .tc .vmem S48x48x48 .f32).view T h w L (ix3 i j k) (ix3 i (0 : Fin 1) k) rfl fun b => by
      match b with
      | ⟨0, _⟩ => exact (Nat.zero_add _).symm
      | ⟨1, _⟩ => exact hj
      | ⟨2, _⟩ => exact (Nat.zero_add _).symm
  · rw [if_neg hj]
    exact View.read_writes_cons_unit_of_not_mem (oM : Memref sig .tc .vmem S48x48x48 .f32).view T h w L (ix3 i j k) rfl (1 : Fin 3) (by
      show j.val < a ∨ a + 1 ≤ j.val
      omega)

/-- The same along axis 2. -/
theorem wr_z (T : Buf (Elt F) ((c : Thread nD τ).loc cc0_stg1_0)) (a : ℕ) (h : ∀ b, (![0, 0, a] : Fin 3 → ℕ) b + S48x48x1.size b ≤ S48x48x48.size b)
    (w : (Rect.unit (s := S48x48x48) ![0, 0, a] S48x48x1.size h).shape.Idx → Elt F .f32) (L : List (View.Piece (Elt F) S48x48x48 .f32))
    (i j k : Fin 48) :
    (oM : Memref sig .tc .vmem S48x48x48 .f32).view.writes (Elt F) T (⟨Rect.unit ![0, 0, a] S48x48x1.size h, w⟩ :: L) (ix3 i j k)
      = if k.val = a then w (ix3 i j (0 : Fin 1)) else (oM : Memref sig .tc .vmem S48x48x48 .f32).view.writes (Elt F) T L (ix3 i j k) := by
  by_cases hk : k.val = a
  · rw [if_pos hk]
    exact View.read_writes_cons_unit_of_mem (oM : Memref sig .tc .vmem S48x48x48 .f32).view T h w L (ix3 i j k) (ix3 i j (0 : Fin 1)) rfl fun b => by
      match b with
      | ⟨0, _⟩ => exact (Nat.zero_add _).symm
      | ⟨1, _⟩ => exact (Nat.zero_add _).symm
      | ⟨2, _⟩ => exact hk
  · rw [if_neg hk]
    exact View.read_writes_cons_unit_of_not_mem (oM : Memref sig .tc .vmem S48x48x48 .f32).view T h w L (ix3 i j k) rfl (2 : Fin 3) (by
      show k.val < a ∨ a + 1 ≤ k.val
      omega)

/-- A guarded store through a slab of axis 0, at an entry. -/
theorem stage_x (T : Buf (Elt F) ((c : Thread nD τ).loc cc0_stg1_0)) (P : Prop) [Decidable P] (a : ℕ)
    (h : ∀ b, (![a, 0, 0] : Fin 3 → ℕ) b + S1x48x48.size b ≤ S48x48x48.size b)
    (w : (Rect.unit (s := S48x48x48) ![a, 0, 0] S1x48x48.size h).shape.Idx → Elt F .f32) (i j k : Fin 48) :
    (if hc : P then (oM : Memref sig .tc .vmem S48x48x48 .f32).view.writes (Elt F) T [⟨Rect.unit ![a, 0, 0] S1x48x48.size h, w⟩] else T) (ix3 i j k)
      = if P ∧ i.val = a then w (ix3 (0 : Fin 1) j k) else T (ix3 i j k) := by
  by_cases hP : P
  · rw [dif_pos hP, wr_x]
    by_cases hi : i.val = a
    · rw [if_pos hi, if_pos ⟨hP, hi⟩]
    · rw [if_neg hi, if_neg fun hh => hi hh.2]; rfl
  · rw [dif_neg hP, if_neg fun hh => hP hh.1]

theorem stage_y (T : Buf (Elt F) ((c : Thread nD τ).loc cc0_stg1_0)) (P : Prop) [Decidable P] (a : ℕ)
    (h : ∀ b, (![0, a, 0] : Fin 3 → ℕ) b + S48x1x48.size b ≤ S48x48x48.size b)
    (w : (Rect.unit (s := S48x48x48) ![0, a, 0] S48x1x48.size h).shape.Idx → Elt F .f32) (i j k : Fin 48) :
    (if hc : P then (oM : Memref sig .tc .vmem S48x48x48 .f32).view.writes (Elt F) T [⟨Rect.unit ![0, a, 0] S48x1x48.size h, w⟩] else T) (ix3 i j k)
      = if P ∧ j.val = a then w (ix3 i (0 : Fin 1) k) else T (ix3 i j k) := by
  by_cases hP : P
  · rw [dif_pos hP, wr_y]
    by_cases hj : j.val = a
    · rw [if_pos hj, if_pos ⟨hP, hj⟩]
    · rw [if_neg hj, if_neg fun hh => hj hh.2]; rfl
  · rw [dif_neg hP, if_neg fun hh => hP hh.1]

theorem stage_z (T : Buf (Elt F) ((c : Thread nD τ).loc cc0_stg1_0)) (P : Prop) [Decidable P] (a : ℕ)
    (h : ∀ b, (![0, 0, a] : Fin 3 → ℕ) b + S48x48x1.size b ≤ S48x48x48.size b)
    (w : (Rect.unit (s := S48x48x48) ![0, 0, a] S48x48x1.size h).shape.Idx → Elt F .f32) (i j k : Fin 48) :
    (if hc : P then (oM : Memref sig .tc .vmem S48x48x48 .f32).view.writes (Elt F) T [⟨Rect.unit ![0, 0, a] S48x48x1.size h, w⟩] else T) (ix3 i j k)
      = if P ∧ k.val = a then w (ix3 i j (0 : Fin 1)) else T (ix3 i j k) := by
  by_cases hP : P
  · rw [dif_pos hP, wr_z]
    by_cases hk : k.val = a
    · rw [if_pos hk, if_pos ⟨hP, hk⟩]
    · rw [if_neg hk, if_neg fun hh => hk hh.2]; rfl
  · rw [dif_neg hP, if_neg fun hh => hP hh.1]

/-- A load of the slab at row `a` of axis 0 reads the buffer's entries on that row. -/
theorem rd_x (T : Buf (Elt F) ((c : Thread nD τ).loc cc0_stg1_0)) (a : ℕ) (ha : a < 48)
    (h : ∀ b, (![a, 0, 0] : Fin 3 → ℕ) b + S1x48x48.size b ≤ S48x48x48.size b) (u : Fin 1) (j k : Fin 48) :
    View.readAt (Elt F) (oM : Memref sig .tc .vmem S48x48x48 .f32).view (Rect.unit (s := S48x48x48) ![a, 0, 0] S1x48x48.size h).toLoadRect T (ix3 u j k) = T (ix3 (⟨a, ha⟩ : Fin 48) j k) := by
  show T ((Rect.unit (s := S48x48x48) ![a, 0, 0] S1x48x48.size h).emb (ix3 u j k)) = _
  refine congrArg T (funext fun b => Fin.ext ?_)
  rw [Rect.emb_apply]
  have hu : u.val = 0 := by omega
  match b with
  | ⟨0, _⟩ => show a + 1 * u.val = a; omega
  | ⟨1, _⟩ => show 0 + 1 * j.val = j.val; omega
  | ⟨2, _⟩ => show 0 + 1 * k.val = k.val; omega

theorem rd_y (T : Buf (Elt F) ((c : Thread nD τ).loc cc0_stg1_0)) (a : ℕ) (ha : a < 48)
    (h : ∀ b, (![0, a, 0] : Fin 3 → ℕ) b + S48x1x48.size b ≤ S48x48x48.size b) (u : Fin 1) (i k : Fin 48) :
    View.readAt (Elt F) (oM : Memref sig .tc .vmem S48x48x48 .f32).view (Rect.unit (s := S48x48x48) ![0, a, 0] S48x1x48.size h).toLoadRect T (ix3 i u k) = T (ix3 i (⟨a, ha⟩ : Fin 48) k) := by
  show T ((Rect.unit (s := S48x48x48) ![0, a, 0] S48x1x48.size h).emb (ix3 i u k)) = _
  refine congrArg T (funext fun b => Fin.ext ?_)
  rw [Rect.emb_apply]
  have hu : u.val = 0 := by omega
  match b with
  | ⟨0, _⟩ => show 0 + 1 * i.val = i.val; omega
  | ⟨1, _⟩ => show a + 1 * u.val = a; omega
  | ⟨2, _⟩ => show 0 + 1 * k.val = k.val; omega

theorem rd_z (T : Buf (Elt F) ((c : Thread nD τ).loc cc0_stg1_0)) (a : ℕ) (ha : a < 48)
    (h : ∀ b, (![0, 0, a] : Fin 3 → ℕ) b + S48x48x1.size b ≤ S48x48x48.size b) (u : Fin 1) (i j : Fin 48) :
    View.readAt (Elt F) (oM : Memref sig .tc .vmem S48x48x48 .f32).view (Rect.unit (s := S48x48x48) ![0, 0, a] S48x48x1.size h).toLoadRect T (ix3 i j u) = T (ix3 i j (⟨a, ha⟩ : Fin 48)) := by
  show T ((Rect.unit (s := S48x48x48) ![0, 0, a] S48x48x1.size h).emb (ix3 i j u)) = _
  refine congrArg T (funext fun b => Fin.ext ?_)
  rw [Rect.emb_apply]
  have hu : u.val = 0 := by omega
  match b with
  | ⟨0, _⟩ => show 0 + 1 * i.val = i.val; omega
  | ⟨1, _⟩ => show 0 + 1 * j.val = j.val; omega
  | ⟨2, _⟩ => show a + 1 * u.val = a; omega

/-- A load of a whole receive buffer reads its contents. -/
theorem ldX_eq : View.readAt (Elt F) (rxM : Memref sig .tc .vmem S1x48x48 .f32).view (Rect.unit ![0, 0, 0] S1x48x48.size inb_S1x48x48_S1x48x48_0_0_0).toLoadRect (landX m ρ c) = landX m ρ c :=
  Memref.readAt_unit_zero (Elt F) cc0_scratch2 (funext fun a => by match a with | ⟨0, _⟩ => rfl | ⟨1, _⟩ => rfl | ⟨2, _⟩ => rfl) _ _
theorem ldY_eq : View.readAt (Elt F) (ryM : Memref sig .tc .vmem S48x48 .f32).view (Rect.unit ![0, 0] S48x48.size inb_S48x48_S48x48_0_0).toLoadRect (landY m ρ c) = landY m ρ c :=
  Memref.readAt_unit_zero (Elt F) cc0_scratch3 (funext fun a => by match a with | ⟨0, _⟩ => rfl | ⟨1, _⟩ => rfl) _ _
theorem ldZ_eq : View.readAt (Elt F) (rzM : Memref sig .tc .vmem S48x48 .f32).view (Rect.unit ![0, 0] S48x48.size inb_S48x48_S48x48_0_0).toLoadRect (landZ m ρ c) = landZ m ρ c :=
  Memref.readAt_unit_zero (Elt F) cc0_scratch4 (funext fun a => by match a with | ⟨0, _⟩ => rfl | ⟨1, _⟩ => rfl) _ _

end Read

/-! ## The payloads, entry by entry -/

theorem pay10_apply (v w : Vec F S1x48x48 .f32) (idx : S1x48x48.Idx) : k0_pay10 v w idx = FloatOps.addf (v idx) (w idx) := by
  unfold k0_pay10; rw [shapeCast_self]; rfl
theorem pay11_apply (v w : Vec F S1x48x48 .f32) (idx : S1x48x48.Idx) : k0_pay11 v w idx = FloatOps.addf (v idx) (w idx) := by
  unfold k0_pay11; rw [shapeCast_self]; rfl

/-- The received y face, a 48 × 48 array, is added as the 48 × 1 × 48 slab with the same entries. -/
theorem pay12_apply (v : Vec F S48x1x48 .f32) (w : Vec F S48x48 .f32) (i : Fin 48) (u : Fin 1) (k : Fin 48) :
    k0_pay12 v w (ix3 i u k) = FloatOps.addf (v (ix3 i u k)) (w (ix2 i k)) := by
  unfold k0_pay12; rw [shapeCast_self]
  show FloatOps.addf (v (ix3 i u k)) (shapeCast S48x1x48 w _ (ix3 i u k)) = _
  refine congrArg (FloatOps.addf (v (ix3 i u k))) (shapeCast_apply w _ (ix3 i u k) (ix2 i k) ?_)
  rw [Shape.rowMajor_val_two, Shape.rowMajor_val_three]
  show i.val * 48 + k.val = (i.val * 1 + u.val) * 48 + k.val
  have := u.isLt; omega
theorem pay13_apply (v : Vec F S48x1x48 .f32) (w : Vec F S48x48 .f32) (i : Fin 48) (u : Fin 1) (k : Fin 48) :
    k0_pay13 v w (ix3 i u k) = FloatOps.addf (v (ix3 i u k)) (w (ix2 i k)) := by
  unfold k0_pay13; rw [shapeCast_self]
  show FloatOps.addf (v (ix3 i u k)) (shapeCast S48x1x48 w _ (ix3 i u k)) = _
  refine congrArg (FloatOps.addf (v (ix3 i u k))) (shapeCast_apply w _ (ix3 i u k) (ix2 i k) ?_)
  rw [Shape.rowMajor_val_two, Shape.rowMajor_val_three]
  show i.val * 48 + k.val = (i.val * 1 + u.val) * 48 + k.val
  have := u.isLt; omega

/-- The received z face, a 48 × 48 array, is added as the 48 × 48 × 1 slab with the same entries. -/
theorem pay14_apply (v : Vec F S48x48x1 .f32) (w : Vec F S48x48 .f32) (i j : Fin 48) (u : Fin 1) :
    k0_pay14 v w (ix3 i j u) = FloatOps.addf (v (ix3 i j u)) (w (ix2 i j)) := by
  unfold k0_pay14; rw [shapeCast_self]
  show FloatOps.addf (v (ix3 i j u)) (shapeCast S48x48x1 w _ (ix3 i j u)) = _
  refine congrArg (FloatOps.addf (v (ix3 i j u))) (shapeCast_apply w _ (ix3 i j u) (ix2 i j) ?_)
  rw [Shape.rowMajor_val_two, Shape.rowMajor_val_three]
  show i.val * 48 + j.val = (i.val * 48 + j.val) * 1 + u.val
  have := u.isLt; omega
theorem pay15_apply (v : Vec F S48x48x1 .f32) (w : Vec F S48x48 .f32) (i j : Fin 48) (u : Fin 1) :
    k0_pay15 v w (ix3 i j u) = FloatOps.addf (v (ix3 i j u)) (w (ix2 i j)) := by
  unfold k0_pay15; rw [shapeCast_self]
  show FloatOps.addf (v (ix3 i j u)) (shapeCast S48x48x1 w _ (ix3 i j u)) = _
  refine congrArg (FloatOps.addf (v (ix3 i j u))) (shapeCast_apply w _ (ix3 i j u) (ix2 i j) ?_)
  rw [Shape.rowMajor_val_two, Shape.rowMajor_val_three]
  show i.val * 48 + j.val = (i.val * 48 + j.val) * 1 + u.val
  have := u.isLt; omega

/-! ## The case distinctions -/

section Logic

variable {α : Type} (add : α → α → α)

/-- One guarded addition. -/
def step (P : Prop) [Decidable P] (l t : α) : α := if P then add t l else t

/-- Along one axis the two guarded additions (on the lower half of the mesh at row 47, on the upper half at row 0) are one
    addition, on the face that touches the neighbour. -/
theorem axis_logic (P Q : Prop) [Decidable P] [Decidable Q] (p a : ℕ) (hp : p < 2) (hP : P ↔ p = 0) (hQ : Q ↔ p = 1) (l t : α) :
    step add (Q ∧ a = 0) l (step add (P ∧ a = 47) l t) = step add ((p = 0 ∧ a = 47) ∨ (p = 1 ∧ a = 0)) l t := by
  unfold step
  have : p = 0 ∨ p = 1 := by omega
  rcases this with rfl | rfl
  · have h1 : P := hP.mpr rfl
    have h2 : ¬ Q := fun h => absurd (hQ.mp h) (by decide)
    simp [h1, h2]
  · have h1 : ¬ P := fun h => absurd (hP.mp h) (by decide)
    have h2 : Q := hQ.mpr rfl
    simp [h1, h2]

/-- The six guarded zero stores are one: zero on the whole array's boundary. -/
theorem zero_logic (P1 P2 P3 P4 P5 P6 : Prop) [Decidable P1] [Decidable P2] [Decidable P3] [Decidable P4] [Decidable P5] [Decidable P6]
    (px py pz i j k : ℕ) (h1 : P1 ↔ px = 0) (h2 : P2 ↔ px = 1) (h3 : P3 ↔ py = 0) (h4 : P4 ↔ py = 1) (h5 : P5 ↔ pz = 0) (h6 : P6 ↔ pz = 1)
    (z s : α) :
    (if P6 ∧ k = 47 then z else if P5 ∧ k = 0 then z else if P4 ∧ j = 47 then z else if P3 ∧ j = 0 then z
      else if P2 ∧ i = 47 then z else if P1 ∧ i = 0 then z else s)
      = if (px = 0 ∧ i = 0) ∨ (px = 1 ∧ i = 47) ∨ (py = 0 ∧ j = 0) ∨ (py = 1 ∧ j = 47) ∨ (pz = 0 ∧ k = 0) ∨ (pz = 1 ∧ k = 47) then z else s := by
  simp only [h1, h2, h3, h4, h5, h6]
  split_ifs <;> first | rfl | (exfalso; omega)

end Logic

/-! ## The buffer after each addition, entry by entry -/

section States

variable (c : Dev nD) (g1 : Buf (Elt F) ((c : Thread nD τ).loc cc0_stg1_0)) (r : FVec F S48x48x48 .f32)
  (w129 w132 w135 w138 w141 w144 : BitVec 1)

theorem S0_apply (i j k : Fin 48) : S0 c g1 r (ix3 i j k) = r (ix3 i j k) := by
  unfold S0 L0
  exact wr_whole c g1 _ r [] i j k

/-- The first addition's load: row 47 of the local stencil. -/
theorem a10_apply (u : Fin 1) (j k : Fin 48) :
    a10 m ρ c r (ix3 u j k) = FloatOps.addf (r (ix3 (⟨47, by decide⟩ : Fin 48) j k)) (landX m ρ c (ix3 u j k)) := by
  unfold a10
  rw [pay10_apply, ldX_eq]
  refine congrArg (fun t => FloatOps.addf t (landX m ρ c (ix3 u j k))) ?_
  unfold View.readCov
  rw [rd_x c _ 47 (by decide)]
  unfold L0
  exact wr_whole c _ _ r [] _ j k

theorem S1_apply (i j k : Fin 48) :
    S1 m ρ c g1 r w129 (ix3 i j k)
      = step (FloatOps.addf (F := F) (φ := .f32)) (w129 = 1#1 ∧ i.val = 47) (landX m ρ c (ix3 (0 : Fin 1) j k)) (r (ix3 i j k)) := by
  unfold S1 step
  by_cases hw : w129 = 1#1
  · rw [dif_pos hw, wr_x]
    by_cases hi : i.val = 47
    · rw [if_pos hi, if_pos ⟨hw, hi⟩, a10_apply]
      have e : i = (⟨47, by decide⟩ : Fin 48) := Fin.ext hi
      rw [e]
    · rw [if_neg hi, if_neg fun hh => hi hh.2]
      unfold L0
      exact wr_whole c g1 _ r [] i j k
  · rw [dif_neg hw, if_neg fun hh => hw hh.1]
    unfold L0
    exact wr_whole c g1 _ r [] i j k

theorem S2_apply (i j k : Fin 48) :
    S2 m ρ c g1 r w129 w132 (ix3 i j k)
      = step (FloatOps.addf (F := F) (φ := .f32)) (w132 = 1#1 ∧ i.val = 0) (landX m ρ c (ix3 (0 : Fin 1) j k)) (S1 m ρ c g1 r w129 (ix3 i j k)) := by
  unfold S2 step
  rw [stage_x]
  by_cases hc : w132 = 1#1 ∧ i.val = 0
  · rw [if_pos hc, if_pos hc]
    unfold a11
    rw [pay11_apply, ldX_eq, rd_x c _ 0 (by decide)]
    have e : i = (⟨0, by decide⟩ : Fin 48) := Fin.ext hc.2
    rw [e]
  · rw [if_neg hc, if_neg hc]

theorem S3_apply (i j k : Fin 48) :
    S3 m ρ c g1 r w129 w132 w135 (ix3 i j k)
      = step (FloatOps.addf (F := F) (φ := .f32)) (w135 = 1#1 ∧ j.val = 47) (landY m ρ c (ix2 i k)) (S2 m ρ c g1 r w129 w132 (ix3 i j k)) := by
  unfold S3 step
  rw [stage_y]
  by_cases hc : w135 = 1#1 ∧ j.val = 47
  · rw [if_pos hc, if_pos hc]
    unfold a12
    rw [pay12_apply, ldY_eq, rd_y c _ 47 (by decide)]
    have e : j = (⟨47, by decide⟩ : Fin 48) := Fin.ext hc.2
    rw [e]
  · rw [if_neg hc, if_neg hc]

theorem S4_apply (i j k : Fin 48) :
    S4 m ρ c g1 r w129 w132 w135 w138 (ix3 i j k)
      = step (FloatOps.addf (F := F) (φ := .f32)) (w138 = 1#1 ∧ j.val = 0) (landY m ρ c (ix2 i k)) (S3 m ρ c g1 r w129 w132 w135 (ix3 i j k)) := by
  unfold S4 step
  rw [stage_y]
  by_cases hc : w138 = 1#1 ∧ j.val = 0
  · rw [if_pos hc, if_pos hc]
    unfold a13
    rw [pay13_apply, ldY_eq, rd_y c _ 0 (by decide)]
    have e : j = (⟨0, by decide⟩ : Fin 48) := Fin.ext hc.2
    rw [e]
  · rw [if_neg hc, if_neg hc]

theorem S5_apply (i j k : Fin 48) :
    S5 m ρ c g1 r w129 w132 w135 w138 w141 (ix3 i j k)
      = step (FloatOps.addf (F := F) (φ := .f32)) (w141 = 1#1 ∧ k.val = 47) (landZ m ρ c (ix2 i j)) (S4 m ρ c g1 r w129 w132 w135 w138 (ix3 i j k)) := by
  unfold S5 step
  rw [stage_z]
  by_cases hc : w141 = 1#1 ∧ k.val = 47
  · rw [if_pos hc, if_pos hc]
    unfold a14
    rw [pay14_apply, ldZ_eq, rd_z c _ 47 (by decide)]
    have e : k = (⟨47, by decide⟩ : Fin 48) := Fin.ext hc.2
    rw [e]
  · rw [if_neg hc, if_neg hc]

theorem S6_apply (i j k : Fin 48) :
    S6 m ρ c g1 r w129 w132 w135 w138 w141 w144 (ix3 i j k)
      = step (FloatOps.addf (F := F) (φ := .f32)) (w144 = 1#1 ∧ k.val = 0) (landZ m ρ c (ix2 i j)) (S5 m ρ c g1 r w129 w132 w135 w138 w141 (ix3 i j k)) := by
  unfold S6 step
  rw [stage_z]
  by_cases hc : w144 = 1#1 ∧ k.val = 0
  · rw [if_pos hc, if_pos hc]
    unfold a15
    rw [pay15_apply, ldZ_eq, rd_z c _ 0 (by decide)]
    have e : k = (⟨0, by decide⟩ : Fin 48) := Fin.ext hc.2
    rw [e]
  · rw [if_neg hc, if_neg hc]

/-! ## The tree is the straight sequence of the twelve guarded stores -/

/-- The six guarded zero stores, in program order, over the buffer after the additions. -/
def Z1 : Buf (Elt F) ((c : Thread nD τ).loc cc0_stg1_0) :=
  if hc : w129 = 1#1 then
    (oM : Memref sig .tc .vmem S48x48x48 .f32).view.writes (Elt F) (S6 m ρ c g1 r w129 w132 w135 w138 w141 w144)
      [⟨Rect.unit ![0, 0, 0] S1x48x48.size inb_S48x48x48_S1x48x48_0_0_0, k0_pay6⟩]
  else S6 m ρ c g1 r w129 w132 w135 w138 w141 w144
def Z2 : Buf (Elt F) ((c : Thread nD τ).loc cc0_stg1_0) :=
  if hc : w132 = 1#1 then
    (oM : Memref sig .tc .vmem S48x48x48 .f32).view.writes (Elt F) (Z1 m ρ c g1 r w129 w132 w135 w138 w141 w144)
      [⟨Rect.unit ![47, 0, 0] S1x48x48.size inb_S48x48x48_S1x48x48_47_0_0, k0_pay6⟩]
  else Z1 m ρ c g1 r w129 w132 w135 w138 w141 w144
def Z3 : Buf (Elt F) ((c : Thread nD τ).loc cc0_stg1_0) :=
  if hc : w135 = 1#1 then
    (oM : Memref sig .tc .vmem S48x48x48 .f32).view.writes (Elt F) (Z2 m ρ c g1 r w129 w132 w135 w138 w141 w144)
      [⟨Rect.unit ![0, 0, 0] S48x1x48.size inb_S48x48x48_S48x1x48_0_0_0, k0_pay7⟩]
  else Z2 m ρ c g1 r w129 w132 w135 w138 w141 w144
def Z4 : Buf (Elt F) ((c : Thread nD τ).loc cc0_stg1_0) :=
  if hc : w138 = 1#1 then
    (oM : Memref sig .tc .vmem S48x48x48 .f32).view.writes (Elt F) (Z3 m ρ c g1 r w129 w132 w135 w138 w141 w144)
      [⟨Rect.unit ![0, 47, 0] S48x1x48.size inb_S48x48x48_S48x1x48_0_47_0, k0_pay7⟩]
  else Z3 m ρ c g1 r w129 w132 w135 w138 w141 w144
def Z5 : Buf (Elt F) ((c : Thread nD τ).loc cc0_stg1_0) :=
  if hc : w141 = 1#1 then
    (oM : Memref sig .tc .vmem S48x48x48 .f32).view.writes (Elt F) (Z4 m ρ c g1 r w129 w132 w135 w138 w141 w144)
      [⟨Rect.unit ![0, 0, 0] S48x48x1.size inb_S48x48x48_S48x48x1_0_0_0, k0_pay8⟩]
  else Z4 m ρ c g1 r w129 w132 w135 w138 w141 w144
def Z6 : Buf (Elt F) ((c : Thread nD τ).loc cc0_stg1_0) :=
  if hc : w144 = 1#1 then
    (oM : Memref sig .tc .vmem S48x48x48 .f32).view.writes (Elt F) (Z5 m ρ c g1 r w129 w132 w135 w138 w141 w144)
      [⟨Rect.unit ![0, 0, 47] S48x48x1.size inb_S48x48x48_S48x48x1_0_0_47, k0_pay8⟩]
  else Z5 m ρ c g1 r w129 w132 w135 w138 w141 w144

/-- A leaf whose Booleans say which words are set is the buffer after the additions. -/
theorem leaf1_eq (b1 : Bool) (e1 : b1 = true ↔ w129 = 1#1) : leaf1 m ρ c g1 r b1 = S1 m ρ c g1 r w129 := by
  unfold leaf1 S1
  cases b1
  · rw [dif_neg fun h => Bool.false_ne_true (e1.mpr h)]; rfl
  · rw [dif_pos (e1.mp rfl)]; rfl
theorem leaf2_eq (b1 b2 : Bool) (e1 : b1 = true ↔ w129 = 1#1) (e2 : b2 = true ↔ w132 = 1#1) :
    leaf2 m ρ c g1 r w129 b1 b2 = S2 m ρ c g1 r w129 w132 := by
  unfold leaf2 S2
  rw [leaf1_eq m ρ c g1 r w129 b1 e1]
  cases b2
  · rw [dif_neg fun h => Bool.false_ne_true (e2.mpr h)]; rfl
  · rw [dif_pos (e2.mp rfl)]; rfl
theorem leaf3_eq (b1 b2 b3 : Bool) (e1 : b1 = true ↔ w129 = 1#1) (e2 : b2 = true ↔ w132 = 1#1) (e3 : b3 = true ↔ w135 = 1#1) :
    leaf3 m ρ c g1 r w129 w132 b1 b2 b3 = S3 m ρ c g1 r w129 w132 w135 := by
  unfold leaf3 S3
  rw [leaf2_eq m ρ c g1 r w129 w132 b1 b2 e1 e2]
  cases b3
  · rw [dif_neg fun h => Bool.false_ne_true (e3.mpr h)]; rfl
  · rw [dif_pos (e3.mp rfl)]; rfl
theorem leaf4_eq (b1 b2 b3 b4 : Bool) (e1 : b1 = true ↔ w129 = 1#1) (e2 : b2 = true ↔ w132 = 1#1) (e3 : b3 = true ↔ w135 = 1#1)
    (e4 : b4 = true ↔ w138 = 1#1) :
    leaf4 m ρ c g1 r w129 w132 w135 b1 b2 b3 b4 = S4 m ρ c g1 r w129 w132 w135 w138 := by
  unfold leaf4 S4
  rw [leaf3_eq m ρ c g1 r w129 w132 w135 b1 b2 b3 e1 e2 e3]
  cases b4
  · rw [dif_neg fun h => Bool.false_ne_true (e4.mpr h)]; rfl
  · rw [dif_pos (e4.mp rfl)]; rfl
theorem leaf5_eq (b1 b2 b3 b4 b5 : Bool) (e1 : b1 = true ↔ w129 = 1#1) (e2 : b2 = true ↔ w132 = 1#1) (e3 : b3 = true ↔ w135 = 1#1)
    (e4 : b4 = true ↔ w138 = 1#1) (e5 : b5 = true ↔ w141 = 1#1) :
    leaf5 m ρ c g1 r w129 w132 w135 w138 b1 b2 b3 b4 b5 = S5 m ρ c g1 r w129 w132 w135 w138 w141 := by
  unfold leaf5 S5
  rw [leaf4_eq m ρ c g1 r w129 w132 w135 w138 b1 b2 b3 b4 e1 e2 e3 e4]
  cases b5
  · rw [dif_neg fun h => Bool.false_ne_true (e5.mpr h)]; rfl
  · rw [dif_pos (e5.mp rfl)]; rfl
theorem leaf6_eq (b1 b2 b3 b4 b5 b6 : Bool) (e1 : b1 = true ↔ w129 = 1#1) (e2 : b2 = true ↔ w132 = 1#1) (e3 : b3 = true ↔ w135 = 1#1)
    (e4 : b4 = true ↔ w138 = 1#1) (e5 : b5 = true ↔ w141 = 1#1) (e6 : b6 = true ↔ w144 = 1#1) :
    leaf6 m ρ c g1 r w129 w132 w135 w138 w141 b1 b2 b3 b4 b5 b6 = S6 m ρ c g1 r w129 w132 w135 w138 w141 w144 := by
  unfold leaf6 S6
  rw [leaf5_eq m ρ c g1 r w129 w132 w135 w138 w141 b1 b2 b3 b4 b5 e1 e2 e3 e4 e5]
  cases b6
  · rw [dif_neg fun h => Bool.false_ne_true (e6.mpr h)]; rfl
  · rw [dif_pos (e6.mp rfl)]; rfl

/-- A Boolean literal says a word is set when it is, and that it is not when it is not. -/
theorem tt_iff {w : BitVec 1} (h : w = 1#1) : (true = true ↔ w = 1#1) := ⟨fun _ => h, fun _ => rfl⟩
theorem ff_iff {w : BitVec 1} (h : ¬ w = 1#1) : (false = true ↔ w = 1#1) := ⟨fun hb => absurd hb Bool.false_ne_true, fun hw => absurd hw h⟩

theorem fin1_eq (b2 b3 b4 b5 b6 : Bool) (e2 : b2 = true ↔ w132 = 1#1) (e3 : b3 = true ↔ w135 = 1#1)
    (e4 : b4 = true ↔ w138 = 1#1) (e5 : b5 = true ↔ w141 = 1#1) (e6 : b6 = true ↔ w144 = 1#1) :
    fin1 m ρ c g1 r w129 w132 w135 w138 w141 b2 b3 b4 b5 b6 = Z1 m ρ c g1 r w129 w132 w135 w138 w141 w144 := by
  unfold fin1 Z1
  by_cases h : w129 = 1#1
  · rw [dif_pos h, dif_pos h, leaf6_eq m ρ c g1 r w129 w132 w135 w138 w141 w144 true b2 b3 b4 b5 b6 (tt_iff h) e2 e3 e4 e5 e6]
  · rw [dif_neg h, dif_neg h, leaf6_eq m ρ c g1 r w129 w132 w135 w138 w141 w144 false b2 b3 b4 b5 b6 (ff_iff h) e2 e3 e4 e5 e6]
theorem fin2_eq (b3 b4 b5 b6 : Bool) (e3 : b3 = true ↔ w135 = 1#1)
    (e4 : b4 = true ↔ w138 = 1#1) (e5 : b5 = true ↔ w141 = 1#1) (e6 : b6 = true ↔ w144 = 1#1) :
    fin2 m ρ c g1 r w129 w132 w135 w138 w141 b3 b4 b5 b6 = Z2 m ρ c g1 r w129 w132 w135 w138 w141 w144 := by
  unfold fin2 Z2
  by_cases h : w132 = 1#1
  · rw [dif_pos h, dif_pos h, fin1_eq m ρ c g1 r w129 w132 w135 w138 w141 w144 true b3 b4 b5 b6 (tt_iff h) e3 e4 e5 e6]
  · rw [dif_neg h, dif_neg h, fin1_eq m ρ c g1 r w129 w132 w135 w138 w141 w144 false b3 b4 b5 b6 (ff_iff h) e3 e4 e5 e6]
theorem fin3_eq (b4 b5 b6 : Bool) (e4 : b4 = true ↔ w138 = 1#1) (e5 : b5 = true ↔ w141 = 1#1) (e6 : b6 = true ↔ w144 = 1#1) :
    fin3 m ρ c g1 r w129 w132 w135 w138 w141 b4 b5 b6 = Z3 m ρ c g1 r w129 w132 w135 w138 w141 w144 := by
  unfold fin3 Z3
  by_cases h : w135 = 1#1
  · rw [dif_pos h, dif_pos h, fin2_eq m ρ c g1 r w129 w132 w135 w138 w141 w144 true b4 b5 b6 (tt_iff h) e4 e5 e6]
  · rw [dif_neg h, dif_neg h, fin2_eq m ρ c g1 r w129 w132 w135 w138 w141 w144 false b4 b5 b6 (ff_iff h) e4 e5 e6]
theorem fin4_eq (b5 b6 : Bool) (e5 : b5 = true ↔ w141 = 1#1) (e6 : b6 = true ↔ w144 = 1#1) :
    fin4 m ρ c g1 r w129 w132 w135 w138 w141 b5 b6 = Z4 m ρ c g1 r w129 w132 w135 w138 w141 w144 := by
  unfold fin4 Z4
  by_cases h : w138 = 1#1
  · rw [dif_pos h, dif_pos h, fin3_eq m ρ c g1 r w129 w132 w135 w138 w141 w144 true b5 b6 (tt_iff h) e5 e6]
  · rw [dif_neg h, dif_neg h, fin3_eq m ρ c g1 r w129 w132 w135 w138 w141 w144 false b5 b6 (ff_iff h) e5 e6]
theorem fin5_eq (b6 : Bool) (e6 : b6 = true ↔ w144 = 1#1) :
    fin5 m ρ c g1 r w129 w132 w135 w138 w141 b6 = Z5 m ρ c g1 r w129 w132 w135 w138 w141 w144 := by
  unfold fin5 Z5
  by_cases h : w141 = 1#1
  · rw [dif_pos h, dif_pos h, fin4_eq m ρ c g1 r w129 w132 w135 w138 w141 w144 true b6 (tt_iff h) e6]
  · rw [dif_neg h, dif_neg h, fin4_eq m ρ c g1 r w129 w132 w135 w138 w141 w144 false b6 (ff_iff h) e6]
theorem fin_eq_lin : fin m ρ c g1 r w129 w132 w135 w138 w141 w144 = Z6 m ρ c g1 r w129 w132 w135 w138 w141 w144 := by
  unfold fin Z6
  by_cases h : w144 = 1#1
  · rw [dif_pos h, dif_pos h, fin5_eq m ρ c g1 r w129 w132 w135 w138 w141 w144 true (tt_iff h)]
  · rw [dif_neg h, dif_neg h, fin5_eq m ρ c g1 r w129 w132 w135 w138 w141 w144 false (ff_iff h)]

/-- The zero slabs read the body's zero. -/
theorem pay6_zf (idx : S1x48x48.Idx) : k0_pay6 (F := F) idx = zf := rfl
theorem pay7_zf (idx : S48x1x48.Idx) : k0_pay7 (F := F) idx = zf := rfl
theorem pay8_zf (idx : S48x48x1.Idx) : k0_pay8 (F := F) idx = zf := rfl

/-- The contents the body leaves, at an entry: zero on each face a set word zeroes, else the buffer after the additions. -/
theorem Z6_apply (i j k : Fin 48) :
    Z6 m ρ c g1 r w129 w132 w135 w138 w141 w144 (ix3 i j k)
      = if w144 = 1#1 ∧ k.val = 47 then zf else if w141 = 1#1 ∧ k.val = 0 then zf else if w138 = 1#1 ∧ j.val = 47 then zf
        else if w135 = 1#1 ∧ j.val = 0 then zf else if w132 = 1#1 ∧ i.val = 47 then zf else if w129 = 1#1 ∧ i.val = 0 then zf
        else S6 m ρ c g1 r w129 w132 w135 w138 w141 w144 (ix3 i j k) := by
  unfold Z6; rw [stage_z, pay8_zf]
  unfold Z5; rw [stage_z, pay8_zf]
  unfold Z4; rw [stage_y, pay7_zf]
  unfold Z3; rw [stage_y, pay7_zf]
  unfold Z2; rw [stage_x, pay6_zf]
  unfold Z1; rw [stage_x, pay6_zf]

end States

/-! ## The result block -/

/-- `outOf` at an entry, its three conditional additions as guarded additions. -/
theorem outOf_steps (px py pz : ℕ) (x : (cc0_stg0_0 : Ref sig .tc).ty.Contents (Elt F)) (rx : (cc0_scratch2 : Ref sig .tc).ty.Contents (Elt F))
    (ry : (cc0_scratch3 : Ref sig .tc).ty.Contents (Elt F)) (rz : (cc0_scratch4 : Ref sig .tc).ty.Contents (Elt F)) (i j k : Fin 48) :
    outOf px py pz x rx ry rz (ix3 i j k)
      = if (px = 0 ∧ i.val = 0) ∨ (px = 1 ∧ i.val = 47) ∨ (py = 0 ∧ j.val = 0) ∨ (py = 1 ∧ j.val = 47) ∨ (pz = 0 ∧ k.val = 0) ∨ (pz = 1 ∧ k.val = 47)
        then zf
        else step (FloatOps.addf (F := F) (φ := .f32)) ((pz = 0 ∧ k.val = 47) ∨ (pz = 1 ∧ k.val = 0)) (rz (ix2 i j))
          (step (FloatOps.addf (F := F) (φ := .f32)) ((py = 0 ∧ j.val = 47) ∨ (py = 1 ∧ j.val = 0)) (ry (ix2 i k))
            (step (FloatOps.addf (F := F) (φ := .f32)) ((px = 0 ∧ i.val = 47) ∨ (px = 1 ∧ i.val = 0)) (rx (ix3 (0 : Fin 1) j k))
              (k0_pay9 (k0_pay1 x) (ix3 i j k)))) := rfl

/-- What the body leaves in the result buffer is the result block. -/
theorem final_contents (c : Dev nD) (g1 : Buf (Elt F) ((c : Thread nD τ).loc cc0_stg1_0)) (r : FVec F S48x48x48 .f32)
    (hr : r = k0_pay9 (k0_pay1 (xstg m ρ c)))
    (w129 w132 w135 w138 w141 w144 : BitVec 1)
    (h129 : w129 = 1#1 ↔ bx c = 0) (h132 : w132 = 1#1 ↔ bx c = 1) (h135 : w135 = 1#1 ↔ by' c = 0) (h138 : w138 = 1#1 ↔ by' c = 1)
    (h141 : w141 = 1#1 ↔ bz c = 0) (h144 : w144 = 1#1 ↔ bz c = 1) :
    fin m ρ c g1 r w129 w132 w135 w138 w141 w144 = outAt m ρ c := by
  subst hr
  rw [fin_eq_lin]
  refine funext fun (idx : (⟨3, ![48, 48, 48]⟩ : Shape).Idx) => ?_
  obtain ⟨i, j, k, rfl⟩ : ∃ (i j k : Fin 48), idx = ix3 i j k := ⟨idx 0, idx 1, idx 2, eq_ix3 idx⟩
  rw [Z6_apply, S6_apply, S5_apply, S4_apply, S3_apply, S2_apply, S1_apply]
  unfold outAt
  rw [outOf_steps,
    axis_logic (FloatOps.addf (F := F) (φ := .f32)) (w129 = 1#1) (w132 = 1#1) (bx c) i.val (bx_lt c) h129 h132,
    axis_logic (FloatOps.addf (F := F) (φ := .f32)) (w135 = 1#1) (w138 = 1#1) (by' c) j.val (by_lt c) h135 h138,
    axis_logic (FloatOps.addf (F := F) (φ := .f32)) (w141 = 1#1) (w144 = 1#1) (bz c) k.val (bz_lt c) h141 h144]
  exact zero_logic (w129 = 1#1) (w132 = 1#1) (w135 = 1#1) (w138 = 1#1) (w141 = 1#1) (w144 = 1#1) (bx c) (by' c) (bz c) i.val j.val k.val
    h129 h132 h135 h138 h141 h144 _ _

end Cert.KernelIdeal.Halo

end

/-- info: 'Cert.KernelIdeal.Halo.final_contents' depends on axioms: [propext, Classical.choice, Quot.sound] -/
#guard_msgs in #print axioms Cert.KernelIdeal.Halo.final_contents
-- ==== Proof.Body.lean ====
/-
  The body of one device, stepped from its starting resources (`sound_body`), and the same handed to the pipeline in the
  form its launch theorem asks for (`body_obligation`).

  The run: three units signalled to the neighbours' barriers, each handing over this device's receive buffer of that axis; the
  block loaded and its y and z faces stored in the send buffers; the wait for three units on the own barrier, which brings the
  three neighbours' receive buffers; the three faces sent (the x face a slab of the staged block, cut out for the transfer and
  put back after its send wait); the local stencil stored; the three receive waits, each bringing the neighbour's face; the
  faces added on the touching sides and the outer boundary zeroed, each store guarded by the device's mesh coordinate; the
  three send waits.  At the end the six own semaphores are closed at zero and the buffers handed back.
-/
import proofs.«900806_g7700000000000807_dist_halo3d_v7x_xyz2x2x2_s48_f32_1_alg».proof.Proof.Data
import proofs.«900806_g7700000000000807_dist_halo3d_v7x_xyz2x2x2_s48_f32_1_alg».proof.Proof.Lit
import proofs.«900806_g7700000000000807_dist_halo3d_v7x_xyz2x2x2_s48_f32_1_alg».proof.Proof.Sends
import proofs.«900806_g7700000000000807_dist_halo3d_v7x_xyz2x2x2_s48_f32_1_alg».proof.Proof.Glue
import proofs.«900806_g7700000000000807_dist_halo3d_v7x_xyz2x2x2_s48_f32_1_alg».proof.Proof.Mirror

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Tactic

section Body

variable (K : Dev nD × Fin 7 → ℕ)

attribute [local sl_canon] dev1_eq dev2_eq dev3_eq dev4_eq dev5_eq dev6_eq
attribute [local sl_rounds] duties_bar amount_bar expect_bar lS0_duties lR0_duties lS0_amount lR0_amount lS0_expect lR0_expect lR0_own lB_own0 lS1_duties lR1_duties lS1_amount lR1_amount lS1_expect lR1_expect lR1_own lB_own1 lS2_duties lR2_duties lS2_amount lR2_amount lS2_expect lR2_expect lR2_own lB_own2 lS0_pay lS1_pay lS2_pay
attribute [local sl_rounds high] lB_pay0 lB_pay1 lB_pay2 lR0_pay lR1_pay lR2_pay

omit [FloatOps F] in
/-- A buffer held at contents that equal others is held at those. -/
theorem pts_conv {ℓ : Loc nD τ sig} {T X : Buf (Elt F) ℓ} (h : T = X) : (ℓ ↦{fullShare} T : sProp 𝕄) ⊢ (ℓ ↦{fullShare} X) := by
  subst h; exact BI.Entails.refl _

/-- A device that owes nothing more is where the pipeline wants it after the point. -/
theorem owes_done (c : Dev nD) (W : Waits sig Unit) : (owes (c : Thread nD τ) 0 W : sProp 𝕄) ⊢ (dats m ρ 0 c).owesAt () t₀.succ := by
  unfold Dat.owesAt Pipeline.owesWithin
  rw [show (dats m ρ 0 c).owed t₀.succ = 0 from rfl]
  iintro H
  iexists W
  isplitr; · ipureintro; exact fun _ _ => Or.inl trivial
  iexact H

set_option maxHeartbeats 4000000 in
/-- One device's body from `bodyPre` to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) cc0_scratch5 cc0_scratch6) Kt := by
  unfold bodyPre ghost invs positions reachedAll payToks waitCreds scratch
  simp only [sendCell, recvCell, sendS, recvS]
  iintro ⟨⟨⟨⟨⟨#HIbar, #HIs0, #HIs1, #HIs2, #HIr0, #HIr1, #HIr2, #HIb0, #HIb1, #HIb2, #HIn0, #HIn1, #HIn2⟩,
      ⟨HatB, HatS0, HatS1, HatS2, HatR0, HatR1, HatR2⟩,
      ⟨#HrB0, #HrB1, #HrB2, #HrN0, #HrN1, #HrN2, #HrS0, #HrS1, #HrS2, #HrR0, #HrR1, #HrR2⟩,
      ⟨HtB0, HtB1, HtB2, HtN0, HtN1, HtN2, HtS0, HtS1, HtS2⟩⟩,
      ⟨HcB, HcR0, HcR1, HcR2⟩, #Hlev, ⟨⟨%f0, Hsy⟩, ⟨%f1, Hsz⟩, ⟨%f2, Hrx⟩, ⟨%f3, Hry⟩, ⟨%f4, Hrz⟩⟩⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  unfold O₀ O₁ O₂ O₃
  simp only [sendCell, recvCell, sendS, recvS]
  -- the seven buffers, each through its memref's view
  ihave Bsy := (Entails.of_eq (show ((c : Thread nD τ).loc cc0_scratch0 ↦{fullShare} f0 : sProp 𝕄) = ((syM : Memref sig .tc .vmem S48x48 .f32).view.loc (c : Thread nD τ) ↦{fullShare} f0) from rfl)) $$ Hsy
  ihave Bsz := (Entails.of_eq (show ((c : Thread nD τ).loc cc0_scratch1 ↦{fullShare} f1 : sProp 𝕄) = ((szM : Memref sig .tc .vmem S48x48 .f32).view.loc (c : Thread nD τ) ↦{fullShare} f1) from rfl)) $$ Hsz
  ihave Brx := (Entails.of_eq (show ((c : Thread nD τ).loc cc0_scratch2 ↦{fullShare} f2 : sProp 𝕄) = ((rxM : Memref sig .tc .vmem S1x48x48 .f32).view.loc (c : Thread nD τ) ↦{fullShare} f2) from rfl)) $$ Hrx
  ihave Bry := (Entails.of_eq (show ((c : Thread nD τ).loc cc0_scratch3 ↦{fullShare} f3 : sProp 𝕄) = ((ryM : Memref sig .tc .vmem S48x48 .f32).view.loc (c : Thread nD τ) ↦{fullShare} f3) from rfl)) $$ Hry
  ihave Brz := (Entails.of_eq (show ((c : Thread nD τ).loc cc0_scratch4 ↦{fullShare} f4 : sProp 𝕄) = ((rzM : Memref sig .tc .vmem S48x48 .f32).view.loc (c : Thread nD τ) ↦{fullShare} f4) from rfl)) $$ Hrz
  ihave Bx := (Entails.of_eq (show ((c : Thread nD τ).loc cc0_stg0_0 ↦{fullShare} xstg m ρ c : sProp 𝕄) = ((uM : Memref sig .tc .vmem S48x48x48 .f32).view.loc (c : Thread nD τ) ↦{fullShare} xstg m ρ c) from rfl)) $$ Hx
  ihave Bo := (Entails.of_eq (show ((c : Thread nD τ).loc cc0_stg1_0 ↦{fullShare} g1 : sProp 𝕄) = ((oM : Memref sig .tc .vmem S48x48x48 .f32).view.loc (c : Thread nD τ) ↦{fullShare} g1) from rfl)) $$ Hout
  have hmw := mayWait_bar (F := F) c
  unfold O₃ at hmw
  simp only [sendCell, recvCell, sendS, recvS] at hmw
  sl_unfold [cc0_body]
  -- the signals, the load, the guarded stores of the send buffers, the barrier wait
  sl_exec
  -- the barrier's three payloads: each neighbour's receive buffer of its axis, and that its receive cell is at round 0
  have hsplit : (bigSep Finset.univ fun d : Fin 3 => (haloRd (F := F) m ρ).payload (barCell c) 0 d)
      = iprop((haloRd (F := F) m ρ).payload (barCell c) 0 0 ∗ (haloRd (F := F) m ρ).payload (barCell c) 0 1 ∗ (haloRd (F := F) m ρ).payload (barCell c) 0 2) := by
    rw [bigSep_univ_eq_bigSepL ([0, 1, 2] : List (Fin 3)) (by decide) (by decide), bigSepL_cons_cons, bigSepL_cons_cons, bigSepL_singleton]
    rfl
  ihave Hp := (Entails.of_eq hsplit) $$ HatB_pay1
  rw [lB_own0, lB_own1, lB_own2]
  icases Hp with ⟨⟨⟨%fn0, Hn0⟩, #HrN0'⟩, ⟨⟨%fn1, Hn1⟩, #HrN1'⟩, ⟨⟨%fn2, Hn2⟩, #HrN2'⟩⟩
  ihave Bn0 := (Entails.of_eq (show ((((nbr 0 c : Dev nD) : Thread nD τ).loc cc0_scratch2 ↦{fullShare} fn0 : sProp 𝕄)) = ((rxM : Memref sig .tc .vmem S1x48x48 .f32).view.loc ((nbr 0 c : Dev nD) : Thread nD τ) ↦{fullShare} fn0) from rfl)) $$ Hn0
  ihave Bn1 := (Entails.of_eq (show ((((nbr 1 c : Dev nD) : Thread nD τ).loc cc0_scratch3 ↦{fullShare} fn1 : sProp 𝕄)) = ((ryM : Memref sig .tc .vmem S48x48 .f32).view.loc ((nbr 1 c : Dev nD) : Thread nD τ) ↦{fullShare} fn1) from rfl)) $$ Hn1
  ihave Bn2 := (Entails.of_eq (show ((((nbr 2 c : Dev nD) : Thread nD τ).loc cc0_scratch4 ↦{fullShare} fn2 : sProp 𝕄)) = ((rzM : Memref sig .tc .vmem S48x48 .f32).view.loc ((nbr 2 c : Dev nD) : Thread nD τ) ↦{fullShare} fn2) from rfl)) $$ Hn2
  -- what the two send buffers hold: the faces (the guards are the device's y and z coordinates)
  have hz3 : (![0, 0, 0] : Fin 3 → Nat) = fun _ => 0 := funext fun a => by fin_cases a <;> rfl
  have h37 : sound_body.sl.v37 c = 1#1 ↔ by' c = 0 := (by decide +kernel : ∀ c' : Dev nD, sound_body.sl.v37 c' = 1#1 ↔ by' c' = 0) c
  have h40 : sound_body.sl.v40 c = 1#1 ↔ by' c = 1 := (by decide +kernel : ∀ c' : Dev nD, sound_body.sl.v40 c' = 1#1 ↔ by' c' = 1) c
  have h43 : sound_body.sl.v43 c = 1#1 ↔ bz c = 0 := (by decide +kernel : ∀ c' : Dev nD, sound_body.sl.v43 c' = 1#1 ↔ bz c' = 0) c
  have h46 : sound_body.sl.v46 c = 1#1 ↔ bz c = 1 := (by decide +kernel : ∀ c' : Dev nD, sound_body.sl.v46 c' = 1#1 ↔ bz c' = 1) c
  have e31 : View.readAt (Elt F) (uM : Memref sig .tc .vmem S48x48x48 .f32).view (Rect.unit (s := S48x48x48) ![0, 0, 0] S48x48x48.size inb_S48x48x48_S48x48x48_0_0_0).toLoadRect (xstg m ρ c) = xstg m ρ c :=
    Memref.readAt_unit_zero (Elt F) cc0_stg0_0 hz3 _ _
  have hv32 : sound_body.sl.v32 m ρ c = k0_pay1 (xstg m ρ c) := by
    unfold sound_body.sl.v32 k0_pay1; rw [e31]
  have hy0 : sound_body.sl.v174 m ρ c = k0_pay2 (xstg m ρ c) := by
    unfold sound_body.sl.v174 sound_body.sl.v171 sound_body.sl.v170 k0_pay2; rw [hv32]
  have hy1 : sound_body.sl.v174_1 m ρ c = k0_pay3 (xstg m ρ c) := by
    unfold sound_body.sl.v174_1 sound_body.sl.v171_1 sound_body.sl.v170_1 k0_pay3; rw [hv32]
  have hz0 : sound_body.sl.v174_2 m ρ c = k0_pay4 (xstg m ρ c) := by
    unfold sound_body.sl.v174_2 sound_body.sl.v171_2 sound_body.sl.v170_2 k0_pay4; rw [hv32]
  have hz1 : sound_body.sl.v174_3 m ρ c = k0_pay5 (xstg m ρ c) := by
    unfold sound_body.sl.v174_3 sound_body.sl.v171_3 sound_body.sl.v170_3 k0_pay5; rw [hv32]
  ihave Bsy := (Entails.of_eq (congrArg (fun f => (View.loc (c : Thread nD τ) (syM : Memref sig .tc .vmem S48x48 .f32).view ↦{fullShare} f : sProp 𝕄))
    (sendY_eq m ρ c _ _ h37 h40 f0 _ _ hy0 hy1 _))) $$ Bsy
  ihave Bsz := (Entails.of_eq (congrArg (fun f => (View.loc (c : Thread nD τ) (szM : Memref sig .tc .vmem S48x48 .f32).view ↦{fullShare} f : sProp 𝕄))
    (sendZ_eq m ρ c _ _ h43 h46 f1 _ _ hz0 hz1 _))) $$ Bsz
  -- the x slab cut out of the staged block
  ihave Hsl := (pointsTo_split_subset (ℓ := (sxM c).view.loc (c : Thread nD τ)) (I := (sxM c).view.set) (S := Finset.univ) (q := fullShare) (f := xstg m ρ c) (Finset.subset_univ _)).1 $$ Bx
  icases Hsl with ⟨Bsx, Bxr⟩
  -- the x transfer, by the send rule at the slab
  iapply (wp_send_x m ρ K c _ (dev4_eq c) fn0 (tallyAt (((nbr 2 c : Dev nD) : Thread nD τ), SemLoc.dma 7) () Nf + tallyAt (((nbr 1 c : Dev nD) : Thread nD τ), SemLoc.dma 6) () Nf) (insert (SemLoc.reg barS, ()) W)) $$ [Bsx Bn0 HO HtS0 HtN0]
  · isplitr; · iexact HIs0
    isplitr; · iexact HIn0
    isplitl [Bsx]; · iexact Bsx
    isplitl [Bn0]; · iexact Bn0
    isplitl [HO]; · iexact HO
    isplitl [HtS0]; · iexact HtS0
    isplitr; · iexact HrS0
    isplitl [HtN0]; · iexact HtN0
    iexact HrN0
  iintro ⟨HcS0, HO⟩
  -- the y and z transfers, the stencil's store, the three receive waits, the guarded adds and zeroings, the three send waits
  sl_exec (disch := simp only [dev5_eq, dev6_eq])
  -- the six own cells close: their counters at zero are the device's again
  imod (Rounds.cell_close ER (haloRd m ρ) (Set.mem_univ (K (c, 1))) (fun h => h) (R := 1) (duties_later m ρ ((c : Thread nD τ), SemLoc.dma 2))) $$ [HatS0] with HzS0
  · isplitr; · iexact HIs0
    iexact HatS0
  imod (Rounds.cell_close ER (haloRd m ρ) (Set.mem_univ (K (c, 2))) (fun h => h) (R := 1) (duties_later m ρ ((c : Thread nD τ), SemLoc.dma 3))) $$ [HatS1] with HzS1
  · isplitr; · iexact HIs1
    iexact HatS1
  imod (Rounds.cell_close ER (haloRd m ρ) (Set.mem_univ (K (c, 3))) (fun h => h) (R := 1) (duties_later m ρ ((c : Thread nD τ), SemLoc.dma 4))) $$ [HatS2] with HzS2
  · isplitr; · iexact HIs2
    iexact HatS2
  imod (Rounds.cell_close ER (haloRd m ρ) (Set.mem_univ (K (c, 4))) (fun h => h) (R := 1) (duties_later m ρ ((c : Thread nD τ), SemLoc.dma 5))) $$ [HatR0] with HzR0
  · isplitr; · iexact HIr0
    iexact HatR0
  imod (Rounds.cell_close ER (haloRd m ρ) (Set.mem_univ (K (c, 5))) (fun h => h) (R := 1) (duties_later m ρ ((c : Thread nD τ), SemLoc.dma 6))) $$ [HatR1] with HzR1
  · isplitr; · iexact HIr1
    iexact HatR1
  imod (Rounds.cell_close ER (haloRd m ρ) (Set.mem_univ (K (c, 6))) (fun h => h) (R := 1) (duties_later m ρ ((c : Thread nD τ), SemLoc.dma 7))) $$ [HatR2] with HzR2
  · isplitr; · iexact HIr2
    iexact HatR2
  -- the slab back into the staged block
  ihave Bx := (pointsTo_split_subset (ℓ := (sxM c).view.loc (c : Thread nD τ)) (I := (sxM c).view.set) (S := Finset.univ) (q := fullShare) (f := xstg m ρ c) (Finset.subset_univ _)).2 $$ [HatS0_pay1 Bxr]
  · isplitl [HatS0_pay1]; · iexact HatS0_pay1
    iexact Bxr
  -- what the result block holds
  have h129 : sound_body.sl.v129 c = 1#1 ↔ bx c = 0 := (by decide +kernel : ∀ c' : Dev nD, sound_body.sl.v129 c' = 1#1 ↔ bx c' = 0) c
  have h132 : sound_body.sl.v132 c = 1#1 ↔ bx c = 1 := (by decide +kernel : ∀ c' : Dev nD, sound_body.sl.v132 c' = 1#1 ↔ bx c' = 1) c
  have h135 : sound_body.sl.v135 c = 1#1 ↔ by' c = 0 := (by decide +kernel : ∀ c' : Dev nD, sound_body.sl.v135 c' = 1#1 ↔ by' c' = 0) c
  have h138 : sound_body.sl.v138 c = 1#1 ↔ by' c = 1 := (by decide +kernel : ∀ c' : Dev nD, sound_body.sl.v138 c' = 1#1 ↔ by' c' = 1) c
  have h141 : sound_body.sl.v141 c = 1#1 ↔ bz c = 0 := (by decide +kernel : ∀ c' : Dev nD, sound_body.sl.v141 c' = 1#1 ↔ bz c' = 0) c
  have h144 : sound_body.sl.v144 c = 1#1 ↔ bz c = 1 := (by decide +kernel : ∀ c' : Dev nD, sound_body.sl.v144 c' = 1#1 ↔ bz c' = 1) c
  have hr : sound_body.sl.r m ρ c = k0_pay9 (k0_pay1 (xstg m ρ c)) := by unfold sound_body.sl.r; rw [hv32]
  ihave Bo := (pts_conv (X := outAt m ρ c) ?hfin) $$ Bo
  case hfin =>
    have hfc := final_contents m ρ c g1 (sound_body.sl.r m ρ c) hr (sound_body.sl.v129 c) (sound_body.sl.v132 c) (sound_body.sl.v135 c) (sound_body.sl.v138 c) (sound_body.sl.v141 c) (sound_body.sl.v144 c) h129 h132 h135 h138 h141 h144
    simp only [fin, fin5, fin4, fin3, fin2, fin1, leaf6, leaf5, leaf4, leaf3, leaf2, leaf1, cond_true, cond_false, S5, S4, S3, S2, S1, S0, a15, a14, a13, a12, a11, a10, L0] at hfc
    revert hfc
    sl_unfold_run_names
    exact fun h => h
  rw [wp_ret]; imodintro
  iapply Hk
  unfold bodyPost Φ₁ scratch ownZero
  simp only [sendCell, recvCell, sendS, recvS]
  isplitl [HatS1_pay1 HatS2_pay1 HatR0_pay1 HatR1_pay1 HatR2_pay1 HzS0 HzS1 HzS2 HzR0 HzR1 HzR2]
  · isplitl [HatS1_pay1 HatS2_pay1 HatR0_pay1 HatR1_pay1 HatR2_pay1]
    · isplitl [HatS1_pay1]; · iexists _; iexact HatS1_pay1
      isplitl [HatS2_pay1]; · iexists _; iexact HatS2_pay1
      isplitl [HatR0_pay1]; · iexists _; iexact HatR0_pay1
      isplitl [HatR1_pay1]; · iexists _; iexact HatR1_pay1
      iexists _; iexact HatR2_pay1
    · isplitl [HzS0]; · iexact HzS0
      isplitl [HzS1]; · iexact HzS1
      isplitl [HzS2]; · iexact HzS2
      isplitl [HzR0]; · iexact HzR0
      isplitl [HzR1]; · iexact HzR1
      iexact HzR2
  isplitl [HO]
  · ihave Hd := (owes_done m ρ c _) $$ HO
    iexact Hd
  isplitl [Bx]
  · iexists _; isplitr; · (ipureintro; rfl)
    iexact Bx
  iexists _; isplitr; · (ipureintro; rfl)
  iexact Bo

set_option maxRecDepth 4000 in
/-- What the pipeline enters the body with. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) cc0_scratch5 cc0_scratch6) (fun _ => bodyPost m ρ c)
  unfold bodyPre' Φ₀ start
  iintro ⟨⟨⟨⟨%K, Hg⟩, Hcr, Hlev⟩, Hscr⟩, Ho, Hx, Hout⟩
  iapply (sound_body m ρ K c fun _ => bodyPost m ρ c)
  unfold bodyPre
  isplitr []
  · isplitl [Hg Hcr Hlev Hscr]
    · isplitl [Hg]; · iexact Hg
      isplitl [Hcr]; · iexact Hcr
      isplitl [Hlev]; · iexact Hlev
      iexact Hscr
    isplitl [Ho]; · iexact Ho
    isplitl [Hx] <;> iassumption
  · iintro H; iexact H

end Body

end Cert.KernelIdeal.Halo

end
-- ==== Proof.LaunchFacts.lean ====
/-
  The launch of the halo exchange.  The protocol's ghost state is funded for all eight devices at once: every device's seven
  cells at round 0, and the nine duty tokens of its own cells.  Under one update the seven cells of every device are closed
  into invariants; the tokens are then dealt to the devices that pay them (a barrier's duty `a` and the axis-`a` receive
  duty go to the axis-`a` neighbour, a flip of the mesh; the send duty stays), and every device is handed the invariants and
  round marks of the cells it touches.  The credit a device is launched with is what the others owe its cells: three units
  on its barrier, one from each neighbour, and a face on each receive cell from that axis' neighbour alone.
-/
import proofs.«900806_g7700000000000807_dist_halo3d_v7x_xyz2x2x2_s48_f32_1_alg».proof.Proof.Data

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and tokens funded at launch -/

theorem ownSemFacts : Pipeline.OwnSemFacts cfg0.spec osem := by decide

theorem share_eq (c : Dev nD) (w : Fin cfg0.W) : (dats m ρ 0 c).share w = fullShare := by unfold Dat.share; split <;> rfl

theorem csem_injective : Function.Injective (csem : Fin 7 → SemLoc sig) := by decide

theorem kcell_injective : Function.Injective (kcell : Dev nD × Fin 7 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-- The 8 × 7 cells of the protocol. -/
def haloCells : Finset (GSem nD τ sig) := Finset.univ.map ⟨kcell, kcell_injective⟩

/-- The nine duties of a device's own cells: which cell, which duty. -/
abbrev tk : Fin 9 → Fin 7 := fun | 0 => 0 | 1 => 0 | 2 => 0 | 3 => 1 | 4 => 2 | 5 => 3 | 6 => 4 | 7 => 5 | 8 => 6
abbrev td : Fin 9 → Fin 3 := fun | 0 => 0 | 1 => 1 | 2 => 2 | 3 => 0 | 4 => 0 | 5 => 0 | 6 => 0 | 7 => 0 | 8 => 0
abbrev tokOf (cj : Dev nD × Fin 9) : GSem nD τ sig × ℕ × Fin 3 := (kcell (cj.1, tk cj.2), 0, td cj.2)

theorem tk_td_injective : ∀ j j' : Fin 9, tk j = tk j' → td j = td j' → j = j' := by decide

theorem tokOf_injective : Function.Injective (tokOf : Dev nD × Fin 9 → GSem nD τ sig × ℕ × Fin 3) := by
  rintro ⟨c, j⟩ ⟨c', j'⟩ h
  have h1 : ((c, tk j) : Dev nD × Fin 7) = (c', tk j') := kcell_injective (congrArg (fun x : GSem nD τ sig × ℕ × Fin 3 => x.1) h)
  have h2 : td j = td j' := congrArg (fun x : GSem nD τ sig × ℕ × Fin 3 => x.2.2) h
  have hc : c = c' := congrArg Prod.fst h1
  have hj : j = j' := tk_td_injective j j' (congrArg Prod.snd h1) h2
  rw [hc, hj]

/-- Every device's nine tokens. -/
def haloToks : Finset (GSem nD τ sig × ℕ × Fin 3) := Finset.univ.map ⟨tokOf, tokOf_injective⟩

def u₀ : UU :=
  (initOf (Pipeline.cells cfgs cellOf_inj) (Pipeline.launchToks cfgs cellOf_inj), initOf haloCells haloToks)

/-- The duty tokens of device `c`'s own cells. -/
def toks (c : Dev nD) : sProp 𝕄 :=
  iprop(dutyTok ER (barCell c) 0 0 ∗ dutyTok ER (barCell c) 0 1 ∗ dutyTok ER (barCell c) 0 2
    ∗ dutyTok ER (sendCell 0 c) 0 0 ∗ dutyTok ER (sendCell 1 c) 0 0 ∗ dutyTok ER (sendCell 2 c) 0 0
    ∗ dutyTok ER (recvCell 0 c) 0 0 ∗ dutyTok ER (recvCell 1 c) 0 0 ∗ dutyTok ER (recvCell 2 c) 0 0)

/-- What the launch element deals device `c`: its seven cells' round state, its position at and the mark of round 0 of each,
    the nine tokens of its own cells. -/
def G (c : Dev nD) : sProp 𝕄 :=
  iprop((bigSep Finset.univ fun k : Fin 7 => roundState ER (haloRd m ρ) (kcell (c, k)) 0)
    ∗ (bigSep Finset.univ fun k : Fin 7 => iprop(atPos ER (kcell (c, k)) 0 ∅ 0 ∗ reached ER (kcell (c, k)) 0)) ∗ toks c)

/-- What the global step makes of it. -/
def G' (c : Dev nD) : sProp 𝕄 := iprop(∃ K, ghost m ρ K c)

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

omit [FloatOps F] in
/-- The protocol's element pays for every device's share. -/
theorem fund_halo : BI.own (ER (initOf haloCells haloToks)) ⊢ (|==> bigSep Finset.univ (G m ρ) : sProp 𝕄) := by
  have hX (Φ : GSem nD τ sig → sProp 𝕄) : bigSep haloCells Φ = bigSep Finset.univ fun c : Dev nD => bigSep Finset.univ fun k : Fin 7 => Φ (kcell (c, k)) := by
    unfold haloCells; rw [bigSep_map, bigSep_univ_prod]; rfl
  have hT : bigSep haloToks (fun x => (dutyTok ER x.1 x.2.1 x.2.2 : sProp 𝕄)) = bigSep Finset.univ fun c : Dev nD => toks c := by
    unfold haloToks; rw [bigSep_map, bigSep_univ_prod]
    exact bigSep_congr fun c _ => by unfold toks; rw [bigSep_fin9]; rfl
  iintro HX
  imod (Rounds.fund ER (haloRd m ρ) haloCells haloToks) $$ HX with ⟨Hst, Hr, Hat, Htok⟩
  imodintro
  ihave Hst' := (Entails.of_eq (hX fun g => roundState ER (haloRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem hu₀ : (ownU (u₀ : UU) : sProp 𝕄)
    ⊢ |={Set.univ}=> iprop(BI.own (EP (initOf (Pipeline.cells cfgs cellOf_inj) (Pipeline.launchToks cfgs cellOf_inj))) ∗ bigSep Finset.univ (G m ρ)) := by
  unfold u₀
  iintro Hu
  ihave H := (ownU_pair _ _) $$ Hu
  icases H with ⟨HP, HX⟩
  imod (fund_halo m ρ) $$ HX with HG
  imodintro
  isplitl [HP] <;> iassumption

/-! ## The global step: the cells closed, the tokens dealt -/

omit [FloatOps F] in
/-- The three send and three receive semaphores are the kernel's own six; -/
theorem ownSems0_eq (c : Dev nD) : (Pipeline.ownSems0 (Ix := Unit) (Name := ℕ) (U := UU) (Lvl := ℕ) (Val := Elt F) (τ := τ) osem c : sProp 𝕄)
    = ownZero c := by
  rw [Pipeline.ownSems0_eq_of_list c osem [0, 1, 2, 3, 4, 5] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_fin7]
  unfold ownZero
  iintro ⟨HO, HB⟩
  isplitl [HB]; · iexact HB
  iexact HO

omit [FloatOps F] in
/-- One device's seven cells closed into invariants, at some names. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (haloRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (haloRd m ρ) (kcell (c, k)) 0)
      ⊢ (|={Set.univ}=> bigSep Finset.univ fun k => iprop(∃ κ : ℕ, cellInv ER (haloRd m ρ) κ (kcell (c, k))) : sProp 𝕄) from by
        rw [← bigSep_sep']
        exact (bigSep_mono fun k _ => (Rounds.body_intro ER (haloRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The persistent records of all 56 cells: their invariants under the names `K`, and that round 0 is reached. -/
def records (K : Dev nD × Fin 7 → ℕ) : sProp 𝕄 :=
  iprop((bigSep Finset.univ fun ck : Dev nD × Fin 7 => cellInv ER (haloRd m ρ) (K ck) (kcell ck))
    ∗ bigSep Finset.univ fun ck : Dev nD × Fin 7 => reached ER (kcell ck) 0)

instance records_persistent (K : Dev nD × Fin 7 → ℕ) : BI.Persistent (records m ρ K) := by unfold records; infer_instance

omit [FloatOps F] in
theorem inv_at (K : Dev nD × Fin 7 → ℕ) (ck : Dev nD × Fin 7) :
    (bigSep Finset.univ fun ck : Dev nD × Fin 7 => (cellInv ER (haloRd m ρ) (K ck) (kcell ck) : sProp 𝕄)) ⊢ cellInv ER (haloRd m ρ) (K ck) (kcell ck) :=
  bigSep_elim (Finset.mem_univ ck)
omit [FloatOps F] in
theorem reached_at (ck : Dev nD × Fin 7) :
    (bigSep Finset.univ fun ck : Dev nD × Fin 7 => (reached ER (kcell ck) 0 : sProp 𝕄)) ⊢ reached ER (kcell ck) 0 :=
  bigSep_elim (Finset.mem_univ ck)

/-- What stays with device `c`: its positions, and the tokens of the duties it pays. -/
def linear (c : Dev nD) : sProp 𝕄 := iprop(positions c ∗ payToks c)

omit [FloatOps F] in
theorem ghost_intro (K : Dev nD × Fin 7 → ℕ) (c : Dev nD) : iprop(records m ρ K ∗ linear c) ⊢ G' m ρ c := by
  unfold records linear G' ghost
  iintro ⟨⟨#HI, #HR⟩, Hpos, Htok⟩
  iexists K
  isplitr
  · unfold invs
    isplitr; · iapply (inv_at m ρ K (c, 0)); iexact HI
    isplitr; · iapply (inv_at m ρ K (c, 1)); iexact HI
    isplitr; · iapply (inv_at m ρ K (c, 2)); iexact HI
    isplitr; · iapply (inv_at m ρ K (c, 3)); iexact HI
    isplitr; · iapply (inv_at m ρ K (c, 4)); iexact HI
    isplitr; · iapply (inv_at m ρ K (c, 5)); iexact HI
    isplitr; · iapply (inv_at m ρ K (c, 6)); iexact HI
    isplitr; · iapply (inv_at m ρ K (nbr 0 c, 0)); iexact HI
    isplitr; · iapply (inv_at m ρ K (nbr 1 c, 0)); iexact HI
    isplitr; · iapply (inv_at m ρ K (nbr 2 c, 0)); iexact HI
    isplitr; · iapply (inv_at m ρ K (nbr 0 c, 4)); iexact HI
    isplitr; · iapply (inv_at m ρ K (nbr 1 c, 5)); iexact HI
    iapply (inv_at m ρ K (nbr 2 c, 6)); iexact HI
  isplitl [Hpos]; · iexact Hpos
  isplitr
  · unfold reachedAll
    isplitr; · iapply (reached_at (F := F) (nbr 0 c, 0)); iexact HR
    isplitr; · iapply (reached_at (F := F) (nbr 1 c, 0)); iexact HR
    isplitr; · iapply (reached_at (F := F) (nbr 2 c, 0)); iexact HR
    isplitr; · iapply (reached_at (F := F) (nbr 0 c, 4)); iexact HR
    isplitr; · iapply (reached_at (F := F) (nbr 1 c, 5)); iexact HR
    isplitr; · iapply (reached_at (F := F) (nbr 2 c, 6)); iexact HR
    isplitr; · iapply (reached_at (F := F) (c, 1)); iexact HR
    isplitr; · iapply (reached_at (F := F) (c, 2)); iexact HR
    isplitr; · iapply (reached_at (F := F) (c, 3)); iexact HR
    isplitr; · iapply (reached_at (F := F) (c, 4)); iexact HR
    isplitr; · iapply (reached_at (F := F) (c, 5)); iexact HR
    iapply (reached_at (F := F) (c, 6)); iexact HR
  iexact Htok

omit [FloatOps F] in
/-- The tokens dealt across the mesh: a barrier's duty `a` and the axis-`a` receive duty go to the axis-`a` neighbour (the flip
    of that axis permutes the devices); the send duties stay. -/
theorem toks_around : (bigSep Finset.univ fun c : Dev nD => (toks c : sProp 𝕄)) ⊢ bigSep Finset.univ fun c : Dev nD => payToks c := by
  unfold toks payToks
  simp only [bigSep_sep']
  rw [bigSep_univ_equiv (flip 0) (fun c : Dev nD => (dutyTok ER (barCell c) 0 0 : sProp 𝕄)),
    bigSep_univ_equiv (flip 1) (fun c : Dev nD => (dutyTok ER (barCell c) 0 1 : sProp 𝕄)),
    bigSep_univ_equiv (flip 2) (fun c : Dev nD => (dutyTok ER (barCell c) 0 2 : sProp 𝕄)),
    bigSep_univ_equiv (flip 0) (fun c : Dev nD => (dutyTok ER (recvCell 0 c) 0 0 : sProp 𝕄)),
    bigSep_univ_equiv (flip 1) (fun c : Dev nD => (dutyTok ER (recvCell 1 c) 0 0 : sProp 𝕄)),
    bigSep_univ_equiv (flip 2) (fun c : Dev nD => (dutyTok ER (recvCell 2 c) 0 0 : sProp 𝕄))]
  iintro ⟨B0, B1, B2, S0, S1, S2, R0, R1, R2⟩
  isplitl [B0]; · iexact B0
  isplitl [B1]; · iexact B1
  isplitl [B2]; · iexact B2
  isplitl [R0]; · iexact R0
  isplitl [R1]; · iexact R1
  isplitl [R2]; · iexact R2
  isplitl [S0]; · iexact S0
  isplitl [S1]; · iexact S1
  iexact S2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun k => iprop(∃ κ : ℕ, cellInv ER (haloRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 7 => iprop(∃ κ : ℕ, cellInv ER (haloRd m ρ) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (haloRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 7 => (atPos ER (kcell (c, k)) 0 ∅ 0 : sProp 𝕄)) payToks).symm).trans
      (bigSep_mono fun c _ => show _ ⊢ linear c from Entails.of_eq (by unfold linear positions; rw [bigSep_fin7])))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

omit [FloatOps F] in
/-- What the devices owe, summand by summand. -/
theorem O₀_eq : (O₀ : Dev nD → CellTallies nD τ sig Unit) = fun d =>
    ((((tallyAt (recvCell 2 (nbr 2 d)) () Nf + tallyAt (recvCell 1 (nbr 1 d)) () Nf) + tallyAt (recvCell 0 (nbr 0 d)) () Nx)
      + tallyAt (barCell (nbr 2 d)) () 1) + tallyAt (barCell (nbr 1 d)) () 1) + tallyAt (barCell (nbr 0 d)) () 1 := rfl

omit [FloatOps F] in
/-- A device's launch credit: its barrier is owed a unit by each of its three neighbours, its axis-`a` receive cell a face by
    the axis-`a` neighbour alone. -/
theorem creds (c : Dev nD) : (Pipeline.launchCred O₀ c : sProp 𝕄) ⊢ waitCreds c := by
  have e3 : (tallyAt (barCell c) () 3 : CellTallies nD τ sig Unit)
      = tallyAt (barCell c) () 1 + (tallyAt (barCell c) () 1 + tallyAt (barCell c) () 1) := by rw [tallyAt_add, tallyAt_add]
  rw [O₀_eq, Pipeline.launchCred_add, Pipeline.launchCred_add, Pipeline.launchCred_add, Pipeline.launchCred_add, Pipeline.launchCred_add]
  unfold waitCreds
  iintro ⟨⟨⟨⟨⟨Hz, Hy⟩, Hx⟩, Hb2⟩, Hb1⟩, Hb0⟩
  ihave Hz := (Pipeline.launchCred_tallyAt (.dma (recvS 2)) (nbr 2) (nbr 2) (nbr_nbr 2) (nbr_nbr 2) () Nf c) $$ Hz
  ihave Hy := (Pipeline.launchCred_tallyAt (.dma (recvS 1)) (nbr 1) (nbr 1) (nbr_nbr 1) (nbr_nbr 1) () Nf c) $$ Hy
  ihave Hx := (Pipeline.launchCred_tallyAt (.dma (recvS 0)) (nbr 0) (nbr 0) (nbr_nbr 0) (nbr_nbr 0) () Nx c) $$ Hx
  ihave Hb2 := (Pipeline.launchCred_tallyAt (.reg barS) (nbr 2) (nbr 2) (nbr_nbr 2) (nbr_nbr 2) () 1 c) $$ Hb2
  ihave Hb1 := (Pipeline.launchCred_tallyAt (.reg barS) (nbr 1) (nbr 1) (nbr_nbr 1) (nbr_nbr 1) () 1 c) $$ Hb1
  ihave Hb0 := (Pipeline.launchCred_tallyAt (.reg barS) (nbr 0) (nbr 0) (nbr_nbr 0) (nbr_nbr 0) () 1 c) $$ Hb0
  isplitl [Hb0 Hb1 Hb2]
  · rw [e3]
    iapply (cred_add _ _).2
    isplitl [Hb0]; · iexact Hb0
    iapply (cred_add _ _).2
    isplitl [Hb1]; · iexact Hb1
    iexact Hb2
  isplitl [Hx]; · iexact Hx
  isplitl [Hy]; · iexact Hy
  iexact Hz

/-! ## The theorem's side conditions -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁ scratch
  iintro ⟨Hr, Hz⟩
  isplitr; · iempintro
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- info: 'Cert.KernelIdeal.Halo.hu₀' depends on axioms: [propext, Classical.choice, Quot.sound] -/
#guard_msgs in #print axioms hu₀
/-- info: 'Cert.KernelIdeal.Halo.glob' depends on axioms: [propext, Classical.choice, Quot.sound] -/
#guard_msgs in #print axioms glob
/-- info: 'Cert.KernelIdeal.Halo.start_intro' depends on axioms: [propext, Classical.choice, Quot.sound] -/
#guard_msgs in #print axioms start_intro
/-- info: 'Cert.KernelIdeal.Halo.phi0_intro' depends on axioms: [propext, Classical.choice, Quot.sound] -/
#guard_msgs in #print axioms phi0_intro
/-- info: 'Cert.KernelIdeal.Halo.phi1_exit' depends on axioms: [propext, Classical.choice, Quot.sound] -/
#guard_msgs in #print axioms phi1_exit
/-- info: 'Cert.KernelIdeal.Halo.waits' depends on axioms: [propext, Classical.choice, Quot.sound] -/
#guard_msgs in #print axioms waits

end Cert.KernelIdeal.Halo

end
-- ==== Proof.Final.lean ====
/-
  What a device's two arrays hold after the region.  The grid has one point.  The argument array is an input window's:
  nothing is ever written back to it, so it holds what it held at launch.  The result array's one block is the whole
  array and is written back at that point, so the array ends holding what the body left in the staging buffer.
-/
import proofs.«900806_g7700000000000807_dist_halo3d_v7x_xyz2x2x2_s48_f32_1_alg».proof.Proof.Data
import Idealize.ShloMosaic.Lib.Pipeline.Cells
import Idealize.ShloMosaic.Lib.Pipeline.Value

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The argument array is never written back: after the run it holds its launch contents. -/
theorem final_in (c : Dev nD) : (dats m ρ 0 c).arrAt (0 : Fin 2) cfg0.N = m ((c : Thread nD τ).loc main_arg0) :=
  (dats m ρ 0 c).arrAt_in (0 : Fin 2) rfl _

/-- The result window's block at the one point starts at offset zero on every axis. -/
theorem off_zero : (fun a => win0_1.index t₀ a * main_v1.ty.shape.size a) = fun _ => 0 :=
  funext fun a => Nat.zero_mul _

/-- The one write-back writes the whole result array: it ends holding what the body left in the staging buffer. -/
theorem final_out (c : Dev nD) : (dats m ρ 0 c).arrAt (1 : Fin 2) cfg0.N = outAt m ρ c := by
  have h := (dats m ρ 0 c).arrAt_succ (1 : Fin 2) t₀
  rw [flush0_1 t₀, if_pos rfl] at h
  refine (congrArg ((dats m ρ 0 c).arrAt (1 : Fin 2)) cfg0_N).trans (h.trans ?_)
  exact Memref.write_access_unit_zero_univ (Elt F) main_v1 off_zero (fun a => by rw [congrFun off_zero a]; simp) _ (outAt m ρ c)

/-- info: 'Cert.KernelIdeal.Halo.final_in' depends on axioms: [propext, Classical.choice, Quot.sound] -/
#guard_msgs in #print axioms final_in

/-- info: 'Cert.KernelIdeal.Halo.final_out' depends on axioms: [propext, Classical.choice, Quot.sound] -/
#guard_msgs in #print axioms final_out

end Cert.KernelIdeal.Halo

end
-- ==== Proof.Run.lean ====
/-
  The launch and the run.  The launch theorem for devices that owe units at launch, with the protocol's ghost state
  allocated for all devices under one update, is applied to the proof data of the one region: every weakly fair execution
  of the eight devices terminates, and each device's two arrays end at the contents the proof data name.  Read through
  the final arrays, that is: the result block holds `outAt`, the argument block what it held at launch.
-/
import proofs.«900806_g7700000000000807_dist_halo3d_v7x_xyz2x2x2_s48_f32_1_alg».proof.Proof.Body
import proofs.«900806_g7700000000000807_dist_halo3d_v7x_xyz2x2x2_s48_f32_1_alg».proof.Proof.LaunchFacts
import proofs.«900806_g7700000000000807_dist_halo3d_v7x_xyz2x2x2_s48_f32_1_alg».proof.Proof.Final

noncomputable section

namespace Cert.KernelIdeal.Halo

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Each windowed array of a device after the write-backs of the whole grid. -/
def finalA (c : Dev nD) (w : Fin cfg0.W) : Buf (Elt F) ((cfg0.win w).arr.view.loc (c : Thread nD τ)) := (dats m ρ 0 c).arrAt w cfg0.N

/-- The post of the run: every device's windowed arrays at those contents. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of eight devices, for any float values, from any memory with zero counters: every weakly fair
    execution of @main — the eight kernels handshaking with their three axis neighbours on the barrier semaphore, then
    exchanging faces — terminates, and every final state has each device's two arrays at the contents the proof data name. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := hu₀ m ρ)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The run with the values named: each device's result block ends at `outAt`, its argument block unchanged. -/
theorem run_values : θ_run defs (onTc (τ := τ) (main (F := F))) ⟨m, fun _ => 0, ρ⟩ (fun r => ∀ c : Dev nD,
    r.2.mem ((c.tc : Thread nD τ).loc main_v1) = outAt m ρ c
    ∧ r.2.mem ((c.tc : Thread nD τ).loc main_arg0) = m ((c.tc : Thread nD τ).loc main_arg0)) :=
  (θ_run defs _ _).mono
    (fun _ h c => ⟨(h c (1 : Fin 2)).trans (final_out m ρ c), (h c (0 : Fin 2)).trans (final_in m ρ c)⟩)
    (run_main m ρ)

/-- info: 'Cert.KernelIdeal.Halo.run_values' depends on axioms: [propext, Classical.choice, Quot.sound] -/
#guard_msgs in #print axioms run_values

end Cert.KernelIdeal.Halo

end
-- ==== Proof.Bits.Topo.lean ====
/-
  The 2 × 2 × 2 mesh.  Device `c` (logical id 0 … 7, row-major) sits at `(c / 4, c / 2 % 2, c % 2)`; its neighbour
  along an axis is the device whose coordinate on that axis is flipped, the other two kept: an involution without
  fixed points.  The kernel's six device-id chains (three signals, three transfers) name these neighbours, and the
  offset of the x face it sends is row 47 on the lower half of the mesh and row 0 on the upper.
-/
import proofs.«900806_g7700000000000807_dist_halo3d_v7x_xyz2x2x2_s48_f32_1_alg».proof.Proof.Gen.Kernel

noncomputable section

namespace Cert.Kernel.Halo

open Cert.Kernel Cert.Kernel.Gen
open Idealize.ShloMosaic Idealize.SL.Sem

/-- The mesh coordinates of a device. -/
def bx (c : Dev nD) : ℕ := c.val / 4
def by' (c : Dev nD) : ℕ := c.val / 2 % 2
def bz (c : Dev nD) : ℕ := c.val % 2

theorem bx_lt (c : Dev nD) : bx c < 2 := by revert c; decide
theorem by_lt (c : Dev nD) : by' c < 2 := by revert c; decide
theorem bz_lt (c : Dev nD) : bz c < 2 := by revert c; decide

/-- The neighbour along axis `a` (0 = x, 1 = y, 2 = z): that coordinate flipped. -/
def nbr (a : Fin 3) (c : Dev nD) : Dev nD :=
  match a with
  | 0 => ⟨(c.val + 4) % 8, Nat.mod_lt _ (by decide)⟩
  | 1 => ⟨c.val / 4 * 4 + (c.val % 4 + 2) % 4, by have := c.isLt; revert this; generalize c.val = v; decide +revert⟩
  | 2 => ⟨c.val / 2 * 2 + (c.val + 1) % 2, by have := c.isLt; revert this; generalize c.val = v; decide +revert⟩

theorem nbr_nbr (a : Fin 3) (c : Dev nD) : nbr a (nbr a c) = c := by revert a c; decide
theorem nbr_ne (a : Fin 3) (c : Dev nD) : nbr a c ≠ c := by revert a c; decide
theorem nbr_inj (a : Fin 3) {c c' : Dev nD} (h : nbr a c = nbr a c') : c = c' := by
  rw [← nbr_nbr a c, h, nbr_nbr]
/-- Neighbours along different axes are different devices. -/
theorem nbr_ne_nbr {a b : Fin 3} (h : a ≠ b) (c : Dev nD) : nbr a c ≠ nbr b c := by revert a b c; decide

/-- Flipping as a permutation of the devices. -/
def flip (a : Fin 3) : Dev nD ≃ Dev nD := ⟨nbr a, nbr a, nbr_nbr a, nbr_nbr a⟩

theorem bx_nbr0 (c : Dev nD) : bx (nbr 0 c) = 1 - bx c := by revert c; decide
theorem by_nbr0 (c : Dev nD) : by' (nbr 0 c) = by' c := by revert c; decide
theorem bz_nbr0 (c : Dev nD) : bz (nbr 0 c) = bz c := by revert c; decide
theorem bx_nbr1 (c : Dev nD) : bx (nbr 1 c) = bx c := by revert c; decide
theorem by_nbr1 (c : Dev nD) : by' (nbr 1 c) = 1 - by' c := by revert c; decide
theorem bz_nbr1 (c : Dev nD) : bz (nbr 1 c) = bz c := by revert c; decide
theorem bx_nbr2 (c : Dev nD) : bx (nbr 2 c) = bx c := by revert c; decide
theorem by_nbr2 (c : Dev nD) : by' (nbr 2 c) = by' c := by revert c; decide
theorem bz_nbr2 (c : Dev nD) : bz (nbr 2 c) = 1 - bz c := by revert c; decide

/-- The kernel's device-id chains: signals 1–3 and transfers 4–6 name the x, y, z neighbours. -/
theorem dev1_eq (c : Dev nD) : (⟨k0_dev1 c, k0_dev1_lt c⟩ : Dev nD) = nbr 0 c := Fin.ext ((k0_dev1_eq c).trans (by revert c; decide))
theorem dev2_eq (c : Dev nD) : (⟨k0_dev2 c, k0_dev2_lt c⟩ : Dev nD) = nbr 1 c := Fin.ext ((k0_dev2_eq c).trans (by revert c; decide))
theorem dev3_eq (c : Dev nD) : (⟨k0_dev3 c, k0_dev3_lt c⟩ : Dev nD) = nbr 2 c := Fin.ext ((k0_dev3_eq c).trans (by revert c; decide))
theorem dev4_eq (c : Dev nD) : (⟨k0_dev4 c, k0_dev4_lt c⟩ : Dev nD) = nbr 0 c := Fin.ext ((k0_dev4_eq c).trans (by revert c; decide))
theorem dev5_eq (c : Dev nD) : (⟨k0_dev5 c, k0_dev5_lt c⟩ : Dev nD) = nbr 1 c := Fin.ext ((k0_dev5_eq c).trans (by revert c; decide))
theorem dev6_eq (c : Dev nD) : (⟨k0_dev6 c, k0_dev6_lt c⟩ : Dev nD) = nbr 2 c := Fin.ext ((k0_dev6_eq c).trans (by revert c; decide))

/-- The x face a device sends starts at row 47 on the lower half (`bx = 0`), at row 0 on the upper. -/
theorem off1_eq (c : Dev nD) : k0_off1 c = ![(if bx c = 0 then 47 else 0), 0, 0] := k0_off1_eq c

end Cert.Kernel.Halo

end
-- ==== Proof.Bits.Cells.lean ====
/-
  The protocol's vocabulary.  A device has seven semaphores that other devices credit or that it waits on: the barrier
  (three units, one from each axis neighbour, saying that neighbour is inside the kernel and its receive buffers may be
  written), and per axis a send semaphore (credited by the device's own transfer once its source is read) and a receive
  semaphore (credited by the neighbour's transfer once the face has landed).  What lands in a device's receive buffer of
  an axis is the face of the neighbour's block that touches it: the x face a slab of the neighbour's staged block, the
  y and z faces what the neighbour stored into its send buffers.
-/
import proofs.«900806_g7700000000000807_dist_halo3d_v7x_xyz2x2x2_s48_f32_1_alg».proof.Proof.Bits.Topo
import proofs.«900806_g7700000000000807_dist_halo3d_v7x_xyz2x2x2_s48_f32_1_alg».proof.Proof.Gen.Kernel.Skeleton
import proofs.«900806_g7700000000000807_dist_halo3d_v7x_xyz2x2x2_s48_f32_1_alg».proof.Proof.Gen.Kernel.Launch
import proofs.«900806_g7700000000000807_dist_halo3d_v7x_xyz2x2x2_s48_f32_1_alg».proof.Proof.Gen.Kernel.Points
import Idealize.ShloMosaic.Lib.Pipeline.Launch
import Idealize.ShloMosaic.Lib.Pipeline.Kit
import Idealize.ShloMosaic.Lib.Tactic

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's (duty names `Fin 3`: the axis) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Memrefs -/

abbrev uM : Memref sig .tc .vmem S48x48x48 .f32 := Memref.whole cc0_stg0_0
abbrev oM : Memref sig .tc .vmem S48x48x48 .f32 := Memref.whole cc0_stg1_0
abbrev syM : Memref sig .tc .vmem S48x48 .f32 := Memref.whole cc0_scratch0
abbrev szM : Memref sig .tc .vmem S48x48 .f32 := Memref.whole cc0_scratch1
abbrev rxM : Memref sig .tc .vmem S1x48x48 .f32 := Memref.whole cc0_scratch2
abbrev ryM : Memref sig .tc .vmem S48x48 .f32 := Memref.whole cc0_scratch3
abbrev rzM : Memref sig .tc .vmem S48x48 .f32 := Memref.whole cc0_scratch4
/-- The slab of the staged block a device sends along x. -/
abbrev sxM (c : Dev nD) : Memref sig .tc .vmem S1x48x48 .f32 :=
  (Memref.whole cc0_stg0_0 : Memref sig .tc .vmem S48x48x48 .f32).slice (Rect.unit (s := S48x48x48) (k0_off1 c) S1x48x48.size (k0_off1_inb c)) (fun _ => rfl)

/-! ## Semaphores and cells -/

abbrev barS : Sem sig := (SemArray.scalar (sig.barrier 0 rfl) : Sems sig S_).sem
abbrev sendS (a : Fin 3) : DmaSem sig := match a with | 0 => 2 | 1 => 3 | 2 => 4
abbrev recvS (a : Fin 3) : DmaSem sig := match a with | 0 => 5 | 1 => 6 | 2 => 7

abbrev barCell (c : Dev nD) : GSem nD τ sig := ((c : Thread nD τ), .reg barS)
abbrev sendCell (a : Fin 3) (c : Dev nD) : GSem nD τ sig := ((c : Thread nD τ), .dma (sendS a))
abbrev recvCell (a : Fin 3) (c : Dev nD) : GSem nD τ sig := ((c : Thread nD τ), .dma (recvS a))

/-- The kernel's own (scoped) semaphores, as the launch indexes them: the three send, then the three receive. -/
abbrev osem : Fin 6 → SemLoc sig := fun | 0 => .dma 2 | 1 => .dma 3 | 2 => .dma 4 | 3 => .dma 5 | 4 => .dma 6 | 5 => .dma 7
/-- All seven of the protocol's: the barrier first. -/
abbrev csem : Fin 7 → SemLoc sig := fun | 0 => .reg barS | 1 => .dma 2 | 2 => .dma 3 | 3 => .dma 4 | 4 => .dma 5 | 5 => .dma 6 | 6 => .dma 7
abbrev kcell (ck : Dev nD × Fin 7) : GSem nD τ sig := ((ck.1 : Thread nD τ), csem ck.2)

/-- The credit of a face's transfer. -/
abbrev Nx : ℕ := (rxM : Memref sig .tc .vmem S1x48x48 .f32).view.dmaCredit
abbrev Nf : ℕ := (ryM : Memref sig .tc .vmem S48x48 .f32).view.dmaCredit
abbrev NA (a : Fin 3) : ℕ := match a with | 0 => Nx | 1 => Nf | 2 => Nf

/-! ## Contents -/

/-- A device's block of the argument array, as staged. -/
def xstg (c : Dev nD) : (cc0_stg0_0 : Ref sig .tc).ty.Contents (Elt F) :=
  (win0_0.blk (0 : Fin 1)).view.read (Elt F) ((s₀ m ρ).mem ((c : Thread nD τ).loc main_arg0))

/-- The faces a device sends: along x the slab at row 47 or 0 of its block, along y and z what it stores in its send buffers. -/
def faceX (c : Dev nD) : (cc0_scratch2 : Ref sig .tc).ty.Contents (Elt F) := (sxM c).view.read (Elt F) (xstg m ρ c)
def faceY (c : Dev nD) : (cc0_scratch0 : Ref sig .tc).ty.Contents (Elt F) := if by' c = 0 then k0_pay2 (xstg m ρ c) else k0_pay3 (xstg m ρ c)
def faceZ (c : Dev nD) : (cc0_scratch1 : Ref sig .tc).ty.Contents (Elt F) := if bz c = 0 then k0_pay4 (xstg m ρ c) else k0_pay5 (xstg m ρ c)

/-- What lands in a device's receive buffers: its neighbours' faces. -/
def landX (c : Dev nD) : (cc0_scratch2 : Ref sig .tc).ty.Contents (Elt F) := faceX m ρ (nbr 0 c)
def landY (c : Dev nD) : (cc0_scratch3 : Ref sig .tc).ty.Contents (Elt F) := faceY m ρ (nbr 1 c)
def landZ (c : Dev nD) : (cc0_scratch4 : Ref sig .tc).ty.Contents (Elt F) := faceZ m ρ (nbr 2 c)

/-! ## Points-to facts of the buffers the protocol hands round -/

def rxPts (c : Dev nD) (f : Buf (Elt F) ((rxM : Memref sig .tc .vmem S1x48x48 .f32).view.loc (c : Thread nD τ))) : sProp 𝕄 :=
  (rxM : Memref sig .tc .vmem S1x48x48 .f32).view.loc (c : Thread nD τ) ↦[(rxM : Memref sig .tc .vmem S1x48x48 .f32).view.set]{fullShare} f
def ryPts (c : Dev nD) (f : Buf (Elt F) ((ryM : Memref sig .tc .vmem S48x48 .f32).view.loc (c : Thread nD τ))) : sProp 𝕄 :=
  (ryM : Memref sig .tc .vmem S48x48 .f32).view.loc (c : Thread nD τ) ↦[(ryM : Memref sig .tc .vmem S48x48 .f32).view.set]{fullShare} f
def rzPts (c : Dev nD) (f : Buf (Elt F) ((rzM : Memref sig .tc .vmem S48x48 .f32).view.loc (c : Thread nD τ))) : sProp 𝕄 :=
  (rzM : Memref sig .tc .vmem S48x48 .f32).view.loc (c : Thread nD τ) ↦[(rzM : Memref sig .tc .vmem S48x48 .f32).view.set]{fullShare} f
/-- The sources: the x slab of the staged block, the two send buffers. -/
def sxPts (c : Dev nD) : sProp 𝕄 :=
  (sxM c).view.loc (c : Thread nD τ) ↦[(sxM c).view.set]{fullShare} xstg m ρ c
def syPts (c : Dev nD) : sProp 𝕄 :=
  (syM : Memref sig .tc .vmem S48x48 .f32).view.loc (c : Thread nD τ) ↦[(syM : Memref sig .tc .vmem S48x48 .f32).view.set]{fullShare} faceY m ρ c
def szPts (c : Dev nD) : sProp 𝕄 :=
  (szM : Memref sig .tc .vmem S48x48 .f32).view.loc (c : Thread nD τ) ↦[(szM : Memref sig .tc .vmem S48x48 .f32).view.set]{fullShare} faceZ m ρ c

/-! ## The schedule -/

/-- What the axis-`a` neighbour's barrier signal hands `c`: that neighbour's axis-`a` receive buffer (at some contents)
    and that it has reached round 0 of that receive cell. -/
def barPay (a : Fin 3) (c : Dev nD) : sProp 𝕄 :=
  match a with
  | 0 => iprop((∃ f, rxPts (nbr 0 c) f) ∗ reached ER (recvCell 0 (nbr 0 c)) 0)
  | 1 => iprop((∃ f, ryPts (nbr 1 c) f) ∗ reached ER (recvCell 1 (nbr 1 c)) 0)
  | 2 => iprop((∃ f, rzPts (nbr 2 c) f) ∗ reached ER (recvCell 2 (nbr 2 c)) 0)
/-- A receive cell's payload: the receive buffer holding the neighbour's face. -/
def recvPay (a : Fin 3) (c : Dev nD) : sProp 𝕄 :=
  match a with
  | 0 => rxPts c (landX m ρ c)
  | 1 => ryPts c (landY m ρ c)
  | 2 => rzPts c (landZ m ρ c)
/-- A send cell's payload: the source back. -/
def sendPay (a : Fin 3) (c : Dev nD) : sProp 𝕄 :=
  match a with
  | 0 => sxPts m ρ c
  | 1 => syPts m ρ c
  | 2 => szPts m ρ c

abbrev IsBar (g : GSem nD τ sig) : Prop := g.1.2 = .tc ∧ g.2 = .reg barS
abbrev IsSend (g : GSem nD τ sig) : Prop := g.1.2 = .tc ∧ (g.2 = .dma 2 ∨ g.2 = .dma 3 ∨ g.2 = .dma 4)
abbrev IsRecv (g : GSem nD τ sig) : Prop := g.1.2 = .tc ∧ (g.2 = .dma 5 ∨ g.2 = .dma 6 ∨ g.2 = .dma 7)

/-- One round, round 0: a barrier cell has the three duties 0, 1, 2 (from the x, y, z neighbour) of one unit each; a send
    or receive cell the duty 0 of its face's credit. -/
def haloRd : Rounds.Schedule (GSem nD τ sig) (Fin 3) 𝕄 where
  duties g r := if r = 0 ∧ IsBar g then Finset.univ else if r = 0 ∧ (IsSend g ∨ IsRecv g) then {0} else ∅
  unitless _ := False
  amount g _ _ := if g.2 = .reg barS then 1 else if g.2 = .dma 2 ∨ g.2 = .dma 5 then Nx else Nf
  payload g _ d :=
    if g.2 = .reg barS then barPay d g.1.1
    else if g.2 = .dma 5 then recvPay m ρ 0 g.1.1
    else if g.2 = .dma 6 then recvPay m ρ 1 g.1.1
    else if g.2 = .dma 7 then recvPay m ρ 2 g.1.1
    else if g.2 = .dma 2 then sendPay m ρ 0 g.1.1
    else if g.2 = .dma 3 then sendPay m ρ 1 g.1.1
    else if g.2 = .dma 4 then sendPay m ρ 2 g.1.1
    else iprop(emp)
  amount_pos g _ _ _ := by
    by_cases h : g.2 = .reg barS
    · rw [if_pos h]; exact Nat.one_pos
    · rw [if_neg h]; split
      · exact View.dmaCredit_pos _ (by decide)
      · exact View.dmaCredit_pos _ (by decide)

end Cert.Kernel.Halo

end
-- ==== Proof.Bits.Sched.lean ====
/-
  The schedule's tables, cell by cell: which duties a cell has in round 0 and none later, what each is worth, what a round
  expects in all, what each duty hands over; what a device owes when it is launched (one unit to each neighbour's barrier
  and a face's credit to each neighbour's receive cell) and the order in which it pays; and the levels that make every wait
  safe: a barrier is waited at level 1 while only receive credits (level 2) are owed, a receive or send cell while nothing is.
-/
import proofs.«900806_g7700000000000807_dist_halo3d_v7x_xyz2x2x2_s48_f32_1_alg».proof.Proof.Bits.Cells

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

instance haloRd_payload_storable (g : GSem nD τ sig) (r : ℕ) (d : Fin 3) :
    BI.Storable (upEmb : UEmb _ 𝕄) ((haloRd (F := F) m ρ).payload g r d) := by
  have hb : ∀ (a : Fin 3) (c : Dev nD), BI.Storable (upEmb : UEmb _ 𝕄) (barPay (F := F) a c) := by
    intro a c; fin_cases a <;> (dsimp only [barPay, rxPts, ryPts, rzPts]; infer_instance)
  have hr : ∀ (a : Fin 3) (c : Dev nD), BI.Storable (upEmb : UEmb _ 𝕄) (recvPay (F := F) m ρ a c) := by
    intro a c; fin_cases a <;> (dsimp only [recvPay, rxPts, ryPts, rzPts]; infer_instance)
  have hs : ∀ (a : Fin 3) (c : Dev nD), BI.Storable (upEmb : UEmb _ 𝕄) (sendPay (F := F) m ρ a c) := by
    intro a c; fin_cases a <;> (dsimp only [sendPay, sxPts, syPts, szPts]; infer_instance)
  show BI.Storable upEmb (if g.2 = .reg barS then barPay d g.1.1
    else if g.2 = .dma 5 then recvPay m ρ 0 g.1.1
    else if g.2 = .dma 6 then recvPay m ρ 1 g.1.1
    else if g.2 = .dma 7 then recvPay m ρ 2 g.1.1
    else if g.2 = .dma 2 then sendPay m ρ 0 g.1.1
    else if g.2 = .dma 3 then sendPay m ρ 1 g.1.1
    else if g.2 = .dma 4 then sendPay m ρ 2 g.1.1
    else iprop(emp))
  (repeat' split) <;> first | exact hb _ _ | exact hr _ _ | exact hs _ _ | infer_instance

section Sched
variable (c : Dev nD) (a : Fin 3)

theorem send_ne_bar : (SemLoc.dma (sendS a) : SemLoc sig) ≠ .reg barS := fun h => by cases h
theorem recv_ne_bar : (SemLoc.dma (recvS a) : SemLoc sig) ≠ .reg barS := fun h => by cases h

omit [FloatOps F] in
theorem duties_bar : (haloRd (F := F) m ρ).duties (barCell c) 0 = Finset.univ := by
  dsimp only [haloRd]; exact if_pos ⟨rfl, rfl, rfl⟩
omit [FloatOps F] in
theorem duties_send : (haloRd (F := F) m ρ).duties (sendCell a c) 0 = {0} := by
  dsimp only [haloRd]; rw [if_neg (fun h => send_ne_bar a h.2.2)]
  fin_cases a
  · exact if_pos ⟨rfl, .inl ⟨rfl, .inl rfl⟩⟩
  · exact if_pos ⟨rfl, .inl ⟨rfl, .inr (.inl rfl)⟩⟩
  · exact if_pos ⟨rfl, .inl ⟨rfl, .inr (.inr rfl)⟩⟩
omit [FloatOps F] in
theorem duties_recv : (haloRd (F := F) m ρ).duties (recvCell a c) 0 = {0} := by
  dsimp only [haloRd]; rw [if_neg (fun h => recv_ne_bar a h.2.2)]
  fin_cases a
  · exact if_pos ⟨rfl, .inr ⟨rfl, .inl rfl⟩⟩
  · exact if_pos ⟨rfl, .inr ⟨rfl, .inr (.inl rfl)⟩⟩
  · exact if_pos ⟨rfl, .inr ⟨rfl, .inr (.inr rfl)⟩⟩
omit [FloatOps F] in
theorem duties_later (g : GSem nD τ sig) : ∀ r, 1 ≤ r → (haloRd (F := F) m ρ).duties g r = ∅ :=
  fun r hr => by dsimp only [haloRd]; rw [if_neg fun h => by omega, if_neg fun h => by omega]

omit [FloatOps F] in
theorem amount_bar (d : Fin 3) : (haloRd (F := F) m ρ).amount (barCell c) 0 d = 1 := by
  dsimp only [haloRd]; exact if_pos rfl
omit [FloatOps F] in
theorem amount_send (d : Fin 3) : (haloRd (F := F) m ρ).amount (sendCell a c) 0 d = NA a := by
  dsimp only [haloRd]; rw [if_neg (send_ne_bar a)]
  fin_cases a
  · exact if_pos (.inl rfl)
  · exact if_neg (by decide)
  · exact if_neg (by decide)
omit [FloatOps F] in
theorem amount_recv (d : Fin 3) : (haloRd (F := F) m ρ).amount (recvCell a c) 0 d = NA a := by
  dsimp only [haloRd]; rw [if_neg (recv_ne_bar a)]
  fin_cases a
  · exact if_pos (.inr rfl)
  · exact if_neg (by decide)
  · exact if_neg (by decide)

omit [FloatOps F] in
theorem expect_bar : (haloRd (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
omit [FloatOps F] in
theorem expect_send : (haloRd (F := F) m ρ).expect (sendCell a c) 0 = NA a := by
  unfold Schedule.expect Schedule.amountOf; rw [duties_send, Finset.sum_singleton, amount_send]
omit [FloatOps F] in
theorem expect_recv : (haloRd (F := F) m ρ).expect (recvCell a c) 0 = NA a := by
  unfold Schedule.expect Schedule.amountOf; rw [duties_recv, Finset.sum_singleton, amount_recv]

omit [FloatOps F] in
theorem payload_bar (d : Fin 3) : (haloRd (F := F) m ρ).payload (barCell c) 0 d = barPay d c := by
  dsimp only [haloRd]; rw [if_pos rfl]
omit [FloatOps F] in
theorem payload_send (d : Fin 3) : (haloRd (F := F) m ρ).payload (sendCell a c) 0 d = sendPay m ρ a c := by
  dsimp only [haloRd]; rw [if_neg (send_ne_bar a)]
  fin_cases a
  · rw [if_neg (by decide), if_neg (by decide), if_neg (by decide), if_pos rfl]; rfl
  · rw [if_neg (by decide), if_neg (by decide), if_neg (by decide), if_neg (by decide), if_pos rfl]; rfl
  · rw [if_neg (by decide), if_neg (by decide), if_neg (by decide), if_neg (by decide), if_neg (by decide), if_pos rfl]; rfl
omit [FloatOps F] in
theorem payload_recv (d : Fin 3) : (haloRd (F := F) m ρ).payload (recvCell a c) 0 d = recvPay m ρ a c := by
  dsimp only [haloRd]; rw [if_neg (recv_ne_bar a)]
  fin_cases a
  · rw [if_pos rfl]; rfl
  · rw [if_neg (by decide), if_pos rfl]; rfl
  · rw [if_neg (by decide), if_neg (by decide), if_pos rfl]; rfl

omit [FloatOps F] in
/-- The whole of the barrier cell's round: the three neighbours' payloads. -/
theorem rest_bar : bigSep ((haloRd (F := F) m ρ).duties (barCell c) 0 \ ∅) (fun d => (haloRd (F := F) m ρ).payload (barCell c) 0 d)
    = iprop(barPay 0 c ∗ barPay 1 c ∗ barPay 2 c) := by
  rw [Finset.sdiff_empty, duties_bar, bigSep_univ_eq_bigSepL ([0, 1, 2] : List (Fin 3)) (by decide) (by decide), bigSepL_cons_cons,
    bigSepL_cons_cons, bigSepL_singleton, payload_bar, payload_bar, payload_bar]
  rfl
omit [FloatOps F] in
theorem rest_send : bigSep ((haloRd (F := F) m ρ).duties (sendCell a c) 0 \ ∅) (fun d => (haloRd (F := F) m ρ).payload (sendCell a c) 0 d) = sendPay m ρ a c := by
  rw [Finset.sdiff_empty, duties_send, bigSep_singleton, payload_send]
omit [FloatOps F] in
theorem rest_recv : bigSep ((haloRd (F := F) m ρ).duties (recvCell a c) 0 \ ∅) (fun d => (haloRd (F := F) m ρ).payload (recvCell a c) 0 d) = recvPay m ρ a c := by
  rw [Finset.sdiff_empty, duties_recv, bigSep_singleton, payload_recv]

end Sched

/-! ## What each device owes at launch; the levels -/

/-- After its three signals a device owes each neighbour's receive cell that face's credit; it pays x first, so x is the last summand. -/
def O₃ (c : Dev nD) : CellTallies nD τ sig Unit :=
  tallyAt (recvCell 2 (nbr 2 c)) () Nf + tallyAt (recvCell 1 (nbr 1 c)) () Nf + tallyAt (recvCell 0 (nbr 0 c)) () Nx
/-- After the x and the y transfer; after the x transfer. -/
def O₅ (c : Dev nD) : CellTallies nD τ sig Unit := tallyAt (recvCell 2 (nbr 2 c)) () Nf
def O₄ (c : Dev nD) : CellTallies nD τ sig Unit := tallyAt (recvCell 2 (nbr 2 c)) () Nf + tallyAt (recvCell 1 (nbr 1 c)) () Nf
/-- Before the z, the y, the x signal (the x signal is the first: the last summand). -/
def O₂ (c : Dev nD) : CellTallies nD τ sig Unit := O₃ c + tallyAt (barCell (nbr 2 c)) () 1
def O₁ (c : Dev nD) : CellTallies nD τ sig Unit := O₂ c + tallyAt (barCell (nbr 1 c)) () 1
def O₀ (c : Dev nD) : CellTallies nD τ sig Unit := O₁ c + tallyAt (barCell (nbr 0 c)) () 1

def L (g : GSem nD τ sig) : Finset Unit := if g.1.2 = .tc then {()} else ∅
/-- barrier cells at 1, receive cells at 2, everything else (staging, send) at 0. -/
def lv (g : GSem nD τ sig) (_ : Unit) : ℕ := if g.2 = .reg barS then 1 else if g.2 = .dma 5 ∨ g.2 = .dma 6 ∨ g.2 = .dma 7 then 2 else 0

theorem L_of_ne (g : GSem nD τ sig) (h : g.1.2 ≠ .tc) : L g = ∅ := if_neg h
theorem L_tc (c : Dev nD) (sm : SemLoc sig) : L ((c : Thread nD τ), sm) = {()} := if_pos rfl

/-- The receive credits alone are owed to the neighbours' receive cells. -/
private theorem O₃_pos {c : Dev nD} {g : GSem nD τ sig} {u : Unit} (h : 0 < O₃ c g u) :
    ∃ a, g = recvCell a (nbr a c) := by
  unfold O₃ at h
  rw [Pi.add_apply, Finsupp.add_apply, Pi.add_apply, Finsupp.add_apply, tallyAt_apply, tallyAt_apply, tallyAt_apply] at h
  by_contra hn
  rw [not_exists] at hn
  rw [if_neg (fun h' => hn 2 h'.1), if_neg (fun h' => hn 1 h'.1), if_neg (fun h' => hn 0 h'.1)] at h
  exact Nat.lt_irrefl 0 h

theorem O₀_pos {c : Dev nD} {g : GSem nD τ sig} {u : Unit} (h : 0 < O₀ c g u) :
    (∃ a, g = recvCell a (nbr a c)) ∨ (∃ a, g = barCell (nbr a c)) := by
  by_contra hn
  rw [not_or, not_exists, not_exists] at hn
  have h3 : O₃ c g u = 0 := by
    rcases Nat.eq_zero_or_pos (O₃ c g u) with e | e
    · exact e
    · obtain ⟨a, ha⟩ := O₃_pos e; exact absurd ha (hn.1 a)
  unfold O₀ O₁ O₂ at h
  rw [Pi.add_apply, Finsupp.add_apply, Pi.add_apply, Finsupp.add_apply, Pi.add_apply, Finsupp.add_apply, h3,
    tallyAt_apply, tallyAt_apply, tallyAt_apply,
    if_neg (fun h' => hn.2 2 h'.1), if_neg (fun h' => hn.2 1 h'.1), if_neg (fun h' => hn.2 0 h'.1)] at h
  exact Nat.lt_irrefl 0 h

/-- The levels of the protocol's cells. -/
private theorem lv_recvCell (a : Fin 3) (c : Dev nD) (u : Unit) : lv (recvCell a c) u = 2 := by
  dsimp only [lv]; rw [if_neg (recv_ne_bar a)]
  fin_cases a
  · exact if_pos (.inl rfl)
  · exact if_pos (.inr (.inl rfl))
  · exact if_pos (.inr (.inr rfl))
private theorem lv_barCell (c : Dev nD) (u : Unit) : lv (barCell c) u = 1 := if_pos rfl

omit [FloatOps F] in
/-- A staging semaphore (neither barrier nor receive) may be waited whatever of the launch debt is left. -/
theorem mayWait_stage (c : Dev nD) (q : DmaSem sig) (hq : SemLoc.dma q ≠ .dma 5 ∧ SemLoc.dma q ≠ .dma 6 ∧ SemLoc.dma q ≠ .dma 7)
    (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨a, rfl⟩ | ⟨a, rfl⟩ <;> (rw [L_tc]; exact Finset.mem_singleton_self _))
      (fun p hp => by
        rw [Finset.mem_singleton.mp hp]; dsimp only [lv]
        rw [if_neg (fun h => by cases h), if_neg (fun h => h.elim hq.1 (fun h => h.elim hq.2.1 hq.2.2))])
      (fun g u hg => by
        rcases O₀_pos hg with ⟨a, rfl⟩ | ⟨a, rfl⟩
        · rw [lv_recvCell]; decide
        · rw [lv_barCell]; decide)
  · rw [MayWait_zero]; iintro -; iempintro

omit [FloatOps F] in
/-- At its barrier wait a device owes its neighbours' receive credits only: receive cells, above its barrier cell. -/
theorem mayWait_bar (c : Dev nD) :
    (levAts L lv : sProp 𝕄) ⊢ MayWait (c : Thread nD τ) (.reg barS) () (O₃ c) :=
  MayOwe.of_cut (L := L) (lev := lv) 1 (fun p hp => by rw [Finset.mem_singleton.mp hp, L_tc]; exact Finset.mem_singleton_self _)
    (fun g u hg => by obtain ⟨a, rfl⟩ := O₃_pos hg; rw [L_tc]; exact Finset.mem_singleton_self _)
    (fun p hp => by rw [Finset.mem_singleton.mp hp]; dsimp only [lv]; rw [if_pos rfl])
    (fun g u hg => by obtain ⟨a, rfl⟩ := O₃_pos hg; rw [lv_recvCell]; decide)

end Cert.Kernel.Halo

end
-- ==== Proof.Bits.Out.lean ====
/-
  What a device's result block holds after the body, as ONE pure function of its own block and the three faces it received,
  entry by entry.  At local index (i, j, k) on the device at mesh coordinates (px, py, pz): the local seven-point sum over the
  block with zeros across its faces (the body's first, whole store); plus, on the one x face that touches the x neighbour,
  the entry of the face received from it, then likewise y, then z (a cell on an edge or corner gets two or three, in that
  order); and finally zero on the faces that lie on the whole array's boundary.
-/
import proofs.«900806_g7700000000000807_dist_halo3d_v7x_xyz2x2x2_s48_f32_1_alg».proof.Proof.Bits.Cells
import Idealize.ShloMosaic.Lib.ValueIdx

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The zero the body splats. -/
abbrev zf : F .f32 := Scalar.ofBits .f32 0x00000000#32

/-- The result block, entry by entry. -/
def outOf (px py pz : ℕ) (x : (cc0_stg0_0 : Ref sig .tc).ty.Contents (Elt F)) (rx : (cc0_scratch2 : Ref sig .tc).ty.Contents (Elt F))
    (ry : (cc0_scratch3 : Ref sig .tc).ty.Contents (Elt F)) (rz : (cc0_scratch4 : Ref sig .tc).ty.Contents (Elt F)) :
    (cc0_stg1_0 : Ref sig .tc).ty.Contents (Elt F) := fun idx =>
  let i : Fin 48 := idx 0
  let j : Fin 48 := idx 1
  let k : Fin 48 := idx 2
  let b0 : F .f32 := k0_pay9 (k0_pay1 x) idx
  let b1 : F .f32 := if (px = 0 ∧ i.val = 47) ∨ (px = 1 ∧ i.val = 0) then FloatOps.addf b0 (rx (ValueIdx.ix3 (0 : Fin 1) j k)) else b0
  let b2 : F .f32 := if (py = 0 ∧ j.val = 47) ∨ (py = 1 ∧ j.val = 0) then FloatOps.addf b1 (ry (ValueIdx.ix2 i k)) else b1
  let b3 : F .f32 := if (pz = 0 ∧ k.val = 47) ∨ (pz = 1 ∧ k.val = 0) then FloatOps.addf b2 (rz (ValueIdx.ix2 i j)) else b2
  if (px = 0 ∧ i.val = 0) ∨ (px = 1 ∧ i.val = 47) ∨ (py = 0 ∧ j.val = 0) ∨ (py = 1 ∧ j.val = 47) ∨ (pz = 0 ∧ k.val = 0) ∨ (pz = 1 ∧ k.val = 47)
  then zf else b3

/-- A device's result block. -/
def outAt (c : Dev nD) : (cc0_stg1_0 : Ref sig .tc).ty.Contents (Elt F) :=
  outOf (bx c) (by' c) (bz c) (xstg m ρ c) (landX m ρ c) (landY m ρ c) (landZ m ρ c)

end Cert.Kernel.Halo

end
-- ==== Proof.Bits.Data.lean ====
/-
  The proof data of the one region.  A device starts its body holding: the invariants of its own seven cells and of the six
  neighbour cells it pays into; its position at round 0 of its own cells; the tokens of the nine duties it pays (a unit to each
  neighbour's barrier, a face's credit to each neighbour's receive cell and to its own send cell); the credit to wait for three
  units on its barrier and a face on each receive cell; and its five scratch buffers at arbitrary contents.  It ends holding the
  scratch buffers again, its six own semaphores at zero, and its result block at `outAt`.
-/
import proofs.«900806_g7700000000000807_dist_halo3d_v7x_xyz2x2x2_s48_f32_1_alg».proof.Proof.Bits.Sched
import proofs.«900806_g7700000000000807_dist_halo3d_v7x_xyz2x2x2_s48_f32_1_alg».proof.Proof.Bits.Out

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The cells' invariants device `c`'s body opens, under the names `K` the launch allocated them at: its own seven, each
    neighbour's barrier cell (its signals) and each neighbour's receive cell of that axis (its transfers). -/
def invs (K : Dev nD × Fin 7 → ℕ) (c : Dev nD) : sProp 𝕄 :=
  iprop(cellInv ER (haloRd m ρ) (K (c, 0)) (barCell c)
    ∗ cellInv ER (haloRd m ρ) (K (c, 1)) (sendCell 0 c) ∗ cellInv ER (haloRd m ρ) (K (c, 2)) (sendCell 1 c) ∗ cellInv ER (haloRd m ρ) (K (c, 3)) (sendCell 2 c)
    ∗ cellInv ER (haloRd m ρ) (K (c, 4)) (recvCell 0 c) ∗ cellInv ER (haloRd m ρ) (K (c, 5)) (recvCell 1 c) ∗ cellInv ER (haloRd m ρ) (K (c, 6)) (recvCell 2 c)
    ∗ cellInv ER (haloRd m ρ) (K (nbr 0 c, 0)) (barCell (nbr 0 c)) ∗ cellInv ER (haloRd m ρ) (K (nbr 1 c, 0)) (barCell (nbr 1 c)) ∗ cellInv ER (haloRd m ρ) (K (nbr 2 c, 0)) (barCell (nbr 2 c))
    ∗ cellInv ER (haloRd m ρ) (K (nbr 0 c, 4)) (recvCell 0 (nbr 0 c)) ∗ cellInv ER (haloRd m ρ) (K (nbr 1 c, 5)) (recvCell 1 (nbr 1 c)) ∗ cellInv ER (haloRd m ρ) (K (nbr 2 c, 6)) (recvCell 2 (nbr 2 c)))

instance invs_persistent (K : Dev nD × Fin 7 → ℕ) (c : Dev nD) : BI.Persistent (invs m ρ K c) := by unfold invs; infer_instance

/-- The tokens of the duties device `c` pays: duty `a` of its axis-`a` neighbour's barrier, that neighbour's receive duty, its own send duty. -/
def payToks (c : Dev nD) : sProp 𝕄 :=
  iprop(dutyTok ER (barCell (nbr 0 c)) 0 0 ∗ dutyTok ER (barCell (nbr 1 c)) 0 1 ∗ dutyTok ER (barCell (nbr 2 c)) 0 2
    ∗ dutyTok ER (recvCell 0 (nbr 0 c)) 0 0 ∗ dutyTok ER (recvCell 1 (nbr 1 c)) 0 0 ∗ dutyTok ER (recvCell 2 (nbr 2 c)) 0 0
    ∗ dutyTok ER (sendCell 0 c) 0 0 ∗ dutyTok ER (sendCell 1 c) 0 0 ∗ dutyTok ER (sendCell 2 c) 0 0)

/-- Its positions at round 0 of its own seven cells. -/
def positions (c : Dev nD) : sProp 𝕄 :=
  iprop(atPos ER (barCell c) 0 ∅ 0
    ∗ atPos ER (sendCell 0 c) 0 ∅ 0 ∗ atPos ER (sendCell 1 c) 0 ∅ 0 ∗ atPos ER (sendCell 2 c) 0 ∅ 0
    ∗ atPos ER (recvCell 0 c) 0 ∅ 0 ∗ atPos ER (recvCell 1 c) 0 ∅ 0 ∗ atPos ER (recvCell 2 c) 0 ∅ 0)

/-- That round 0 is reached: of the cells it pays into, and of its own send and receive cells. -/
def reachedAll (c : Dev nD) : sProp 𝕄 :=
  iprop(reached ER (barCell (nbr 0 c)) 0 ∗ reached ER (barCell (nbr 1 c)) 0 ∗ reached ER (barCell (nbr 2 c)) 0
    ∗ reached ER (recvCell 0 (nbr 0 c)) 0 ∗ reached ER (recvCell 1 (nbr 1 c)) 0 ∗ reached ER (recvCell 2 (nbr 2 c)) 0
    ∗ reached ER (sendCell 0 c) 0 ∗ reached ER (sendCell 1 c) 0 ∗ reached ER (sendCell 2 c) 0
    ∗ reached ER (recvCell 0 c) 0 ∗ reached ER (recvCell 1 c) 0 ∗ reached ER (recvCell 2 c) 0)

instance reachedAll_persistent (c : Dev nD) : BI.Persistent (reachedAll (F := F) c) := by unfold reachedAll; infer_instance

/-- The protocol's ghost state device `c` starts from. -/
def ghost (K : Dev nD × Fin 7 → ℕ) (c : Dev nD) : sProp 𝕄 :=
  iprop(invs m ρ K c ∗ positions c ∗ reachedAll c ∗ payToks c)

/-- The credit to wait on its own cells: three units on the barrier, a face on each receive cell. -/
def waitCreds (c : Dev nD) : sProp 𝕄 :=
  iprop(cred (tallyAt (barCell c) () 3) ∗ cred (tallyAt (recvCell 0 c) () Nx) ∗ cred (tallyAt (recvCell 1 c) () Nf) ∗ cred (tallyAt (recvCell 2 c) () Nf))

/-- What device `c`'s body starts from, the buffers apart. -/
def start (c : Dev nD) : sProp 𝕄 :=
  iprop((∃ K, ghost m ρ K c) ∗ waitCreds c ∗ levAts L lv)

/-- The five scratch buffers, each whole at some contents: the two send buffers, the three receive buffers. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f))

/-- Its six own semaphores at zero. -/
def ownZero (c : Dev nD) : sProp 𝕄 :=
  iprop(semVal (sendCell 0 c) 0 ∗ semVal (sendCell 1 c) 0 ∗ semVal (sendCell 2 c) 0
    ∗ semVal (recvCell 0 c) 0 ∗ semVal (recvCell 1 c) 0 ∗ semVal (recvCell 2 c) 0)

def Φ₀ (c : Dev nD) : sProp 𝕄 := iprop(start m ρ c ∗ scratch c)
def Φ₁ (c : Dev nD) : sProp 𝕄 := iprop(scratch (F := F) c ∗ ownZero c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staged window's buffer, whole at named contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body is entered with, the ghost names opened. -/
def bodyPre (K : Dev nD × Fin 7 → ℕ) (c : Dev nD) : sProp 𝕄 :=
  iprop((ghost m ρ K c ∗ waitCreds c ∗ levAts L lv ∗ scratch c)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

/-- What it leaves. -/
def bodyPost (c : Dev nD) : sProp 𝕄 :=
  iprop(Φ₁ c ∗ (dats m ρ 0 c).owesAt () t₀.succ ∗ stg c cc0_stg0_0 (xstg m ρ c) ∗ stg c cc0_stg1_0 (outAt m ρ c))

end Cert.Kernel.Halo

end
-- ==== Proof.Bits.Tables.lean ====
/-
  The schedule's tables once more, each entry spelt as the plain points-to facts it stands for, in the two directions a device
  meets them: what it RECEIVES on its own cells, and what it PAYS into a neighbour's (where the neighbour's neighbour is the
  device itself, and what lands is the device's own face).
-/
import proofs.«900806_g7700000000000807_dist_halo3d_v7x_xyz2x2x2_s48_f32_1_alg».proof.Proof.Bits.Sched

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## A whole buffer's view covers every index: the buffers' points-to facts in plain form -/
omit [FloatOps F] in
private theorem rx_set : (rxM : Memref sig .tc .vmem S1x48x48 .f32).view.set = Finset.univ := View.set_whole _
omit [FloatOps F] in
private theorem ry_set : (ryM : Memref sig .tc .vmem S48x48 .f32).view.set = Finset.univ := View.set_whole _
omit [FloatOps F] in
private theorem rz_set : (rzM : Memref sig .tc .vmem S48x48 .f32).view.set = Finset.univ := View.set_whole _
omit [FloatOps F] in
private theorem sy_set : (syM : Memref sig .tc .vmem S48x48 .f32).view.set = Finset.univ := View.set_whole _
omit [FloatOps F] in
private theorem sz_set : (szM : Memref sig .tc .vmem S48x48 .f32).view.set = Finset.univ := View.set_whole _
omit [FloatOps F] in
private theorem rxPts_eq (c : Dev nD) (f : Buf (Elt F) ((c : Thread nD τ).loc cc0_scratch2)) :
    rxPts c f = (((c : Thread nD τ).loc cc0_scratch2) ↦{fullShare} f : sProp 𝕄) := by unfold rxPts; rw [rx_set]
omit [FloatOps F] in
private theorem ryPts_eq (c : Dev nD) (f : Buf (Elt F) ((c : Thread nD τ).loc cc0_scratch3)) :
    ryPts c f = (((c : Thread nD τ).loc cc0_scratch3) ↦{fullShare} f : sProp 𝕄) := by unfold ryPts; rw [ry_set]
omit [FloatOps F] in
private theorem rzPts_eq (c : Dev nD) (f : Buf (Elt F) ((c : Thread nD τ).loc cc0_scratch4)) :
    rzPts c f = (((c : Thread nD τ).loc cc0_scratch4) ↦{fullShare} f : sProp 𝕄) := by unfold rzPts; rw [rz_set]
omit [FloatOps F] in
private theorem syPts_eq (c : Dev nD) :
    syPts m ρ c = (((c : Thread nD τ).loc cc0_scratch0) ↦{fullShare} faceY m ρ c : sProp 𝕄) := by unfold syPts; rw [sy_set]
omit [FloatOps F] in
private theorem szPts_eq (c : Dev nD) :
    szPts m ρ c = (((c : Thread nD τ).loc cc0_scratch1) ↦{fullShare} faceZ m ρ c : sProp 𝕄) := by unfold szPts; rw [sz_set]

/-- What lands at a device's neighbour is the device's own face: the neighbour's neighbour is the device. -/
private theorem landX_nbr (c : Dev nD) : landX m ρ (nbr 0 c) = faceX m ρ c := by unfold landX; rw [nbr_nbr]
private theorem landY_nbr (c : Dev nD) : landY m ρ (nbr 1 c) = faceY m ρ c := by unfold landY; rw [nbr_nbr]
private theorem landZ_nbr (c : Dev nD) : landZ m ρ (nbr 2 c) = faceZ m ρ c := by unfold landZ; rw [nbr_nbr]

section Tables
variable (c : Dev nD)

/-! ## Duties, amounts and expected units at the literal cells -/
theorem duties_send0 : (haloRd (F := F) m ρ).duties (sendCell 0 c) 0 = {0} := duties_send m ρ c 0
theorem duties_send1 : (haloRd (F := F) m ρ).duties (sendCell 1 c) 0 = {0} := duties_send m ρ c 1
theorem duties_send2 : (haloRd (F := F) m ρ).duties (sendCell 2 c) 0 = {0} := duties_send m ρ c 2
theorem duties_recv0 : (haloRd (F := F) m ρ).duties (recvCell 0 c) 0 = {0} := duties_recv m ρ c 0
theorem duties_recv1 : (haloRd (F := F) m ρ).duties (recvCell 1 c) 0 = {0} := duties_recv m ρ c 1
theorem duties_recv2 : (haloRd (F := F) m ρ).duties (recvCell 2 c) 0 = {0} := duties_recv m ρ c 2
theorem amount_send0 (d : Fin 3) : (haloRd (F := F) m ρ).amount (sendCell 0 c) 0 d = Nx := amount_send m ρ c 0 d
theorem amount_send1 (d : Fin 3) : (haloRd (F := F) m ρ).amount (sendCell 1 c) 0 d = Nf := amount_send m ρ c 1 d
theorem amount_send2 (d : Fin 3) : (haloRd (F := F) m ρ).amount (sendCell 2 c) 0 d = Nf := amount_send m ρ c 2 d
theorem amount_recv0 (d : Fin 3) : (haloRd (F := F) m ρ).amount (recvCell 0 c) 0 d = Nx := amount_recv m ρ c 0 d
theorem amount_recv1 (d : Fin 3) : (haloRd (F := F) m ρ).amount (recvCell 1 c) 0 d = Nf := amount_recv m ρ c 1 d
theorem amount_recv2 (d : Fin 3) : (haloRd (F := F) m ρ).amount (recvCell 2 c) 0 d = Nf := amount_recv m ρ c 2 d
theorem expect_send0 : (haloRd (F := F) m ρ).expect (sendCell 0 c) 0 = Nx := expect_send m ρ c 0
theorem expect_send1 : (haloRd (F := F) m ρ).expect (sendCell 1 c) 0 = Nf := expect_send m ρ c 1
theorem expect_send2 : (haloRd (F := F) m ρ).expect (sendCell 2 c) 0 = Nf := expect_send m ρ c 2
theorem expect_recv0 : (haloRd (F := F) m ρ).expect (recvCell 0 c) 0 = Nx := expect_recv m ρ c 0
theorem expect_recv1 : (haloRd (F := F) m ρ).expect (recvCell 1 c) 0 = Nf := expect_recv m ρ c 1
theorem expect_recv2 : (haloRd (F := F) m ρ).expect (recvCell 2 c) 0 = Nf := expect_recv m ρ c 2

/-! ## What a device receives on its own barrier: each neighbour's receive buffer of that axis, and that its receive cell is at round 0 -/
theorem tbl_bar_own0 : (haloRd (F := F) m ρ).payload (barCell c) 0 0
    = iprop((∃ f, ((nbr 0 c : Dev nD) : Thread nD τ).loc cc0_scratch2 ↦{fullShare} f) ∗ reached ER (recvCell 0 (nbr 0 c)) 0) := by
  rw [payload_bar]; dsimp only [barPay]; simp only [rxPts_eq]
theorem tbl_bar_own1 : (haloRd (F := F) m ρ).payload (barCell c) 0 1
    = iprop((∃ f, ((nbr 1 c : Dev nD) : Thread nD τ).loc cc0_scratch3 ↦{fullShare} f) ∗ reached ER (recvCell 1 (nbr 1 c)) 0) := by
  rw [payload_bar]; dsimp only [barPay]; simp only [ryPts_eq]
theorem tbl_bar_own2 : (haloRd (F := F) m ρ).payload (barCell c) 0 2
    = iprop((∃ f, ((nbr 2 c : Dev nD) : Thread nD τ).loc cc0_scratch4 ↦{fullShare} f) ∗ reached ER (recvCell 2 (nbr 2 c)) 0) := by
  rw [payload_bar]; dsimp only [barPay]; simp only [rzPts_eq]

/-! ## What it pays into a neighbour's barrier: its own receive buffer of that axis -/
theorem tbl_bar_pay0 : (haloRd (F := F) m ρ).payload (barCell (nbr 0 c)) 0 0
    = iprop((∃ f, (c : Thread nD τ).loc cc0_scratch2 ↦{fullShare} f) ∗ reached ER (recvCell 0 c) 0) := by
  have h := tbl_bar_own0 m ρ (nbr 0 c); rw [nbr_nbr] at h; exact h
theorem tbl_bar_pay1 : (haloRd (F := F) m ρ).payload (barCell (nbr 1 c)) 0 1
    = iprop((∃ f, (c : Thread nD τ).loc cc0_scratch3 ↦{fullShare} f) ∗ reached ER (recvCell 1 c) 0) := by
  have h := tbl_bar_own1 m ρ (nbr 1 c); rw [nbr_nbr] at h; exact h
theorem tbl_bar_pay2 : (haloRd (F := F) m ρ).payload (barCell (nbr 2 c)) 0 2
    = iprop((∃ f, (c : Thread nD τ).loc cc0_scratch4 ↦{fullShare} f) ∗ reached ER (recvCell 2 c) 0) := by
  have h := tbl_bar_own2 m ρ (nbr 2 c); rw [nbr_nbr] at h; exact h

/-! ## Its receive cells: the neighbour's face landed -/
theorem tbl_recv_own0 : (haloRd (F := F) m ρ).payload (recvCell 0 c) 0 0 = ((c : Thread nD τ).loc cc0_scratch2 ↦{fullShare} landX m ρ c) :=
  (payload_recv m ρ c 0 0).trans (rxPts_eq c _)
theorem tbl_recv_own1 : (haloRd (F := F) m ρ).payload (recvCell 1 c) 0 0 = ((c : Thread nD τ).loc cc0_scratch3 ↦{fullShare} landY m ρ c) :=
  (payload_recv m ρ c 1 0).trans (ryPts_eq c _)
theorem tbl_recv_own2 : (haloRd (F := F) m ρ).payload (recvCell 2 c) 0 0 = ((c : Thread nD τ).loc cc0_scratch4 ↦{fullShare} landZ m ρ c) :=
  (payload_recv m ρ c 2 0).trans (rzPts_eq c _)

/-! ## What it pays into a neighbour's receive cell: its own face, landed there -/
theorem tbl_recv_pay0 : (haloRd (F := F) m ρ).payload (recvCell 0 (nbr 0 c)) 0 0 = (((nbr 0 c : Dev nD) : Thread nD τ).loc cc0_scratch2 ↦{fullShare} faceX m ρ c) := by
  rw [tbl_recv_own0, landX_nbr]
theorem tbl_recv_pay1 : (haloRd (F := F) m ρ).payload (recvCell 1 (nbr 1 c)) 0 0 = (((nbr 1 c : Dev nD) : Thread nD τ).loc cc0_scratch3 ↦{fullShare} faceY m ρ c) := by
  rw [tbl_recv_own1, landY_nbr]
theorem tbl_recv_pay2 : (haloRd (F := F) m ρ).payload (recvCell 2 (nbr 2 c)) 0 0 = (((nbr 2 c : Dev nD) : Thread nD τ).loc cc0_scratch4 ↦{fullShare} faceZ m ρ c) := by
  rw [tbl_recv_own2, landZ_nbr]

/-! ## Its send cells: the source back -/
theorem tbl_send0 : (haloRd (F := F) m ρ).payload (sendCell 0 c) 0 0 = ((sxM c).view.loc (c : Thread nD τ) ↦[(sxM c).view.set]{fullShare} xstg m ρ c) :=
  payload_send m ρ c 0 0
theorem tbl_send1 : (haloRd (F := F) m ρ).payload (sendCell 1 c) 0 0 = ((c : Thread nD τ).loc cc0_scratch0 ↦{fullShare} faceY m ρ c) :=
  (payload_send m ρ c 1 0).trans (syPts_eq m ρ c)
theorem tbl_send2 : (haloRd (F := F) m ρ).payload (sendCell 2 c) 0 0 = ((c : Thread nD τ).loc cc0_scratch1 ↦{fullShare} faceZ m ρ c) :=
  (payload_send m ρ c 2 0).trans (szPts_eq m ρ c)

end Tables

end Cert.Kernel.Halo

end
-- ==== Proof.Bits.Lit.lean ====
/-
  The schedule's tables with each cell written out as the pair of its thread and its semaphore.
-/
import proofs.«900806_g7700000000000807_dist_halo3d_v7x_xyz2x2x2_s48_f32_1_alg».proof.Proof.Bits.Tables

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! The tables, each cell as the pair (thread, semaphore). -/
section Lit
variable (c : Dev nD)
theorem lS0_duties : (haloRd (F := F) m ρ).duties ((c : Thread nD τ), SemLoc.dma 2) 0 = {0} := duties_send0 m ρ c
theorem lR0_duties : (haloRd (F := F) m ρ).duties ((c : Thread nD τ), SemLoc.dma 5) 0 = {0} := duties_recv0 m ρ c
theorem lS0_amount (d : Fin 3) : (haloRd (F := F) m ρ).amount ((c : Thread nD τ), SemLoc.dma 2) 0 d = Nx := amount_send0 m ρ c d
theorem lR0_amount (d : Fin 3) : (haloRd (F := F) m ρ).amount ((c : Thread nD τ), SemLoc.dma 5) 0 d = Nx := amount_recv0 m ρ c d
theorem lS0_expect : (haloRd (F := F) m ρ).expect ((c : Thread nD τ), SemLoc.dma 2) 0 = Nx := expect_send0 m ρ c
theorem lR0_expect : (haloRd (F := F) m ρ).expect ((c : Thread nD τ), SemLoc.dma 5) 0 = Nx := expect_recv0 m ρ c
theorem lS1_duties : (haloRd (F := F) m ρ).duties ((c : Thread nD τ), SemLoc.dma 3) 0 = {0} := duties_send1 m ρ c
theorem lR1_duties : (haloRd (F := F) m ρ).duties ((c : Thread nD τ), SemLoc.dma 6) 0 = {0} := duties_recv1 m ρ c
theorem lS1_amount (d : Fin 3) : (haloRd (F := F) m ρ).amount ((c : Thread nD τ), SemLoc.dma 3) 0 d = Nf := amount_send1 m ρ c d
theorem lR1_amount (d : Fin 3) : (haloRd (F := F) m ρ).amount ((c : Thread nD τ), SemLoc.dma 6) 0 d = Nf := amount_recv1 m ρ c d
theorem lS1_expect : (haloRd (F := F) m ρ).expect ((c : Thread nD τ), SemLoc.dma 3) 0 = Nf := expect_send1 m ρ c
theorem lR1_expect : (haloRd (F := F) m ρ).expect ((c : Thread nD τ), SemLoc.dma 6) 0 = Nf := expect_recv1 m ρ c
theorem lS2_duties : (haloRd (F := F) m ρ).duties ((c : Thread nD τ), SemLoc.dma 4) 0 = {0} := duties_send2 m ρ c
theorem lR2_duties : (haloRd (F := F) m ρ).duties ((c : Thread nD τ), SemLoc.dma 7) 0 = {0} := duties_recv2 m ρ c
theorem lS2_amount (d : Fin 3) : (haloRd (F := F) m ρ).amount ((c : Thread nD τ), SemLoc.dma 4) 0 d = Nf := amount_send2 m ρ c d
theorem lR2_amount (d : Fin 3) : (haloRd (F := F) m ρ).amount ((c : Thread nD τ), SemLoc.dma 7) 0 d = Nf := amount_recv2 m ρ c d
theorem lS2_expect : (haloRd (F := F) m ρ).expect ((c : Thread nD τ), SemLoc.dma 4) 0 = Nf := expect_send2 m ρ c
theorem lR2_expect : (haloRd (F := F) m ρ).expect ((c : Thread nD τ), SemLoc.dma 7) 0 = Nf := expect_recv2 m ρ c
theorem lR0_own : (haloRd (F := F) m ρ).payload ((c : Thread nD τ), SemLoc.dma 5) 0 0 = ((rxM : Memref sig .tc .vmem S1x48x48 .f32).view.loc (c : Thread nD τ) ↦{fullShare} landX m ρ c) := tbl_recv_own0 m ρ c
theorem lR0_pay : (haloRd (F := F) m ρ).payload (((nbr 0 c : Dev nD) : Thread nD τ), SemLoc.dma 5) 0 0 = (((nbr 0 c : Dev nD) : Thread nD τ).loc cc0_scratch2 ↦{fullShare} faceX m ρ c) := tbl_recv_pay0 m ρ c
theorem lR1_own : (haloRd (F := F) m ρ).payload ((c : Thread nD τ), SemLoc.dma 6) 0 0 = ((ryM : Memref sig .tc .vmem S48x48 .f32).view.loc (c : Thread nD τ) ↦{fullShare} landY m ρ c) := tbl_recv_own1 m ρ c
theorem lR1_pay : (haloRd (F := F) m ρ).payload (((nbr 1 c : Dev nD) : Thread nD τ), SemLoc.dma 6) 0 0 = (((nbr 1 c : Dev nD) : Thread nD τ).loc cc0_scratch3 ↦{fullShare} faceY m ρ c) := tbl_recv_pay1 m ρ c
theorem lR2_own : (haloRd (F := F) m ρ).payload ((c : Thread nD τ), SemLoc.dma 7) 0 0 = ((rzM : Memref sig .tc .vmem S48x48 .f32).view.loc (c : Thread nD τ) ↦{fullShare} landZ m ρ c) := tbl_recv_own2 m ρ c
theorem lR2_pay : (haloRd (F := F) m ρ).payload (((nbr 2 c : Dev nD) : Thread nD τ), SemLoc.dma 7) 0 0 = (((nbr 2 c : Dev nD) : Thread nD τ).loc cc0_scratch4 ↦{fullShare} faceZ m ρ c) := tbl_recv_pay2 m ρ c
theorem lS0_pay : (haloRd (F := F) m ρ).payload ((c : Thread nD τ), SemLoc.dma 2) 0 0 = ((sxM c).view.loc (c : Thread nD τ) ↦[(sxM c).view.set]{fullShare} xstg m ρ c) := tbl_send0 m ρ c
theorem lS1_pay : (haloRd (F := F) m ρ).payload ((c : Thread nD τ), SemLoc.dma 3) 0 0 = ((c : Thread nD τ).loc cc0_scratch0 ↦{fullShare} faceY m ρ c) := tbl_send1 m ρ c
theorem lS2_pay : (haloRd (F := F) m ρ).payload ((c : Thread nD τ), SemLoc.dma 4) 0 0 = ((c : Thread nD τ).loc cc0_scratch1 ↦{fullShare} faceZ m ρ c) := tbl_send2 m ρ c
theorem lB_own0 : (haloRd (F := F) m ρ).payload (barCell c) 0 0 = iprop((∃ f, ((nbr 0 c : Dev nD) : Thread nD τ).loc cc0_scratch2 ↦{fullShare} f) ∗ reached ER (((nbr 0 c : Dev nD) : Thread nD τ), SemLoc.dma 5) 0) := tbl_bar_own0 m ρ c
theorem lB_pay0 : (haloRd (F := F) m ρ).payload (barCell (nbr 0 c)) 0 0 = iprop((∃ f, (c : Thread nD τ).loc cc0_scratch2 ↦{fullShare} f) ∗ reached ER ((c : Thread nD τ), SemLoc.dma 5) 0) := tbl_bar_pay0 m ρ c
theorem lB_own1 : (haloRd (F := F) m ρ).payload (barCell c) 0 1 = iprop((∃ f, ((nbr 1 c : Dev nD) : Thread nD τ).loc cc0_scratch3 ↦{fullShare} f) ∗ reached ER (((nbr 1 c : Dev nD) : Thread nD τ), SemLoc.dma 6) 0) := tbl_bar_own1 m ρ c
theorem lB_pay1 : (haloRd (F := F) m ρ).payload (barCell (nbr 1 c)) 0 1 = iprop((∃ f, (c : Thread nD τ).loc cc0_scratch3 ↦{fullShare} f) ∗ reached ER ((c : Thread nD τ), SemLoc.dma 6) 0) := tbl_bar_pay1 m ρ c
theorem lB_own2 : (haloRd (F := F) m ρ).payload (barCell c) 0 2 = iprop((∃ f, ((nbr 2 c : Dev nD) : Thread nD τ).loc cc0_scratch4 ↦{fullShare} f) ∗ reached ER (((nbr 2 c : Dev nD) : Thread nD τ), SemLoc.dma 7) 0) := tbl_bar_own2 m ρ c
theorem lB_pay2 : (haloRd (F := F) m ρ).payload (barCell (nbr 2 c)) 0 2 = iprop((∃ f, (c : Thread nD τ).loc cc0_scratch4 ↦{fullShare} f) ∗ reached ER ((c : Thread nD τ), SemLoc.dma 7) 0) := tbl_bar_pay2 m ρ c
end Lit

end Cert.Kernel.Halo

end
-- ==== Proof.Bits.Sends.lean ====
/-
  The three face transfers, each as one step of a device's body.  A device sends its x slab, its y and its z send buffer to
  the neighbour along that axis, into that neighbour's receive buffer, which the neighbour's barrier signal has handed it.
  The transfer pays two duties at once: the credit of the device's own send cell, whose payload is the source back, and the
  credit of the neighbour's receive cell, whose payload is the receive buffer holding the device's face (a whole buffer
  written unmasked holds exactly what was read from the source).  Afterwards the device no longer owes that receive credit
  and holds the credit to wait on its own send cell.
-/
import proofs.«900806_g7700000000000807_dist_halo3d_v7x_xyz2x2x2_s48_f32_1_alg».proof.Proof.Bits.Lit
import proofs.«900806_g7700000000000807_dist_halo3d_v7x_xyz2x2x2_s48_f32_1_alg».proof.Proof.Bits.Data

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 7 → ℕ)

/-! ## A whole buffer's view covers every index -/
omit [FloatOps F] in
private theorem rx_set' : (rxM : Memref sig .tc .vmem S1x48x48 .f32).view.set = Finset.univ := View.set_whole _
omit [FloatOps F] in
private theorem ry_set' : (ryM : Memref sig .tc .vmem S48x48 .f32).view.set = Finset.univ := View.set_whole _
omit [FloatOps F] in
private theorem rz_set' : (rzM : Memref sig .tc .vmem S48x48 .f32).view.set = Finset.univ := View.set_whole _
omit [FloatOps F] in
private theorem sy_set' : (syM : Memref sig .tc .vmem S48x48 .f32).view.set = Finset.univ := View.set_whole _
omit [FloatOps F] in
private theorem sz_set' : (szM : Memref sig .tc .vmem S48x48 .f32).view.set = Finset.univ := View.set_whole _

/-- The x transfer. -/
theorem wp_send_x (c n : Dev nD) (hn : n = nbr 0 c)
    {hsc : (rxM : Memref sig (Dev.tc n : Thread nD τ).2.kind .vmem S1x48x48 .f32).view.ref.isScScratch = false}
    {hsrc : (sxM c).view.WordExact} {hdst : (rxM : Memref sig .tc .vmem S1x48x48 .f32).view.WordExact}
    {hsem : DmaTarget.Typed .vmem (.dma 5) (.remote (Dev.tc n : Thread nD τ) (rxM : Memref sig .tc .vmem S1x48x48 .f32) (.dma 2) hsc)}
    {α : Type} {Q : α → sProp 𝕄} {k : PUnit → Prog (TpuEff nD τ sig (Elt F) Λ₀ .tc) α}
    (fn : Buf (Elt F) ((rxM : Memref sig .tc .vmem S1x48x48 .f32).view.loc ((nbr 0 c : Dev nD) : Thread nD τ))) (O : CellTallies nD τ sig Unit) (W : Waits sig Unit) :
    iprop(cellInv ER (haloRd m ρ) (K (c, 1)) ((c : Thread nD τ), SemLoc.dma 2) ∗ cellInv ER (haloRd m ρ) (K (nbr 0 c, 4)) (((nbr 0 c : Dev nD) : Thread nD τ), SemLoc.dma 5)
        ∗ ((sxM c).view.loc (c : Thread nD τ) ↦[(sxM c).view.set]{fullShare} xstg m ρ c)
        ∗ ((rxM : Memref sig .tc .vmem S1x48x48 .f32).view.loc ((nbr 0 c : Dev nD) : Thread nD τ) ↦{fullShare} fn)
        ∗ owes (c : Thread nD τ) (O + tallyAt (((nbr 0 c : Dev nD) : Thread nD τ), SemLoc.dma 5) () Nx) W
        ∗ dutyTok ER ((c : Thread nD τ), SemLoc.dma 2) 0 0 ∗ reached ER ((c : Thread nD τ), SemLoc.dma 2) 0
        ∗ dutyTok ER (((nbr 0 c : Dev nD) : Thread nD τ), SemLoc.dma 5) 0 0 ∗ reached ER (((nbr 0 c : Dev nD) : Thread nD τ), SemLoc.dma 5) 0)
      ⊢ iprop(((cred (tallyAt ((c : Thread nD τ), SemLoc.dma 2) () Nx) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (sxM c) (.remote (Dev.tc n : Thread nD τ) rxM (.dma 2) hsc) (.dma 5) hsrc hdst hsem) k) Q) := by
  subst hn
  -- a whole buffer's view covers every index: the same facts over the views' own element sets
  have ed : ((rxM : Memref sig .tc .vmem S1x48x48 .f32).view.loc ((nbr 0 c : Dev nD) : Thread nD τ) ↦{fullShare} fn : sProp 𝕄)
      = ((rxM : Memref sig .tc .vmem S1x48x48 .f32).view.loc ((nbr 0 c : Dev nD) : Thread nD τ) ↦[(rxM : Memref sig .tc .vmem S1x48x48 .f32).view.set]{fullShare} fn) := by
    rw [rx_set']

  rw [ed]
  refine wp_send_pointsTo 𝒱₀ ER (haloRd m ρ) (c : Thread nD τ) none
    (c' := ((nbr 0 c : Dev nD) : Thread nD τ)) (src := sxM c) (dst := (rxM : Memref sig .tc .vmem S1x48x48 .f32))
    (q := fullShare) (fs := xstg m ρ c) (fd := fn) (sS := SemLoc.dma 2) (sem := SemLoc.dma 5)
    (r₁ := 0) (r₂ := 0) (d₁ := 0) (d₂ := 0) (κ₁ := K (c, 1)) (κ₂ := K (nbr 0 c, 4))
    (by rw [lS0_duties]; exact Finset.mem_singleton_self _) (by rw [lR0_duties]; exact Finset.mem_singleton_self _)
    () () Nx rfl (lS0_amount m ρ c 0) (lR0_amount m ρ (nbr 0 c) 0) O rfl ?_ ?_
  · -- the source comes back with the send cell's credit
    rw [lS0_pay]
  · -- the neighbour's receive buffer, written whole, holds what was read from the source: the device's face
    rw [lR0_pay, rx_set', View.write_whole_univ]; exact Entails.refl _

/-- The y transfer. -/
theorem wp_send_y (c n : Dev nD) (hn : n = nbr 1 c)
    {hsc : (ryM : Memref sig (Dev.tc n : Thread nD τ).2.kind .vmem S48x48 .f32).view.ref.isScScratch = false}
    {hsrc : ((syM : Memref sig .tc .vmem S48x48 .f32)).view.WordExact} {hdst : (ryM : Memref sig .tc .vmem S48x48 .f32).view.WordExact}
    {hsem : DmaTarget.Typed .vmem (.dma 6) (.remote (Dev.tc n : Thread nD τ) (ryM : Memref sig .tc .vmem S48x48 .f32) (.dma 3) hsc)}
    {α : Type} {Q : α → sProp 𝕄} {k : PUnit → Prog (TpuEff nD τ sig (Elt F) Λ₀ .tc) α}
    (fn : Buf (Elt F) ((ryM : Memref sig .tc .vmem S48x48 .f32).view.loc ((nbr 1 c : Dev nD) : Thread nD τ))) (O : CellTallies nD τ sig Unit) (W : Waits sig Unit) :
    iprop(cellInv ER (haloRd m ρ) (K (c, 2)) ((c : Thread nD τ), SemLoc.dma 3) ∗ cellInv ER (haloRd m ρ) (K (nbr 1 c, 5)) (((nbr 1 c : Dev nD) : Thread nD τ), SemLoc.dma 6)
        ∗ ((syM : Memref sig .tc .vmem S48x48 .f32).view.loc (c : Thread nD τ) ↦{fullShare} faceY m ρ c)
        ∗ ((ryM : Memref sig .tc .vmem S48x48 .f32).view.loc ((nbr 1 c : Dev nD) : Thread nD τ) ↦{fullShare} fn)
        ∗ owes (c : Thread nD τ) (O + tallyAt (((nbr 1 c : Dev nD) : Thread nD τ), SemLoc.dma 6) () Nf) W
        ∗ dutyTok ER ((c : Thread nD τ), SemLoc.dma 3) 0 0 ∗ reached ER ((c : Thread nD τ), SemLoc.dma 3) 0
        ∗ dutyTok ER (((nbr 1 c : Dev nD) : Thread nD τ), SemLoc.dma 6) 0 0 ∗ reached ER (((nbr 1 c : Dev nD) : Thread nD τ), SemLoc.dma 6) 0)
      ⊢ iprop(((cred (tallyAt ((c : Thread nD τ), SemLoc.dma 3) () Nf) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((syM : Memref sig .tc .vmem S48x48 .f32)) (.remote (Dev.tc n : Thread nD τ) ryM (.dma 3) hsc) (.dma 6) hsrc hdst hsem) k) Q) := by
  subst hn
  -- a whole buffer's view covers every index: the same facts over the views' own element sets
  have ed : ((ryM : Memref sig .tc .vmem S48x48 .f32).view.loc ((nbr 1 c : Dev nD) : Thread nD τ) ↦{fullShare} fn : sProp 𝕄)
      = ((ryM : Memref sig .tc .vmem S48x48 .f32).view.loc ((nbr 1 c : Dev nD) : Thread nD τ) ↦[(ryM : Memref sig .tc .vmem S48x48 .f32).view.set]{fullShare} fn) := by
    rw [ry_set']
  have es : ((syM : Memref sig .tc .vmem S48x48 .f32).view.loc (c : Thread nD τ) ↦{fullShare} faceY m ρ c : sProp 𝕄)
      = ((syM : Memref sig .tc .vmem S48x48 .f32).view.loc (c : Thread nD τ) ↦[(syM : Memref sig .tc .vmem S48x48 .f32).view.set]{fullShare} faceY m ρ c) := by
    rw [sy_set']
  rw [es, ed]
  refine wp_send_pointsTo 𝒱₀ ER (haloRd m ρ) (c : Thread nD τ) none
    (c' := ((nbr 1 c : Dev nD) : Thread nD τ)) (src := (syM : Memref sig .tc .vmem S48x48 .f32)) (dst := (ryM : Memref sig .tc .vmem S48x48 .f32))
    (q := fullShare) (fs := faceY m ρ c) (fd := fn) (sS := SemLoc.dma 3) (sem := SemLoc.dma 6)
    (r₁ := 0) (r₂ := 0) (d₁ := 0) (d₂ := 0) (κ₁ := K (c, 2)) (κ₂ := K (nbr 1 c, 5))
    (by rw [lS1_duties]; exact Finset.mem_singleton_self _) (by rw [lR1_duties]; exact Finset.mem_singleton_self _)
    () () Nf rfl (lS1_amount m ρ c 0) (lR1_amount m ρ (nbr 1 c) 0) O rfl ?_ ?_
  · -- the source comes back with the send cell's credit
    rw [lS1_pay, sy_set']
  · -- the neighbour's receive buffer, written whole, holds what was read from the source: the device's face
    rw [lR1_pay, ry_set', View.write_whole_univ, View.read_whole]

/-- The z transfer. -/
theorem wp_send_z (c n : Dev nD) (hn : n = nbr 2 c)
    {hsc : (rzM : Memref sig (Dev.tc n : Thread nD τ).2.kind .vmem S48x48 .f32).view.ref.isScScratch = false}
    {hsrc : ((szM : Memref sig .tc .vmem S48x48 .f32)).view.WordExact} {hdst : (rzM : Memref sig .tc .vmem S48x48 .f32).view.WordExact}
    {hsem : DmaTarget.Typed .vmem (.dma 7) (.remote (Dev.tc n : Thread nD τ) (rzM : Memref sig .tc .vmem S48x48 .f32) (.dma 4) hsc)}
    {α : Type} {Q : α → sProp 𝕄} {k : PUnit → Prog (TpuEff nD τ sig (Elt F) Λ₀ .tc) α}
    (fn : Buf (Elt F) ((rzM : Memref sig .tc .vmem S48x48 .f32).view.loc ((nbr 2 c : Dev nD) : Thread nD τ))) (O : CellTallies nD τ sig Unit) (W : Waits sig Unit) :
    iprop(cellInv ER (haloRd m ρ) (K (c, 3)) ((c : Thread nD τ), SemLoc.dma 4) ∗ cellInv ER (haloRd m ρ) (K (nbr 2 c, 6)) (((nbr 2 c : Dev nD) : Thread nD τ), SemLoc.dma 7)
        ∗ ((szM : Memref sig .tc .vmem S48x48 .f32).view.loc (c : Thread nD τ) ↦{fullShare} faceZ m ρ c)
        ∗ ((rzM : Memref sig .tc .vmem S48x48 .f32).view.loc ((nbr 2 c : Dev nD) : Thread nD τ) ↦{fullShare} fn)
        ∗ owes (c : Thread nD τ) (O + tallyAt (((nbr 2 c : Dev nD) : Thread nD τ), SemLoc.dma 7) () Nf) W
        ∗ dutyTok ER ((c : Thread nD τ), SemLoc.dma 4) 0 0 ∗ reached ER ((c : Thread nD τ), SemLoc.dma 4) 0
        ∗ dutyTok ER (((nbr 2 c : Dev nD) : Thread nD τ), SemLoc.dma 7) 0 0 ∗ reached ER (((nbr 2 c : Dev nD) : Thread nD τ), SemLoc.dma 7) 0)
      ⊢ iprop(((cred (tallyAt ((c : Thread nD τ), SemLoc.dma 4) () Nf) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((szM : Memref sig .tc .vmem S48x48 .f32)) (.remote (Dev.tc n : Thread nD τ) rzM (.dma 4) hsc) (.dma 7) hsrc hdst hsem) k) Q) := by
  subst hn
  -- a whole buffer's view covers every index: the same facts over the views' own element sets
  have ed : ((rzM : Memref sig .tc .vmem S48x48 .f32).view.loc ((nbr 2 c : Dev nD) : Thread nD τ) ↦{fullShare} fn : sProp 𝕄)
      = ((rzM : Memref sig .tc .vmem S48x48 .f32).view.loc ((nbr 2 c : Dev nD) : Thread nD τ) ↦[(rzM : Memref sig .tc .vmem S48x48 .f32).view.set]{fullShare} fn) := by
    rw [rz_set']
  have es : ((szM : Memref sig .tc .vmem S48x48 .f32).view.loc (c : Thread nD τ) ↦{fullShare} faceZ m ρ c : sProp 𝕄)
      = ((szM : Memref sig .tc .vmem S48x48 .f32).view.loc (c : Thread nD τ) ↦[(szM : Memref sig .tc .vmem S48x48 .f32).view.set]{fullShare} faceZ m ρ c) := by
    rw [sz_set']
  rw [es, ed]
  refine wp_send_pointsTo 𝒱₀ ER (haloRd m ρ) (c : Thread nD τ) none
    (c' := ((nbr 2 c : Dev nD) : Thread nD τ)) (src := (szM : Memref sig .tc .vmem S48x48 .f32)) (dst := (rzM : Memref sig .tc .vmem S48x48 .f32))
    (q := fullShare) (fs := faceZ m ρ c) (fd := fn) (sS := SemLoc.dma 4) (sem := SemLoc.dma 7)
    (r₁ := 0) (r₂ := 0) (d₁ := 0) (d₂ := 0) (κ₁ := K (c, 3)) (κ₂ := K (nbr 2 c, 6))
    (by rw [lS2_duties]; exact Finset.mem_singleton_self _) (by rw [lR2_duties]; exact Finset.mem_singleton_self _)
    () () Nf rfl (lS2_amount m ρ c 0) (lR2_amount m ρ (nbr 2 c) 0) O rfl ?_ ?_
  · -- the source comes back with the send cell's credit
    rw [lS2_pay, sz_set']
  · -- the neighbour's receive buffer, written whole, holds what was read from the source: the device's face
    rw [lR2_pay, rz_set', View.write_whole_univ, View.read_whole]

end Cert.Kernel.Halo

end
-- ==== Proof.Bits.Glue.lean ====
/-
  What a send buffer holds after the body's two guarded stores.  On each of the axes y and z the body stores one of two
  faces of the staged block into the send buffer, the first when the device's mesh coordinate on that axis is 0, the
  second when it is 1.  Each store goes through the whole-size rectangle at zero offsets of the whole buffer, so it
  replaces the contents; exactly one of the two guards holds; so the buffer ends holding the face of that coordinate,
  whatever it held before.
-/
import proofs.«900806_g7700000000000807_dist_halo3d_v7x_xyz2x2x2_s48_f32_1_alg».proof.Proof.Bits.Cells
import Idealize.ShloMosaic.Lib.Writes

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The zero offsets, as a constant function. -/
private theorem zero_off : (![0, 0] : Fin 2 → Nat) = fun _ => 0 := funext fun a => by fin_cases a <;> rfl

omit [FloatOps F] in
/-- One unmasked store through the whole-size rectangle at zero offsets of the y send buffer replaces its contents. -/
private theorem writeY (inb : ∀ a, (![0, 0] : Fin 2 → Nat) a + S48x48.size a ≤ S48x48.size a)
    (f : (cc0_scratch0 : Ref sig .tc).ty.Contents (Elt F)) (w : FVec F S48x48 .f32) :
    (syM : Memref sig .tc .vmem S48x48 .f32).view.writes (Elt F) f [⟨Rect.unit ![0, 0] S48x48.size inb, w⟩] = w :=
  Memref.write_access_unit_zero_univ (Elt F) cc0_scratch0 zero_off inb f w

omit [FloatOps F] in
/-- The same for the z send buffer. -/
private theorem writeZ (inb : ∀ a, (![0, 0] : Fin 2 → Nat) a + S48x48.size a ≤ S48x48.size a)
    (f : (cc0_scratch1 : Ref sig .tc).ty.Contents (Elt F)) (w : FVec F S48x48 .f32) :
    (szM : Memref sig .tc .vmem S48x48 .f32).view.writes (Elt F) f [⟨Rect.unit ![0, 0] S48x48.size inb, w⟩] = w :=
  Memref.write_access_unit_zero_univ (Elt F) cc0_scratch1 zero_off inb f w

/-- The y send buffer after the two guarded stores: the device's y face. -/
theorem sendY_eq (c : Dev nD) (w0 w1 : BitVec 1) (h0 : w0 = 1#1 ↔ by' c = 0) (h1 : w1 = 1#1 ↔ by' c = 1)
    (f0 : (cc0_scratch0 : Ref sig .tc).ty.Contents (Elt F)) (v0 v1 : FVec F S48x48 .f32)
    (hv0 : v0 = k0_pay2 (xstg m ρ c)) (hv1 : v1 = k0_pay3 (xstg m ρ c))
    (inb : ∀ a, (![0, 0] : Fin 2 → Nat) a + S48x48.size a ≤ S48x48.size a) :
    (if hc : w1 = 1#1 then
      (syM : Memref sig .tc .vmem S48x48 .f32).view.writes (Elt F)
        (if hc : w0 = 1#1 then (syM : Memref sig .tc .vmem S48x48 .f32).view.writes (Elt F) f0 [⟨Rect.unit ![0, 0] S48x48.size inb, v0⟩] else f0)
        [⟨Rect.unit ![0, 0] S48x48.size inb, v1⟩]
    else
      if hc : w0 = 1#1 then (syM : Memref sig .tc .vmem S48x48 .f32).view.writes (Elt F) f0 [⟨Rect.unit ![0, 0] S48x48.size inb, v0⟩] else f0)
      = faceY m ρ c := by
  have hb := by_lt c
  unfold faceY
  rcases (by omega : by' c = 0 ∨ by' c = 1) with e | e
  · -- coordinate 0: only the first store happens
    have c0 : w0 = 1#1 := h0.mpr e
    have c1 : ¬ w1 = 1#1 := fun h => by have := h1.mp h; omega
    rw [dif_neg c1, dif_pos c0, writeY, if_pos e, hv0]
  · -- coordinate 1: the second store happens, over whatever the first left
    have c1 : w1 = 1#1 := h1.mpr e
    rw [dif_pos c1, writeY, if_neg (by omega), hv1]

/-- The z send buffer after the two guarded stores: the device's z face. -/
theorem sendZ_eq (c : Dev nD) (w0 w1 : BitVec 1) (h0 : w0 = 1#1 ↔ bz c = 0) (h1 : w1 = 1#1 ↔ bz c = 1)
    (f1 : (cc0_scratch1 : Ref sig .tc).ty.Contents (Elt F)) (v0 v1 : FVec F S48x48 .f32)
    (hv0 : v0 = k0_pay4 (xstg m ρ c)) (hv1 : v1 = k0_pay5 (xstg m ρ c))
    (inb : ∀ a, (![0, 0] : Fin 2 → Nat) a + S48x48.size a ≤ S48x48.size a) :
    (if hc : w1 = 1#1 then
      (szM : Memref sig .tc .vmem S48x48 .f32).view.writes (Elt F)
        (if hc : w0 = 1#1 then (szM : Memref sig .tc .vmem S48x48 .f32).view.writes (Elt F) f1 [⟨Rect.unit ![0, 0] S48x48.size inb, v0⟩] else f1)
        [⟨Rect.unit ![0, 0] S48x48.size inb, v1⟩]
    else
      if hc : w0 = 1#1 then (szM : Memref sig .tc .vmem S48x48 .f32).view.writes (Elt F) f1 [⟨Rect.unit ![0, 0] S48x48.size inb, v0⟩] else f1)
      = faceZ m ρ c := by
  have hb := bz_lt c
  unfold faceZ
  rcases (by omega : bz c = 0 ∨ bz c = 1) with e | e
  · have c0 : w0 = 1#1 := h0.mpr e
    have c1 : ¬ w1 = 1#1 := fun h => by have := h1.mp h; omega
    rw [dif_neg c1, dif_pos c0, writeZ, if_pos e, hv0]
  · have c1 : w1 = 1#1 := h1.mpr e
    rw [dif_pos c1, writeZ, if_neg (by omega), hv1]

end Cert.Kernel.Halo

end
-- ==== Proof.Bits.Mirror.lean ====
/-
  What the body leaves in a device's result buffer, and that it is the result block `outAt`.

  The body stores the local stencil over the whole buffer, then, under six conditions on the device's mesh coordinates
  (one per face: lower / upper half of the mesh along x, y, z), adds the received face to the touching face of the buffer,
  and last, under the same six conditions, stores zeros on the faces that lie on the whole array's boundary.  With the
  device left open, the contents after these twelve guarded stores are a tree of case distinctions on the six condition
  words (`fin`): at each word, taken, the zeros stored through that word's boundary face over the subtree; at the leaves
  the additions taken on the path, in program order.  What each addition loads was read from the buffer as the additions
  before it left it (`S1` … `S5`, one case distinction per addition).  The tree is the straight sequence of the twelve
  guarded stores (`fin_eq_lin`); read entry by entry, each guarded store is an `if` on the entry's coordinates; and with
  each word read as its condition on the device's coordinates, the entry is `outOf`'s.
-/
import proofs.«900806_g7700000000000807_dist_halo3d_v7x_xyz2x2x2_s48_f32_1_alg».proof.Proof.Bits.Out
import Idealize.ShloMosaic.Lib.Writes
import Idealize.ShloMosaic.Lib.WritesUnit
import Idealize.ShloMosaic.Lib.ValueIdx
import Idealize.ShloMosaic.Lib.Pipeline.Value
import Idealize.ShloMosaic.Lib.Exec.Geometry

noncomputable section

namespace Cert.Kernel.Halo

open Cert.Kernel Cert.Kernel.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The contents the body leaves, as a term -/

section Terms

variable (c : Dev nD) (g1 : Buf (Elt F) ((c : Thread nD τ).loc cc0_stg1_0)) (r : FVec F S48x48x48 .f32)
  (w129 w132 w135 w138 w141 w144 : BitVec 1)

/-- The body's first store: the local stencil, through the whole buffer. -/
def L0 : List (View.Piece (Elt F) S48x48x48 .f32) :=
  [⟨Rect.unit ![0, 0, 0] S48x48x48.size inb_S48x48x48_S48x48x48_0_0_0, r⟩]

/-- The buffer after it. -/
def S0 : Buf (Elt F) ((c : Thread nD τ).loc cc0_stg1_0) :=
  (oM : Memref sig .tc .vmem S48x48x48 .f32).view.writes (Elt F) g1 (L0 r)

/-- The x face received, added to row 47 (lower half of the mesh along x). -/
def a10 : FVec F S1x48x48 .f32 :=
  k0_pay10 ((oM : Memref sig .tc .vmem S48x48x48 .f32).view.readCov (L0 r) (Rect.unit (s := S48x48x48) ![47, 0, 0] S1x48x48.size inb_S48x48x48_S1x48x48_47_0_0).toLoadRect)
    (View.readAt (Elt F) (rxM : Memref sig .tc .vmem S1x48x48 .f32).view (Rect.unit ![0, 0, 0] S1x48x48.size inb_S1x48x48_S1x48x48_0_0_0).toLoadRect (landX m ρ c))

def S1 : Buf (Elt F) ((c : Thread nD τ).loc cc0_stg1_0) :=
  if hc : w129 = 1#1 then
    (oM : Memref sig .tc .vmem S48x48x48 .f32).view.writes (Elt F) g1
      (⟨Rect.unit ![47, 0, 0] S1x48x48.size inb_S48x48x48_S1x48x48_47_0_0, a10 m ρ c r⟩ :: L0 r)
  else (oM : Memref sig .tc .vmem S48x48x48 .f32).view.writes (Elt F) g1 (L0 r)

/-- The x face received, added to row 0 (upper half). -/
def a11 : FVec F S1x48x48 .f32 :=
  k0_pay11 (View.readAt (Elt F) (oM : Memref sig .tc .vmem S48x48x48 .f32).view (Rect.unit (s := S48x48x48) ![0, 0, 0] S1x48x48.size inb_S48x48x48_S1x48x48_0_0_0).toLoadRect (S1 m ρ c g1 r w129))
    (View.readAt (Elt F) (rxM : Memref sig .tc .vmem S1x48x48 .f32).view (Rect.unit ![0, 0, 0] S1x48x48.size inb_S1x48x48_S1x48x48_0_0_0).toLoadRect (landX m ρ c))

def S2 : Buf (Elt F) ((c : Thread nD τ).loc cc0_stg1_0) :=
  if hc : w132 = 1#1 then
    (oM : Memref sig .tc .vmem S48x48x48 .f32).view.writes (Elt F) (S1 m ρ c g1 r w129)
      [⟨Rect.unit ![0, 0, 0] S1x48x48.size inb_S48x48x48_S1x48x48_0_0_0, a11 m ρ c g1 r w129⟩]
  else S1 m ρ c g1 r w129

/-- The y face received, added to row 47 of axis 1. -/
def a12 : FVec F S48x1x48 .f32 :=
  k0_pay12 (View.readAt (Elt F) (oM : Memref sig .tc .vmem S48x48x48 .f32).view (Rect.unit (s := S48x48x48) ![0, 47, 0] S48x1x48.size inb_S48x48x48_S48x1x48_0_47_0).toLoadRect (S2 m ρ c g1 r w129 w132))
    (View.readAt (Elt F) (ryM : Memref sig .tc .vmem S48x48 .f32).view (Rect.unit ![0, 0] S48x48.size inb_S48x48_S48x48_0_0).toLoadRect (landY m ρ c))

def S3 : Buf (Elt F) ((c : Thread nD τ).loc cc0_stg1_0) :=
  if hc : w135 = 1#1 then
    (oM : Memref sig .tc .vmem S48x48x48 .f32).view.writes (Elt F) (S2 m ρ c g1 r w129 w132)
      [⟨Rect.unit ![0, 47, 0] S48x1x48.size inb_S48x48x48_S48x1x48_0_47_0, a12 m ρ c g1 r w129 w132⟩]
  else S2 m ρ c g1 r w129 w132

/-- The y face received, added to row 0 of axis 1. -/
def a13 : FVec F S48x1x48 .f32 :=
  k0_pay13 (View.readAt (Elt F) (oM : Memref sig .tc .vmem S48x48x48 .f32).view (Rect.unit (s := S48x48x48) ![0, 0, 0] S48x1x48.size inb_S48x48x48_S48x1x48_0_0_0).toLoadRect (S3 m ρ c g1 r w129 w132 w135))
    (View.readAt (Elt F) (ryM : Memref sig .tc .vmem S48x48 .f32).view (Rect.unit ![0, 0] S48x48.size inb_S48x48_S48x48_0_0).toLoadRect (landY m ρ c))

def S4 : Buf (Elt F) ((c : Thread nD τ).loc cc0_stg1_0) :=
  if hc : w138 = 1#1 then
    (oM : Memref sig .tc .vmem S48x48x48 .f32).view.writes (Elt F) (S3 m ρ c g1 r w129 w132 w135)
      [⟨Rect.unit ![0, 0, 0] S48x1x48.size inb_S48x48x48_S48x1x48_0_0_0, a13 m ρ c g1 r w129 w132 w135⟩]
  else S3 m ρ c g1 r w129 w132 w135

/-- The z face received, added to row 47 of axis 2. -/
def a14 : FVec F S48x48x1 .f32 :=
  k0_pay14 (View.readAt (Elt F) (oM : Memref sig .tc .vmem S48x48x48 .f32).view (Rect.unit (s := S48x48x48) ![0, 0, 47] S48x48x1.size inb_S48x48x48_S48x48x1_0_0_47).toLoadRect (S4 m ρ c g1 r w129 w132 w135 w138))
    (View.readAt (Elt F) (rzM : Memref sig .tc .vmem S48x48 .f32).view (Rect.unit ![0, 0] S48x48.size inb_S48x48_S48x48_0_0).toLoadRect (landZ m ρ c))

def S5 : Buf (Elt F) ((c : Thread nD τ).loc cc0_stg1_0) :=
  if hc : w141 = 1#1 then
    (oM : Memref sig .tc .vmem S48x48x48 .f32).view.writes (Elt F) (S4 m ρ c g1 r w129 w132 w135 w138)
      [⟨Rect.unit ![0, 0, 47] S48x48x1.size inb_S48x48x48_S48x48x1_0_0_47, a14 m ρ c g1 r w129 w132 w135 w138⟩]
  else S4 m ρ c g1 r w129 w132 w135 w138

/-- The z face received, added to row 0 of axis 2. -/
def a15 : FVec F S48x48x1 .f32 :=
  k0_pay15 (View.readAt (Elt F) (oM : Memref sig .tc .vmem S48x48x48 .f32).view (Rect.unit (s := S48x48x48) ![0, 0, 0] S48x48x1.size inb_S48x48x48_S48x48x1_0_0_0).toLoadRect (S5 m ρ c g1 r w129 w132 w135 w138 w141))
    (View.readAt (Elt F) (rzM : Memref sig .tc .vmem S48x48 .f32).view (Rect.unit ![0, 0] S48x48.size inb_S48x48_S48x48_0_0).toLoadRect (landZ m ρ c))

def S6 : Buf (Elt F) ((c : Thread nD τ).loc cc0_stg1_0) :=
  if hc : w144 = 1#1 then
    (oM : Memref sig .tc .vmem S48x48x48 .f32).view.writes (Elt F) (S5 m ρ c g1 r w129 w132 w135 w138 w141)
      [⟨Rect.unit ![0, 0, 0] S48x48x1.size inb_S48x48x48_S48x48x1_0_0_0, a15 m ρ c g1 r w129 w132 w135 w138 w141⟩]
  else S5 m ρ c g1 r w129 w132 w135 w138 w141

/-- A leaf of the tree: the additions taken on the path (`bN`: the N-th was), in program order. -/
def leaf1 (b1 : Bool) : Buf (Elt F) ((c : Thread nD τ).loc cc0_stg1_0) :=
  bif b1 then
    (oM : Memref sig .tc .vmem S48x48x48 .f32).view.writes (Elt F) g1
      (⟨Rect.unit ![47, 0, 0] S1x48x48.size inb_S48x48x48_S1x48x48_47_0_0, a10 m ρ c r⟩ :: L0 r)
  else (oM : Memref sig .tc .vmem S48x48x48 .f32).view.writes (Elt F) g1 (L0 r)
def leaf2 (b1 b2 : Bool) : Buf (Elt F) ((c : Thread nD τ).loc cc0_stg1_0) :=
  bif b2 then
    (oM : Memref sig .tc .vmem S48x48x48 .f32).view.writes (Elt F) (leaf1 m ρ c g1 r b1)
      [⟨Rect.unit ![0, 0, 0] S1x48x48.size inb_S48x48x48_S1x48x48_0_0_0, a11 m ρ c g1 r w129⟩]
  else leaf1 m ρ c g1 r b1
def leaf3 (b1 b2 b3 : Bool) : Buf (Elt F) ((c : Thread nD τ).loc cc0_stg1_0) :=
  bif b3 then
    (oM : Memref sig .tc .vmem S48x48x48 .f32).view.writes (Elt F) (leaf2 m ρ c g1 r w129 b1 b2)
      [⟨Rect.unit ![0, 47, 0] S48x1x48.size inb_S48x48x48_S48x1x48_0_47_0, a12 m ρ c g1 r w129 w132⟩]
  else leaf2 m ρ c g1 r w129 b1 b2
def leaf4 (b1 b2 b3 b4 : Bool) : Buf (Elt F) ((c : Thread nD τ).loc cc0_stg1_0) :=
  bif b4 then
    (oM : Memref sig .tc .vmem S48x48x48 .f32).view.writes (Elt F) (leaf3 m ρ c g1 r w129 w132 b1 b2 b3)
      [⟨Rect.unit ![0, 0, 0] S48x1x48.size inb_S48x48x48_S48x1x48_0_0_0, a13 m ρ c g1 r w129 w132 w135⟩]
  else leaf3 m ρ c g1 r w129 w132 b1 b2 b3
def leaf5 (b1 b2 b3 b4 b5 : Bool) : Buf (Elt F) ((c : Thread nD τ).loc cc0_stg1_0) :=
  bif b5 then
    (oM : Memref sig .tc .vmem S48x48x48 .f32).view.writes (Elt F) (leaf4 m ρ c g1 r w129 w132 w135 b1 b2 b3 b4)
      [⟨Rect.unit ![0, 0, 47] S48x48x1.size inb_S48x48x48_S48x48x1_0_0_47, a14 m ρ c g1 r w129 w132 w135 w138⟩]
  else leaf4 m ρ c g1 r w129 w132 w135 b1 b2 b3 b4
def leaf6 (b1 b2 b3 b4 b5 b6 : Bool) : Buf (Elt F) ((c : Thread nD τ).loc cc0_stg1_0) :=
  bif b6 then
    (oM : Memref sig .tc .vmem S48x48x48 .f32).view.writes (Elt F) (leaf5 m ρ c g1 r w129 w132 w135 w138 b1 b2 b3 b4 b5)
      [⟨Rect.unit ![0, 0, 0] S48x48x1.size inb_S48x48x48_S48x48x1_0_0_0, a15 m ρ c g1 r w129 w132 w135 w138 w141⟩]
  else leaf5 m ρ c g1 r w129 w132 w135 w138 b1 b2 b3 b4 b5

/-- The tree, from the innermost word out: at each word, taken, the zeros stored through its boundary face. -/
def fin1 (b2 b3 b4 b5 b6 : Bool) : Buf (Elt F) ((c : Thread nD τ).loc cc0_stg1_0) :=
  if hc : w129 = 1#1 then
    (oM : Memref sig .tc .vmem S48x48x48 .f32).view.writes (Elt F) (leaf6 m ρ c g1 r w129 w132 w135 w138 w141 true b2 b3 b4 b5 b6)
      [⟨Rect.unit ![0, 0, 0] S1x48x48.size inb_S48x48x48_S1x48x48_0_0_0, k0_pay6⟩]
  else leaf6 m ρ c g1 r w129 w132 w135 w138 w141 false b2 b3 b4 b5 b6
def fin2 (b3 b4 b5 b6 : Bool) : Buf (Elt F) ((c : Thread nD τ).loc cc0_stg1_0) :=
  if hc : w132 = 1#1 then
    (oM : Memref sig .tc .vmem S48x48x48 .f32).view.writes (Elt F) (fin1 m ρ c g1 r w129 w132 w135 w138 w141 true b3 b4 b5 b6)
      [⟨Rect.unit ![47, 0, 0] S1x48x48.size inb_S48x48x48_S1x48x48_47_0_0, k0_pay6⟩]
  else fin1 m ρ c g1 r w129 w132 w135 w138 w141 false b3 b4 b5 b6
def fin3 (b4 b5 b6 : Bool) : Buf (Elt F) ((c : Thread nD τ).loc cc0_stg1_0) :=
  if hc : w135 = 1#1 then
    (oM : Memref sig .tc .vmem S48x48x48 .f32).view.writes (Elt F) (fin2 m ρ c g1 r w129 w132 w135 w138 w141 true b4 b5 b6)
      [⟨Rect.unit ![0, 0, 0] S48x1x48.size inb_S48x48x48_S48x1x48_0_0_0, k0_pay7⟩]
  else fin2 m ρ c g1 r w129 w132 w135 w138 w141 false b4 b5 b6
def fin4 (b5 b6 : Bool) : Buf (Elt F) ((c : Thread nD τ).loc cc0_stg1_0) :=
  if hc : w138 = 1#1 then
    (oM : Memref sig .tc .vmem S48x48x48 .f32).view.writes (Elt F) (fin3 m ρ c g1 r w129 w132 w135 w138 w141 true b5 b6)
      [⟨Rect.unit ![0, 47, 0] S48x1x48.size inb_S48x48x48_S48x1x48_0_47_0, k0_pay7⟩]
  else fin3 m ρ c g1 r w129 w132 w135 w138 w141 false b5 b6
def fin5 (b6 : Bool) : Buf (Elt F) ((c : Thread nD τ).loc cc0_stg1_0) :=
  if hc : w141 = 1#1 then
    (oM : Memref sig .tc .vmem S48x48x48 .f32).view.writes (Elt F) (fin4 m ρ c g1 r w129 w132 w135 w138 w141 true b6)
      [⟨Rect.unit ![0, 0, 0] S48x48x1.size inb_S48x48x48_S48x48x1_0_0_0, k0_pay8⟩]
  else fin4 m ρ c g1 r w129 w132 w135 w138 w141 false b6
/-- The contents the body leaves. -/
def fin : Buf (Elt F) ((c : Thread nD τ).loc cc0_stg1_0) :=
  if hc : w144 = 1#1 then
    (oM : Memref sig .tc .vmem S48x48x48 .f32).view.writes (Elt F) (fin5 m ρ c g1 r w129 w132 w135 w138 w141 true)
      [⟨Rect.unit ![0, 0, 47] S48x48x1.size inb_S48x48x48_S48x48x1_0_0_47, k0_pay8⟩]
  else fin5 m ρ c g1 r w129 w132 w135 w138 w141 false

end Terms

/-! ## Reading the buffer, entry by entry -/

section Read

variable (c : Dev nD)

/-- After a store through the whole buffer, an entry is the stored value's. -/
theorem wr_whole (T : Buf (Elt F) ((c : Thread nD τ).loc cc0_stg1_0)) (h : ∀ b, (![0, 0, 0] : Fin 3 → ℕ) b + S48x48x48.size b ≤ S48x48x48.size b)
    (w : (Rect.unit (s := S48x48x48) ![0, 0, 0] S48x48x48.size h).shape.Idx → Elt F .f32) (L : List (View.Piece (Elt F) S48x48x48 .f32))
    (i j k : Fin 48) :
    (oM : Memref sig .tc .vmem S48x48x48 .f32).view.writes (Elt F) T (⟨Rect.unit ![0, 0, 0] S48x48x48.size h, w⟩ :: L) (ix3 i j k) = w (ix3 i j k) :=
  View.read_writes_cons_unit_of_mem (oM : Memref sig .tc .vmem S48x48x48 .f32).view T h w L (ix3 i j k) (ix3 i j k) rfl fun b => by
    match b with
    | ⟨0, _⟩ => exact (Nat.zero_add _).symm
    | ⟨1, _⟩ => exact (Nat.zero_add _).symm
    | ⟨2, _⟩ => exact (Nat.zero_add _).symm

set_option maxHeartbeats 1000000 in
/-- After a store through the slab at row `a` of axis 0: on that row the stored value, elsewhere what was there. -/
theorem wr_x (T : Buf (Elt F) ((c : Thread nD τ).loc cc0_stg1_0)) (a : ℕ) (h : ∀ b, (![a, 0, 0] : Fin 3 → ℕ) b + S1x48x48.size b ≤ S48x48x48.size b)
    (w : (Rect.unit (s := S48x48x48) ![a, 0, 0] S1x48x48.size h).shape.Idx → Elt F .f32) (L : List (View.Piece (Elt F) S48x48x48 .f32))
    (i j k : Fin 48) :
    (oM : Memref sig .tc .vmem S48x48x48 .f32).view.writes (Elt F) T (⟨Rect.unit ![a, 0, 0] S1x48x48.size h, w⟩ :: L) (ix3 i j k)
      = if i.val = a then w (ix3 (0 : Fin 1) j k) else (oM : Memref sig .tc .vmem S48x48x48 .f32).view.writes (Elt F) T L (ix3 i j k) := by
  by_cases hi : i.val = a
  · rw [if_pos hi]
    exact View.read_writes_cons_unit_of_mem (oM : Memref sig .tc .vmem S48x48x48 .f32).view T h w L (ix3 i j k) (ix3 (0 : Fin 1) j k) rfl fun b => by
      match b with
      | ⟨0, _⟩ => exact hi
      | ⟨1, _⟩ => exact (Nat.zero_add _).symm
      | ⟨2, _⟩ => exact (Nat.zero_add _).symm
  · rw [if_neg hi]
    have hoff : (![a, 0, 0] : Fin 3 → ℕ) (0 : Fin 3) = a := rfl
    have hsz : S1x48x48.size (0 : Fin 3) = 1 := by decide
    show (oM : Memref sig .tc .vmem S48x48x48 .f32).view.read (Elt F)
        ((oM : Memref sig .tc .vmem S48x48x48 .f32).view.writes (Elt F) T (⟨Rect.unit ![a, 0, 0] S1x48x48.size h, w⟩ :: L)) (ix3 i j k)
      = (oM : Memref sig .tc .vmem S48x48x48 .f32).view.read (Elt F) ((oM : Memref sig .tc .vmem S48x48x48 .f32).view.writes (Elt F) T L) (ix3 i j k)
    refine View.read_writes_cons_unit_of_not_mem (off' := ![a, 0, 0]) (oM : Memref sig .tc .vmem S48x48x48 .f32).view T h w L (ix3 i j k) rfl
      (0 : Fin 3) ?_
    by_cases hlt : i.val < a
    · left; rw [hoff]; exact hlt
    · right; rw [hoff, hsz]
      show a + 1 ≤ i.val
      omega

/-- The same along axis 1. -/
theorem wr_y (T : Buf (Elt F) ((c : Thread nD τ).loc cc0_stg1_0)) (a : ℕ) (h : ∀ b, (![0, a, 0] : Fin 3 → ℕ) b + S48x1x48.size b ≤ S48x48x48.size b)
    (w : (Rect.unit (s := S48x48x48) ![0, a, 0] S48x1x48.size h).shape.Idx → Elt F .f32) (L : List (View.Piece (Elt F) S48x48x48 .f32))
    (i j k : Fin 48) :
    (oM : Memref sig .tc .vmem S48x48x48 .f32).view.writes (Elt F) T (⟨Rect.unit ![0, a, 0] S48x1x48.size h, w⟩ :: L) (ix3 i j k)
      = if j.val = a then w (ix3 i (0 : Fin 1) k) else (oM : Memref sig .tc .vmem S48x48x48 .f32).view.writes (Elt F) T L (ix3 i j k) := by
  by_cases hj : j.val = a
  · rw [if_pos hj]
    exact View.read_writes_cons_unit_of_mem (oM : Memref sig .tc .vmem S48x48x48 .f32).view T h w L (ix3 i j k) (ix3 i (0 : Fin 1) k) rfl fun b => by
      match b with
      | ⟨0, _⟩ => exact (Nat.zero_add _).symm
      | ⟨1, _⟩ => exact hj
      | ⟨2, _⟩ => exact (Nat.zero_add _).symm
  · rw [if_neg hj]
    exact View.read_writes_cons_unit_of_not_mem (oM : Memref sig .tc .vmem S48x48x48 .f32).view T h w L (ix3 i j k) rfl (1 : Fin 3) (by
      show j.val < a ∨ a + 1 ≤ j.val
      omega)

/-- The same along axis 2. -/
theorem wr_z (T : Buf (Elt F) ((c : Thread nD τ).loc cc0_stg1_0)) (a : ℕ) (h : ∀ b, (![0, 0, a] : Fin 3 → ℕ) b + S48x48x1.size b ≤ S48x48x48.size b)
    (w : (Rect.unit (s := S48x48x48) ![0, 0, a] S48x48x1.size h).shape.Idx → Elt F .f32) (L : List (View.Piece (Elt F) S48x48x48 .f32))
    (i j k : Fin 48) :
    (oM : Memref sig .tc .vmem S48x48x48 .f32).view.writes (Elt F) T (⟨Rect.unit ![0, 0, a] S48x48x1.size h, w⟩ :: L) (ix3 i j k)
      = if k.val = a then w (ix3 i j (0 : Fin 1)) else (oM : Memref sig .tc .vmem S48x48x48 .f32).view.writes (Elt F) T L (ix3 i j k) := by
  by_cases hk : k.val = a
  · rw [if_pos hk]
    exact View.read_writes_cons_unit_of_mem (oM : Memref sig .tc .vmem S48x48x48 .f32).view T h w L (ix3 i j k) (ix3 i j (0 : Fin 1)) rfl fun b => by
      match b with
      | ⟨0, _⟩ => exact (Nat.zero_add _).symm
      | ⟨1, _⟩ => exact (Nat.zero_add _).symm
      | ⟨2, _⟩ => exact hk
  · rw [if_neg hk]
    exact View.read_writes_cons_unit_of_not_mem (oM : Memref sig .tc .vmem S48x48x48 .f32).view T h w L (ix3 i j k) rfl (2 : Fin 3) (by
      show k.val < a ∨ a + 1 ≤ k.val
      omega)

/-- A guarded store through a slab of axis 0, at an entry. -/
theorem stage_x (T : Buf (Elt F) ((c : Thread nD τ).loc cc0_stg1_0)) (P : Prop) [Decidable P] (a : ℕ)
    (h : ∀ b, (![a, 0, 0] : Fin 3 → ℕ) b + S1x48x48.size b ≤ S48x48x48.size b)
    (w : (Rect.unit (s := S48x48x48) ![a, 0, 0] S1x48x48.size h).shape.Idx → Elt F .f32) (i j k : Fin 48) :
    (if hc : P then (oM : Memref sig .tc .vmem S48x48x48 .f32).view.writes (Elt F) T [⟨Rect.unit ![a, 0, 0] S1x48x48.size h, w⟩] else T) (ix3 i j k)
      = if P ∧ i.val = a then w (ix3 (0 : Fin 1) j k) else T (ix3 i j k) := by
  by_cases hP : P
  · rw [dif_pos hP, wr_x]
    by_cases hi : i.val = a
    · rw [if_pos hi, if_pos ⟨hP, hi⟩]
    · rw [if_neg hi, if_neg fun hh => hi hh.2]; rfl
  · rw [dif_neg hP, if_neg fun hh => hP hh.1]

theorem stage_y (T : Buf (Elt F) ((c : Thread nD τ).loc cc0_stg1_0)) (P : Prop) [Decidable P] (a : ℕ)
    (h : ∀ b, (![0, a, 0] : Fin 3 → ℕ) b + S48x1x48.size b ≤ S48x48x48.size b)
    (w : (Rect.unit (s := S48x48x48) ![0, a, 0] S48x1x48.size h).shape.Idx → Elt F .f32) (i j k : Fin 48) :
    (if hc : P then (oM : Memref sig .tc .vmem S48x48x48 .f32).view.writes (Elt F) T [⟨Rect.unit ![0, a, 0] S48x1x48.size h, w⟩] else T) (ix3 i j k)
      = if P ∧ j.val = a then w (ix3 i (0 : Fin 1) k) else T (ix3 i j k) := by
  by_cases hP : P
  · rw [dif_pos hP, wr_y]
    by_cases hj : j.val = a
    · rw [if_pos hj, if_pos ⟨hP, hj⟩]
    · rw [if_neg hj, if_neg fun hh => hj hh.2]; rfl
  · rw [dif_neg hP, if_neg fun hh => hP hh.1]

theorem stage_z (T : Buf (Elt F) ((c : Thread nD τ).loc cc0_stg1_0)) (P : Prop) [Decidable P] (a : ℕ)
    (h : ∀ b, (![0, 0, a] : Fin 3 → ℕ) b + S48x48x1.size b ≤ S48x48x48.size b)
    (w : (Rect.unit (s := S48x48x48) ![0, 0, a] S48x48x1.size h).shape.Idx → Elt F .f32) (i j k : Fin 48) :
    (if hc : P then (oM : Memref sig .tc .vmem S48x48x48 .f32).view.writes (Elt F) T [⟨Rect.unit ![0, 0, a] S48x48x1.size h, w⟩] else T) (ix3 i j k)
      = if P ∧ k.val = a then w (ix3 i j (0 : Fin 1)) else T (ix3 i j k) := by
  by_cases hP : P
  · rw [dif_pos hP, wr_z]
    by_cases hk : k.val = a
    · rw [if_pos hk, if_pos ⟨hP, hk⟩]
    · rw [if_neg hk, if_neg fun hh => hk hh.2]; rfl
  · rw [dif_neg hP, if_neg fun hh => hP hh.1]

/-- A load of the slab at row `a` of axis 0 reads the buffer's entries on that row. -/
theorem rd_x (T : Buf (Elt F) ((c : Thread nD τ).loc cc0_stg1_0)) (a : ℕ) (ha : a < 48)
    (h : ∀ b, (![a, 0, 0] : Fin 3 → ℕ) b + S1x48x48.size b ≤ S48x48x48.size b) (u : Fin 1) (j k : Fin 48) :
    View.readAt (Elt F) (oM : Memref sig .tc .vmem S48x48x48 .f32).view (Rect.unit (s := S48x48x48) ![a, 0, 0] S1x48x48.size h).toLoadRect T (ix3 u j k) = T (ix3 (⟨a, ha⟩ : Fin 48) j k) := by
  show T ((Rect.unit (s := S48x48x48) ![a, 0, 0] S1x48x48.size h).emb (ix3 u j k)) = _
  refine congrArg T (funext fun b => Fin.ext ?_)
  rw [Rect.emb_apply]
  have hu : u.val = 0 := by omega
  match b with
  | ⟨0, _⟩ => show a + 1 * u.val = a; omega
  | ⟨1, _⟩ => show 0 + 1 * j.val = j.val; omega
  | ⟨2, _⟩ => show 0 + 1 * k.val = k.val; omega

theorem rd_y (T : Buf (Elt F) ((c : Thread nD τ).loc cc0_stg1_0)) (a : ℕ) (ha : a < 48)
    (h : ∀ b, (![0, a, 0] : Fin 3 → ℕ) b + S48x1x48.size b ≤ S48x48x48.size b) (u : Fin 1) (i k : Fin 48) :
    View.readAt (Elt F) (oM : Memref sig .tc .vmem S48x48x48 .f32).view (Rect.unit (s := S48x48x48) ![0, a, 0] S48x1x48.size h).toLoadRect T (ix3 i u k) = T (ix3 i (⟨a, ha⟩ : Fin 48) k) := by
  show T ((Rect.unit (s := S48x48x48) ![0, a, 0] S48x1x48.size h).emb (ix3 i u k)) = _
  refine congrArg T (funext fun b => Fin.ext ?_)
  rw [Rect.emb_apply]
  have hu : u.val = 0 := by omega
  match b with
  | ⟨0, _⟩ => show 0 + 1 * i.val = i.val; omega
  | ⟨1, _⟩ => show a + 1 * u.val = a; omega
  | ⟨2, _⟩ => show 0 + 1 * k.val = k.val; omega

theorem rd_z (T : Buf (Elt F) ((c : Thread nD τ).loc cc0_stg1_0)) (a : ℕ) (ha : a < 48)
    (h : ∀ b, (![0, 0, a] : Fin 3 → ℕ) b + S48x48x1.size b ≤ S48x48x48.size b) (u : Fin 1) (i j : Fin 48) :
    View.readAt (Elt F) (oM : Memref sig .tc .vmem S48x48x48 .f32).view (Rect.unit (s := S48x48x48) ![0, 0, a] S48x48x1.size h).toLoadRect T (ix3 i j u) = T (ix3 i j (⟨a, ha⟩ : Fin 48)) := by
  show T ((Rect.unit (s := S48x48x48) ![0, 0, a] S48x48x1.size h).emb (ix3 i j u)) = _
  refine congrArg T (funext fun b => Fin.ext ?_)
  rw [Rect.emb_apply]
  have hu : u.val = 0 := by omega
  match b with
  | ⟨0, _⟩ => show 0 + 1 * i.val = i.val; omega
  | ⟨1, _⟩ => show 0 + 1 * j.val = j.val; omega
  | ⟨2, _⟩ => show a + 1 * u.val = a; omega

/-- A load of a whole receive buffer reads its contents. -/
theorem ldX_eq : View.readAt (Elt F) (rxM : Memref sig .tc .vmem S1x48x48 .f32).view (Rect.unit ![0, 0, 0] S1x48x48.size inb_S1x48x48_S1x48x48_0_0_0).toLoadRect (landX m ρ c) = landX m ρ c :=
  Memref.readAt_unit_zero (Elt F) cc0_scratch2 (funext fun a => by match a with | ⟨0, _⟩ => rfl | ⟨1, _⟩ => rfl | ⟨2, _⟩ => rfl) _ _
theorem ldY_eq : View.readAt (Elt F) (ryM : Memref sig .tc .vmem S48x48 .f32).view (Rect.unit ![0, 0] S48x48.size inb_S48x48_S48x48_0_0).toLoadRect (landY m ρ c) = landY m ρ c :=
  Memref.readAt_unit_zero (Elt F) cc0_scratch3 (funext fun a => by match a with | ⟨0, _⟩ => rfl | ⟨1, _⟩ => rfl) _ _
theorem ldZ_eq : View.readAt (Elt F) (rzM : Memref sig .tc .vmem S48x48 .f32).view (Rect.unit ![0, 0] S48x48.size inb_S48x48_S48x48_0_0).toLoadRect (landZ m ρ c) = landZ m ρ c :=
  Memref.readAt_unit_zero (Elt F) cc0_scratch4 (funext fun a => by match a with | ⟨0, _⟩ => rfl | ⟨1, _⟩ => rfl) _ _

end Read

/-! ## The payloads, entry by entry -/

theorem pay10_apply (v w : Vec F S1x48x48 .f32) (idx : S1x48x48.Idx) : k0_pay10 v w idx = FloatOps.addf (v idx) (w idx) := by
  unfold k0_pay10; rw [shapeCast_self]; rfl
theorem pay11_apply (v w : Vec F S1x48x48 .f32) (idx : S1x48x48.Idx) : k0_pay11 v w idx = FloatOps.addf (v idx) (w idx) := by
  unfold k0_pay11; rw [shapeCast_self]; rfl

/-- The received y face, a 48 × 48 array, is added as the 48 × 1 × 48 slab with the same entries. -/
theorem pay12_apply (v : Vec F S48x1x48 .f32) (w : Vec F S48x48 .f32) (i : Fin 48) (u : Fin 1) (k : Fin 48) :
    k0_pay12 v w (ix3 i u k) = FloatOps.addf (v (ix3 i u k)) (w (ix2 i k)) := by
  unfold k0_pay12; rw [shapeCast_self]
  show FloatOps.addf (v (ix3 i u k)) (shapeCast S48x1x48 w _ (ix3 i u k)) = _
  refine congrArg (FloatOps.addf (v (ix3 i u k))) (shapeCast_apply w _ (ix3 i u k) (ix2 i k) ?_)
  rw [Shape.rowMajor_val_two, Shape.rowMajor_val_three]
  show i.val * 48 + k.val = (i.val * 1 + u.val) * 48 + k.val
  have := u.isLt; omega
theorem pay13_apply (v : Vec F S48x1x48 .f32) (w : Vec F S48x48 .f32) (i : Fin 48) (u : Fin 1) (k : Fin 48) :
    k0_pay13 v w (ix3 i u k) = FloatOps.addf (v (ix3 i u k)) (w (ix2 i k)) := by
  unfold k0_pay13; rw [shapeCast_self]
  show FloatOps.addf (v (ix3 i u k)) (shapeCast S48x1x48 w _ (ix3 i u k)) = _
  refine congrArg (FloatOps.addf (v (ix3 i u k))) (shapeCast_apply w _ (ix3 i u k) (ix2 i k) ?_)
  rw [Shape.rowMajor_val_two, Shape.rowMajor_val_three]
  show i.val * 48 + k.val = (i.val * 1 + u.val) * 48 + k.val
  have := u.isLt; omega

/-- The received z face, a 48 × 48 array, is added as the 48 × 48 × 1 slab with the same entries. -/
theorem pay14_apply (v : Vec F S48x48x1 .f32) (w : Vec F S48x48 .f32) (i j : Fin 48) (u : Fin 1) :
    k0_pay14 v w (ix3 i j u) = FloatOps.addf (v (ix3 i j u)) (w (ix2 i j)) := by
  unfold k0_pay14; rw [shapeCast_self]
  show FloatOps.addf (v (ix3 i j u)) (shapeCast S48x48x1 w _ (ix3 i j u)) = _
  refine congrArg (FloatOps.addf (v (ix3 i j u))) (shapeCast_apply w _ (ix3 i j u) (ix2 i j) ?_)
  rw [Shape.rowMajor_val_two, Shape.rowMajor_val_three]
  show i.val * 48 + j.val = (i.val * 48 + j.val) * 1 + u.val
  have := u.isLt; omega
theorem pay15_apply (v : Vec F S48x48x1 .f32) (w : Vec F S48x48 .f32) (i j : Fin 48) (u : Fin 1) :
    k0_pay15 v w (ix3 i j u) = FloatOps.addf (v (ix3 i j u)) (w (ix2 i j)) := by
  unfold k0_pay15; rw [shapeCast_self]
  show FloatOps.addf (v (ix3 i j u)) (shapeCast S48x48x1 w _ (ix3 i j u)) = _
  refine congrArg (FloatOps.addf (v (ix3 i j u))) (shapeCast_apply w _ (ix3 i j u) (ix2 i j) ?_)
  rw [Shape.rowMajor_val_two, Shape.rowMajor_val_three]
  show i.val * 48 + j.val = (i.val * 48 + j.val) * 1 + u.val
  have := u.isLt; omega

/-! ## The case distinctions -/

section Logic

variable {α : Type} (add : α → α → α)

/-- One guarded addition. -/
def step (P : Prop) [Decidable P] (l t : α) : α := if P then add t l else t

/-- Along one axis the two guarded additions (on the lower half of the mesh at row 47, on the upper half at row 0) are one
    addition, on the face that touches the neighbour. -/
theorem axis_logic (P Q : Prop) [Decidable P] [Decidable Q] (p a : ℕ) (hp : p < 2) (hP : P ↔ p = 0) (hQ : Q ↔ p = 1) (l t : α) :
    step add (Q ∧ a = 0) l (step add (P ∧ a = 47) l t) = step add ((p = 0 ∧ a = 47) ∨ (p = 1 ∧ a = 0)) l t := by
  unfold step
  have : p = 0 ∨ p = 1 := by omega
  rcases this with rfl | rfl
  · have h1 : P := hP.mpr rfl
    have h2 : ¬ Q := fun h => absurd (hQ.mp h) (by decide)
    simp [h1, h2]
  · have h1 : ¬ P := fun h => absurd (hP.mp h) (by decide)
    have h2 : Q := hQ.mpr rfl
    simp [h1, h2]

/-- The six guarded zero stores are one: zero on the whole array's boundary. -/
theorem zero_logic (P1 P2 P3 P4 P5 P6 : Prop) [Decidable P1] [Decidable P2] [Decidable P3] [Decidable P4] [Decidable P5] [Decidable P6]
    (px py pz i j k : ℕ) (h1 : P1 ↔ px = 0) (h2 : P2 ↔ px = 1) (h3 : P3 ↔ py = 0) (h4 : P4 ↔ py = 1) (h5 : P5 ↔ pz = 0) (h6 : P6 ↔ pz = 1)
    (z s : α) :
    (if P6 ∧ k = 47 then z else if P5 ∧ k = 0 then z else if P4 ∧ j = 47 then z else if P3 ∧ j = 0 then z
      else if P2 ∧ i = 47 then z else if P1 ∧ i = 0 then z else s)
      = if (px = 0 ∧ i = 0) ∨ (px = 1 ∧ i = 47) ∨ (py = 0 ∧ j = 0) ∨ (py = 1 ∧ j = 47) ∨ (pz = 0 ∧ k = 0) ∨ (pz = 1 ∧ k = 47) then z else s := by
  simp only [h1, h2, h3, h4, h5, h6]
  split_ifs <;> first | rfl | (exfalso; omega)

end Logic

/-! ## The buffer after each addition, entry by entry -/

section States

variable (c : Dev nD) (g1 : Buf (Elt F) ((c : Thread nD τ).loc cc0_stg1_0)) (r : FVec F S48x48x48 .f32)
  (w129 w132 w135 w138 w141 w144 : BitVec 1)

theorem S0_apply (i j k : Fin 48) : S0 c g1 r (ix3 i j k) = r (ix3 i j k) := by
  unfold S0 L0
  exact wr_whole c g1 _ r [] i j k

/-- The first addition's load: row 47 of the local stencil. -/
theorem a10_apply (u : Fin 1) (j k : Fin 48) :
    a10 m ρ c r (ix3 u j k) = FloatOps.addf (r (ix3 (⟨47, by decide⟩ : Fin 48) j k)) (landX m ρ c (ix3 u j k)) := by
  unfold a10
  rw [pay10_apply, ldX_eq]
  refine congrArg (fun t => FloatOps.addf t (landX m ρ c (ix3 u j k))) ?_
  unfold View.readCov
  rw [rd_x c _ 47 (by decide)]
  unfold L0
  exact wr_whole c _ _ r [] _ j k

theorem S1_apply (i j k : Fin 48) :
    S1 m ρ c g1 r w129 (ix3 i j k)
      = step (FloatOps.addf (F := F) (φ := .f32)) (w129 = 1#1 ∧ i.val = 47) (landX m ρ c (ix3 (0 : Fin 1) j k)) (r (ix3 i j k)) := by
  unfold S1 step
  by_cases hw : w129 = 1#1
  · rw [dif_pos hw, wr_x]
    by_cases hi : i.val = 47
    · rw [if_pos hi, if_pos ⟨hw, hi⟩, a10_apply]
      have e : i = (⟨47, by decide⟩ : Fin 48) := Fin.ext hi
      rw [e]
    · rw [if_neg hi, if_neg fun hh => hi hh.2]
      unfold L0
      exact wr_whole c g1 _ r [] i j k
  · rw [dif_neg hw, if_neg fun hh => hw hh.1]
    unfold L0
    exact wr_whole c g1 _ r [] i j k

theorem S2_apply (i j k : Fin 48) :
    S2 m ρ c g1 r w129 w132 (ix3 i j k)
      = step (FloatOps.addf (F := F) (φ := .f32)) (w132 = 1#1 ∧ i.val = 0) (landX m ρ c (ix3 (0 : Fin 1) j k)) (S1 m ρ c g1 r w129 (ix3 i j k)) := by
  unfold S2 step
  rw [stage_x]
  by_cases hc : w132 = 1#1 ∧ i.val = 0
  · rw [if_pos hc, if_pos hc]
    unfold a11
    rw [pay11_apply, ldX_eq, rd_x c _ 0 (by decide)]
    have e : i = (⟨0, by decide⟩ : Fin 48) := Fin.ext hc.2
    rw [e]
  · rw [if_neg hc, if_neg hc]

theorem S3_apply (i j k : Fin 48) :
    S3 m ρ c g1 r w129 w132 w135 (ix3 i j k)
      = step (FloatOps.addf (F := F) (φ := .f32)) (w135 = 1#1 ∧ j.val = 47) (landY m ρ c (ix2 i k)) (S2 m ρ c g1 r w129 w132 (ix3 i j k)) := by
  unfold S3 step
  rw [stage_y]
  by_cases hc : w135 = 1#1 ∧ j.val = 47
  · rw [if_pos hc, if_pos hc]
    unfold a12
    rw [pay12_apply, ldY_eq, rd_y c _ 47 (by decide)]
    have e : j = (⟨47, by decide⟩ : Fin 48) := Fin.ext hc.2
    rw [e]
  · rw [if_neg hc, if_neg hc]

theorem S4_apply (i j k : Fin 48) :
    S4 m ρ c g1 r w129 w132 w135 w138 (ix3 i j k)
      = step (FloatOps.addf (F := F) (φ := .f32)) (w138 = 1#1 ∧ j.val = 0) (landY m ρ c (ix2 i k)) (S3 m ρ c g1 r w129 w132 w135 (ix3 i j k)) := by
  unfold S4 step
  rw [stage_y]
  by_cases hc : w138 = 1#1 ∧ j.val = 0
  · rw [if_pos hc, if_pos hc]
    unfold a13
    rw [pay13_apply, ldY_eq, rd_y c _ 0 (by decide)]
    have e : j = (⟨0, by decide⟩ : Fin 48) := Fin.ext hc.2
    rw [e]
  · rw [if_neg hc, if_neg hc]

theorem S5_apply (i j k : Fin 48) :
    S5 m ρ c g1 r w129 w132 w135 w138 w141 (ix3 i j k)
      = step (FloatOps.addf (F := F) (φ := .f32)) (w141 = 1#1 ∧ k.val = 47) (landZ m ρ c (ix2 i j)) (S4 m ρ c g1 r w129 w132 w135 w138 (ix3 i j k)) := by
  unfold S5 step
  rw [stage_z]
  by_cases hc : w141 = 1#1 ∧ k.val = 47
  · rw [if_pos hc, if_pos hc]
    unfold a14
    rw [pay14_apply, ldZ_eq, rd_z c _ 47 (by decide)]
    have e : k = (⟨47, by decide⟩ : Fin 48) := Fin.ext hc.2
    rw [e]
  · rw [if_neg hc, if_neg hc]

theorem S6_apply (i j k : Fin 48) :
    S6 m ρ c g1 r w129 w132 w135 w138 w141 w144 (ix3 i j k)
      = step (FloatOps.addf (F := F) (φ := .f32)) (w144 = 1#1 ∧ k.val = 0) (landZ m ρ c (ix2 i j)) (S5 m ρ c g1 r w129 w132 w135 w138 w141 (ix3 i j k)) := by
  unfold S6 step
  rw [stage_z]
  by_cases hc : w144 = 1#1 ∧ k.val = 0
  · rw [if_pos hc, if_pos hc]
    unfold a15
    rw [pay15_apply, ldZ_eq, rd_z c _ 0 (by decide)]
    have e : k = (⟨0, by decide⟩ : Fin 48) := Fin.ext hc.2
    rw [e]
  · rw [if_neg hc, if_neg hc]

/-! ## The tree is the straight sequence of the twelve guarded stores -/

/-- The six guarded zero stores, in program order, over the buffer after the additions. -/
def Z1 : Buf (Elt F) ((c : Thread nD τ).loc cc0_stg1_0) :=
  if hc : w129 = 1#1 then
    (oM : Memref sig .tc .vmem S48x48x48 .f32).view.writes (Elt F) (S6 m ρ c g1 r w129 w132 w135 w138 w141 w144)
      [⟨Rect.unit ![0, 0, 0] S1x48x48.size inb_S48x48x48_S1x48x48_0_0_0, k0_pay6⟩]
  else S6 m ρ c g1 r w129 w132 w135 w138 w141 w144
def Z2 : Buf (Elt F) ((c : Thread nD τ).loc cc0_stg1_0) :=
  if hc : w132 = 1#1 then
    (oM : Memref sig .tc .vmem S48x48x48 .f32).view.writes (Elt F) (Z1 m ρ c g1 r w129 w132 w135 w138 w141 w144)
      [⟨Rect.unit ![47, 0, 0] S1x48x48.size inb_S48x48x48_S1x48x48_47_0_0, k0_pay6⟩]
  else Z1 m ρ c g1 r w129 w132 w135 w138 w141 w144
def Z3 : Buf (Elt F) ((c : Thread nD τ).loc cc0_stg1_0) :=
  if hc : w135 = 1#1 then
    (oM : Memref sig .tc .vmem S48x48x48 .f32).view.writes (Elt F) (Z2 m ρ c g1 r w129 w132 w135 w138 w141 w144)
      [⟨Rect.unit ![0, 0, 0] S48x1x48.size inb_S48x48x48_S48x1x48_0_0_0, k0_pay7⟩]
  else Z2 m ρ c g1 r w129 w132 w135 w138 w141 w144
def Z4 : Buf (Elt F) ((c : Thread nD τ).loc cc0_stg1_0) :=
  if hc : w138 = 1#1 then
    (oM : Memref sig .tc .vmem S48x48x48 .f32).view.writes (Elt F) (Z3 m ρ c g1 r w129 w132 w135 w138 w141 w144)
      [⟨Rect.unit ![0, 47, 0] S48x1x48.size inb_S48x48x48_S48x1x48_0_47_0, k0_pay7⟩]
  else Z3 m ρ c g1 r w129 w132 w135 w138 w141 w144
def Z5 : Buf (Elt F) ((c : Thread nD τ).loc cc0_stg1_0) :=
  if hc : w141 = 1#1 then
    (oM : Memref sig .tc .vmem S48x48x48 .f32).view.writes (Elt F) (Z4 m ρ c g1 r w129 w132 w135 w138 w141 w144)
      [⟨Rect.unit ![0, 0, 0] S48x48x1.size inb_S48x48x48_S48x48x1_0_0_0, k0_pay8⟩]
  else Z4 m ρ c g1 r w129 w132 w135 w138 w141 w144
def Z6 : Buf (Elt F) ((c : Thread nD τ).loc cc0_stg1_0) :=
  if hc : w144 = 1#1 then
    (oM : Memref sig .tc .vmem S48x48x48 .f32).view.writes (Elt F) (Z5 m ρ c g1 r w129 w132 w135 w138 w141 w144)
      [⟨Rect.unit ![0, 0, 47] S48x48x1.size inb_S48x48x48_S48x48x1_0_0_47, k0_pay8⟩]
  else Z5 m ρ c g1 r w129 w132 w135 w138 w141 w144

/-- A leaf whose Booleans say which words are set is the buffer after the additions. -/
theorem leaf1_eq (b1 : Bool) (e1 : b1 = true ↔ w129 = 1#1) : leaf1 m ρ c g1 r b1 = S1 m ρ c g1 r w129 := by
  unfold leaf1 S1
  cases b1
  · rw [dif_neg fun h => Bool.false_ne_true (e1.mpr h)]; rfl
  · rw [dif_pos (e1.mp rfl)]; rfl
theorem leaf2_eq (b1 b2 : Bool) (e1 : b1 = true ↔ w129 = 1#1) (e2 : b2 = true ↔ w132 = 1#1) :
    leaf2 m ρ c g1 r w129 b1 b2 = S2 m ρ c g1 r w129 w132 := by
  unfold leaf2 S2
  rw [leaf1_eq m ρ c g1 r w129 b1 e1]
  cases b2
  · rw [dif_neg fun h => Bool.false_ne_true (e2.mpr h)]; rfl
  · rw [dif_pos (e2.mp rfl)]; rfl
theorem leaf3_eq (b1 b2 b3 : Bool) (e1 : b1 = true ↔ w129 = 1#1) (e2 : b2 = true ↔ w132 = 1#1) (e3 : b3 = true ↔ w135 = 1#1) :
    leaf3 m ρ c g1 r w129 w132 b1 b2 b3 = S3 m ρ c g1 r w129 w132 w135 := by
  unfold leaf3 S3
  rw [leaf2_eq m ρ c g1 r w129 w132 b1 b2 e1 e2]
  cases b3
  · rw [dif_neg fun h => Bool.false_ne_true (e3.mpr h)]; rfl
  · rw [dif_pos (e3.mp rfl)]; rfl
theorem leaf4_eq (b1 b2 b3 b4 : Bool) (e1 : b1 = true ↔ w129 = 1#1) (e2 : b2 = true ↔ w132 = 1#1) (e3 : b3 = true ↔ w135 = 1#1)
    (e4 : b4 = true ↔ w138 = 1#1) :
    leaf4 m ρ c g1 r w129 w132 w135 b1 b2 b3 b4 = S4 m ρ c g1 r w129 w132 w135 w138 := by
  unfold leaf4 S4
  rw [leaf3_eq m ρ c g1 r w129 w132 w135 b1 b2 b3 e1 e2 e3]
  cases b4
  · rw [dif_neg fun h => Bool.false_ne_true (e4.mpr h)]; rfl
  · rw [dif_pos (e4.mp rfl)]; rfl
theorem leaf5_eq (b1 b2 b3 b4 b5 : Bool) (e1 : b1 = true ↔ w129 = 1#1) (e2 : b2 = true ↔ w132 = 1#1) (e3 : b3 = true ↔ w135 = 1#1)
    (e4 : b4 = true ↔ w138 = 1#1) (e5 : b5 = true ↔ w141 = 1#1) :
    leaf5 m ρ c g1 r w129 w132 w135 w138 b1 b2 b3 b4 b5 = S5 m ρ c g1 r w129 w132 w135 w138 w141 := by
  unfold leaf5 S5
  rw [leaf4_eq m ρ c g1 r w129 w132 w135 w138 b1 b2 b3 b4 e1 e2 e3 e4]
  cases b5
  · rw [dif_neg fun h => Bool.false_ne_true (e5.mpr h)]; rfl
  · rw [dif_pos (e5.mp rfl)]; rfl
theorem leaf6_eq (b1 b2 b3 b4 b5 b6 : Bool) (e1 : b1 = true ↔ w129 = 1#1) (e2 : b2 = true ↔ w132 = 1#1) (e3 : b3 = true ↔ w135 = 1#1)
    (e4 : b4 = true ↔ w138 = 1#1) (e5 : b5 = true ↔ w141 = 1#1) (e6 : b6 = true ↔ w144 = 1#1) :
    leaf6 m ρ c g1 r w129 w132 w135 w138 w141 b1 b2 b3 b4 b5 b6 = S6 m ρ c g1 r w129 w132 w135 w138 w141 w144 := by
  unfold leaf6 S6
  rw [leaf5_eq m ρ c g1 r w129 w132 w135 w138 w141 b1 b2 b3 b4 b5 e1 e2 e3 e4 e5]
  cases b6
  · rw [dif_neg fun h => Bool.false_ne_true (e6.mpr h)]; rfl
  · rw [dif_pos (e6.mp rfl)]; rfl

/-- A Boolean literal says a word is set when it is, and that it is not when it is not. -/
theorem tt_iff {w : BitVec 1} (h : w = 1#1) : (true = true ↔ w = 1#1) := ⟨fun _ => h, fun _ => rfl⟩
theorem ff_iff {w : BitVec 1} (h : ¬ w = 1#1) : (false = true ↔ w = 1#1) := ⟨fun hb => absurd hb Bool.false_ne_true, fun hw => absurd hw h⟩

theorem fin1_eq (b2 b3 b4 b5 b6 : Bool) (e2 : b2 = true ↔ w132 = 1#1) (e3 : b3 = true ↔ w135 = 1#1)
    (e4 : b4 = true ↔ w138 = 1#1) (e5 : b5 = true ↔ w141 = 1#1) (e6 : b6 = true ↔ w144 = 1#1) :
    fin1 m ρ c g1 r w129 w132 w135 w138 w141 b2 b3 b4 b5 b6 = Z1 m ρ c g1 r w129 w132 w135 w138 w141 w144 := by
  unfold fin1 Z1
  by_cases h : w129 = 1#1
  · rw [dif_pos h, dif_pos h, leaf6_eq m ρ c g1 r w129 w132 w135 w138 w141 w144 true b2 b3 b4 b5 b6 (tt_iff h) e2 e3 e4 e5 e6]
  · rw [dif_neg h, dif_neg h, leaf6_eq m ρ c g1 r w129 w132 w135 w138 w141 w144 false b2 b3 b4 b5 b6 (ff_iff h) e2 e3 e4 e5 e6]
theorem fin2_eq (b3 b4 b5 b6 : Bool) (e3 : b3 = true ↔ w135 = 1#1)
    (e4 : b4 = true ↔ w138 = 1#1) (e5 : b5 = true ↔ w141 = 1#1) (e6 : b6 = true ↔ w144 = 1#1) :
    fin2 m ρ c g1 r w129 w132 w135 w138 w141 b3 b4 b5 b6 = Z2 m ρ c g1 r w129 w132 w135 w138 w141 w144 := by
  unfold fin2 Z2
  by_cases h : w132 = 1#1
  · rw [dif_pos h, dif_pos h, fin1_eq m ρ c g1 r w129 w132 w135 w138 w141 w144 true b3 b4 b5 b6 (tt_iff h) e3 e4 e5 e6]
  · rw [dif_neg h, dif_neg h, fin1_eq m ρ c g1 r w129 w132 w135 w138 w141 w144 false b3 b4 b5 b6 (ff_iff h) e3 e4 e5 e6]
theorem fin3_eq (b4 b5 b6 : Bool) (e4 : b4 = true ↔ w138 = 1#1) (e5 : b5 = true ↔ w141 = 1#1) (e6 : b6 = true ↔ w144 = 1#1) :
    fin3 m ρ c g1 r w129 w132 w135 w138 w141 b4 b5 b6 = Z3 m ρ c g1 r w129 w132 w135 w138 w141 w144 := by
  unfold fin3 Z3
  by_cases h : w135 = 1#1
  · rw [dif_pos h, dif_pos h, fin2_eq m ρ c g1 r w129 w132 w135 w138 w141 w144 true b4 b5 b6 (tt_iff h) e4 e5 e6]
  · rw [dif_neg h, dif_neg h, fin2_eq m ρ c g1 r w129 w132 w135 w138 w141 w144 false b4 b5 b6 (ff_iff h) e4 e5 e6]
theorem fin4_eq (b5 b6 : Bool) (e5 : b5 = true ↔ w141 = 1#1) (e6 : b6 = true ↔ w144 = 1#1) :
    fin4 m ρ c g1 r w129 w132 w135 w138 w141 b5 b6 = Z4 m ρ c g1 r w129 w132 w135 w138 w141 w144 := by
  unfold fin4 Z4
  by_cases h : w138 = 1#1
  · rw [dif_pos h, dif_pos h, fin3_eq m ρ c g1 r w129 w132 w135 w138 w141 w144 true b5 b6 (tt_iff h) e5 e6]
  · rw [dif_neg h, dif_neg h, fin3_eq m ρ c g1 r w129 w132 w135 w138 w141 w144 false b5 b6 (ff_iff h) e5 e6]
theorem fin5_eq (b6 : Bool) (e6 : b6 = true ↔ w144 = 1#1) :
    fin5 m ρ c g1 r w129 w132 w135 w138 w141 b6 = Z5 m ρ c g1 r w129 w132 w135 w138 w141 w144 := by
  unfold fin5 Z5
  by_cases h : w141 = 1#1
  · rw [dif_pos h, dif_pos h, fin4_eq m ρ c g1 r w129 w132 w135 w138 w141 w144 true b6 (tt_iff h) e6]
  · rw [dif_neg h, dif_neg h, fin4_eq m ρ c g1 r w129 w132 w135 w138 w141 w144 false b6 (ff_iff h) e6]
theorem fin_eq_lin : fin m ρ c g1 r w129 w132 w135 w138 w141 w144 = Z6 m ρ c g1 r w129 w132 w135 w138 w141 w144 := by
  unfold fin Z6
  by_cases h : w144 = 1#1
  · rw [dif_pos h, dif_pos h, fin5_eq m ρ c g1 r w129 w132 w135 w138 w141 w144 true (tt_iff h)]
  · rw [dif_neg h, dif_neg h, fin5_eq m ρ c g1 r w129 w132 w135 w138 w141 w144 false (ff_iff h)]

/-- The zero slabs read the body's zero. -/
theorem pay6_zf (idx : S1x48x48.Idx) : k0_pay6 (F := F) idx = zf := rfl
theorem pay7_zf (idx : S48x1x48.Idx) : k0_pay7 (F := F) idx = zf := rfl
theorem pay8_zf (idx : S48x48x1.Idx) : k0_pay8 (F := F) idx = zf := rfl

/-- The contents the body leaves, at an entry: zero on each face a set word zeroes, else the buffer after the additions. -/
theorem Z6_apply (i j k : Fin 48) :
    Z6 m ρ c g1 r w129 w132 w135 w138 w141 w144 (ix3 i j k)
      = if w144 = 1#1 ∧ k.val = 47 then zf else if w141 = 1#1 ∧ k.val = 0 then zf else if w138 = 1#1 ∧ j.val = 47 then zf
        else if w135 = 1#1 ∧ j.val = 0 then zf else if w132 = 1#1 ∧ i.val = 47 then zf else if w129 = 1#1 ∧ i.val = 0 then zf
        else S6 m ρ c g1 r w129 w132 w135 w138 w141 w144 (ix3 i j k) := by
  unfold Z6; rw [stage_z, pay8_zf]
  unfold Z5; rw [stage_z, pay8_zf]
  unfold Z4; rw [stage_y, pay7_zf]
  unfold Z3; rw [stage_y, pay7_zf]
  unfold Z2; rw [stage_x, pay6_zf]
  unfold Z1; rw [stage_x, pay6_zf]

end States

/-! ## The result block -/

/-- `outOf` at an entry, its three conditional additions as guarded additions. -/
theorem outOf_steps (px py pz : ℕ) (x : (cc0_stg0_0 : Ref sig .tc).ty.Contents (Elt F)) (rx : (cc0_scratch2 : Ref sig .tc).ty.Contents (Elt F))
    (ry : (cc0_scratch3 : Ref sig .tc).ty.Contents (Elt F)) (rz : (cc0_scratch4 : Ref sig .tc).ty.Contents (Elt F)) (i j k : Fin 48) :
    outOf px py pz x rx ry rz (ix3 i j k)
      = if (px = 0 ∧ i.val = 0) ∨ (px = 1 ∧ i.val = 47) ∨ (py = 0 ∧ j.val = 0) ∨ (py = 1 ∧ j.val = 47) ∨ (pz = 0 ∧ k.val = 0) ∨ (pz = 1 ∧ k.val = 47)
        then zf
        else step (FloatOps.addf (F := F) (φ := .f32)) ((pz = 0 ∧ k.val = 47) ∨ (pz = 1 ∧ k.val = 0)) (rz (ix2 i j))
          (step (FloatOps.addf (F := F) (φ := .f32)) ((py = 0 ∧ j.val = 47) ∨ (py = 1 ∧ j.val = 0)) (ry (ix2 i k))
            (step (FloatOps.addf (F := F) (φ := .f32)) ((px = 0 ∧ i.val = 47) ∨ (px = 1 ∧ i.val = 0)) (rx (ix3 (0 : Fin 1) j k))
              (k0_pay9 (k0_pay1 x) (ix3 i j k)))) := rfl

/-- What the body leaves in the result buffer is the result block. -/
theorem final_contents (c : Dev nD) (g1 : Buf (Elt F) ((c : Thread nD τ).loc cc0_stg1_0)) (r : FVec F S48x48x48 .f32)
    (hr : r = k0_pay9 (k0_pay1 (xstg m ρ c)))
    (w129 w132 w135 w138 w141 w144 : BitVec 1)
    (h129 : w129 = 1#1 ↔ bx c = 0) (h132 : w132 = 1#1 ↔ bx c = 1) (h135 : w135 = 1#1 ↔ by' c = 0) (h138 : w138 = 1#1 ↔ by' c = 1)
    (h141 : w141 = 1#1 ↔ bz c = 0) (h144 : w144 = 1#1 ↔ bz c = 1) :
    fin m ρ c g1 r w129 w132 w135 w138 w141 w144 = outAt m ρ c := by
  subst hr
  rw [fin_eq_lin]
  refine funext fun (idx : (⟨3, ![48, 48, 48]⟩ : Shape).Idx) => ?_
  obtain ⟨i, j, k, rfl⟩ : ∃ (i j k : Fin 48), idx = ix3 i j k := ⟨idx 0, idx 1, idx 2, eq_ix3 idx⟩
  rw [Z6_apply, S6_apply, S5_apply, S4_apply, S3_apply, S2_apply, S1_apply]
  unfold outAt
  rw [outOf_steps,
    axis_logic (FloatOps.addf (F := F) (φ := .f32)) (w129 = 1#1) (w132 = 1#1) (bx c) i.val (bx_lt c) h129 h132,
    axis_logic (FloatOps.addf (F := F) (φ := .f32)) (w135 = 1#1) (w138 = 1#1) (by' c) j.val (by_lt c) h135 h138,
    axis_logic (FloatOps.addf (F := F) (φ := .f32)) (w141 = 1#1) (w144 = 1#1) (bz c) k.val (bz_lt c) h141 h144]
  exact zero_logic (w129 = 1#1) (w132 = 1#1) (w135 = 1#1) (w138 = 1#1) (w141 = 1#1) (w144 = 1#1) (bx c) (by' c) (bz c) i.val j.val k.val
    h129 h132 h135 h138 h141 h144 _ _

end Cert.Kernel.Halo

end

/-- info: 'Cert.Kernel.Halo.final_contents' depends on axioms: [propext, Classical.choice, Quot.sound] -/
#guard_msgs in #print axioms Cert.Kernel.Halo.final_contents
-- ==== Proof.Bits.Body.lean ====
/-
  The body of one device, stepped from its starting resources (`sound_body`), and the same handed to the pipeline in the
  form its launch theorem asks for (`body_obligation`).

  The run: three units signalled to the neighbours' barriers, each handing over this device's receive buffer of that axis; the
  block loaded and its y and z faces stored in the send buffers; the wait for three units on the own barrier, which brings the
  three neighbours' receive buffers; the three faces sent (the x face a slab of the staged block, cut out for the transfer and
  put back after its send wait); the local stencil stored; the three receive waits, each bringing the neighbour's face; the
  faces added on the touching sides and the outer boundary zeroed, each store guarded by the device's mesh coordinate; the
  three send waits.  At the end the six own semaphores are closed at zero and the buffers handed back.
-/
import proofs.«900806_g7700000000000807_dist_halo3d_v7x_xyz2x2x2_s48_f32_1_alg».proof.Proof.Bits.Data
import proofs.«900806_g7700000000000807_dist_halo3d_v7x_xyz2x2x2_s48_f32_1_alg».proof.Proof.Bits.Lit
import proofs.«900806_g7700000000000807_dist_halo3d_v7x_xyz2x2x2_s48_f32_1_alg».proof.Proof.Bits.Sends
import proofs.«900806_g7700000000000807_dist_halo3d_v7x_xyz2x2x2_s48_f32_1_alg».proof.Proof.Bits.Glue
import proofs.«900806_g7700000000000807_dist_halo3d_v7x_xyz2x2x2_s48_f32_1_alg».proof.Proof.Bits.Mirror

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Tactic

section Body

variable (K : Dev nD × Fin 7 → ℕ)

attribute [local sl_canon] dev1_eq dev2_eq dev3_eq dev4_eq dev5_eq dev6_eq
attribute [local sl_rounds] duties_bar amount_bar expect_bar lS0_duties lR0_duties lS0_amount lR0_amount lS0_expect lR0_expect lR0_own lB_own0 lS1_duties lR1_duties lS1_amount lR1_amount lS1_expect lR1_expect lR1_own lB_own1 lS2_duties lR2_duties lS2_amount lR2_amount lS2_expect lR2_expect lR2_own lB_own2 lS0_pay lS1_pay lS2_pay
attribute [local sl_rounds high] lB_pay0 lB_pay1 lB_pay2 lR0_pay lR1_pay lR2_pay

omit [FloatOps F] in
/-- A buffer held at contents that equal others is held at those. -/
theorem pts_conv {ℓ : Loc nD τ sig} {T X : Buf (Elt F) ℓ} (h : T = X) : (ℓ ↦{fullShare} T : sProp 𝕄) ⊢ (ℓ ↦{fullShare} X) := by
  subst h; exact BI.Entails.refl _

/-- A device that owes nothing more is where the pipeline wants it after the point. -/
theorem owes_done (c : Dev nD) (W : Waits sig Unit) : (owes (c : Thread nD τ) 0 W : sProp 𝕄) ⊢ (dats m ρ 0 c).owesAt () t₀.succ := by
  unfold Dat.owesAt Pipeline.owesWithin
  rw [show (dats m ρ 0 c).owed t₀.succ = 0 from rfl]
  iintro H
  iexists W
  isplitr; · ipureintro; exact fun _ _ => Or.inl trivial
  iexact H

set_option maxHeartbeats 4000000 in
/-- One device's body from `bodyPre` to `bodyPost`. -/
theorem sound_body (c : Dev nD) (Kt : PUnit → sProp 𝕄) :
    iprop(bodyPre m ρ K c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) (Memref.whole cc0_scratch3) (Memref.isWhole_whole _)
            (Memref.whole cc0_scratch4) (Memref.isWhole_whole _) cc0_scratch5 cc0_scratch6) Kt := by
  unfold bodyPre ghost invs positions reachedAll payToks waitCreds scratch
  simp only [sendCell, recvCell, sendS, recvS]
  iintro ⟨⟨⟨⟨⟨#HIbar, #HIs0, #HIs1, #HIs2, #HIr0, #HIr1, #HIr2, #HIb0, #HIb1, #HIb2, #HIn0, #HIn1, #HIn2⟩,
      ⟨HatB, HatS0, HatS1, HatS2, HatR0, HatR1, HatR2⟩,
      ⟨#HrB0, #HrB1, #HrB2, #HrN0, #HrN1, #HrN2, #HrS0, #HrS1, #HrS2, #HrR0, #HrR1, #HrR2⟩,
      ⟨HtB0, HtB1, HtB2, HtN0, HtN1, HtN2, HtS0, HtS1, HtS2⟩⟩,
      ⟨HcB, HcR0, HcR1, HcR2⟩, #Hlev, ⟨⟨%f0, Hsy⟩, ⟨%f1, Hsz⟩, ⟨%f2, Hrx⟩, ⟨%f3, Hry⟩, ⟨%f4, Hrz⟩⟩⟩,
    Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  unfold O₀ O₁ O₂ O₃
  simp only [sendCell, recvCell, sendS, recvS]
  -- the seven buffers, each through its memref's view
  ihave Bsy := (Entails.of_eq (show ((c : Thread nD τ).loc cc0_scratch0 ↦{fullShare} f0 : sProp 𝕄) = ((syM : Memref sig .tc .vmem S48x48 .f32).view.loc (c : Thread nD τ) ↦{fullShare} f0) from rfl)) $$ Hsy
  ihave Bsz := (Entails.of_eq (show ((c : Thread nD τ).loc cc0_scratch1 ↦{fullShare} f1 : sProp 𝕄) = ((szM : Memref sig .tc .vmem S48x48 .f32).view.loc (c : Thread nD τ) ↦{fullShare} f1) from rfl)) $$ Hsz
  ihave Brx := (Entails.of_eq (show ((c : Thread nD τ).loc cc0_scratch2 ↦{fullShare} f2 : sProp 𝕄) = ((rxM : Memref sig .tc .vmem S1x48x48 .f32).view.loc (c : Thread nD τ) ↦{fullShare} f2) from rfl)) $$ Hrx
  ihave Bry := (Entails.of_eq (show ((c : Thread nD τ).loc cc0_scratch3 ↦{fullShare} f3 : sProp 𝕄) = ((ryM : Memref sig .tc .vmem S48x48 .f32).view.loc (c : Thread nD τ) ↦{fullShare} f3) from rfl)) $$ Hry
  ihave Brz := (Entails.of_eq (show ((c : Thread nD τ).loc cc0_scratch4 ↦{fullShare} f4 : sProp 𝕄) = ((rzM : Memref sig .tc .vmem S48x48 .f32).view.loc (c : Thread nD τ) ↦{fullShare} f4) from rfl)) $$ Hrz
  ihave Bx := (Entails.of_eq (show ((c : Thread nD τ).loc cc0_stg0_0 ↦{fullShare} xstg m ρ c : sProp 𝕄) = ((uM : Memref sig .tc .vmem S48x48x48 .f32).view.loc (c : Thread nD τ) ↦{fullShare} xstg m ρ c) from rfl)) $$ Hx
  ihave Bo := (Entails.of_eq (show ((c : Thread nD τ).loc cc0_stg1_0 ↦{fullShare} g1 : sProp 𝕄) = ((oM : Memref sig .tc .vmem S48x48x48 .f32).view.loc (c : Thread nD τ) ↦{fullShare} g1) from rfl)) $$ Hout
  have hmw := mayWait_bar (F := F) c
  unfold O₃ at hmw
  simp only [sendCell, recvCell, sendS, recvS] at hmw
  sl_unfold [cc0_body]
  -- the signals, the load, the guarded stores of the send buffers, the barrier wait
  sl_exec
  -- the barrier's three payloads: each neighbour's receive buffer of its axis, and that its receive cell is at round 0
  have hsplit : (bigSep Finset.univ fun d : Fin 3 => (haloRd (F := F) m ρ).payload (barCell c) 0 d)
      = iprop((haloRd (F := F) m ρ).payload (barCell c) 0 0 ∗ (haloRd (F := F) m ρ).payload (barCell c) 0 1 ∗ (haloRd (F := F) m ρ).payload (barCell c) 0 2) := by
    rw [bigSep_univ_eq_bigSepL ([0, 1, 2] : List (Fin 3)) (by decide) (by decide), bigSepL_cons_cons, bigSepL_cons_cons, bigSepL_singleton]
    rfl
  ihave Hp := (Entails.of_eq hsplit) $$ HatB_pay1
  rw [lB_own0, lB_own1, lB_own2]
  icases Hp with ⟨⟨⟨%fn0, Hn0⟩, #HrN0'⟩, ⟨⟨%fn1, Hn1⟩, #HrN1'⟩, ⟨⟨%fn2, Hn2⟩, #HrN2'⟩⟩
  ihave Bn0 := (Entails.of_eq (show ((((nbr 0 c : Dev nD) : Thread nD τ).loc cc0_scratch2 ↦{fullShare} fn0 : sProp 𝕄)) = ((rxM : Memref sig .tc .vmem S1x48x48 .f32).view.loc ((nbr 0 c : Dev nD) : Thread nD τ) ↦{fullShare} fn0) from rfl)) $$ Hn0
  ihave Bn1 := (Entails.of_eq (show ((((nbr 1 c : Dev nD) : Thread nD τ).loc cc0_scratch3 ↦{fullShare} fn1 : sProp 𝕄)) = ((ryM : Memref sig .tc .vmem S48x48 .f32).view.loc ((nbr 1 c : Dev nD) : Thread nD τ) ↦{fullShare} fn1) from rfl)) $$ Hn1
  ihave Bn2 := (Entails.of_eq (show ((((nbr 2 c : Dev nD) : Thread nD τ).loc cc0_scratch4 ↦{fullShare} fn2 : sProp 𝕄)) = ((rzM : Memref sig .tc .vmem S48x48 .f32).view.loc ((nbr 2 c : Dev nD) : Thread nD τ) ↦{fullShare} fn2) from rfl)) $$ Hn2
  -- what the two send buffers hold: the faces (the guards are the device's y and z coordinates)
  have hz3 : (![0, 0, 0] : Fin 3 → Nat) = fun _ => 0 := funext fun a => by fin_cases a <;> rfl
  have h37 : sound_body.sl.v37 c = 1#1 ↔ by' c = 0 := (by decide +kernel : ∀ c' : Dev nD, sound_body.sl.v37 c' = 1#1 ↔ by' c' = 0) c
  have h40 : sound_body.sl.v40 c = 1#1 ↔ by' c = 1 := (by decide +kernel : ∀ c' : Dev nD, sound_body.sl.v40 c' = 1#1 ↔ by' c' = 1) c
  have h43 : sound_body.sl.v43 c = 1#1 ↔ bz c = 0 := (by decide +kernel : ∀ c' : Dev nD, sound_body.sl.v43 c' = 1#1 ↔ bz c' = 0) c
  have h46 : sound_body.sl.v46 c = 1#1 ↔ bz c = 1 := (by decide +kernel : ∀ c' : Dev nD, sound_body.sl.v46 c' = 1#1 ↔ bz c' = 1) c
  have e31 : View.readAt (Elt F) (uM : Memref sig .tc .vmem S48x48x48 .f32).view (Rect.unit (s := S48x48x48) ![0, 0, 0] S48x48x48.size inb_S48x48x48_S48x48x48_0_0_0).toLoadRect (xstg m ρ c) = xstg m ρ c :=
    Memref.readAt_unit_zero (Elt F) cc0_stg0_0 hz3 _ _
  have hv32 : sound_body.sl.v32 m ρ c = k0_pay1 (xstg m ρ c) := by
    unfold sound_body.sl.v32 k0_pay1; rw [e31]
  have hy0 : sound_body.sl.v174 m ρ c = k0_pay2 (xstg m ρ c) := by
    unfold sound_body.sl.v174 sound_body.sl.v171 sound_body.sl.v170 k0_pay2; rw [hv32]
  have hy1 : sound_body.sl.v174_1 m ρ c = k0_pay3 (xstg m ρ c) := by
    unfold sound_body.sl.v174_1 sound_body.sl.v171_1 sound_body.sl.v170_1 k0_pay3; rw [hv32]
  have hz0 : sound_body.sl.v174_2 m ρ c = k0_pay4 (xstg m ρ c) := by
    unfold sound_body.sl.v174_2 sound_body.sl.v171_2 sound_body.sl.v170_2 k0_pay4; rw [hv32]
  have hz1 : sound_body.sl.v174_3 m ρ c = k0_pay5 (xstg m ρ c) := by
    unfold sound_body.sl.v174_3 sound_body.sl.v171_3 sound_body.sl.v170_3 k0_pay5; rw [hv32]
  ihave Bsy := (Entails.of_eq (congrArg (fun f => (View.loc (c : Thread nD τ) (syM : Memref sig .tc .vmem S48x48 .f32).view ↦{fullShare} f : sProp 𝕄))
    (sendY_eq m ρ c _ _ h37 h40 f0 _ _ hy0 hy1 _))) $$ Bsy
  ihave Bsz := (Entails.of_eq (congrArg (fun f => (View.loc (c : Thread nD τ) (szM : Memref sig .tc .vmem S48x48 .f32).view ↦{fullShare} f : sProp 𝕄))
    (sendZ_eq m ρ c _ _ h43 h46 f1 _ _ hz0 hz1 _))) $$ Bsz
  -- the x slab cut out of the staged block
  ihave Hsl := (pointsTo_split_subset (ℓ := (sxM c).view.loc (c : Thread nD τ)) (I := (sxM c).view.set) (S := Finset.univ) (q := fullShare) (f := xstg m ρ c) (Finset.subset_univ _)).1 $$ Bx
  icases Hsl with ⟨Bsx, Bxr⟩
  -- the x transfer, by the send rule at the slab
  iapply (wp_send_x m ρ K c _ (dev4_eq c) fn0 (tallyAt (((nbr 2 c : Dev nD) : Thread nD τ), SemLoc.dma 7) () Nf + tallyAt (((nbr 1 c : Dev nD) : Thread nD τ), SemLoc.dma 6) () Nf) (insert (SemLoc.reg barS, ()) W)) $$ [Bsx Bn0 HO HtS0 HtN0]
  · isplitr; · iexact HIs0
    isplitr; · iexact HIn0
    isplitl [Bsx]; · iexact Bsx
    isplitl [Bn0]; · iexact Bn0
    isplitl [HO]; · iexact HO
    isplitl [HtS0]; · iexact HtS0
    isplitr; · iexact HrS0
    isplitl [HtN0]; · iexact HtN0
    iexact HrN0
  iintro ⟨HcS0, HO⟩
  -- the y and z transfers, the stencil's store, the three receive waits, the guarded adds and zeroings, the three send waits
  sl_exec (disch := simp only [dev5_eq, dev6_eq])
  -- the six own cells close: their counters at zero are the device's again
  imod (Rounds.cell_close ER (haloRd m ρ) (Set.mem_univ (K (c, 1))) (fun h => h) (R := 1) (duties_later m ρ ((c : Thread nD τ), SemLoc.dma 2))) $$ [HatS0] with HzS0
  · isplitr; · iexact HIs0
    iexact HatS0
  imod (Rounds.cell_close ER (haloRd m ρ) (Set.mem_univ (K (c, 2))) (fun h => h) (R := 1) (duties_later m ρ ((c : Thread nD τ), SemLoc.dma 3))) $$ [HatS1] with HzS1
  · isplitr; · iexact HIs1
    iexact HatS1
  imod (Rounds.cell_close ER (haloRd m ρ) (Set.mem_univ (K (c, 3))) (fun h => h) (R := 1) (duties_later m ρ ((c : Thread nD τ), SemLoc.dma 4))) $$ [HatS2] with HzS2
  · isplitr; · iexact HIs2
    iexact HatS2
  imod (Rounds.cell_close ER (haloRd m ρ) (Set.mem_univ (K (c, 4))) (fun h => h) (R := 1) (duties_later m ρ ((c : Thread nD τ), SemLoc.dma 5))) $$ [HatR0] with HzR0
  · isplitr; · iexact HIr0
    iexact HatR0
  imod (Rounds.cell_close ER (haloRd m ρ) (Set.mem_univ (K (c, 5))) (fun h => h) (R := 1) (duties_later m ρ ((c : Thread nD τ), SemLoc.dma 6))) $$ [HatR1] with HzR1
  · isplitr; · iexact HIr1
    iexact HatR1
  imod (Rounds.cell_close ER (haloRd m ρ) (Set.mem_univ (K (c, 6))) (fun h => h) (R := 1) (duties_later m ρ ((c : Thread nD τ), SemLoc.dma 7))) $$ [HatR2] with HzR2
  · isplitr; · iexact HIr2
    iexact HatR2
  -- the slab back into the staged block
  ihave Bx := (pointsTo_split_subset (ℓ := (sxM c).view.loc (c : Thread nD τ)) (I := (sxM c).view.set) (S := Finset.univ) (q := fullShare) (f := xstg m ρ c) (Finset.subset_univ _)).2 $$ [HatS0_pay1 Bxr]
  · isplitl [HatS0_pay1]; · iexact HatS0_pay1
    iexact Bxr
  -- what the result block holds
  have h129 : sound_body.sl.v129 c = 1#1 ↔ bx c = 0 := (by decide +kernel : ∀ c' : Dev nD, sound_body.sl.v129 c' = 1#1 ↔ bx c' = 0) c
  have h132 : sound_body.sl.v132 c = 1#1 ↔ bx c = 1 := (by decide +kernel : ∀ c' : Dev nD, sound_body.sl.v132 c' = 1#1 ↔ bx c' = 1) c
  have h135 : sound_body.sl.v135 c = 1#1 ↔ by' c = 0 := (by decide +kernel : ∀ c' : Dev nD, sound_body.sl.v135 c' = 1#1 ↔ by' c' = 0) c
  have h138 : sound_body.sl.v138 c = 1#1 ↔ by' c = 1 := (by decide +kernel : ∀ c' : Dev nD, sound_body.sl.v138 c' = 1#1 ↔ by' c' = 1) c
  have h141 : sound_body.sl.v141 c = 1#1 ↔ bz c = 0 := (by decide +kernel : ∀ c' : Dev nD, sound_body.sl.v141 c' = 1#1 ↔ bz c' = 0) c
  have h144 : sound_body.sl.v144 c = 1#1 ↔ bz c = 1 := (by decide +kernel : ∀ c' : Dev nD, sound_body.sl.v144 c' = 1#1 ↔ bz c' = 1) c
  have hr : sound_body.sl.r m ρ c = k0_pay9 (k0_pay1 (xstg m ρ c)) := by unfold sound_body.sl.r; rw [hv32]
  ihave Bo := (pts_conv (X := outAt m ρ c) ?hfin) $$ Bo
  case hfin =>
    have hfc := final_contents m ρ c g1 (sound_body.sl.r m ρ c) hr (sound_body.sl.v129 c) (sound_body.sl.v132 c) (sound_body.sl.v135 c) (sound_body.sl.v138 c) (sound_body.sl.v141 c) (sound_body.sl.v144 c) h129 h132 h135 h138 h141 h144
    simp only [fin, fin5, fin4, fin3, fin2, fin1, leaf6, leaf5, leaf4, leaf3, leaf2, leaf1, cond_true, cond_false, S5, S4, S3, S2, S1, S0, a15, a14, a13, a12, a11, a10, L0] at hfc
    revert hfc
    sl_unfold_run_names
    exact fun h => h
  rw [wp_ret]; imodintro
  iapply Hk
  unfold bodyPost Φ₁ scratch ownZero
  simp only [sendCell, recvCell, sendS, recvS]
  isplitl [HatS1_pay1 HatS2_pay1 HatR0_pay1 HatR1_pay1 HatR2_pay1 HzS0 HzS1 HzS2 HzR0 HzR1 HzR2]
  · isplitl [HatS1_pay1 HatS2_pay1 HatR0_pay1 HatR1_pay1 HatR2_pay1]
    · isplitl [HatS1_pay1]; · iexists _; iexact HatS1_pay1
      isplitl [HatS2_pay1]; · iexists _; iexact HatS2_pay1
      isplitl [HatR0_pay1]; · iexists _; iexact HatR0_pay1
      isplitl [HatR1_pay1]; · iexists _; iexact HatR1_pay1
      iexists _; iexact HatR2_pay1
    · isplitl [HzS0]; · iexact HzS0
      isplitl [HzS1]; · iexact HzS1
      isplitl [HzS2]; · iexact HzS2
      isplitl [HzR0]; · iexact HzR0
      isplitl [HzR1]; · iexact HzR1
      iexact HzR2
  isplitl [HO]
  · ihave Hd := (owes_done m ρ c _) $$ HO
    iexact Hd
  isplitl [Bx]
  · iexists _; isplitr; · (ipureintro; rfl)
    iexact Bx
  iexists _; isplitr; · (ipureintro; rfl)
  iexact Bo

set_option maxRecDepth 4000 in
/-- What the pipeline enters the body with. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The library's body obligation on device `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) cc0_scratch5 cc0_scratch6) (fun _ => bodyPost m ρ c)
  unfold bodyPre' Φ₀ start
  iintro ⟨⟨⟨⟨%K, Hg⟩, Hcr, Hlev⟩, Hscr⟩, Ho, Hx, Hout⟩
  iapply (sound_body m ρ K c fun _ => bodyPost m ρ c)
  unfold bodyPre
  isplitr []
  · isplitl [Hg Hcr Hlev Hscr]
    · isplitl [Hg]; · iexact Hg
      isplitl [Hcr]; · iexact Hcr
      isplitl [Hlev]; · iexact Hlev
      iexact Hscr
    isplitl [Ho]; · iexact Ho
    isplitl [Hx] <;> iassumption
  · iintro H; iexact H

end Body

end Cert.Kernel.Halo

end
-- ==== Proof.Bits.LaunchFacts.lean ====
/-
  The launch of the halo exchange.  The protocol's ghost state is funded for all eight devices at once: every device's seven
  cells at round 0, and the nine duty tokens of its own cells.  Under one update the seven cells of every device are closed
  into invariants; the tokens are then dealt to the devices that pay them (a barrier's duty `a` and the axis-`a` receive
  duty go to the axis-`a` neighbour, a flip of the mesh; the send duty stays), and every device is handed the invariants and
  round marks of the cells it touches.  The credit a device is launched with is what the others owe its cells: three units
  on its barrier, one from each neighbour, and a face on each receive cell from that axis' neighbour alone.
-/
import proofs.«900806_g7700000000000807_dist_halo3d_v7x_xyz2x2x2_s48_f32_1_alg».proof.Proof.Bits.Data

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and tokens funded at launch -/

theorem ownSemFacts : Pipeline.OwnSemFacts cfg0.spec osem := by decide

theorem share_eq (c : Dev nD) (w : Fin cfg0.W) : (dats m ρ 0 c).share w = fullShare := by unfold Dat.share; split <;> rfl

theorem csem_injective : Function.Injective (csem : Fin 7 → SemLoc sig) := by decide

theorem kcell_injective : Function.Injective (kcell : Dev nD × Fin 7 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-- The 8 × 7 cells of the protocol. -/
def haloCells : Finset (GSem nD τ sig) := Finset.univ.map ⟨kcell, kcell_injective⟩

/-- The nine duties of a device's own cells: which cell, which duty. -/
abbrev tk : Fin 9 → Fin 7 := fun | 0 => 0 | 1 => 0 | 2 => 0 | 3 => 1 | 4 => 2 | 5 => 3 | 6 => 4 | 7 => 5 | 8 => 6
abbrev td : Fin 9 → Fin 3 := fun | 0 => 0 | 1 => 1 | 2 => 2 | 3 => 0 | 4 => 0 | 5 => 0 | 6 => 0 | 7 => 0 | 8 => 0
abbrev tokOf (cj : Dev nD × Fin 9) : GSem nD τ sig × ℕ × Fin 3 := (kcell (cj.1, tk cj.2), 0, td cj.2)

theorem tk_td_injective : ∀ j j' : Fin 9, tk j = tk j' → td j = td j' → j = j' := by decide

theorem tokOf_injective : Function.Injective (tokOf : Dev nD × Fin 9 → GSem nD τ sig × ℕ × Fin 3) := by
  rintro ⟨c, j⟩ ⟨c', j'⟩ h
  have h1 : ((c, tk j) : Dev nD × Fin 7) = (c', tk j') := kcell_injective (congrArg (fun x : GSem nD τ sig × ℕ × Fin 3 => x.1) h)
  have h2 : td j = td j' := congrArg (fun x : GSem nD τ sig × ℕ × Fin 3 => x.2.2) h
  have hc : c = c' := congrArg Prod.fst h1
  have hj : j = j' := tk_td_injective j j' (congrArg Prod.snd h1) h2
  rw [hc, hj]

/-- Every device's nine tokens. -/
def haloToks : Finset (GSem nD τ sig × ℕ × Fin 3) := Finset.univ.map ⟨tokOf, tokOf_injective⟩

def u₀ : UU :=
  (initOf (Pipeline.cells cfgs cellOf_inj) (Pipeline.launchToks cfgs cellOf_inj), initOf haloCells haloToks)

/-- The duty tokens of device `c`'s own cells. -/
def toks (c : Dev nD) : sProp 𝕄 :=
  iprop(dutyTok ER (barCell c) 0 0 ∗ dutyTok ER (barCell c) 0 1 ∗ dutyTok ER (barCell c) 0 2
    ∗ dutyTok ER (sendCell 0 c) 0 0 ∗ dutyTok ER (sendCell 1 c) 0 0 ∗ dutyTok ER (sendCell 2 c) 0 0
    ∗ dutyTok ER (recvCell 0 c) 0 0 ∗ dutyTok ER (recvCell 1 c) 0 0 ∗ dutyTok ER (recvCell 2 c) 0 0)

/-- What the launch element deals device `c`: its seven cells' round state, its position at and the mark of round 0 of each,
    the nine tokens of its own cells. -/
def G (c : Dev nD) : sProp 𝕄 :=
  iprop((bigSep Finset.univ fun k : Fin 7 => roundState ER (haloRd m ρ) (kcell (c, k)) 0)
    ∗ (bigSep Finset.univ fun k : Fin 7 => iprop(atPos ER (kcell (c, k)) 0 ∅ 0 ∗ reached ER (kcell (c, k)) 0)) ∗ toks c)

/-- What the global step makes of it. -/
def G' (c : Dev nD) : sProp 𝕄 := iprop(∃ K, ghost m ρ K c)

omit [FloatOps F] in
theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
omit [FloatOps F] in
theorem bigSep_fin9 (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

omit [FloatOps F] in
/-- The protocol's element pays for every device's share. -/
theorem fund_halo : BI.own (ER (initOf haloCells haloToks)) ⊢ (|==> bigSep Finset.univ (G m ρ) : sProp 𝕄) := by
  have hX (Φ : GSem nD τ sig → sProp 𝕄) : bigSep haloCells Φ = bigSep Finset.univ fun c : Dev nD => bigSep Finset.univ fun k : Fin 7 => Φ (kcell (c, k)) := by
    unfold haloCells; rw [bigSep_map, bigSep_univ_prod]; rfl
  have hT : bigSep haloToks (fun x => (dutyTok ER x.1 x.2.1 x.2.2 : sProp 𝕄)) = bigSep Finset.univ fun c : Dev nD => toks c := by
    unfold haloToks; rw [bigSep_map, bigSep_univ_prod]
    exact bigSep_congr fun c _ => by unfold toks; rw [bigSep_fin9]; rfl
  iintro HX
  imod (Rounds.fund ER (haloRd m ρ) haloCells haloToks) $$ HX with ⟨Hst, Hr, Hat, Htok⟩
  imodintro
  ihave Hst' := (Entails.of_eq (hX fun g => roundState ER (haloRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem hu₀ : (ownU (u₀ : UU) : sProp 𝕄)
    ⊢ |={Set.univ}=> iprop(BI.own (EP (initOf (Pipeline.cells cfgs cellOf_inj) (Pipeline.launchToks cfgs cellOf_inj))) ∗ bigSep Finset.univ (G m ρ)) := by
  unfold u₀
  iintro Hu
  ihave H := (ownU_pair _ _) $$ Hu
  icases H with ⟨HP, HX⟩
  imod (fund_halo m ρ) $$ HX with HG
  imodintro
  isplitl [HP] <;> iassumption

/-! ## The global step: the cells closed, the tokens dealt -/

omit [FloatOps F] in
/-- The three send and three receive semaphores are the kernel's own six; -/
theorem ownSems0_eq (c : Dev nD) : (Pipeline.ownSems0 (Ix := Unit) (Name := ℕ) (U := UU) (Lvl := ℕ) (Val := Elt F) (τ := τ) osem c : sProp 𝕄)
    = ownZero c := by
  rw [Pipeline.ownSems0_eq_of_list c osem [0, 1, 2, 3, 4, 5] (by decide) (by decide)]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_fin7]
  unfold ownZero
  iintro ⟨HO, HB⟩
  isplitl [HB]; · iexact HB
  iexact HO

omit [FloatOps F] in
/-- One device's seven cells closed into invariants, at some names. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (haloRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (haloRd m ρ) (kcell (c, k)) 0)
      ⊢ (|={Set.univ}=> bigSep Finset.univ fun k => iprop(∃ κ : ℕ, cellInv ER (haloRd m ρ) κ (kcell (c, k))) : sProp 𝕄) from by
        rw [← bigSep_sep']
        exact (bigSep_mono fun k _ => (Rounds.body_intro ER (haloRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The persistent records of all 56 cells: their invariants under the names `K`, and that round 0 is reached. -/
def records (K : Dev nD × Fin 7 → ℕ) : sProp 𝕄 :=
  iprop((bigSep Finset.univ fun ck : Dev nD × Fin 7 => cellInv ER (haloRd m ρ) (K ck) (kcell ck))
    ∗ bigSep Finset.univ fun ck : Dev nD × Fin 7 => reached ER (kcell ck) 0)

instance records_persistent (K : Dev nD × Fin 7 → ℕ) : BI.Persistent (records m ρ K) := by unfold records; infer_instance

omit [FloatOps F] in
theorem inv_at (K : Dev nD × Fin 7 → ℕ) (ck : Dev nD × Fin 7) :
    (bigSep Finset.univ fun ck : Dev nD × Fin 7 => (cellInv ER (haloRd m ρ) (K ck) (kcell ck) : sProp 𝕄)) ⊢ cellInv ER (haloRd m ρ) (K ck) (kcell ck) :=
  bigSep_elim (Finset.mem_univ ck)
omit [FloatOps F] in
theorem reached_at (ck : Dev nD × Fin 7) :
    (bigSep Finset.univ fun ck : Dev nD × Fin 7 => (reached ER (kcell ck) 0 : sProp 𝕄)) ⊢ reached ER (kcell ck) 0 :=
  bigSep_elim (Finset.mem_univ ck)

/-- What stays with device `c`: its positions, and the tokens of the duties it pays. -/
def linear (c : Dev nD) : sProp 𝕄 := iprop(positions c ∗ payToks c)

omit [FloatOps F] in
theorem ghost_intro (K : Dev nD × Fin 7 → ℕ) (c : Dev nD) : iprop(records m ρ K ∗ linear c) ⊢ G' m ρ c := by
  unfold records linear G' ghost
  iintro ⟨⟨#HI, #HR⟩, Hpos, Htok⟩
  iexists K
  isplitr
  · unfold invs
    isplitr; · iapply (inv_at m ρ K (c, 0)); iexact HI
    isplitr; · iapply (inv_at m ρ K (c, 1)); iexact HI
    isplitr; · iapply (inv_at m ρ K (c, 2)); iexact HI
    isplitr; · iapply (inv_at m ρ K (c, 3)); iexact HI
    isplitr; · iapply (inv_at m ρ K (c, 4)); iexact HI
    isplitr; · iapply (inv_at m ρ K (c, 5)); iexact HI
    isplitr; · iapply (inv_at m ρ K (c, 6)); iexact HI
    isplitr; · iapply (inv_at m ρ K (nbr 0 c, 0)); iexact HI
    isplitr; · iapply (inv_at m ρ K (nbr 1 c, 0)); iexact HI
    isplitr; · iapply (inv_at m ρ K (nbr 2 c, 0)); iexact HI
    isplitr; · iapply (inv_at m ρ K (nbr 0 c, 4)); iexact HI
    isplitr; · iapply (inv_at m ρ K (nbr 1 c, 5)); iexact HI
    iapply (inv_at m ρ K (nbr 2 c, 6)); iexact HI
  isplitl [Hpos]; · iexact Hpos
  isplitr
  · unfold reachedAll
    isplitr; · iapply (reached_at (F := F) (nbr 0 c, 0)); iexact HR
    isplitr; · iapply (reached_at (F := F) (nbr 1 c, 0)); iexact HR
    isplitr; · iapply (reached_at (F := F) (nbr 2 c, 0)); iexact HR
    isplitr; · iapply (reached_at (F := F) (nbr 0 c, 4)); iexact HR
    isplitr; · iapply (reached_at (F := F) (nbr 1 c, 5)); iexact HR
    isplitr; · iapply (reached_at (F := F) (nbr 2 c, 6)); iexact HR
    isplitr; · iapply (reached_at (F := F) (c, 1)); iexact HR
    isplitr; · iapply (reached_at (F := F) (c, 2)); iexact HR
    isplitr; · iapply (reached_at (F := F) (c, 3)); iexact HR
    isplitr; · iapply (reached_at (F := F) (c, 4)); iexact HR
    isplitr; · iapply (reached_at (F := F) (c, 5)); iexact HR
    iapply (reached_at (F := F) (c, 6)); iexact HR
  iexact Htok

omit [FloatOps F] in
/-- The tokens dealt across the mesh: a barrier's duty `a` and the axis-`a` receive duty go to the axis-`a` neighbour (the flip
    of that axis permutes the devices); the send duties stay. -/
theorem toks_around : (bigSep Finset.univ fun c : Dev nD => (toks c : sProp 𝕄)) ⊢ bigSep Finset.univ fun c : Dev nD => payToks c := by
  unfold toks payToks
  simp only [bigSep_sep']
  rw [bigSep_univ_equiv (flip 0) (fun c : Dev nD => (dutyTok ER (barCell c) 0 0 : sProp 𝕄)),
    bigSep_univ_equiv (flip 1) (fun c : Dev nD => (dutyTok ER (barCell c) 0 1 : sProp 𝕄)),
    bigSep_univ_equiv (flip 2) (fun c : Dev nD => (dutyTok ER (barCell c) 0 2 : sProp 𝕄)),
    bigSep_univ_equiv (flip 0) (fun c : Dev nD => (dutyTok ER (recvCell 0 c) 0 0 : sProp 𝕄)),
    bigSep_univ_equiv (flip 1) (fun c : Dev nD => (dutyTok ER (recvCell 1 c) 0 0 : sProp 𝕄)),
    bigSep_univ_equiv (flip 2) (fun c : Dev nD => (dutyTok ER (recvCell 2 c) 0 0 : sProp 𝕄))]
  iintro ⟨B0, B1, B2, S0, S1, S2, R0, R1, R2⟩
  isplitl [B0]; · iexact B0
  isplitl [B1]; · iexact B1
  isplitl [B2]; · iexact B2
  isplitl [R0]; · iexact R0
  isplitl [R1]; · iexact R1
  isplitl [R2]; · iexact R2
  isplitl [S0]; · iexact S0
  isplitl [S1]; · iexact S1
  iexact S2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun k => iprop(∃ κ : ℕ, cellInv ER (haloRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 7 => iprop(∃ κ : ℕ, cellInv ER (haloRd m ρ) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (haloRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 7 => (atPos ER (kcell (c, k)) 0 ∅ 0 : sProp 𝕄)) payToks).symm).trans
      (bigSep_mono fun c _ => show _ ⊢ linear c from Entails.of_eq (by unfold linear positions; rw [bigSep_fin7])))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

omit [FloatOps F] in
/-- What the devices owe, summand by summand. -/
theorem O₀_eq : (O₀ : Dev nD → CellTallies nD τ sig Unit) = fun d =>
    ((((tallyAt (recvCell 2 (nbr 2 d)) () Nf + tallyAt (recvCell 1 (nbr 1 d)) () Nf) + tallyAt (recvCell 0 (nbr 0 d)) () Nx)
      + tallyAt (barCell (nbr 2 d)) () 1) + tallyAt (barCell (nbr 1 d)) () 1) + tallyAt (barCell (nbr 0 d)) () 1 := rfl

omit [FloatOps F] in
/-- A device's launch credit: its barrier is owed a unit by each of its three neighbours, its axis-`a` receive cell a face by
    the axis-`a` neighbour alone. -/
theorem creds (c : Dev nD) : (Pipeline.launchCred O₀ c : sProp 𝕄) ⊢ waitCreds c := by
  have e3 : (tallyAt (barCell c) () 3 : CellTallies nD τ sig Unit)
      = tallyAt (barCell c) () 1 + (tallyAt (barCell c) () 1 + tallyAt (barCell c) () 1) := by rw [tallyAt_add, tallyAt_add]
  rw [O₀_eq, Pipeline.launchCred_add, Pipeline.launchCred_add, Pipeline.launchCred_add, Pipeline.launchCred_add, Pipeline.launchCred_add]
  unfold waitCreds
  iintro ⟨⟨⟨⟨⟨Hz, Hy⟩, Hx⟩, Hb2⟩, Hb1⟩, Hb0⟩
  ihave Hz := (Pipeline.launchCred_tallyAt (.dma (recvS 2)) (nbr 2) (nbr 2) (nbr_nbr 2) (nbr_nbr 2) () Nf c) $$ Hz
  ihave Hy := (Pipeline.launchCred_tallyAt (.dma (recvS 1)) (nbr 1) (nbr 1) (nbr_nbr 1) (nbr_nbr 1) () Nf c) $$ Hy
  ihave Hx := (Pipeline.launchCred_tallyAt (.dma (recvS 0)) (nbr 0) (nbr 0) (nbr_nbr 0) (nbr_nbr 0) () Nx c) $$ Hx
  ihave Hb2 := (Pipeline.launchCred_tallyAt (.reg barS) (nbr 2) (nbr 2) (nbr_nbr 2) (nbr_nbr 2) () 1 c) $$ Hb2
  ihave Hb1 := (Pipeline.launchCred_tallyAt (.reg barS) (nbr 1) (nbr 1) (nbr_nbr 1) (nbr_nbr 1) () 1 c) $$ Hb1
  ihave Hb0 := (Pipeline.launchCred_tallyAt (.reg barS) (nbr 0) (nbr 0) (nbr_nbr 0) (nbr_nbr 0) () 1 c) $$ Hb0
  isplitl [Hb0 Hb1 Hb2]
  · rw [e3]
    iapply (cred_add _ _).2
    isplitl [Hb0]; · iexact Hb0
    iapply (cred_add _ _).2
    isplitl [Hb1]; · iexact Hb1
    iexact Hb2
  isplitl [Hx]; · iexact Hx
  isplitl [Hy]; · iexact Hy
  iexact Hz

/-! ## The theorem's side conditions -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁ scratch
  iintro ⟨Hr, Hz⟩
  isplitr; · iempintro
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- info: 'Cert.Kernel.Halo.hu₀' depends on axioms: [propext, Classical.choice, Quot.sound] -/
#guard_msgs in #print axioms hu₀
/-- info: 'Cert.Kernel.Halo.glob' depends on axioms: [propext, Classical.choice, Quot.sound] -/
#guard_msgs in #print axioms glob
/-- info: 'Cert.Kernel.Halo.start_intro' depends on axioms: [propext, Classical.choice, Quot.sound] -/
#guard_msgs in #print axioms start_intro
/-- info: 'Cert.Kernel.Halo.phi0_intro' depends on axioms: [propext, Classical.choice, Quot.sound] -/
#guard_msgs in #print axioms phi0_intro
/-- info: 'Cert.Kernel.Halo.phi1_exit' depends on axioms: [propext, Classical.choice, Quot.sound] -/
#guard_msgs in #print axioms phi1_exit
/-- info: 'Cert.Kernel.Halo.waits' depends on axioms: [propext, Classical.choice, Quot.sound] -/
#guard_msgs in #print axioms waits

end Cert.Kernel.Halo

end
-- ==== Proof.Bits.Final.lean ====
/-
  What a device's two arrays hold after the region.  The grid has one point.  The argument array is an input window's:
  nothing is ever written back to it, so it holds what it held at launch.  The result array's one block is the whole
  array and is written back at that point, so the array ends holding what the body left in the staging buffer.
-/
import proofs.«900806_g7700000000000807_dist_halo3d_v7x_xyz2x2x2_s48_f32_1_alg».proof.Proof.Bits.Data
import Idealize.ShloMosaic.Lib.Pipeline.Cells
import Idealize.ShloMosaic.Lib.Pipeline.Value

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The argument array is never written back: after the run it holds its launch contents. -/
theorem final_in (c : Dev nD) : (dats m ρ 0 c).arrAt (0 : Fin 2) cfg0.N = m ((c : Thread nD τ).loc main_arg0) :=
  (dats m ρ 0 c).arrAt_in (0 : Fin 2) rfl _

/-- The result window's block at the one point starts at offset zero on every axis. -/
theorem off_zero : (fun a => win0_1.index t₀ a * main_v1.ty.shape.size a) = fun _ => 0 :=
  funext fun a => Nat.zero_mul _

/-- The one write-back writes the whole result array: it ends holding what the body left in the staging buffer. -/
theorem final_out (c : Dev nD) : (dats m ρ 0 c).arrAt (1 : Fin 2) cfg0.N = outAt m ρ c := by
  have h := (dats m ρ 0 c).arrAt_succ (1 : Fin 2) t₀
  rw [flush0_1 t₀, if_pos rfl] at h
  refine (congrArg ((dats m ρ 0 c).arrAt (1 : Fin 2)) cfg0_N).trans (h.trans ?_)
  exact Memref.write_access_unit_zero_univ (Elt F) main_v1 off_zero (fun a => by rw [congrFun off_zero a]; simp) _ (outAt m ρ c)

/-- info: 'Cert.Kernel.Halo.final_in' depends on axioms: [propext, Classical.choice, Quot.sound] -/
#guard_msgs in #print axioms final_in

/-- info: 'Cert.Kernel.Halo.final_out' depends on axioms: [propext, Classical.choice, Quot.sound] -/
#guard_msgs in #print axioms final_out

end Cert.Kernel.Halo

end
-- ==== Proof.Bits.Run.lean ====
/-
  The launch and the run.  The launch theorem for devices that owe units at launch, with the protocol's ghost state
  allocated for all devices under one update, is applied to the proof data of the one region: every weakly fair execution
  of the eight devices terminates, and each device's two arrays end at the contents the proof data name.  Read through
  the final arrays, that is: the result block holds `outAt`, the argument block what it held at launch.
-/
import proofs.«900806_g7700000000000807_dist_halo3d_v7x_xyz2x2x2_s48_f32_1_alg».proof.Proof.Bits.Body
import proofs.«900806_g7700000000000807_dist_halo3d_v7x_xyz2x2x2_s48_f32_1_alg».proof.Proof.Bits.LaunchFacts
import proofs.«900806_g7700000000000807_dist_halo3d_v7x_xyz2x2x2_s48_f32_1_alg».proof.Proof.Bits.Final

noncomputable section

namespace Cert.Kernel.Halo

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Each windowed array of a device after the write-backs of the whole grid. -/
def finalA (c : Dev nD) (w : Fin cfg0.W) : Buf (Elt F) ((cfg0.win w).arr.view.loc (c : Thread nD τ)) := (dats m ρ 0 c).arrAt w cfg0.N

/-- The post of the run: every device's windowed arrays at those contents. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of eight devices, for any float values, from any memory with zero counters: every weakly fair
    execution of @main — the eight kernels handshaking with their three axis neighbours on the barrier semaphore, then
    exchanging faces — terminates, and every final state has each device's two arrays at the contents the proof data name. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := hu₀ m ρ)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The run with the values named: each device's result block ends at `outAt`, its argument block unchanged. -/
theorem run_values : θ_run defs (onTc (τ := τ) (main (F := F))) ⟨m, fun _ => 0, ρ⟩ (fun r => ∀ c : Dev nD,
    r.2.mem ((c.tc : Thread nD τ).loc main_v1) = outAt m ρ c
    ∧ r.2.mem ((c.tc : Thread nD τ).loc main_arg0) = m ((c.tc : Thread nD τ).loc main_arg0)) :=
  (θ_run defs _ _).mono
    (fun _ h c => ⟨(h c (1 : Fin 2)).trans (final_out m ρ c), (h c (0 : Fin 2)).trans (final_in m ρ c)⟩)
    (run_main m ρ)

/-- info: 'Cert.Kernel.Halo.run_values' depends on axioms: [propext, Classical.choice, Quot.sound] -/
#guard_msgs in #print axioms run_values

end Cert.Kernel.Halo

end
-- ==== Proof.Spec.lean ====
/-
  The mathematics of the claim, with no program in sight.

  A whole array `u` over 96 × 96 × 96 is read at natural coordinates (`at3`, zero outside the box).  The reference's
  result is the seven-point stencil `lapAt`: on the interior (every coordinate between 1 and 94) the sum of the six
  axis neighbours, added in the order x-, x+, y-, y+, z-, z+, minus six times the centre; zero on the boundary.

  Device `(p, q, r)` of the 2 × 2 × 2 mesh holds the block of 48 × 48 × 48 entries starting at `(48 p, 48 q, 48 r)`.
  What it computes at local `(i, j, k)` is `kerAt`: the same six neighbours, but a neighbour that lies in another device's
  block is first a zero in the local sum and is added at the end (after the centre term) from the face that device sent.
  On the extended reals addition is commutative and associative and zero is neutral, and `a - b = a + -b`, so the two
  agree (`kerAt_eq_lapAt`) whatever the entries are.
-/
import Idealize.ShloMosaic.PureOps.Ideal
import Idealize.ShloMosaic.Lib.ValueIdx

noncomputable section

namespace Cert.Halo

open Idealize.ShloMosaic Idealize.ShloMosaic.ValueIdx

abbrev Sg : Shape := ⟨3, ![96, 96, 96]⟩
abbrev Sl : Shape := ⟨3, ![48, 48, 48]⟩

/-- The factor of the centre term, as both programs spell it. -/
abbrev six : EReal := Ideal.ofBits .f32 0x40C00000#32

/-- A whole array at natural coordinates; zero outside the box. -/
def at3 (u : Sg.Idx → EReal) (i j k : ℕ) : EReal :=
  if h : i < 96 ∧ j < 96 ∧ k < 96 then u (ix3 ⟨i, h.1⟩ ⟨j, h.2.1⟩ ⟨k, h.2.2⟩) else 0

/-- The stencil at an interior point, in the reference's order of additions. -/
def stencil (u : Sg.Idx → EReal) (i j k : ℕ) : EReal :=
  (((((at3 u (i - 1) j k + at3 u (i + 1) j k) + at3 u i (j - 1) k) + at3 u i (j + 1) k) + at3 u i j (k - 1)) + at3 u i j (k + 1))
    - six * at3 u i j k

/-- Interior: every coordinate strictly inside the box. -/
def interior (i j k : ℕ) : Prop := (1 ≤ i ∧ i ≤ 94) ∧ (1 ≤ j ∧ j ≤ 94) ∧ (1 ≤ k ∧ k ≤ 94)

instance (i j k : ℕ) : Decidable (interior i j k) := by unfold interior; infer_instance

/-- The reference's result at natural coordinates. -/
def lapAt (u : Sg.Idx → EReal) (i j k : ℕ) : EReal := if interior i j k then stencil u i j k else 0

/-- The reference's result, as an array. -/
def lap (u : Sg.Idx → EReal) : Sg.Idx → EReal := fun i => lapAt u (i 0).val (i 1).val (i 2).val

/-- A neighbour inside the device's own block, else zero: `lo` says the lower neighbour is wanted. -/
def own (v : ℕ → EReal) (lo : Bool) (i : ℕ) : EReal :=
  if lo then (if i = 0 then 0 else v (i - 1)) else (if i = 47 then 0 else v (i + 1))

/-- What device `(p, q, r)` (each 0 or 1) computes at local `(i, j, k)` (each below 48), over the whole array `u`:
    the local six-term sum with zeros across block faces, minus six times the centre, then the three faces received
    (the x, the y, the z neighbour device's), each only on the one local face that touches that device; and zero on the
    whole array's boundary. -/
def kerAt (u : Sg.Idx → EReal) (p q r i j k : ℕ) : EReal :=
  let gi := 48 * p + i; let gj := 48 * q + j; let gk := 48 * r + k
  if (p = 0 ∧ i = 0) ∨ (p = 1 ∧ i = 47) ∨ (q = 0 ∧ j = 0) ∨ (q = 1 ∧ j = 47) ∨ (r = 0 ∧ k = 0) ∨ (r = 1 ∧ k = 47) then 0
  else
    ((((((((own (fun a => at3 u (48 * p + a) gj gk) true i + own (fun a => at3 u (48 * p + a) gj gk) false i)
        + own (fun a => at3 u gi (48 * q + a) gk) true j) + own (fun a => at3 u gi (48 * q + a) gk) false j)
        + own (fun a => at3 u gi gj (48 * r + a)) true k) + own (fun a => at3 u gi gj (48 * r + a)) false k)
        - six * at3 u gi gj gk)
      + (if (p = 0 ∧ i = 47) then at3 u 48 gj gk else if (p = 1 ∧ i = 0) then at3 u 47 gj gk else 0))
      + (if (q = 0 ∧ j = 47) then at3 u gi 48 gk else if (q = 1 ∧ j = 0) then at3 u gi 47 gk else 0))
      + (if (r = 0 ∧ k = 47) then at3 u gi gj 48 else if (r = 1 ∧ k = 0) then at3 u gi gj 47 else 0)

end Cert.Halo

end
-- ==== Proof.RefValue.lean ====
/-
  The reference program's value, read at an index.

  The reference takes a whole array `u` over 96 × 96 × 96, forms on the inner 94 × 94 × 94 cube the sum of the six axis
  neighbours (added in the order x-, x+, y-, y+, z-, z+) minus six times the centre, and writes that cube into a zero array
  at offset (1, 1, 1). The last step is a scatter: a left fold, over the cube's entries in row-major order, of single-entry
  overwrites. Each entry `(a, b, c)` of the cube lands at `(a + 1, b + 1, c + 1)`; these places are inside the array and
  pairwise distinct, so the fold read at an index is the one entry that lands there, or the zero it started from where none
  does. Hence the result is `lap u`: the stencil on the interior, zero on the boundary.
-/
import proofs.«900806_g7700000000000807_dist_halo3d_v7x_xyz2x2x2_s48_f32_1_alg».proof.Defs
import proofs.«900806_g7700000000000807_dist_halo3d_v7x_xyz2x2x2_s48_f32_1_alg».proof.Proof.Gen.ReferenceIdeal.Run
import proofs.«900806_g7700000000000807_dist_halo3d_v7x_xyz2x2x2_s48_f32_1_alg».proof.Proof.Gen.ReferenceIdeal.Read
import proofs.«900806_g7700000000000807_dist_halo3d_v7x_xyz2x2x2_s48_f32_1_alg».proof.Proof.Gen.Pre_finite_inputs_ReferenceIdeal
import proofs.«900806_g7700000000000807_dist_halo3d_v7x_xyz2x2x2_s48_f32_1_alg».proof.Proof.Spec
import Idealize.ShloMosaic.Lib.ValueIdx
import Idealize.ShloMosaic.PureOps.Ideal.Laws

noncomputable section

namespace Cert.Halo.Ref

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo

/-! ## A left fold of pointwise overwrites, read at one index -/

section Fold
variable {ι κ α : Type} [DecidableEq ι] (g : κ → ι) (v : κ → α)

/-- One overwrite: the array `r` with the entry at `g n` replaced by `v n`. -/
def setAt (r : ι → α) (n : κ) : ι → α := fun i' => if i' = g n then v n else r i'

/-- An index no overwrite of the list names keeps its entry. -/
theorem foldl_setAt_miss (i : ι) (l : List κ) : ∀ (x : ι → α), (∀ n ∈ l, g n ≠ i) →
    l.foldl (setAt g v) x i = x i := by
  induction l with
  | nil => intro x _; rfl
  | cons a l ih =>
    intro x h
    rw [List.foldl_cons, ih _ (fun n hn => h n (List.mem_cons_of_mem _ hn))]
    exact if_neg (fun e => h a (by simp) e.symm)

/-- When the overwrites name pairwise distinct indices and the list has no repeats, the index `g n0` of a listed `n0`
    ends holding `v n0`. -/
theorem foldl_setAt_hit (hg : Function.Injective g) (n0 : κ) (l : List κ) : ∀ (x : ι → α), l.Nodup → n0 ∈ l →
    l.foldl (setAt g v) x (g n0) = v n0 := by
  induction l with
  | nil => intro x _ h; exact absurd h (by simp)
  | cons a l ih =>
    intro x hnd hmem
    rw [List.nodup_cons] at hnd
    rw [List.foldl_cons]
    by_cases ha : n0 = a
    · have hmiss : ∀ n ∈ l, g n ≠ g n0 := fun n hn e => hnd.1 (by rw [← ha, ← hg e]; exact hn)
      rw [foldl_setAt_miss g v (g n0) l _ hmiss, ← ha]
      exact if_pos rfl
    · exact ih _ hnd.2 ((List.mem_cons.1 hmem).resolve_left ha)

end Fold

/-! ## The scatter whose every update lands inside the operand, at pairwise distinct places -/

section Scatter
variable {α : Type} {s si u : Shape} {w : Nat} (d : ScatterDims s si u) (idx : IVec si w) (g : u.Idx → s.Idx)

theorem scatter_eq_foldl (hres : ∀ j, d.resultIdx? j idx = some (g j)) (x : s.Idx → α) (upd : u.Idx → α) :
    Host.scatter d (fun _ b => b) x idx upd
      = (List.finRange u.numel).foldl (setAt (fun n => g (u.rowMajor.symm n)) (fun n => upd (u.rowMajor.symm n))) x := by
  unfold Host.scatter
  congr 1
  funext r n
  rw [hres]
  rfl

theorem scatter_hit (hres : ∀ j, d.resultIdx? j idx = some (g j)) (hg : Function.Injective g) (x : s.Idx → α)
    (upd : u.Idx → α) (j : u.Idx) : Host.scatter d (fun _ b => b) x idx upd (g j) = upd j := by
  rw [scatter_eq_foldl d idx g hres]
  have h := foldl_setAt_hit (fun n => g (u.rowMajor.symm n)) (fun n => upd (u.rowMajor.symm n))
    (hg.comp u.rowMajor.symm.injective) (u.rowMajor j) (List.finRange u.numel) x (List.nodup_finRange _) (List.mem_finRange _)
  simpa using h

theorem scatter_miss (hres : ∀ j, d.resultIdx? j idx = some (g j)) (x : s.Idx → α) (upd : u.Idx → α) (i : s.Idx)
    (hi : ∀ j, g j ≠ i) : Host.scatter d (fun _ b => b) x idx upd i = x i := by
  rw [scatter_eq_foldl d idx g hres]
  exact foldl_setAt_miss _ _ i _ x (fun n _ => hi _)

end Scatter

/-! ## This program's scatter: one start index (1, 1, 1), the whole 94-cube as the window -/

variable {F : FTy → Type} [FloatOps F]

abbrev scatDims : ScatterDims S96x96x96 S3 S94x94x94 := scatter_S96x96x96_S3_S94x94x94_012_n_012_0

/-- The start-index vector holds the word 1 at each of its three places. -/
theorem v19_apply (k : S3.Idx) : val_main_v19 (F := F) k = 1#32 := by
  obtain ⟨a, rfl⟩ : ∃ a : Fin 3, k = ix1 a := ⟨k 0, eq_ix1 k⟩
  match a with
  | ⟨0, _⟩ => rfl
  | ⟨1, _⟩ => rfl
  | ⟨2, _⟩ => rfl

theorem start_eq (j : S94x94x94.Idx) (a : Fin 3) : scatDims.start j (val_main_v19 (F := F)) a = 1 := by
  unfold ScatterDims.start
  split
  · rw [v19_apply]; rfl
  · next h => exact absurd (show a ∈ ([0, 1, 2] : List (Fin 3)) by fin_cases a <;> simp) h

theorem window_eq (j : S94x94x94.Idx) (a : Fin 3) : scatDims.window j a = (j a).val := by
  match a with
  | ⟨0, _⟩ => rfl
  | ⟨1, _⟩ => rfl
  | ⟨2, _⟩ => rfl

/-- Where the update's entry `j` lands: one further along each axis. -/
def shift (j : S94x94x94.Idx) : S96x96x96.Idx :=
  ix3 (⟨(j 0).val + 1, by have : (j 0).val < 94 := (j 0).isLt; omega⟩ : Fin 96)
      (⟨(j 1).val + 1, by have : (j 1).val < 94 := (j 1).isLt; omega⟩ : Fin 96)
      (⟨(j 2).val + 1, by have : (j 2).val < 94 := (j 2).isLt; omega⟩ : Fin 96)

theorem shift_injective : Function.Injective shift := by
  intro j j' h
  have h0 : (j 0).val + 1 = (j' 0).val + 1 := congrArg (fun i : S96x96x96.Idx => (i 0).val) h
  have h1 : (j 1).val + 1 = (j' 1).val + 1 := congrArg (fun i : S96x96x96.Idx => (i 1).val) h
  have h2 : (j 2).val + 1 = (j' 2).val + 1 := congrArg (fun i : S96x96x96.Idx => (i 2).val) h
  funext a
  match a with
  | ⟨0, _⟩ => exact Fin.ext (by show (j 0).val = (j' 0).val; omega)
  | ⟨1, _⟩ => exact Fin.ext (by show (j 1).val = (j' 1).val; omega)
  | ⟨2, _⟩ => exact Fin.ext (by show (j 2).val = (j' 2).val; omega)

theorem coord_lt (j : S94x94x94.Idx) (a : Fin 3) : (j a).val < 94 := by
  match a with
  | ⟨0, _⟩ => exact (j 0).isLt
  | ⟨1, _⟩ => exact (j 1).isLt
  | ⟨2, _⟩ => exact (j 2).isLt

theorem size96 (a : Fin 3) : S96x96x96.size a = 96 := by
  match a with
  | ⟨0, _⟩ => rfl
  | ⟨1, _⟩ => rfl
  | ⟨2, _⟩ => rfl

theorem shift_val (j : S94x94x94.Idx) (a : Fin 3) : (shift j a).val = (j a).val + 1 := by
  match a with
  | ⟨0, _⟩ => rfl
  | ⟨1, _⟩ => rfl
  | ⟨2, _⟩ => rfl

/-- Every update entry lands inside the operand, at `shift` of its index. -/
theorem resultIdx_eq (j : S94x94x94.Idx) : scatDims.resultIdx? j (val_main_v19 (F := F)) = some (shift j) := by
  have H : ∀ a : Fin 3, 0 ≤ scatDims.start j (val_main_v19 (F := F)) a + scatDims.window j a
      ∧ scatDims.start j (val_main_v19 (F := F)) a + scatDims.window j a < S96x96x96.size a := by
    intro a
    rw [start_eq, window_eq, size96]
    have := coord_lt j a
    omega
  unfold ScatterDims.resultIdx?
  rw [dif_pos H]
  congr 1
  funext a
  apply Fin.ext
  show (scatDims.start j (val_main_v19 (F := F)) a + scatDims.window j a).toNat = (shift j a).val
  rw [start_eq, window_eq, shift_val]
  omega

/-- Inside the written cube the scatter holds the update's entry. -/
theorem v20_hit (x0 : (⟨S96x96x96, .f32⟩ : BufTy).Contents (Elt F)) (j : S94x94x94.Idx) :
    val_main_v20 (F := F) x0 (shift j) = val_main_v15 (F := F) x0 j := by
  unfold val_main_v20
  exact scatter_hit scatDims _ shift (fun j => resultIdx_eq (F := F) j) shift_injective _ _ j

/-- At an index no update lands on, the scatter holds the operand's entry. -/
theorem v20_miss (x0 : (⟨S96x96x96, .f32⟩ : BufTy).Contents (Elt F)) (i : S96x96x96.Idx) (hi : ∀ j, shift j ≠ i) :
    val_main_v20 (F := F) x0 i = val_main_v0 (F := F) i := by
  unfold val_main_v20
  exact scatter_miss scatDims _ shift (fun j => resultIdx_eq (F := F) j) _ _ i hi

/-- The operand of the scatter is the zero array. -/
theorem v0_zero (i : S96x96x96.Idx) : val_main_v0 (F := Ideal) i = 0 := by
  rw [val_main_v0_apply, val_main_cst_apply]
  exact Ideal.ofBits_zero_f32

/-- The whole array at natural coordinates that are an index's coordinates is the array at that index. -/
theorem at3_eq (u : Sg.Idx → EReal) (i j k : ℕ) (t : Sg.Idx) (h0 : (t 0).val = i) (h1 : (t 1).val = j)
    (h2 : (t 2).val = k) : at3 u i j k = u t := by
  have hi : i < 96 := h0 ▸ (t 0).isLt
  have hj : j < 96 := h1 ▸ (t 1).isLt
  have hk : k < 96 := h2 ▸ (t 2).isLt
  unfold at3
  rw [dif_pos ⟨hi, hj, hk⟩]
  congr 1
  funext d
  match d with
  | ⟨0, _⟩ => exact Fin.ext h0.symm
  | ⟨1, _⟩ => exact Fin.ext h1.symm
  | ⟨2, _⟩ => exact Fin.ext h2.symm

/-- The update of the scatter, entry by entry: the seven-point stencil one further along each axis. -/
theorem v15_read (x0 : Sg.Idx → EReal) (j : S94x94x94.Idx) :
    val_main_v15 (F := Ideal) x0 j = stencil x0 ((j 0).val + 1) ((j 1).val + 1) ((j 2).val + 1) := by
  rw [val_main_v15_apply, val_main_v11_apply, val_main_v9_apply, val_main_v7_apply, val_main_v5_apply, val_main_v3_apply,
    val_main_v14_apply, val_main_v13_apply, val_main_cst_0_apply,
    val_main_v1_apply, val_main_v2_apply, val_main_v4_apply, val_main_v6_apply, val_main_v8_apply, val_main_v10_apply,
    val_main_v12_apply]
  unfold stencil
  rw [at3_eq x0 _ _ _ (idx_main_v1 j) (by show (j 0).val = _; omega) (by show 1 + (j 1).val = _; omega) (by show 1 + (j 2).val = _; omega),
    at3_eq x0 _ _ _ (idx_main_v2 j) (by show 2 + (j 0).val = _; omega) (by show 1 + (j 1).val = _; omega) (by show 1 + (j 2).val = _; omega),
    at3_eq x0 _ _ _ (idx_main_v4 j) (by show 1 + (j 0).val = _; omega) (by show (j 1).val = _; omega) (by show 1 + (j 2).val = _; omega),
    at3_eq x0 _ _ _ (idx_main_v6 j) (by show 1 + (j 0).val = _; omega) (by show 2 + (j 1).val = _; omega) (by show 1 + (j 2).val = _; omega),
    at3_eq x0 _ _ _ (idx_main_v8 j) (by show 1 + (j 0).val = _; omega) (by show 1 + (j 1).val = _; omega) (by show (j 2).val = _; omega),
    at3_eq x0 _ _ _ (idx_main_v10 j) (by show 1 + (j 0).val = _; omega) (by show 1 + (j 1).val = _; omega) (by show 2 + (j 2).val = _; omega),
    at3_eq x0 _ _ _ (idx_main_v12 j) (by show 1 + (j 0).val = _; omega) (by show 1 + (j 1).val = _; omega) (by show 1 + (j 2).val = _; omega)]
  rfl

/-- The reference's result is the stencil array `lap` of its argument. -/
theorem ref_eq_lap (x0 : (⟨Cert.ReferenceIdeal.S96x96x96, .f32⟩ : BufTy).Contents (Elt Ideal)) :
    Cert.ReferenceIdeal.Read.val_main_v20 (F := Ideal) x0 = Cert.Halo.lap x0 := by
  funext i
  obtain ⟨p, q, r, rfl⟩ : ∃ p q r : Fin 96, i = ix3 p q r := ⟨i 0, i 1, i 2, eq_ix3 i⟩
  show _ = lapAt x0 p.val q.val r.val
  unfold lapAt
  by_cases h : interior p.val q.val r.val
  · rw [if_pos h]
    obtain ⟨⟨hp1, hp2⟩, ⟨hq1, hq2⟩, ⟨hr1, hr2⟩⟩ : (1 ≤ p.val ∧ p.val ≤ 94) ∧ (1 ≤ q.val ∧ q.val ≤ 94) ∧ (1 ≤ r.val ∧ r.val ≤ 94) := h
    let j : S94x94x94.Idx := ix3 (⟨p.val - 1, by omega⟩ : Fin 94) (⟨q.val - 1, by omega⟩ : Fin 94) (⟨r.val - 1, by omega⟩ : Fin 94)
    have e0 : (j 0).val + 1 = p.val := by show p.val - 1 + 1 = p.val; omega
    have e1 : (j 1).val + 1 = q.val := by show q.val - 1 + 1 = q.val; omega
    have e2 : (j 2).val + 1 = r.val := by show r.val - 1 + 1 = r.val; omega
    have e : shift j = ix3 p q r := by
      funext d
      match d with
      | ⟨0, _⟩ => exact Fin.ext e0
      | ⟨1, _⟩ => exact Fin.ext e1
      | ⟨2, _⟩ => exact Fin.ext e2
    rw [← e, v20_hit, v15_read, e0, e1, e2]
  · rw [if_neg h, v20_miss x0 _ ?_, v0_zero]
    intro j e
    apply h
    have e0 : (j 0).val + 1 = p.val := congrArg (fun i : S96x96x96.Idx => (i 0).val) e
    have e1 : (j 1).val + 1 = q.val := congrArg (fun i : S96x96x96.Idx => (i 1).val) e
    have e2 : (j 2).val + 1 = r.val := congrArg (fun i : S96x96x96.Idx => (i 2).val) e
    have b0 := coord_lt j 0
    have b1 := coord_lt j 1
    have b2 := coord_lt j 2
    exact ⟨⟨by omega, by omega⟩, ⟨by omega, by omega⟩, ⟨by omega, by omega⟩⟩

/-- Every weakly fair run of the reference ends with its result the stencil array of its argument, the argument
    unchanged. -/
theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
        r.2.mem ((c.tc : Thread Cert.ReferenceIdeal.nD Cert.ReferenceIdeal.τ).loc Cert.ReferenceIdeal.main_v20)
          = Cert.Halo.lap (m' ((c.tc : Thread Cert.ReferenceIdeal.nD Cert.ReferenceIdeal.τ).loc Cert.ReferenceIdeal.main_arg0))
        ∧ r.2.mem ((c.tc : Thread _ _).loc Cert.ReferenceIdeal.main_arg0) = m' ((c.tc : Thread _ _).loc Cert.ReferenceIdeal.main_arg0)) :=
  (θ_run _ _ _).mono
    (fun _ h c => ⟨((h c).1.trans (val_main_v20_eq _)).trans (ref_eq_lap _), (h c).2⟩)
    (Cert.ReferenceIdeal.Value.run (F := Ideal) m' ρ')

/-- The reference runs and leaves its argument unchanged. -/
theorem frame_ref : Cert.frame_ReferenceIdeal :=
  fun m ρ _ => (θ_run Cert.ReferenceIdeal.defs _ _).mono (fun _ h c => (h c).2) (Cert.ReferenceIdeal.Value.run (F := Ideal) m ρ)

/-- info: 'Cert.Halo.Ref.ref_run' depends on axioms: [propext, Classical.choice, Quot.sound] -/
#guard_msgs in #print axioms ref_run

/-- info: 'Cert.Halo.Ref.frame_ref' depends on axioms: [propext, Classical.choice, Quot.sound] -/
#guard_msgs in #print axioms frame_ref

end Cert.Halo.Ref

end
-- ==== Proof.SpecLaw.lean ====
/-
  The device's value agrees with the whole array's seven-point stencil.

  Along one axis, with block bit `b` (0 or 1) and local coordinate `a` (below 48), the device adds the lower and the
  upper neighbour when they lie in its own block, a zero when they lie across the block face, and later the one entry
  the neighbouring device sent for that face.  Off the whole array's boundary these three terms sum to the two true
  neighbours (`axis`).  The full sum is then a rearrangement in a commutative monoid (`assemble`): no entry needs to
  be finite, since only commutativity, associativity and the neutral zero of the extended reals' addition are used, and
  `a - b = a + -b`.
-/
import proofs.«900806_g7700000000000807_dist_halo3d_v7x_xyz2x2x2_s48_f32_1_alg».proof.Proof.Spec

noncomputable section

namespace Cert.Halo

open Idealize.ShloMosaic Idealize.ShloMosaic.ValueIdx

/-- The lower neighbour inside the block: zero on the block's lower face. -/
theorem own_lo (v : ℕ → EReal) (a : ℕ) : own v true a = if a = 0 then 0 else v (a - 1) := by
  simp only [own, if_true]

/-- The upper neighbour inside the block: zero on the block's upper face. -/
theorem own_hi (v : ℕ → EReal) (a : ℕ) : own v false a = if a = 47 then 0 else v (a + 1) := by
  simp only [own, Bool.false_eq_true, if_false]

/-- One axis.  Block bit `b`, local coordinate `a`, not on the whole array's boundary: the block's own two neighbours
    (zero across a face) plus the received face entry are the two neighbours in the whole array. -/
theorem axis (f : ℕ → EReal) (b a : ℕ) (hb : b < 2) (ha : a < 48)
    (h0 : ¬ (b = 0 ∧ a = 0)) (h1 : ¬ (b = 1 ∧ a = 47)) :
    own (fun x => f (48 * b + x)) true a + own (fun x => f (48 * b + x)) false a
        + (if (b = 0 ∧ a = 47) then f 48 else if (b = 1 ∧ a = 0) then f 47 else 0)
      = f (48 * b + a - 1) + f (48 * b + a + 1) := by
  rw [own_lo, own_hi]
  have hb' : b = 0 ∨ b = 1 := by omega
  rcases hb' with rfl | rfl
  · -- lower block: the local lower face is the whole array's boundary, the upper face touches the other block
    have ha0 : a ≠ 0 := fun h => h0 ⟨rfl, h⟩
    by_cases h47 : a = 47
    · subst h47
      norm_num
    · have e1 : 48 * 0 + (a - 1) = 48 * 0 + a - 1 := by omega
      have e2 : 48 * 0 + (a + 1) = 48 * 0 + a + 1 := by omega
      simp only [if_neg ha0, if_neg h47, e1, e2, h47, and_false, if_false, Nat.zero_ne_one, false_and, add_zero]
  · -- upper block: the local upper face is the whole array's boundary, the lower face touches the other block
    have h47 : a ≠ 47 := fun h => h1 ⟨rfl, h⟩
    by_cases ha0 : a = 0
    · subst ha0
      norm_num
      exact add_comm _ _
    · have e1 : 48 * 1 + (a - 1) = 48 * 1 + a - 1 := by omega
      have e2 : 48 * 1 + (a + 1) = 48 * 1 + a + 1 := by omega
      simp only [if_neg ha0, if_neg h47, e1, e2, ha0, and_false, if_false, Nat.one_ne_zero, false_and, add_zero]

/-- The rearrangement: the device's order of additions (own terms, centre term, then the three received faces) against
    the reference's (six neighbours, then the centre term), given the three one-axis sums. -/
theorem assemble (Lx Ux Hx Ly Uy Hy Lz Uz Hz Xm Xp Ym Yp Zm Zp c : EReal)
    (ex : Lx + Ux + Hx = Xm + Xp) (ey : Ly + Uy + Hy = Ym + Yp) (ez : Lz + Uz + Hz = Zm + Zp) :
    ((((((((Lx + Ux) + Ly) + Uy) + Lz) + Uz) - c) + Hx) + Hy) + Hz
      = (((((Xm + Xp) + Ym) + Yp) + Zm) + Zp) - c := by
  have e : (((((Xm + Xp) + Ym) + Yp) + Zm) + Zp) = (Xm + Xp) + (Ym + Yp) + (Zm + Zp) := by ac_rfl
  rw [e, ← ex, ← ey, ← ez, sub_eq_add_neg, sub_eq_add_neg]
  ac_rfl

/-- What device `(p, q, r)` computes at local `(i, j, k)` is the reference's result at the global point. -/
theorem kerAt_eq_lapAt (u : Sg.Idx → EReal) (p q r i j k : ℕ) (hp : p < 2) (hq : q < 2) (hr : r < 2)
    (hi : i < 48) (hj : j < 48) (hk : k < 48) :
    kerAt u p q r i j k = lapAt u (48 * p + i) (48 * q + j) (48 * r + k) := by
  by_cases hB : (p = 0 ∧ i = 0) ∨ (p = 1 ∧ i = 47) ∨ (q = 0 ∧ j = 0) ∨ (q = 1 ∧ j = 47) ∨ (r = 0 ∧ k = 0) ∨ (r = 1 ∧ k = 47)
  · -- on the whole array's boundary both are zero
    have hI : ¬ interior (48 * p + i) (48 * q + j) (48 * r + k) := by unfold interior; omega
    simp only [kerAt, lapAt, if_pos hB, if_neg hI]
  · have hI : interior (48 * p + i) (48 * q + j) (48 * r + k) := by unfold interior; omega
    simp only [kerAt, lapAt, if_neg hB, if_pos hI, stencil]
    exact assemble _ _ _ _ _ _ _ _ _ _ _ _ _ _ _ _
      (axis (fun x => at3 u x (48 * q + j) (48 * r + k)) p i hp hi (fun h => hB (Or.inl h)) (fun h => hB (Or.inr (Or.inl h))))
      (axis (fun x => at3 u (48 * p + i) x (48 * r + k)) q j hq hj (fun h => hB (Or.inr (Or.inr (Or.inl h))))
        (fun h => hB (Or.inr (Or.inr (Or.inr (Or.inl h))))))
      (axis (fun x => at3 u (48 * p + i) (48 * q + j) x) r k hr hk (fun h => hB (Or.inr (Or.inr (Or.inr (Or.inr (Or.inl h))))))
        (fun h => hB (Or.inr (Or.inr (Or.inr (Or.inr (Or.inr h)))))))

/-- The same, against the reference's result as an array, in the coordinates of the mesh and the block. -/
theorem kerAt_eq_lap (u : Sg.Idx → EReal) (p q r : Fin 2) (i j k : Fin 48) :
    kerAt u p.val q.val r.val i.val j.val k.val
      = lap u (ix3 ⟨48 * p.val + i.val, by omega⟩ ⟨48 * q.val + j.val, by omega⟩ ⟨48 * r.val + k.val, by omega⟩) :=
  kerAt_eq_lapAt u p.val q.val r.val i.val j.val k.val p.isLt q.isLt r.isLt i.isLt j.isLt k.isLt

end Cert.Halo

end

/-- info: 'Cert.Halo.kerAt_eq_lapAt' depends on axioms: [propext, Classical.choice, Quot.sound] -/
#guard_msgs in #print axioms Cert.Halo.kerAt_eq_lapAt

/-- info: 'Cert.Halo.kerAt_eq_lap' depends on axioms: [propext, Classical.choice, Quot.sound] -/
#guard_msgs in #print axioms Cert.Halo.kerAt_eq_lap
-- ==== Proof.KerValue.lean ====
/-
  The kernel's value, read at the extended reals, as a block of the whole array's seven-point stencil.

  Device `c` of the 2 × 2 × 2 mesh sits at `(p, q, r) = (bx c, by' c, bz c)` and holds block `(p, q, r)` of the whole
  array `U`: its local entry `(i, j, k)` is `U` at `(48 p + i, 48 q + j, 48 r + k)`.  Entry by entry the body's first
  store is the local six-neighbour sum with zeros across the block's faces, minus six times the centre; the three faces
  that land are the neighbouring devices' entries at global coordinate 48 (from the upper block) or 47 (from the lower);
  so the result block is `kerAt` of the specification, which is the stencil of the whole array at the global point.
-/
import proofs.«900806_g7700000000000807_dist_halo3d_v7x_xyz2x2x2_s48_f32_1_alg».proof.Proof.Out
import proofs.«900806_g7700000000000807_dist_halo3d_v7x_xyz2x2x2_s48_f32_1_alg».proof.Proof.SpecLaw
import Idealize.ShloMosaic.Lib.Layout
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HaloValue

open Cert.KernelIdeal Cert.KernelIdeal.Gen Cert.KernelIdeal.Halo Cert.Halo Idealize.ShloMosaic
open Idealize.ShloMosaic.ValueIdx
open Idealize.ShloMosaic.TcCoe
open Idealize.SL.Sem

/-! ## Where a block's entry lies in the whole array -/

/-- The block coordinates the mesh gives device `c` are its mesh coordinates. -/
theorem mesh0 (c : Dev nD) : ((Layout.meshBlock [2, 2, 2] ![[0], [1], [2]] c) 0).val = bx c := by revert c; decide
theorem mesh1 (c : Dev nD) : ((Layout.meshBlock [2, 2, 2] ![[0], [1], [2]] c) 1).val = by' c := by revert c; decide
theorem mesh2 (c : Dev nD) : ((Layout.meshBlock [2, 2, 2] ![[0], [1], [2]] c) 2).val = bz c := by revert c; decide

/-- Entry `(i, j, k)` of device `c`'s block of a whole array is the array's entry at `(48 p + i, 48 q + j, 48 r + k)`. -/
theorem block_apply (V : Sg.Idx → EReal) (c : Dev nD) (i j k : Fin 48) :
    (Layout.blockN ⟨3, ![48, 48, 48]⟩ ⟨3, ![96, 96, 96]⟩ (Layout.meshBlock [2, 2, 2] ![[0], [1], [2]] c) V) (ix3 i j k)
      = V (ix3 ⟨48 * bx c + i.val, by have := bx_lt c; omega⟩ ⟨48 * by' c + j.val, by have := by_lt c; omega⟩
          ⟨48 * bz c + k.val, by have := bz_lt c; omega⟩) := by
  rw [Layout.blockN_apply]
  refine congrArg V (funext fun a => Fin.ext ?_)
  rw [Layout.TilesN.idx_val]
  match a with
  | ⟨0, _⟩ => show ((Layout.meshBlock [2, 2, 2] ![[0], [1], [2]] c) 0).val * 48 + i.val = 48 * bx c + i.val; rw [mesh0]; omega
  | ⟨1, _⟩ => show ((Layout.meshBlock [2, 2, 2] ![[0], [1], [2]] c) 1).val * 48 + j.val = 48 * by' c + j.val; rw [mesh1]; omega
  | ⟨2, _⟩ => show ((Layout.meshBlock [2, 2, 2] ![[0], [1], [2]] c) 2).val * 48 + k.val = 48 * bz c + k.val; rw [mesh2]; omega

/-- The same, at natural coordinates. -/
theorem block_at3 (V : Sg.Idx → EReal) (c : Dev nD) (i j k : Fin 48) :
    (Layout.blockN ⟨3, ![48, 48, 48]⟩ ⟨3, ![96, 96, 96]⟩ (Layout.meshBlock [2, 2, 2] ![[0], [1], [2]] c) V) (ix3 i j k)
      = at3 V (48 * bx c + i.val) (48 * by' c + j.val) (48 * bz c + k.val) := by
  have h1 := bx_lt c; have h2 := by_lt c; have h3 := bz_lt c
  rw [block_apply, at3, dif_pos ⟨by omega, by omega, by omega⟩]

/-! ## The staged block -/

variable (m : (ℓ : Loc nD τ sig) → Buf (Elt Ideal) ℓ) (ρ : Dev nD → PrngReg)

/-- The window's one block is the whole argument array: the staged block is the device's argument buffer. -/
theorem xstg_eq (c : Dev nD) : xstg m ρ c = m ((c.tc : Thread nD τ).loc main_arg0) := by
  unfold xstg Halo.s₀
  exact Memref.read_access_unit_zero (Elt Ideal) main_arg0 (funext fun a => Nat.zero_mul _) _ _

/-- Its entries are the whole array's. -/
theorem xstg_apply (U : Sg.Idx → EReal)
    (hU : ∀ c : Dev nD, m ((c.tc : Thread nD τ).loc main_arg0) = Layout.blockN ⟨3, ![48, 48, 48]⟩ ⟨3, ![96, 96, 96]⟩ (Layout.meshBlock [2, 2, 2] ![[0], [1], [2]] c) U)
    (c : Dev nD) (i j k : Fin 48) :
    xstg m ρ c (ix3 i j k) = at3 U (48 * bx c + i.val) (48 * by' c + j.val) (48 * bz c + k.val) := by
  rw [xstg_eq, hU c]
  exact block_at3 U c i j k

/-! ## The body's pure payloads, entry by entry -/

/-- The cast of the loaded block to its own shape is the block. -/
theorem pay1_eq (x : Vec Ideal S48x48x48 .f32) : k0_pay1 x = x := shapeCast_self _ _

/-- The six shifted copies of the block the body adds: the block moved one step along an axis, a zero slab filling the face
    that has no neighbour in the block. -/
def catLoX (x : FVec Ideal S48x48x48 .f32) : FVec Ideal S48x48x48 .f32 :=
  concatenate S48x48x48 0 [⟨S1x48x48, k0_pay6 (F := Ideal)⟩, ⟨S47x48x48, extractStridedSlice S47x48x48 ![0, 0, 0] x slices_S48x48x48_o0_0_0_S47x48x48⟩] concatenates_S1x48x48_S47x48x48_S48x48x48_d0
def catHiX (x : FVec Ideal S48x48x48 .f32) : FVec Ideal S48x48x48 .f32 :=
  concatenate S48x48x48 0 [⟨S47x48x48, extractStridedSlice S47x48x48 ![1, 0, 0] x slices_S48x48x48_o1_0_0_S47x48x48⟩, ⟨S1x48x48, k0_pay6 (F := Ideal)⟩] concatenates_S47x48x48_S1x48x48_S48x48x48_d0
def catLoY (x : FVec Ideal S48x48x48 .f32) : FVec Ideal S48x48x48 .f32 :=
  concatenate S48x48x48 1 [⟨S48x1x48, k0_pay7 (F := Ideal)⟩, ⟨S48x47x48, extractStridedSlice S48x47x48 ![0, 0, 0] x slices_S48x48x48_o0_0_0_S48x47x48⟩] concatenates_S48x1x48_S48x47x48_S48x48x48_d1
def catHiY (x : FVec Ideal S48x48x48 .f32) : FVec Ideal S48x48x48 .f32 :=
  concatenate S48x48x48 1 [⟨S48x47x48, extractStridedSlice S48x47x48 ![0, 1, 0] x slices_S48x48x48_o0_1_0_S48x47x48⟩, ⟨S48x1x48, k0_pay7 (F := Ideal)⟩] concatenates_S48x47x48_S48x1x48_S48x48x48_d1
def catLoZ (x : FVec Ideal S48x48x48 .f32) : FVec Ideal S48x48x48 .f32 :=
  concatenate S48x48x48 2 [⟨S48x48x1, k0_pay8 (F := Ideal)⟩, ⟨S48x48x47, extractStridedSlice S48x48x47 ![0, 0, 0] x slices_S48x48x48_o0_0_0_S48x48x47⟩] concatenates_S48x48x1_S48x48x47_S48x48x48_d2
def catHiZ (x : FVec Ideal S48x48x48 .f32) : FVec Ideal S48x48x48 .f32 :=
  concatenate S48x48x48 2 [⟨S48x48x47, extractStridedSlice S48x48x47 ![0, 0, 1] x slices_S48x48x48_o0_0_1_S48x48x47⟩, ⟨S48x48x1, k0_pay8 (F := Ideal)⟩] concatenates_S48x48x47_S48x48x1_S48x48x48_d2

/-- The local stencil is the six shifted copies added in the body's order, minus six times the block. -/
theorem pay9_eq (x : FVec Ideal S48x48x48 .f32) (idx : S48x48x48.Idx) :
    k0_pay9 x idx
      = (((((catLoX x idx + catHiX x idx) + catLoY x idx) + catHiY x idx) + catLoZ x idx) + catHiZ x idx) - six * x idx := rfl

/-- The zero slabs read zero. -/
theorem pay6_apply (idx : S1x48x48.Idx) : k0_pay6 (F := Ideal) idx = 0 := Ideal.ofBits_zero_f32
theorem pay7_apply (idx : S48x1x48.Idx) : k0_pay7 (F := Ideal) idx = 0 := Ideal.ofBits_zero_f32
theorem pay8_apply (idx : S48x48x1.Idx) : k0_pay8 (F := Ideal) idx = 0 := Ideal.ofBits_zero_f32

section Shifted

variable (x : FVec Ideal S48x48x48 .f32) (f : ℕ → ℕ → ℕ → EReal)
  (hx : ∀ a b d : Fin 48, x (ix3 a b d) = f a.val b.val d.val)
include hx

/-- The lower x neighbour: zero on the block's lower x face. -/
theorem catLoX_apply (i j k : Fin 48) : catLoX x (ix3 i j k) = own (fun a => f a j.val k.val) true i.val := by
  rw [own_lo]
  unfold catLoX
  by_cases h : i.val = 0
  · rw [if_pos h]
    refine (concatenate_pair_apply_left (s₁ := S1x48x48) (s₂ := S47x48x48) 0 _ _ _ (ix3 i j k) rfl (ix3 (0 : Fin 1) j k) fun b => ?_).trans (pay6_apply _)
    match b with
    | ⟨0, _⟩ => exact h.symm
    | ⟨1, _⟩ => rfl
    | ⟨2, _⟩ => rfl
  · rw [if_neg h]
    have hi := i.isLt
    refine (concatenate_pair_apply_right (s₁ := S1x48x48) (s₂ := S47x48x48) 0 _ _ _ (ix3 i j k) rfl rfl (ix3 (⟨i.val - 1, by omega⟩ : Fin 47) j k) (fun b hb => ?_) ?_).trans ?_
    · match b with
      | ⟨0, _⟩ => exact (hb rfl).elim
      | ⟨1, _⟩ => rfl
      | ⟨2, _⟩ => rfl
    · show i.val - 1 + 1 = i.val; omega
    · refine (extractStridedSlice_apply _ _ _ _ (ix3 (⟨i.val - 1, by omega⟩ : Fin 48) j k) fun b => ?_).trans (hx _ _ _)
      match b with
      | ⟨0, _⟩ => exact (Nat.zero_add _).symm
      | ⟨1, _⟩ => exact (Nat.zero_add _).symm
      | ⟨2, _⟩ => exact (Nat.zero_add _).symm

/-- The upper x neighbour: zero on the block's upper x face. -/
theorem catHiX_apply (i j k : Fin 48) : catHiX x (ix3 i j k) = own (fun a => f a j.val k.val) false i.val := by
  rw [own_hi]
  unfold catHiX
  by_cases h : i.val = 47
  · rw [if_pos h]
    refine (concatenate_pair_apply_right (s₁ := S47x48x48) (s₂ := S1x48x48) 0 _ _ _ (ix3 i j k) rfl rfl (ix3 (0 : Fin 1) j k) (fun b hb => ?_) ?_).trans (pay6_apply _)
    · match b with
      | ⟨0, _⟩ => exact (hb rfl).elim
      | ⟨1, _⟩ => rfl
      | ⟨2, _⟩ => rfl
    · show 0 + 47 = i.val; omega
  · rw [if_neg h]
    have hi := i.isLt
    refine (concatenate_pair_apply_left (s₁ := S47x48x48) (s₂ := S1x48x48) 0 _ _ _ (ix3 i j k) rfl (ix3 (⟨i.val, by omega⟩ : Fin 47) j k) fun b => ?_).trans ?_
    · match b with
      | ⟨0, _⟩ => rfl
      | ⟨1, _⟩ => rfl
      | ⟨2, _⟩ => rfl
    · refine (extractStridedSlice_apply _ _ _ _ (ix3 (⟨i.val + 1, by omega⟩ : Fin 48) j k) fun b => ?_).trans (hx _ _ _)
      match b with
      | ⟨0, _⟩ => exact Nat.add_comm _ _
      | ⟨1, _⟩ => exact (Nat.zero_add _).symm
      | ⟨2, _⟩ => exact (Nat.zero_add _).symm

/-- The lower y neighbour. -/
theorem catLoY_apply (i j k : Fin 48) : catLoY x (ix3 i j k) = own (fun b => f i.val b k.val) true j.val := by
  rw [own_lo]
  unfold catLoY
  by_cases h : j.val = 0
  · rw [if_pos h]
    refine (concatenate_pair_apply_left (s₁ := S48x1x48) (s₂ := S48x47x48) 1 _ _ _ (ix3 i j k) rfl (ix3 i (0 : Fin 1) k) fun b => ?_).trans (pay7_apply _)
    match b with
    | ⟨0, _⟩ => rfl
    | ⟨1, _⟩ => exact h.symm
    | ⟨2, _⟩ => rfl
  · rw [if_neg h]
    have hj := j.isLt
    refine (concatenate_pair_apply_right (s₁ := S48x1x48) (s₂ := S48x47x48) 1 _ _ _ (ix3 i j k) rfl rfl (ix3 i (⟨j.val - 1, by omega⟩ : Fin 47) k) (fun b hb => ?_) ?_).trans ?_
    · match b with
      | ⟨0, _⟩ => rfl
      | ⟨1, _⟩ => exact (hb rfl).elim
      | ⟨2, _⟩ => rfl
    · show j.val - 1 + 1 = j.val; omega
    · refine (extractStridedSlice_apply _ _ _ _ (ix3 i (⟨j.val - 1, by omega⟩ : Fin 48) k) fun b => ?_).trans (hx _ _ _)
      match b with
      | ⟨0, _⟩ => exact (Nat.zero_add _).symm
      | ⟨1, _⟩ => exact (Nat.zero_add _).symm
      | ⟨2, _⟩ => exact (Nat.zero_add _).symm

/-- The upper y neighbour. -/
theorem catHiY_apply (i j k : Fin 48) : catHiY x (ix3 i j k) = own (fun b => f i.val b k.val) false j.val := by
  rw [own_hi]
  unfold catHiY
  by_cases h : j.val = 47
  · rw [if_pos h]
    refine (concatenate_pair_apply_right (s₁ := S48x47x48) (s₂ := S48x1x48) 1 _ _ _ (ix3 i j k) rfl rfl (ix3 i (0 : Fin 1) k) (fun b hb => ?_) ?_).trans (pay7_apply _)
    · match b with
      | ⟨0, _⟩ => rfl
      | ⟨1, _⟩ => exact (hb rfl).elim
      | ⟨2, _⟩ => rfl
    · show 0 + 47 = j.val; omega
  · rw [if_neg h]
    have hj := j.isLt
    refine (concatenate_pair_apply_left (s₁ := S48x47x48) (s₂ := S48x1x48) 1 _ _ _ (ix3 i j k) rfl (ix3 i (⟨j.val, by omega⟩ : Fin 47) k) fun b => ?_).trans ?_
    · match b with
      | ⟨0, _⟩ => rfl
      | ⟨1, _⟩ => rfl
      | ⟨2, _⟩ => rfl
    · refine (extractStridedSlice_apply _ _ _ _ (ix3 i (⟨j.val + 1, by omega⟩ : Fin 48) k) fun b => ?_).trans (hx _ _ _)
      match b with
      | ⟨0, _⟩ => exact (Nat.zero_add _).symm
      | ⟨1, _⟩ => exact Nat.add_comm _ _
      | ⟨2, _⟩ => exact (Nat.zero_add _).symm

/-- The lower z neighbour. -/
theorem catLoZ_apply (i j k : Fin 48) : catLoZ x (ix3 i j k) = own (fun d => f i.val j.val d) true k.val := by
  rw [own_lo]
  unfold catLoZ
  by_cases h : k.val = 0
  · rw [if_pos h]
    refine (concatenate_pair_apply_left (s₁ := S48x48x1) (s₂ := S48x48x47) 2 _ _ _ (ix3 i j k) rfl (ix3 i j (0 : Fin 1)) fun b => ?_).trans (pay8_apply _)
    match b with
    | ⟨0, _⟩ => rfl
    | ⟨1, _⟩ => rfl
    | ⟨2, _⟩ => exact h.symm
  · rw [if_neg h]
    have hk := k.isLt
    refine (concatenate_pair_apply_right (s₁ := S48x48x1) (s₂ := S48x48x47) 2 _ _ _ (ix3 i j k) rfl rfl (ix3 i j (⟨k.val - 1, by omega⟩ : Fin 47)) (fun b hb => ?_) ?_).trans ?_
    · match b with
      | ⟨0, _⟩ => rfl
      | ⟨1, _⟩ => rfl
      | ⟨2, _⟩ => exact (hb rfl).elim
    · show k.val - 1 + 1 = k.val; omega
    · refine (extractStridedSlice_apply _ _ _ _ (ix3 i j (⟨k.val - 1, by omega⟩ : Fin 48)) fun b => ?_).trans (hx _ _ _)
      match b with
      | ⟨0, _⟩ => exact (Nat.zero_add _).symm
      | ⟨1, _⟩ => exact (Nat.zero_add _).symm
      | ⟨2, _⟩ => exact (Nat.zero_add _).symm

/-- The upper z neighbour. -/
theorem catHiZ_apply (i j k : Fin 48) : catHiZ x (ix3 i j k) = own (fun d => f i.val j.val d) false k.val := by
  rw [own_hi]
  unfold catHiZ
  by_cases h : k.val = 47
  · rw [if_pos h]
    refine (concatenate_pair_apply_right (s₁ := S48x48x47) (s₂ := S48x48x1) 2 _ _ _ (ix3 i j k) rfl rfl (ix3 i j (0 : Fin 1)) (fun b hb => ?_) ?_).trans (pay8_apply _)
    · match b with
      | ⟨0, _⟩ => rfl
      | ⟨1, _⟩ => rfl
      | ⟨2, _⟩ => exact (hb rfl).elim
    · show 0 + 47 = k.val; omega
  · rw [if_neg h]
    have hk := k.isLt
    refine (concatenate_pair_apply_left (s₁ := S48x48x47) (s₂ := S48x48x1) 2 _ _ _ (ix3 i j k) rfl (ix3 i j (⟨k.val, by omega⟩ : Fin 47)) fun b => ?_).trans ?_
    · match b with
      | ⟨0, _⟩ => rfl
      | ⟨1, _⟩ => rfl
      | ⟨2, _⟩ => rfl
    · refine (extractStridedSlice_apply _ _ _ _ (ix3 i j (⟨k.val + 1, by omega⟩ : Fin 48)) fun b => ?_).trans (hx _ _ _)
      match b with
      | ⟨0, _⟩ => exact (Nat.zero_add _).symm
      | ⟨1, _⟩ => exact (Nat.zero_add _).symm
      | ⟨2, _⟩ => exact Nat.add_comm _ _

/-- The local stencil at an entry: the block's own six neighbours, zero across its faces, minus six times the centre. -/
theorem pay9_apply (i j k : Fin 48) :
    k0_pay9 x (ix3 i j k)
      = (((((own (fun a => f a j.val k.val) true i.val + own (fun a => f a j.val k.val) false i.val)
          + own (fun b => f i.val b k.val) true j.val) + own (fun b => f i.val b k.val) false j.val)
          + own (fun d => f i.val j.val d) true k.val) + own (fun d => f i.val j.val d) false k.val)
        - six * f i.val j.val k.val := by
  rw [pay9_eq, catLoX_apply x f hx, catHiX_apply x f hx, catLoY_apply x f hx, catHiY_apply x f hx, catLoZ_apply x f hx,
    catHiZ_apply x f hx, hx]

end Shifted

/-! ## The faces a device sends -/

/-- The y faces: row 47 and row 0 of axis 1. -/
theorem pay2_apply (x : Vec Ideal S48x48x48 .f32) (i k : Fin 48) : k0_pay2 x (ix2 i k) = x (ix3 i (⟨47, by decide⟩ : Fin 48) k) := by
  unfold k0_pay2
  rw [shapeCast_self, pay1_eq]
  refine (shapeCast_apply _ _ (ix2 i k) (ix3 i (0 : Fin 1) k) ?_).trans ?_
  · rw [Shape.rowMajor_val_three, Shape.rowMajor_val_two]
    show (i.val * 1 + 0) * 48 + k.val = i.val * 48 + k.val
    omega
  · exact slice3_axis1_apply 47 x _ i (0 : Fin 1) k _ rfl

theorem pay3_apply (x : Vec Ideal S48x48x48 .f32) (i k : Fin 48) : k0_pay3 x (ix2 i k) = x (ix3 i (⟨0, by decide⟩ : Fin 48) k) := by
  unfold k0_pay3
  rw [shapeCast_self, pay1_eq]
  refine (shapeCast_apply _ _ (ix2 i k) (ix3 i (0 : Fin 1) k) ?_).trans ?_
  · rw [Shape.rowMajor_val_three, Shape.rowMajor_val_two]
    show (i.val * 1 + 0) * 48 + k.val = i.val * 48 + k.val
    omega
  · exact slice3_axis1_apply 0 x _ i (0 : Fin 1) k _ rfl

/-- The z faces: row 47 and row 0 of axis 2. -/
theorem pay4_apply (x : Vec Ideal S48x48x48 .f32) (i j : Fin 48) : k0_pay4 x (ix2 i j) = x (ix3 i j (⟨47, by decide⟩ : Fin 48)) := by
  unfold k0_pay4
  rw [shapeCast_self, pay1_eq]
  refine (shapeCast_apply _ _ (ix2 i j) (ix3 i j (0 : Fin 1)) ?_).trans ?_
  · rw [Shape.rowMajor_val_three, Shape.rowMajor_val_two]
    show (i.val * 48 + j.val) * 1 + 0 = i.val * 48 + j.val
    omega
  · refine extractStridedSlice_apply _ _ _ _ _ fun b => ?_
    match b with
    | ⟨0, _⟩ => exact (Nat.zero_add _).symm
    | ⟨1, _⟩ => exact (Nat.zero_add _).symm
    | ⟨2, _⟩ => rfl

theorem pay5_apply (x : Vec Ideal S48x48x48 .f32) (i j : Fin 48) : k0_pay5 x (ix2 i j) = x (ix3 i j (⟨0, by decide⟩ : Fin 48)) := by
  unfold k0_pay5
  rw [shapeCast_self, pay1_eq]
  refine (shapeCast_apply _ _ (ix2 i j) (ix3 i j (0 : Fin 1)) ?_).trans ?_
  · rw [Shape.rowMajor_val_three, Shape.rowMajor_val_two]
    show (i.val * 48 + j.val) * 1 + 0 = i.val * 48 + j.val
    omega
  · refine extractStridedSlice_apply _ _ _ _ _ fun b => ?_
    match b with
    | ⟨0, _⟩ => exact (Nat.zero_add _).symm
    | ⟨1, _⟩ => exact (Nat.zero_add _).symm
    | ⟨2, _⟩ => rfl

/-- The row of the block a device sends along an axis: the last on the lower half of the mesh, the first on the upper. -/
def edge (p : ℕ) : Fin 48 := ⟨if p = 0 then 47 else 0, by split <;> decide⟩

theorem edge_val (p : ℕ) : (edge p).val = if p = 0 then 47 else 0 := rfl

/-- The x face is that slab of the staged block. -/
theorem faceX_apply (c : Dev nD) (j k : Fin 48) :
    faceX m ρ c (ix3 (0 : Fin 1) j k) = xstg m ρ c (ix3 (edge (bx c)) j k) := by
  show xstg m ρ c ((Rect.unit (s := S48x48x48) (k0_off1 c) S1x48x48.size (k0_off1_inb c)).emb (ix3 (0 : Fin 1) j k)) = _
  refine congrArg (xstg m ρ c) (funext fun a => Fin.ext ?_)
  rw [Rect.emb_apply]
  show k0_off1 c a + 1 * ((ix3 (0 : Fin 1) j k) a).val = ((ix3 (edge (bx c)) j k) a).val
  rw [off1_eq]
  match a with
  | ⟨0, _⟩ => show (if bx c = 0 then 47 else 0) + 1 * 0 = (edge (bx c)).val; rw [edge_val]; omega
  | ⟨1, _⟩ => show 0 + 1 * j.val = j.val; omega
  | ⟨2, _⟩ => show 0 + 1 * k.val = k.val; omega

/-- The y face is that row of axis 1. -/
theorem faceY_apply (c : Dev nD) (i k : Fin 48) :
    faceY m ρ c (ix2 i k) = xstg m ρ c (ix3 i (edge (by' c)) k) := by
  unfold faceY edge
  by_cases h : by' c = 0
  · simp only [if_pos h]; exact pay2_apply _ i k
  · simp only [if_neg h]; exact pay3_apply _ i k

/-- The z face is that row of axis 2. -/
theorem faceZ_apply (c : Dev nD) (i j : Fin 48) :
    faceZ m ρ c (ix2 i j) = xstg m ρ c (ix3 i j (edge (bz c))) := by
  unfold faceZ edge
  by_cases h : bz c = 0
  · simp only [if_pos h]; exact pay4_apply _ i j
  · simp only [if_neg h]; exact pay5_apply _ i j

/-! ## The faces a device receives: its neighbours' entries at the touching global row -/

/-- Across a block face the neighbour's touching row is global row 48 (seen from the lower block) or 47 (from the upper). -/
theorem touch (p : ℕ) (hp : p < 2) : 48 * (1 - p) + (edge (1 - p)).val = if p = 0 then 48 else 47 := by
  rw [edge_val]
  have : p = 0 ∨ p = 1 := by omega
  rcases this with rfl | rfl <;> rfl

section Landed

variable (U : Sg.Idx → EReal)
  (hU : ∀ c : Dev nD, m ((c.tc : Thread nD τ).loc main_arg0) = Layout.blockN ⟨3, ![48, 48, 48]⟩ ⟨3, ![96, 96, 96]⟩ (Layout.meshBlock [2, 2, 2] ![[0], [1], [2]] c) U)
include hU

theorem landX_apply (c : Dev nD) (j k : Fin 48) :
    landX m ρ c (ix3 (0 : Fin 1) j k)
      = if bx c = 0 then at3 U 48 (48 * by' c + j.val) (48 * bz c + k.val) else at3 U 47 (48 * by' c + j.val) (48 * bz c + k.val) := by
  unfold landX
  rw [faceX_apply, xstg_apply m ρ U hU, bx_nbr0, by_nbr0, bz_nbr0, touch (bx c) (bx_lt c)]
  split <;> rfl

theorem landY_apply (c : Dev nD) (i k : Fin 48) :
    landY m ρ c (ix2 i k)
      = if by' c = 0 then at3 U (48 * bx c + i.val) 48 (48 * bz c + k.val) else at3 U (48 * bx c + i.val) 47 (48 * bz c + k.val) := by
  unfold landY
  rw [faceY_apply, xstg_apply m ρ U hU, bx_nbr1, by_nbr1, bz_nbr1, touch (by' c) (by_lt c)]
  split <;> rfl

theorem landZ_apply (c : Dev nD) (i j : Fin 48) :
    landZ m ρ c (ix2 i j)
      = if bz c = 0 then at3 U (48 * bx c + i.val) (48 * by' c + j.val) 48 else at3 U (48 * bx c + i.val) (48 * by' c + j.val) 47 := by
  unfold landZ
  rw [faceZ_apply, xstg_apply m ρ U hU, bx_nbr2, by_nbr2, bz_nbr2, touch (bz c) (bz_lt c)]
  split <;> rfl

end Landed

/-! ## The result block, entry by entry, in the specification's form -/

/-- A received face entry is added on the one local face that touches the sender and nowhere else. -/
theorem face_pick (p a : ℕ) (hp : p < 2) (r48 r47 : EReal) :
    (if (p = 0 ∧ a = 47) ∨ (p = 1 ∧ a = 0) then (if p = 0 then r48 else r47) else 0)
      = if (p = 0 ∧ a = 47) then r48 else if (p = 1 ∧ a = 0) then r47 else 0 := by
  have : p = 0 ∨ p = 1 := by omega
  rcases this with rfl | rfl <;> simp

/-- The body's three conditional additions and its final zeroing, as one sum with zeros where nothing is added. -/
theorem cond_sum (B CX CY CZ : Prop) [Decidable B] [Decidable CX] [Decidable CY] [Decidable CZ] (z b0 RX RY RZ : EReal) :
    (if B then z else
        if CZ then (if CY then (if CX then b0 + RX else b0) + RY else (if CX then b0 + RX else b0)) + RZ
        else (if CY then (if CX then b0 + RX else b0) + RY else (if CX then b0 + RX else b0)))
      = if B then z else ((b0 + if CX then RX else 0) + if CY then RY else 0) + if CZ then RZ else 0 := by
  split_ifs <;> simp only [add_zero]

/-- The zero the body writes on the whole array's boundary is zero. -/
theorem zf_eq : (zf : Ideal .f32) = (0 : EReal) := Ideal.ofBits_zero_f32

/-- The result block's entry, the conditions gathered. -/
theorem outOf_apply (px py pz : ℕ) (x : (cc0_stg0_0 : Ref sig .tc).ty.Contents (Elt Ideal)) (rx : (cc0_scratch2 : Ref sig .tc).ty.Contents (Elt Ideal))
    (ry : (cc0_scratch3 : Ref sig .tc).ty.Contents (Elt Ideal)) (rz : (cc0_scratch4 : Ref sig .tc).ty.Contents (Elt Ideal)) (i j k : Fin 48) :
    outOf (F := Ideal) px py pz x rx ry rz (ix3 i j k)
      = if (px = 0 ∧ i.val = 0) ∨ (px = 1 ∧ i.val = 47) ∨ (py = 0 ∧ j.val = 0) ∨ (py = 1 ∧ j.val = 47) ∨ (pz = 0 ∧ k.val = 0) ∨ (pz = 1 ∧ k.val = 47)
        then (0 : EReal)
        else (((show EReal from k0_pay9 (k0_pay1 x) (ix3 i j k))
            + if (px = 0 ∧ i.val = 47) ∨ (px = 1 ∧ i.val = 0) then (show EReal from rx (ix3 (0 : Fin 1) j k)) else 0)
            + if (py = 0 ∧ j.val = 47) ∨ (py = 1 ∧ j.val = 0) then (show EReal from ry (ix2 i k)) else 0)
            + if (pz = 0 ∧ k.val = 47) ∨ (pz = 1 ∧ k.val = 0) then (show EReal from rz (ix2 i j)) else 0 := by
  refine Eq.trans (cond_sum ((px = 0 ∧ i.val = 0) ∨ (px = 1 ∧ i.val = 47) ∨ (py = 0 ∧ j.val = 0) ∨ (py = 1 ∧ j.val = 47) ∨ (pz = 0 ∧ k.val = 0) ∨ (pz = 1 ∧ k.val = 47))
    ((px = 0 ∧ i.val = 47) ∨ (px = 1 ∧ i.val = 0)) ((py = 0 ∧ j.val = 47) ∨ (py = 1 ∧ j.val = 0)) ((pz = 0 ∧ k.val = 47) ∨ (pz = 1 ∧ k.val = 0))
    (zf (F := Ideal)) (k0_pay9 (k0_pay1 x) (ix3 i j k)) (rx (ix3 (0 : Fin 1) j k)) (ry (ix2 i k)) (rz (ix2 i j))) ?_
  rw [zf_eq]

section Value

variable (U : Sg.Idx → EReal)
  (hU : ∀ c : Dev nD, m ((c.tc : Thread nD τ).loc main_arg0) = Layout.blockN ⟨3, ![48, 48, 48]⟩ ⟨3, ![96, 96, 96]⟩ (Layout.meshBlock [2, 2, 2] ![[0], [1], [2]] c) U)
include hU

/-- A device's result entry is what the specification says the device computes there. -/
theorem outAt_apply (c : Dev nD) (i j k : Fin 48) :
    outAt m ρ c (ix3 i j k) = kerAt U (bx c) (by' c) (bz c) i.val j.val k.val := by
  unfold outAt
  rw [outOf_apply, landX_apply m ρ U hU, landY_apply m ρ U hU, landZ_apply m ρ U hU,
    pay9_apply (k0_pay1 (xstg m ρ c)) (fun a b d => at3 U (48 * bx c + a) (48 * by' c + b) (48 * bz c + d))
      (fun a b d => by rw [pay1_eq]; exact xstg_apply m ρ U hU c a b d),
    face_pick (bx c) i.val (bx_lt c), face_pick (by' c) j.val (by_lt c), face_pick (bz c) k.val (bz_lt c)]
  rfl

end Value

/-! ## The claim's value conjunct: each device's result block is its block of the stencil of the whole array -/

theorem outAt_eq_block (m : (ℓ : Loc nD τ sig) → Buf (Elt Ideal) ℓ) (ρ : Dev nD → PrngReg) (U : Cert.Halo.Sg.Idx → EReal)
    (hU : ∀ c : Dev nD, m ((c.tc : Thread nD τ).loc main_arg0) = Layout.blockN ⟨3, ![48, 48, 48]⟩ ⟨3, ![96, 96, 96]⟩ (Layout.meshBlock [2, 2, 2] ![[0], [1], [2]] c) U) (c : Dev nD) :
    outAt (F := Ideal) m ρ c = Layout.blockN ⟨3, ![48, 48, 48]⟩ ⟨3, ![96, 96, 96]⟩ (Layout.meshBlock [2, 2, 2] ![[0], [1], [2]] c) (Cert.Halo.lap U) := by
  refine funext fun (idx : (⟨3, ![48, 48, 48]⟩ : Shape).Idx) => ?_
  obtain ⟨i, j, k, rfl⟩ : ∃ (i j k : Fin 48), idx = ix3 i j k := ⟨idx 0, idx 1, idx 2, eq_ix3 idx⟩
  rw [block_apply (lap U) c i j k]
  exact (outAt_apply m ρ U hU c i j k).trans (kerAt_eq_lap U ⟨bx c, bx_lt c⟩ ⟨by' c, by_lt c⟩ ⟨bz c, bz_lt c⟩ i j k)

end Cert.KernelIdeal.HaloValue

end

/-- info: 'Cert.KernelIdeal.HaloValue.outAt_eq_block' depends on axioms: [propext, Classical.choice, Quot.sound] -/
#guard_msgs in #print axioms Cert.KernelIdeal.HaloValue.outAt_eq_block
-- ==== Proof.lean ====
/-
  The five conjuncts.  Both frames of the kernel and the algebraic conjunct are one run of the eight devices with each
  device's result block named and its argument block unchanged; the reference's frame and value are its generated run,
  its result read at an index.  The two agree because a device's block of the stencil is what the device computes from
  its own block and the three faces it receives from its axis neighbours.  The idealization rewrote no operation.
-/
import proofs.«900806_g7700000000000807_dist_halo3d_v7x_xyz2x2x2_s48_f32_1_alg».proof.Defs
import proofs.«900806_g7700000000000807_dist_halo3d_v7x_xyz2x2x2_s48_f32_1_alg».proof.Proof.Gen.Kernel
import proofs.«900806_g7700000000000807_dist_halo3d_v7x_xyz2x2x2_s48_f32_1_alg».proof.Proof.Gen.KernelIdeal
import proofs.«900806_g7700000000000807_dist_halo3d_v7x_xyz2x2x2_s48_f32_1_alg».proof.Proof.Gen.ReferenceIdeal
import proofs.«900806_g7700000000000807_dist_halo3d_v7x_xyz2x2x2_s48_f32_1_alg».proof.Proof.Gen.Pre_finite_inputs_Kernel
import proofs.«900806_g7700000000000807_dist_halo3d_v7x_xyz2x2x2_s48_f32_1_alg».proof.Proof.Gen.Pre_finite_inputs_ReferenceIdeal
import proofs.«900806_g7700000000000807_dist_halo3d_v7x_xyz2x2x2_s48_f32_1_alg».proof.Proof.Run
import proofs.«900806_g7700000000000807_dist_halo3d_v7x_xyz2x2x2_s48_f32_1_alg».proof.Proof.Bits.Run
import proofs.«900806_g7700000000000807_dist_halo3d_v7x_xyz2x2x2_s48_f32_1_alg».proof.Proof.RefValue
import proofs.«900806_g7700000000000807_dist_halo3d_v7x_xyz2x2x2_s48_f32_1_alg».proof.Proof.KerValue

noncomputable section

namespace Cert.Proof

open Idealize.ShloMosaic Idealize.SL.Sem

/-- The kernel at the word level runs and leaves its argument blocks as they were. -/
theorem frame_kernel : Cert.frame_Kernel := fun m g _ =>
  (θ_run Cert.Kernel.defs _ _).mono (fun _ h c => (h c).2) (Cert.Kernel.Halo.run_values (F := Bits) m g)

/-- So does the kernel over the extended reals. -/
theorem frame_kernelIdeal : Cert.frame_KernelIdeal := fun m g _ =>
  (θ_run Cert.KernelIdeal.defs _ _).mono (fun _ h c => (h c).2) (Cert.KernelIdeal.Halo.run_values (F := Ideal) m g)

/-- Over the extended reals every device's result is its block of the reference's result, the 7-point stencil of the whole
    array the devices' argument blocks are cut from. -/
theorem algebraic : Cert.algebraic_KernelIdeal_ReferenceIdeal := fun m g m' g' _ hblk =>
  ⟨Cert.Halo.lap (m' (((0 : Dev Cert.ReferenceIdeal.nD).tc : Thread Cert.ReferenceIdeal.nD Cert.ReferenceIdeal.τ).loc Cert.ReferenceIdeal.main_arg0)),
    (θ_run Cert.KernelIdeal.defs _ _).mono
      (fun _ h c => ⟨(h c).1.trans (Cert.KernelIdeal.HaloValue.outAt_eq_block m g _ hblk c), (h c).2⟩)
      (Cert.KernelIdeal.Halo.run_values (F := Ideal) m g),
    (θ_run Cert.ReferenceIdeal.defs _ _).mono (fun _ h => h 0) (Cert.Halo.Ref.ref_run m' g')⟩

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts,
    frame_kernel, frame_kernelIdeal, Cert.Halo.Ref.frame_ref, trivial, algebraic⟩

/-- info: 'Cert.Proof.claim' depends on axioms: [propext, Classical.choice, Quot.sound] -/
#guard_msgs in #print axioms claim

end Cert.Proof

end
